-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S1024x1024 : Shape := ⟨2, ![1024, 1024]⟩
abbrev S256x128 : Shape := ⟨2, ![256, 128]⟩
abbrev S1x256 : Shape := ⟨2, ![1, 256]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x128 : S_.BroadcastsInDim S256x128 (![] : Fin 0 → Fin S256x128.rank)
  reducesTo_S256x128_S_d0_1 : S256x128.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg1 : FVec F S1024x1024 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_cst_6 : FVec F S_ .f32 := constant S_ .f32 0x00000000#32
  let main_v19 : FVec F S1024x1024 .f32 := broadcastInDim S1024x1024 ![] bcast_S_S1024x1024 main_cst_6
  let main_v20 : IVec S1024x1024 1 := cmpf .oeq main_arg1 main_v19
  let main_cst_7 : FVec F S_ .f32 := constant S_ .f32 0x3F800000#32
  let main_v21 : FVec F S1024x1024 .f32 := broadcastInDim S1024x1024 ![] bcast_S_S1024x1024 main_cst_7
  let main_v22 : IVec S1024x1024 1 := cmpf .oeq main_arg1 main_v21
  let main_v23 : IVec S1024x1024 1 := ori main_v20 main_v22
  let main_c_8 : IVec S_ 1 := constantI S_ 1 1#1
  let main_v24 : IVec S_ 1 := (fun x v => Host.reduce IntOp.andi x v reducesTo_S1024x1024_S_d0_1 h_S_) main_v23 main_c_8
  let main_v25 : IVec S_ 1 := andi main_v18 main_v24
  main_v25

def fn {F : FTy → Type} [FloatOps F] (main_arg0 : FVec F S2x1024x256 .f32) (main_arg1 : FVec F S1024x1024 .f32) (main_arg2 : FVec F S256x128 .f32) (main_arg3 : FVec F S1x256 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg1 main_v13 main_v16
-- ==== Kernel.lean ====
abbrev S2x1024x256 : Shape := ⟨3, ![2, 1024, 256]⟩
abbrev S1024x1024 : Shape := ⟨2, ![1024, 1024]⟩
abbrev S256x128 : Shape := ⟨2, ![256, 128]⟩
abbrev S1x256 : Shape := ⟨2, ![1, 256]⟩
abbrev S2x1024x128 : Shape := ⟨3, ![2, 1024, 128]⟩
abbrev S512x1024 : Shape := ⟨2, ![512, 1024]⟩
abbrev S2x512x128 : Shape := ⟨3, ![2, 512, 128]⟩
abbrev S2048x128 : Shape := ⟨2, ![2048, 128]⟩
abbrev S2048x1 : Shape := ⟨2, ![2048, 1]⟩
abbrev S1x2048 : Shape := ⟨2, ![1, 2048]⟩
abbrev S2048x256 : Shape := ⟨2, ![2048, 256]⟩
abbrev S1x128 : Shape := ⟨2, ![1, 128]⟩
abbrev S512x1 : Shape := ⟨2, ![512, 1]⟩
abbrev S1x1024 : Shape := ⟨2, ![1, 1024]⟩
abbrev S512 : Shape := ⟨1, ![512]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x1024x256, .f32⟩
  | .hbm, ⟨1, _⟩ => ⟨S1024x1024, .f32⟩
  | .hbm, ⟨2, _⟩ => ⟨S256x128, .f32⟩
  | .hbm, ⟨3, _⟩ => ⟨S1x256, .f32⟩
  | .hbm, ⟨4, _⟩ => ⟨S2x1024x128, .f32⟩
  | .local _ .vmem, ⟨0, _⟩ => ⟨S2x1024x256, .f32⟩
  | .local _ .vmem, ⟨1, _⟩ => ⟨S512x1024, .f32⟩
  | .local _ .vmem, ⟨2, _⟩ => ⟨S512x1024, .f32⟩
  | .local _ .vmem, ⟨3, _⟩ => ⟨S256x128, .f32⟩
  | .local _ .vmem, ⟨4, _⟩ => ⟨S1x256, .f32⟩
  | .local _ .vmem, ⟨5, _⟩ => ⟨S2x512x128, .f32⟩
  | .local _ .vmem, ⟨6, _⟩ => ⟨S2x512x128, .f32⟩
  | .local _ .vmem, ⟨7, _⟩ => ⟨S2048x128, .f32⟩
  | .local _ .vmem, ⟨8, _⟩ => ⟨S2048x1, .f32⟩
  | .local _ .vmem, ⟨9, _⟩ => ⟨S1x2048, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def k0_off1 (i : grid0.Coords) (c0_i32_2 : BitVec 32) : Fin 2 → Nat :=
  let arg0 : BitVec 32 := BitVec.ofNat 32 (i 0).val
  let c512_i32 : BitVec 32 := 512#32
  let v4 : BitVec 32 := Scalar.muli arg0 c512_i32
  let v5 : BitVec 32 := Scalar.addi c0_i32_2 v4
  let v6 : Index := Scalar.indexCast v5
  let c0_3 : Index := 0#32
  ![v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2048x256 : S2x1024x256.ShapeCasts S2048x256
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x256_S1x256_0_0 : ∀ a, (![0, 0] : Fin 2 → Nat) a + S1x256.size a ≤ S1x256.size a
  h_S1x256 : 0 < S1x256.numel
  slices_S1x256_o0_0_S1x128 : S1x256.Slices ![0, 0] S1x128
  slices_S1x256_o0_128_S1x128 : S1x256.Slices ![0, 128] S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x1024_S512x1024_0_0 : ∀ a, (![0, 0] : Fin 2 → Nat) a + S512x1024.size a ≤ S512x1024.size a
  h_S512x1024 : 0 < S512x1024.numel
  h_S512x1 : 0 < S512x1.numel
  inb_S1x2048_S1x1024_0_0 : ∀ a, (![0, 0] : Fin 2 → Nat) a + S1x1024.size a ≤ S1x2048.size a
  h_S1x1024 : 0 < S1x1024.numel
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  inb_S2048x128_S1024x128_0_0 : ∀ a, (![0, 0] : Fin 2 → Nat) a + S1024x128.size a ≤ S2048x128.size a
  h_S1024x128 : 0 < S1024x128.numel
  bitsLt_bf16_f32 : FTy.bits .bf16 < FTy.bits .f32
  broadcasts_S512x1_S512x128 : S512x1.Broadcasts S512x128
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  shapeCasts_S512x128_S1x512x128 : S512x128.ShapeCasts S1x512x128
  inb_S1x2048_S1x1024_0_1024 : ∀ a, (![0, 1024] : Fin 2 → Nat) a + S1x1024.size a ≤ S1x2048.size a
  inb_S2048x128_S1024x128_1024_0 : ∀ a, (![1024, 0] : Fin 2 → Nat) a + S1024x128.size a ≤ S2048x128.size a
  inb_S2x512x128_S1x512x128_1_0_0 : ∀ a, (![1, 0, 0] : Fin 3 → Nat) a + S1x512x128.size a ≤ S2x512x128.size a
  dot_S2048x256_S256x128_S2048x128_1_0_0_1_n_n_wf : DotDims.WF S2048x256 S256x128 S2048x128 [1] [0] [0] [1] [] []
  dot_S2048x128_S1x128_S2048x1_1_1_0_0_n_n_wf : DotDims.WF S2048x128 S1x128 S2048x1 [1] [1] [0] [0] [] []
  dot_S1x128_S2048x128_S1x2048_1_1_0_0_n_n_wf : DotDims.WF S1x128 S2048x128 S1x2048 [1] [1] [0] [0] [] []
  dot_S512x1024_S1024x128_S512x128_1_0_0_1_n_n_wf : DotDims.WF S512x1024 S1024x128 S512x128 [1] [0] [0] [1] [] []
  hrank0 : 0 < grid0.rank
  k0_off1_inb : ∀ i : grid0.Coords, ∀ (r : Fin 2), ∀ a, (k0_off1 i (BitVec.ofNat 32 (1024 * r.val))) a + S512x1.size a ≤ S2048x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S2x1024x256.size a
  hwx0_0 : ∀ i : grid0.Coords, EltTy.bits .f32 = 32 ∨ (Rect.block (s := S2x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x128.size a ≤ S2x1024x128.size a
  hwx0_4 : ∀ i : grid0.Coords, EltTy.bits .f32 = 32 ∨ (Rect.block (s := S2x1024x128) S2x512x128.size (cc0_transform_4 i) (hinb0_4 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S1x128_S2048x1_1_1_0_0_n_n : DotDims S2048x128 S1x128 S2048x1 where
  lhsContracting := [1]
  rhsContracting := [1]
  lhsNonContracting := [0]
  rhsNonContracting := [0]
  lhsBatch := []
  rhsBatch := []
  wf := dot_S2048x128_S1x128_S2048x1_1_1_0_0_n_n_wf
def dot_S1x128_S2048x128_S1x2048_1_1_0_0_n_n : DotDims S1x128 S2048x128 S1x2048 where
  lhsContracting := [1]
  rhsContracting := [1]
  lhsNonContracting := [0]
  rhsNonContracting := [0]
  lhsBatch := []
  rhsBatch := []
  wf := dot_S1x128_S2048x128_S1x2048_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S2x1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x1024x256 : Shape := ⟨3, ![2, 1024, 256]⟩
abbrev S1024x1024 : Shape := ⟨2, ![1024, 1024]⟩
abbrev S256x128 : Shape := ⟨2, ![256, 128]⟩
abbrev S1x256 : Shape := ⟨2, ![1, 256]⟩
abbrev S_ : Shape := ⟨0, ![]⟩
abbrev S1048576 : Shape := ⟨1, ![1048576]⟩
abbrev S1048576x1 : Shape := ⟨2, ![1048576, 1]⟩
abbrev S1x1024x256 : Shape := ⟨3, ![1, 1024, 256]⟩
abbrev S1024x256 : Shape := ⟨2, ![1024, 256]⟩
abbrev S1024x128 : Shape := ⟨2, ![1024, 128]⟩
abbrev S1048576x128 : Shape := ⟨2, ![1048576, 128]⟩
abbrev S1048576x256 : Shape := ⟨2, ![1048576, 256]⟩
abbrev S256x1048576 : Shape := ⟨2, ![256, 1048576]⟩
abbrev S1x1048576 : Shape := ⟨2, ![1, 1048576]⟩
abbrev S1024 : Shape := ⟨1, ![1024]⟩
abbrev S1024x1 : Shape := ⟨2, ![1024, 1]⟩
abbrev S1x1024x128 : Shape := ⟨3, ![1, 1024, 128]⟩
abbrev S2x1024x128 : Shape := ⟨3, ![2, 1024, 128]⟩

abbrev nBuf : Space → Nat
  | .hbm => 322
  | .vmem => 0
  | .smem => 0
  | _ => 0

abbrev hbmTy0_0 (i : Nat) : BufTy := match i % 128 with
  | 0 => ⟨S2x1024x256, .f32⟩
  | 1 => ⟨S1024x1024, .f32⟩
  | 2 => ⟨S256x128, .f32⟩
  | 3 => ⟨S1x256, .f32⟩
  | 4 => ⟨S_, .f32⟩
  | 5 => ⟨S1024x1024, .f32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1048576, .i32⟩
  | 125 => ⟨S_, .f32⟩
  | 126 => ⟨S1024x1024, .f32⟩
  | 127 => ⟨S1024x1024, .i1⟩
  | _ => ⟨S2x1024x256, .f32⟩

abbrev hbmTy0_1 (i : Nat) : BufTy := match i % 128 with
  | 0 => ⟨S1024x1024, .i32⟩
  | 1 => ⟨S_, .i32⟩
  | 2 => ⟨S_, .i32⟩
  | 3 => ⟨S1048576, .i32⟩
  | 4 => ⟨S1048576, .i1⟩
  | 5 => ⟨S1x1024x256, .f32⟩
  | 6 => ⟨S1024x256, .f32⟩
  | 7 => ⟨S1024x128, .f32⟩
  | 8 => ⟨S1024x128, .i1⟩
  | 9 => ⟨S_, .f32⟩
  | 10 => ⟨S_, .f32⟩
  | 11 => ⟨S1024x128, .f32⟩
  | 12 => ⟨S1024x128, .f32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x128, .f32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576x128, .f32⟩
  | 31 => ⟨S1048576x256, .f32⟩
  | 32 => ⟨S256x1048576, .f32⟩
  | 33 => ⟨S1x1048576, .f32⟩
  | 34 => ⟨S1048576, .f32⟩
  | 35 => ⟨S_, .f32⟩
  | 36 => ⟨S1048576, .f32⟩
  | 37 => ⟨S1048576, .i1⟩
  | 38 => ⟨S_, .f32⟩
  | 39 => ⟨S1048576, .f32⟩
  | 40 => ⟨S1048576, .f32⟩
  | 41 => ⟨S1048576, .f32⟩
  | 42 => ⟨S1048576, .f32⟩
  | 43 => ⟨S1048576, .f32⟩
  | 44 => ⟨S1048576, .i1⟩
  | 45 => ⟨S_, .f32⟩
  | 46 => ⟨S_, .f32⟩
  | 47 => ⟨S1048576, .f32⟩
  | 48 => ⟨S1048576, .f32⟩
  | 49 => ⟨S_, .f32⟩
  | 50 => ⟨S_, .f32⟩
  | 51 => ⟨S1048576, .f32⟩
  | 52 => ⟨S1048576, .f32⟩
  | 53 => ⟨S_, .f32⟩
  | 54 => ⟨S1024, .f32⟩
  | 55 => ⟨S1048576x1, .i32⟩
  | 56 => ⟨S1024, .f32⟩
  | 57 => ⟨S1024x1, .f32⟩
  | 58 => ⟨S_, .f32⟩
  | 59 => ⟨S1024x1, .f32⟩
  | 60 => ⟨S1024x1, .i1⟩
  | 61 => ⟨S_, .f32⟩
  | 62 => ⟨S_, .f32⟩
  | 63 => ⟨S1024x1, .f32⟩
  | 64 => ⟨S1024x1, .f32⟩
  | 65 => ⟨S1048576x1, .f32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S1048576x1, .i32⟩
  | 74 => ⟨S1048576x128, .f32⟩
  | 75 => ⟨S1048576x128, .f32⟩
  | 76 => ⟨S1048576x128, .f32⟩
  | 77 => ⟨S_, .f32⟩
  | 78 => ⟨S1024x128, .f32⟩
  | 79 => ⟨S1048576x1, .i32⟩
  | 80 => ⟨S1024x128, .f32⟩
  | 81 => ⟨S1024x128, .i1⟩
  | 82 => ⟨S_, .f32⟩
  | 83 => ⟨S_, .f32⟩
  | 84 => ⟨S1024x128, .f32⟩
  | 85 => ⟨S1024x128, .f32⟩
  | 86 => ⟨S1024x128, .f32⟩
  | 87 => ⟨S1024x128, .f32⟩
  | 88 => ⟨S1024x128, .i1⟩
  | 89 => ⟨S_, .f32⟩
  | 90 => ⟨S_, .f32⟩
  | 91 => ⟨S1024x128, .f32⟩
  | 92 => ⟨S1024x128, .f32⟩
  | 93 => ⟨S_, .f32⟩
  | 94 => ⟨S1024x128, .f32⟩
  | 95 => ⟨S1024x128, .i1⟩
  | 96 => ⟨S1024x128, .f32⟩
  | 97 => ⟨S1024x128, .f32⟩
  | 98 => ⟨S1x1024x256, .f32⟩
  | 99 => ⟨S1024x256, .f32⟩
  | 100 => ⟨S1024x128, .f32⟩
  | 101 => ⟨S1024x128, .i1⟩
  | 102 => ⟨S_, .f32⟩
  | 103 => ⟨S_, .f32⟩
  | 104 => ⟨S1024x128, .f32⟩
  | 105 => ⟨S1024x128, .f32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S1048576x1, .i32⟩
  | 114 => ⟨S1048576x128, .f32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S1048576x128, .f32⟩
  | 124 => ⟨S1048576x256, .f32⟩
  | 125 => ⟨S256x1048576, .f32⟩
  | 126 => ⟨S1x1048576, .f32⟩
  | 127 => ⟨S1048576, .f32⟩
  | _ => ⟨S2x1024x256, .f32⟩

abbrev hbmTy0_2 (i : Nat) : BufTy := match i % 128 with
  | 0 => ⟨S_, .f32⟩
  | 1 => ⟨S1048576, .f32⟩
  | 2 => ⟨S1048576, .i1⟩
  | 3 => ⟨S_, .f32⟩
  | 4 => ⟨S1048576, .f32⟩
  | 5 => ⟨S1048576, .f32⟩
  | 6 => ⟨S1048576, .f32⟩
  | 7 => ⟨S1048576, .f32⟩
  | 8 => ⟨S1048576, .f32⟩
  | 9 => ⟨S1048576, .i1⟩
  | 10 => ⟨S_, .f32⟩
  | 11 => ⟨S_, .f32⟩
  | 12 => ⟨S1048576, .f32⟩
  | 13 => ⟨S1048576, .f32⟩
  | 14 => ⟨S_, .f32⟩
  | 15 => ⟨S_, .f32⟩
  | 16 => ⟨S1048576, .f32⟩
  | 17 => ⟨S1048576, .f32⟩
  | 18 => ⟨S_, .f32⟩
  | 19 => ⟨S1024, .f32⟩
  | 20 => ⟨S1048576x1, .i32⟩
  | 21 => ⟨S1024, .f32⟩
  | 22 => ⟨S1024x1, .f32⟩
  | 23 => ⟨S_, .f32⟩
  | 24 => ⟨S1024x1, .f32⟩
  | 25 => ⟨S1024x1, .i1⟩
  | 26 => ⟨S_, .f32⟩
  | 27 => ⟨S_, .f32⟩
  | 28 => ⟨S1024x1, .f32⟩
  | 29 => ⟨S1024x1, .f32⟩
  | 30 => ⟨S1048576x1, .f32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S1048576x1, .i32⟩
  | 39 => ⟨S1048576x128, .f32⟩
  | 40 => ⟨S1048576x128, .f32⟩
  | 41 => ⟨S1048576x128, .f32⟩
  | 42 => ⟨S_, .f32⟩
  | 43 => ⟨S1024x128, .f32⟩
  | 44 => ⟨S1048576x1, .i32⟩
  | 45 => ⟨S1024x128, .f32⟩
  | 46 => ⟨S1024x128, .i1⟩
  | 47 => ⟨S_, .f32⟩
  | 48 => ⟨S_, .f32⟩
  | 49 => ⟨S1024x128, .f32⟩
  | 50 => ⟨S1024x128, .f32⟩
  | 51 => ⟨S1024x128, .f32⟩
  | 52 => ⟨S1024x128, .f32⟩
  | 53 => ⟨S1024x128, .i1⟩
  | 54 => ⟨S_, .f32⟩
  | 55 => ⟨S_, .f32⟩
  | 56 => ⟨S1024x128, .f32⟩
  | 57 => ⟨S1024x128, .f32⟩
  | 58 => ⟨S_, .f32⟩
  | 59 => ⟨S1024x128, .f32⟩
  | 60 => ⟨S1024x128, .i1⟩
  | 61 => ⟨S1024x128, .f32⟩
  | 62 => ⟨S1024x128, .f32⟩
  | 63 => ⟨S1x1024x128, .f32⟩
  | 64 => ⟨S1x1024x128, .f32⟩
  | 65 => ⟨S2x1024x128, .f32⟩
  | _ => ⟨S2x1024x256, .f32⟩

abbrev hbmTy (i : Nat) : BufTy := match i / 128 with
  | 0 => hbmTy0_0 i
  | 1 => hbmTy0_1 i
  | 2 => hbmTy0_2 i
  | _ => ⟨S2x1024x256, .f32⟩

abbrev bufTy : (tb : Table) → Fin (tcTables nBuf tb) → BufTy
  | .hbm, ⟨i, _⟩ => hbmTy i
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_4 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_5 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_6 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_7 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_8 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_9 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_10 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_call9_cst : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_cst_11 : Ref sig .tc := ⟨.hbm, 137, rfl⟩
abbrev main_call10_v0 : Ref sig .tc := ⟨.hbm, 138, rfl⟩
abbrev main_call10_v1 : Ref sig .tc := ⟨.hbm, 139, rfl⟩
abbrev main_v33 : Ref sig .tc := ⟨.hbm, 140, rfl⟩
abbrev main_c_12 : Ref sig .tc := ⟨.hbm, 141, rfl⟩
abbrev main_v34 : Ref sig .tc := ⟨.hbm, 142, rfl⟩
abbrev main_v35 : Ref sig .tc := ⟨.hbm, 143, rfl⟩
abbrev main_c_13 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_c_14 : Ref sig .tc := ⟨.hbm, 150, rfl⟩
abbrev main_v41 : Ref sig .tc := ⟨.hbm, 151, rfl⟩
abbrev main_v42 : Ref sig .tc := ⟨.hbm, 152, rfl⟩
abbrev main_c_15 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_cst_16 : Ref sig .tc := ⟨.hbm, 163, rfl⟩
abbrev main_v52 : Ref sig .tc := ⟨.hbm, 164, rfl⟩
abbrev main_v53 : Ref sig .tc := ⟨.hbm, 165, rfl⟩
abbrev main_cst_17 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_cst_18 : Ref sig .tc := ⟨.hbm, 173, rfl⟩
abbrev main_call12_v0 : Ref sig .tc := ⟨.hbm, 174, rfl⟩
abbrev main_call12_v1 : Ref sig .tc := ⟨.hbm, 175, rfl⟩
abbrev main_v60 : Ref sig .tc := ⟨.hbm, 176, rfl⟩
abbrev main_cst_19 : Ref sig .tc := ⟨.hbm, 177, rfl⟩
abbrev main_call13_v0 : Ref sig .tc := ⟨.hbm, 178, rfl⟩
abbrev main_call13_v1 : Ref sig .tc := ⟨.hbm, 179, rfl⟩
abbrev main_v61 : Ref sig .tc := ⟨.hbm, 180, rfl⟩
abbrev main_cst_20 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_cst_21 : Ref sig .tc := ⟨.hbm, 186, rfl⟩
abbrev main_v66 : Ref sig .tc := ⟨.hbm, 187, rfl⟩
abbrev main_v67 : Ref sig .tc := ⟨.hbm, 188, rfl⟩
abbrev main_cst_22 : Ref sig .tc := ⟨.hbm, 189, rfl⟩
abbrev main_call14_v0 : Ref sig .tc := ⟨.hbm, 190, rfl⟩
abbrev main_call14_v1 : Ref sig .tc := ⟨.hbm, 191, rfl⟩
abbrev main_v68 : Ref sig .tc := ⟨.hbm, 192, rfl⟩
abbrev main_v69 : Ref sig .tc := ⟨.hbm, 193, rfl⟩
abbrev main_c_23 : Ref sig .tc := ⟨.hbm, 194, rfl⟩
abbrev main_v70 : Ref sig .tc := ⟨.hbm, 195, rfl⟩
abbrev main_v71 : Ref sig .tc := ⟨.hbm, 196, rfl⟩
abbrev main_c_24 : Ref sig .tc := ⟨.hbm, 197, rfl⟩
abbrev main_v72 : Ref sig .tc := ⟨.hbm, 198, rfl⟩
abbrev main_v73 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_v77 : Ref sig .tc := ⟨.hbm, 203, rfl⟩
abbrev main_v78 : Ref sig .tc := ⟨.hbm, 204, rfl⟩
abbrev main_cst_25 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_cst_26 : Ref sig .tc := ⟨.hbm, 210, rfl⟩
abbrev main_call15_v0 : Ref sig .tc := ⟨.hbm, 211, rfl⟩
abbrev main_call15_v1 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_cst_27 : Ref sig .tc := ⟨.hbm, 217, rfl⟩
abbrev main_call16_v0 : Ref sig .tc := ⟨.hbm, 218, rfl⟩
abbrev main_call16_v1 : Ref sig .tc := ⟨.hbm, 219, rfl⟩
abbrev main_v87 : Ref sig .tc := ⟨.hbm, 220, rfl⟩
abbrev main_cst_28 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_cst_29 : Ref sig .tc := ⟨.hbm, 230, rfl⟩
abbrev main_call18_v0 : Ref sig .tc := ⟨.hbm, 231, rfl⟩
abbrev main_call18_v1 : Ref sig .tc := ⟨.hbm, 232, rfl⟩
abbrev main_v96 : Ref sig .tc := ⟨.hbm, 233, rfl⟩
abbrev main_c_30 : Ref sig .tc := ⟨.hbm, 234, rfl⟩
abbrev main_v97 : Ref sig .tc := ⟨.hbm, 235, rfl⟩
abbrev main_v98 : Ref sig .tc := ⟨.hbm, 236, rfl⟩
abbrev main_c_31 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_c_32 : Ref sig .tc := ⟨.hbm, 243, rfl⟩
abbrev main_v104 : Ref sig .tc := ⟨.hbm, 244, rfl⟩
abbrev main_v105 : Ref sig .tc := ⟨.hbm, 245, rfl⟩
abbrev main_c_33 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_cst_34 : Ref sig .tc := ⟨.hbm, 256, rfl⟩
abbrev main_v115 : Ref sig .tc := ⟨.hbm, 257, rfl⟩
abbrev main_v116 : Ref sig .tc := ⟨.hbm, 258, rfl⟩
abbrev main_cst_35 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_v121 : Ref sig .tc := ⟨.hbm, 264, rfl⟩
abbrev main_v122 : Ref sig .tc := ⟨.hbm, 265, rfl⟩
abbrev main_cst_36 : Ref sig .tc := ⟨.hbm, 266, rfl⟩
abbrev main_call20_v0 : Ref sig .tc := ⟨.hbm, 267, rfl⟩
abbrev main_call20_v1 : Ref sig .tc := ⟨.hbm, 268, rfl⟩
abbrev main_v123 : Ref sig .tc := ⟨.hbm, 269, rfl⟩
abbrev main_cst_37 : Ref sig .tc := ⟨.hbm, 270, rfl⟩
abbrev main_call21_v0 : Ref sig .tc := ⟨.hbm, 271, rfl⟩
abbrev main_call21_v1 : Ref sig .tc := ⟨.hbm, 272, rfl⟩
abbrev main_v124 : Ref sig .tc := ⟨.hbm, 273, rfl⟩
abbrev main_cst_38 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_cst_39 : Ref sig .tc := ⟨.hbm, 279, rfl⟩
abbrev main_v129 : Ref sig .tc := ⟨.hbm, 280, rfl⟩
abbrev main_v130 : Ref sig .tc := ⟨.hbm, 281, rfl⟩
abbrev main_cst_40 : Ref sig .tc := ⟨.hbm, 282, rfl⟩
abbrev main_call22_v0 : Ref sig .tc := ⟨.hbm, 283, rfl⟩
abbrev main_call22_v1 : Ref sig .tc := ⟨.hbm, 284, rfl⟩
abbrev main_v131 : Ref sig .tc := ⟨.hbm, 285, rfl⟩
abbrev main_v132 : Ref sig .tc := ⟨.hbm, 286, rfl⟩
abbrev main_c_41 : Ref sig .tc := ⟨.hbm, 287, rfl⟩
abbrev main_v133 : Ref sig .tc := ⟨.hbm, 288, rfl⟩
abbrev main_v134 : Ref sig .tc := ⟨.hbm, 289, rfl⟩
abbrev main_c_42 : Ref sig .tc := ⟨.hbm, 290, rfl⟩
abbrev main_v135 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_v139 : Ref sig .tc := ⟨.hbm, 295, rfl⟩
abbrev main_v140 : Ref sig .tc := ⟨.hbm, 296, rfl⟩
abbrev main_v141 : Ref sig .tc := ⟨.hbm, 297, rfl⟩
abbrev main_cst_43 : Ref sig .tc := ⟨.hbm, 298, rfl⟩
abbrev main_v142 : Ref sig .tc := ⟨.hbm, 299, rfl⟩
abbrev main_v143 : Ref sig .tc := ⟨.hbm, 300, rfl⟩
abbrev main_v144 : Ref sig .tc := ⟨.hbm, 301, rfl⟩
abbrev main_v145 : Ref sig .tc := ⟨.hbm, 302, rfl⟩
abbrev main_cst_44 : Ref sig .tc := ⟨.hbm, 303, rfl⟩
abbrev main_call23_v0 : Ref sig .tc := ⟨.hbm, 304, rfl⟩
abbrev main_call23_v1 : Ref sig .tc := ⟨.hbm, 305, rfl⟩
abbrev main_v146 : Ref sig .tc := ⟨.hbm, 306, rfl⟩
abbrev main_v147 : Ref sig .tc := ⟨.hbm, 307, rfl⟩
abbrev main_v148 : Ref sig .tc := ⟨.hbm, 308, rfl⟩
abbrev main_v149 : Ref sig .tc := ⟨.hbm, 309, rfl⟩
abbrev main_cst_45 : Ref sig .tc := ⟨.hbm, 310, rfl⟩
abbrev main_call24_v0 : Ref sig .tc := ⟨.hbm, 311, rfl⟩
abbrev main_call24_v1 : Ref sig .tc := ⟨.hbm, 312, rfl⟩
abbrev main_v150 : Ref sig .tc := ⟨.hbm, 313, rfl⟩
abbrev main_cst_46 : Ref sig .tc := ⟨.hbm, 314, rfl⟩
abbrev main_v151 : Ref sig .tc := ⟨.hbm, 315, rfl⟩
abbrev main_v152 : Ref sig .tc := ⟨.hbm, 316, rfl⟩
abbrev main_v153 : Ref sig .tc := ⟨.hbm, 317, rfl⟩
abbrev main_v154 : Ref sig .tc := ⟨.hbm, 318, rfl⟩
abbrev main_v155 : Ref sig .tc := ⟨.hbm, 319, rfl⟩
abbrev main_v156 : Ref sig .tc := ⟨.hbm, 320, rfl⟩
abbrev main_v157 : Ref sig .tc := ⟨.hbm, 321, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  slices_S2x1024x256_S1x1024x256_0_0_0 : S2x1024x256.Slices ![0, 0, 0] S1x1024x256
  shapeCasts_S1x1024x256_S1024x256 : S1x1024x256.ShapeCasts S1024x256
  bcast_S_S1024x128 : S_.BroadcastsInDim S1024x128 (![] : Fin 0 → Fin S1024x128.rank)
  concatenates_S1048576x128_S1048576x128_S1048576x256_d1 : Shape.Concatenates [S1048576x128, S1048576x128] S1048576x256 1
  transposes_S1048576x256_S256x1048576_1_0 : S1048576x256.Transposes [1, 0] S256x1048576
  shapeCasts_S1x1048576_S1048576 : S1x1048576.ShapeCasts S1048576
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1048576x1_S1048576x128_0_1 : S1048576x1.BroadcastsInDim S1048576x128 (![0, 1] : Fin 2 → Fin S1048576x128.rank)
  bcast_S1024x1_S1024x128_0_1 : S1024x1.BroadcastsInDim S1024x128 (![0, 1] : Fin 2 → Fin S1024x128.rank)
  slices_S2x1024x256_S1x1024x256_1_0_0 : S2x1024x256.Slices ![1, 0, 0] S1x1024x256
  bcast_S1024x128_S1x1024x128_1_2 : S1024x128.BroadcastsInDim S1x1024x128 (![1, 2] : Fin 2 → Fin S1x1024x128.rank)
  concatenates_S1x1024x128_S1x1024x128_S2x1024x128_d0 : Shape.Concatenates [S1x1024x128, S1x1024x128] S2x1024x128 0
  scatter_S1048576_S1048576x1_S1048576_n_0_0_1_wf : ScatterDims.WF S1048576 S1048576x1 S1048576 [] [0] [0] 1
  dot_S1024x256_S256x128_S1024x128_1_0_0_1_n_n_wf : DotDims.WF S1024x256 S256x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024_S1048576x1_S1048576_n_0_0_1_wf : ScatterDims.WF S1024 S1048576x1 S1048576 [] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The mathematics both programs compute, stated once over the extended reals, index by index.

  A graph-attention layer over N = 1024 nodes and two batches. With h = x · W the projected features (128 per node),
  the score of the ordered pair (i, j) is the attention vector a (256 entries) against the stacked features
  (h_i, h_j); its weight is exp (- leakyrelu score); only pairs the adjacency matrix marks (entry ≠ 0) count.
  Row i of the result is the weighted mean of the h_j over the marked j, followed by elu; a row with no marked
  pair has weight sum 0 and is divided by 1 instead.

  G is written in the arrangement of the plain formula: one sum over the 256 stacked features for the score, the mark
  as a case distinction, the normalisation as a quotient. KOut is the same quantity in the arrangement of the
  blocked program: the score split into a row part and a column part, both negated, the mark as a factor, the
  leaky slope as a minimum, the normalisation as a product with a reciprocal.
-/
import Idealize.ShloMosaic.PureOps.Ideal
import Idealize.ShloMosaic.Lib.ValueIdx

noncomputable section

open scoped BigOperators

namespace Cert.Gat

open Idealize.ShloMosaic Idealize.ShloMosaic.ValueIdx

/-- The input batch: 2 × 1024 nodes × 256 features. -/
abbrev SX : Shape := ⟨3, ![2, 1024, 256]⟩
/-- The adjacency matrix: 1024 × 1024. -/
abbrev SAdj : Shape := ⟨2, ![1024, 1024]⟩
/-- The projection: 256 × 128. -/
abbrev SW : Shape := ⟨2, ![256, 128]⟩
/-- The attention vector: 1 × 256. -/
abbrev SAtt : Shape := ⟨2, ![1, 256]⟩
/-- The result: 2 × 1024 × 128. -/
abbrev SOut : Shape := ⟨3, ![2, 1024, 128]⟩

/-- The leaky slope, the float nearest 0.2, as both programs carry it. -/
def alpha : EReal := Ideal.ofBits .f32 0x3E4CCCCD#32

section
variable (X : SX.Idx → EReal) (A : SAdj.Idx → EReal) (W : SW.Idx → EReal) (a : SAtt.Idx → EReal)

/-- Projected feature c of node j in batch b: row j of x_b against column c of W. -/
def feat (b : Fin 2) (j : Fin 1024) (c : Fin 128) : EReal :=
  ∑ k : Fin 256, X (ix3 b j k) * W (ix2 k c)

/-- Entry k of the stacked features of the pair (i, j): the first 128 are node i's, the last 128 node j's. -/
def pairFeat (b : Fin 2) (i j : Fin 1024) (k : Fin 256) : EReal :=
  if k.val < 128 then feat X W b i ⟨k.val % 128, Nat.mod_lt _ (by norm_num)⟩
  else feat X W b j ⟨k.val % 128, Nat.mod_lt _ (by norm_num)⟩

/-- The raw attention score of the pair (i, j). -/
def score (b : Fin 2) (i j : Fin 1024) : EReal :=
  ∑ k : Fin 256, a (ix2 (0 : Fin 1) k) * pairFeat X W b i j k

/-- leakyrelu with slope alpha. -/
def lrelu (s : EReal) : EReal := if 0 ≤ s then s else alpha * s

/-- The weight of the pair (i, j): exp (- leakyrelu score). -/
def weight (b : Fin 2) (i j : Fin 1024) : EReal := Ideal.exp (-(lrelu (score X W a b i j)))

/-- The weight if the adjacency matrix marks the pair, else 0. -/
def edgeW (b : Fin 2) (i j : Fin 1024) : EReal := if A (ix2 i j) ≠ 0 then weight X W a b i j else 0

/-- The sum of row i's weights. -/
def rowsum (b : Fin 2) (i : Fin 1024) : EReal := ∑ j : Fin 1024, edgeW X A W a b i j

/-- The weighted sum of the neighbours' features. -/
def agg (b : Fin 2) (i : Fin 1024) (c : Fin 128) : EReal := ∑ j : Fin 1024, edgeW X A W a b i j * feat X W b j c

/-- The weighted mean: the sum over the weight sum, over 1 where the weight sum is 0. -/
def norm (b : Fin 2) (i : Fin 1024) (c : Fin 128) : EReal :=
  Ideal.div (agg X A W a b i c) (if rowsum X A W a b i ≠ 0 then rowsum X A W a b i else 1)

/-- elu: the identity on the positives, exp x - 1 elsewhere. -/
def elu (x : EReal) : EReal := if 0 < x then x else Ideal.exp x - 1

/-- THE RESULT, index by index. -/
def G : SOut.Idx → EReal := fun idx => elu (norm X A W a (idx 0) (idx 1) (idx 2))

/-! ## The same quantity in the blocked program's arrangement -/

/-- The negated row part of the score: h_i against the negated first half of a. -/
def fneg (b : Fin 2) (i : Fin 1024) : EReal :=
  ∑ k : Fin 128, feat X W b i k * (0 - a (ix2 (0 : Fin 1) ⟨k.val, by omega⟩))

/-- The negated column part of the score: the negated second half of a against h_j. -/
def gneg (b : Fin 2) (j : Fin 1024) : EReal :=
  ∑ k : Fin 128, (0 - a (ix2 (0 : Fin 1) ⟨128 + k.val, by omega⟩)) * feat X W b j k

/-- The negated score. -/
def tK (b : Fin 2) (i j : Fin 1024) : EReal := fneg X W a b i + gneg X W a b j

/-- The masked weight: the adjacency entry times exp (min t (alpha t)). -/
def eK (b : Fin 2) (i j : Fin 1024) : EReal :=
  A (ix2 i j) * Ideal.exp (min (tK X W a b i j) (alpha * tK X W a b i j))

/-- The row's weight sum. -/
def rsK (b : Fin 2) (i : Fin 1024) : EReal := ∑ j : Fin 1024, eK X A W a b i j

/-- The reciprocal of the weight sum, 1 where it is 0. -/
def recipK (b : Fin 2) (i : Fin 1024) : EReal := if rsK X A W a b i ≠ 0 then Ideal.div 1 (rsK X A W a b i) else 1

/-- The normalised weighted sum. -/
def hpK (b : Fin 2) (i : Fin 1024) (c : Fin 128) : EReal :=
  (∑ j : Fin 1024, eK X A W a b i j * feat X W b j c) * recipK X A W a b i

/-- THE BLOCKED PROGRAM'S RESULT, index by index: elu written with a minimum. -/
def KOut : SOut.Idx → EReal := fun idx =>
  let v := hpK X A W a (idx 0) (idx 1) (idx 2)
  if 0 < v then v else Ideal.exp (min v 0) - 1

end

/-! ## One block of rows, from the block's own data -/

/-- The shape of a block of adjacency rows. -/
abbrev SAdjB : Shape := ⟨2, ![512, 1024]⟩
/-- The shape of a block's row parts, a column. -/
abbrev SFB : Shape := ⟨2, ![512, 1]⟩
/-- The shape of a batch's column parts, a row. -/
abbrev SGB : Shape := ⟨2, ![1, 1024]⟩
/-- The shape of a batch's features. -/
abbrev SHB : Shape := ⟨2, ![1024, 128]⟩

/-- Row p of a block, before elu: from the block's adjacency rows, its negated row parts, the batch's negated column
    parts and the batch's features. -/
def blockHp (adjB : SAdjB.Idx → EReal) (fB : SFB.Idx → EReal) (gB : SGB.Idx → EReal) (hB : SHB.Idx → EReal)
    (p : Fin 512) (c : Fin 128) : EReal :=
  (∑ j : Fin 1024, (adjB (ix2 p j) * Ideal.exp (min (fB (ix2 p (0 : Fin 1)) + gB (ix2 (0 : Fin 1) j))
        (alpha * (fB (ix2 p (0 : Fin 1)) + gB (ix2 (0 : Fin 1) j))))) * hB (ix2 j c))
    * (if (∑ j : Fin 1024, adjB (ix2 p j) * Ideal.exp (min (fB (ix2 p (0 : Fin 1)) + gB (ix2 (0 : Fin 1) j))
            (alpha * (fB (ix2 p (0 : Fin 1)) + gB (ix2 (0 : Fin 1) j))))) ≠ 0
       then Ideal.div 1 (∑ j : Fin 1024, adjB (ix2 p j) * Ideal.exp (min (fB (ix2 p (0 : Fin 1)) + gB (ix2 (0 : Fin 1) j))
            (alpha * (fB (ix2 p (0 : Fin 1)) + gB (ix2 (0 : Fin 1) j)))))
       else 1)

/-- Row p of a block after elu (written with a minimum). -/
def blockOut (adjB : SAdjB.Idx → EReal) (fB : SFB.Idx → EReal) (gB : SGB.Idx → EReal) (hB : SHB.Idx → EReal)
    (p : Fin 512) (c : Fin 128) : EReal :=
  if 0 < blockHp adjB fB gB hB p c then blockHp adjB fB gB hB p c else Ideal.exp (min (blockHp adjB fB gB hB p c) 0) - 1

end Cert.Gat

end
-- ==== Proof.KPay.lean ====
/-
  The blocked program's stored values read at one index, over the extended reals: the projected features, the two
  negated score parts, and one row of a block's result.
-/
import proofs.«106906_g31842887532864_cont_sun_m_711_10_alg».proof.Proof.Gen.KernelIdeal.Skeleton
import proofs.«106906_g31842887532864_cont_sun_m_711_10_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KPay

open Cert.KernelIdeal Cert.KernelIdeal.Gen Cert.Gat Idealize.ShloMosaic Idealize.ShloMosaic.ValueIdx

variable [Facts]

variable {α : Type}

/-! ## The constants -/

/-- The word 0x3F800000 is the real 1. -/
private theorem one_f32 : (Scalar.ofBits .f32 0x3F800000#32 : Ideal .f32) = 1 := by
  show Ideal.ofBits .f32 0x3F800000#32 = 1
  simp [Ideal.ofBits, Ideal.ieee]
  rw [← EReal.coe_mul]; norm_num

/-- The zero word is the real 0. -/
private theorem zero_f32 : (Scalar.ofBits .f32 0x00000000#32 : Ideal .f32) = 0 := Ideal.ofBits_zero_f32

/-- The slope's word is Spec's alpha, by definition. -/
private theorem alpha_f32 : (Scalar.ofBits .f32 0x3E4CCCCD#32 : Ideal .f32) = alpha := rfl

/-! ## Pointwise operations and comparisons over the extended reals -/

private theorem exp_apply {s : Shape} {φ : FTy} (a : FVec Ideal s φ) (i : s.Idx) : exp a i = Ideal.exp (a i) := rfl

/-- No extended real differs from itself: the select that would replace such an entry keeps it. -/
private theorem cmp_one_self (x : EReal) : Ideal.cmp .one x x = 0#1 := by
  simp [Ideal.cmp]

/-- A select on "x ≠ 0" is the case distinction. -/
private theorem select_cmp_one_zero (x a b : EReal) : Scalar.select (Ideal.cmp .one x 0) a b = if x ≠ 0 then a else b := by
  unfold Scalar.select Ideal.cmp
  by_cases h : x = 0 <;> simp [h]

/-- A select on "0 < x" is the case distinction. -/
private theorem select_cmp_ogt_zero (x a b : EReal) : Scalar.select (Ideal.cmp .ogt x 0) a b = if 0 < x then a else b := by
  unfold Scalar.select Ideal.cmp
  by_cases h : 0 < x <;> simp [h]

/-! ## Layout: a column broadcast, a vector as a column, the batch rows laid out, the lane sum -/

/-- A column [a,1] broadcast along the lanes reads, at (p, c), the column's entry p. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, u), the vector's entry p. -/
private theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The rows of a [2,1024,256] array laid out as [2048,256]: row b·1024 + j is (b, j). -/
private theorem shapeCast_x_apply (x : (⟨3, ![2, 1024, 256]⟩ : Shape).Idx → α) (h : (⟨3, ![2, 1024, 256]⟩ : Shape).ShapeCasts ⟨2, ![2048, 256]⟩)
    (b : Fin 2) (j : Fin 1024) (k : Fin 256) (r : Fin 2048) (hr : r.val = b.val * 1024 + j.val) :
    shapeCast ⟨2, ![2048, 256]⟩ x h (ix2 r k) = x (ix3 b j k) :=
  shapeCast_apply x h _ _ (by
    rw [Shape.rowMajor_val_three, Shape.rowMajor_val_two]
    show (b.val * 1024 + j.val) * 256 + k.val = r.val * 256 + k.val
    rw [hr])

/-- The lane sum of a [512,1024] array at row p is the sum over the row's 1024 entries. -/
private theorem laneSum_apply (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext ax; apply Fin.ext
  match ax with
  | ⟨0, _⟩ => rfl
  | ⟨1, _⟩ => rfl

/-! ## The four products: each operand index, axis by axis, then the product at an entry as a sum over the contracted coordinate -/

private theorem lhs1_0 (j : S2048x128.Idx) (k : dot_S2048x256_S256x128_S2048x128_1_0_0_1_n_n.contr.Idx) :
    (dot_S2048x256_S256x128_S2048x128_1_0_0_1_n_n.lhsIdx j k 0).val = (j 0).val := by
  simp [DotDims.lhsIdx, dot_S2048x256_S256x128_S2048x128_1_0_0_1_n_n]; rfl

private theorem lhs1_1 (j : S2048x128.Idx) (k : dot_S2048x256_S256x128_S2048x128_1_0_0_1_n_n.contr.Idx) :
    (dot_S2048x256_S256x128_S2048x128_1_0_0_1_n_n.lhsIdx j k 1).val = (k ⟨0, by decide⟩).val :=
  DotDims.lhsIdx_val_of_single _ rfl j k

private theorem rhs1_0 (j : S2048x128.Idx) (k : dot_S2048x256_S256x128_S2048x128_1_0_0_1_n_n.contr.Idx) :
    (dot_S2048x256_S256x128_S2048x128_1_0_0_1_n_n.rhsIdx j k 0).val = (k ⟨0, by decide⟩).val :=
  DotDims.rhsIdx_val_of_single _ rfl j k

private theorem rhs1_1 (j : S2048x128.Idx) (k : dot_S2048x256_S256x128_S2048x128_1_0_0_1_n_n.contr.Idx) :
    (dot_S2048x256_S256x128_S2048x128_1_0_0_1_n_n.rhsIdx j k 1).val = (j 1).val := by
  simp [DotDims.rhsIdx, dot_S2048x256_S256x128_S2048x128_1_0_0_1_n_n]; rfl

private theorem lhs2_0 (j : S2048x1.Idx) (k : dot_S2048x128_S1x128_S2048x1_1_1_0_0_n_n.contr.Idx) :
    (dot_S2048x128_S1x128_S2048x1_1_1_0_0_n_n.lhsIdx j k 0).val = (j 0).val := by
  simp [DotDims.lhsIdx, dot_S2048x128_S1x128_S2048x1_1_1_0_0_n_n]; rfl

private theorem lhs2_1 (j : S2048x1.Idx) (k : dot_S2048x128_S1x128_S2048x1_1_1_0_0_n_n.contr.Idx) :
    (dot_S2048x128_S1x128_S2048x1_1_1_0_0_n_n.lhsIdx j k 1).val = (k ⟨0, by decide⟩).val :=
  DotDims.lhsIdx_val_of_single _ rfl j k

private theorem rhs2_0 (j : S2048x1.Idx) (k : dot_S2048x128_S1x128_S2048x1_1_1_0_0_n_n.contr.Idx) :
    (dot_S2048x128_S1x128_S2048x1_1_1_0_0_n_n.rhsIdx j k 0).val = (j 1).val := by
  simp [DotDims.rhsIdx, dot_S2048x128_S1x128_S2048x1_1_1_0_0_n_n]
  exact (Fin.val_eq_zero (j 1)).symm

private theorem rhs2_1 (j : S2048x1.Idx) (k : dot_S2048x128_S1x128_S2048x1_1_1_0_0_n_n.contr.Idx) :
    (dot_S2048x128_S1x128_S2048x1_1_1_0_0_n_n.rhsIdx j k 1).val = (k ⟨0, by decide⟩).val :=
  DotDims.rhsIdx_val_of_single _ rfl j k

private theorem lhs3_0 (j : S1x2048.Idx) (k : dot_S1x128_S2048x128_S1x2048_1_1_0_0_n_n.contr.Idx) :
    (dot_S1x128_S2048x128_S1x2048_1_1_0_0_n_n.lhsIdx j k 0).val = (j 0).val := by
  simp [DotDims.lhsIdx, dot_S1x128_S2048x128_S1x2048_1_1_0_0_n_n]
  exact (Fin.val_eq_zero (j 0)).symm

private theorem lhs3_1 (j : S1x2048.Idx) (k : dot_S1x128_S2048x128_S1x2048_1_1_0_0_n_n.contr.Idx) :
    (dot_S1x128_S2048x128_S1x2048_1_1_0_0_n_n.lhsIdx j k 1).val = (k ⟨0, by decide⟩).val :=
  DotDims.lhsIdx_val_of_single _ rfl j k

private theorem rhs3_0 (j : S1x2048.Idx) (k : dot_S1x128_S2048x128_S1x2048_1_1_0_0_n_n.contr.Idx) :
    (dot_S1x128_S2048x128_S1x2048_1_1_0_0_n_n.rhsIdx j k 0).val = (j 1).val := by
  simp [DotDims.rhsIdx, dot_S1x128_S2048x128_S1x2048_1_1_0_0_n_n]; rfl

private theorem rhs3_1 (j : S1x2048.Idx) (k : dot_S1x128_S2048x128_S1x2048_1_1_0_0_n_n.contr.Idx) :
    (dot_S1x128_S2048x128_S1x2048_1_1_0_0_n_n.rhsIdx j k 1).val = (k ⟨0, by decide⟩).val :=
  DotDims.rhsIdx_val_of_single _ rfl j k

private theorem lhs4_0 (j : S512x128.Idx) (k : dot_S512x1024_S1024x128_S512x128_1_0_0_1_n_n.contr.Idx) :
    (dot_S512x1024_S1024x128_S512x128_1_0_0_1_n_n.lhsIdx j k 0).val = (j 0).val := by
  simp [DotDims.lhsIdx, dot_S512x1024_S1024x128_S512x128_1_0_0_1_n_n]; rfl

private theorem lhs4_1 (j : S512x128.Idx) (k : dot_S512x1024_S1024x128_S512x128_1_0_0_1_n_n.contr.Idx) :
    (dot_S512x1024_S1024x128_S512x128_1_0_0_1_n_n.lhsIdx j k 1).val = (k ⟨0, by decide⟩).val :=
  DotDims.lhsIdx_val_of_single _ rfl j k

private theorem rhs4_0 (j : S512x128.Idx) (k : dot_S512x1024_S1024x128_S512x128_1_0_0_1_n_n.contr.Idx) :
    (dot_S512x1024_S1024x128_S512x128_1_0_0_1_n_n.rhsIdx j k 0).val = (k ⟨0, by decide⟩).val :=
  DotDims.rhsIdx_val_of_single _ rfl j k

private theorem rhs4_1 (j : S512x128.Idx) (k : dot_S512x1024_S1024x128_S512x128_1_0_0_1_n_n.contr.Idx) :
    (dot_S512x1024_S1024x128_S512x128_1_0_0_1_n_n.rhsIdx j k 1).val = (j 1).val := by
  simp [DotDims.rhsIdx, dot_S512x1024_S1024x128_S512x128_1_0_0_1_n_n]; rfl

/-- [2048,256] · [256,128] at (r, c): the sum over the 256 contracted coordinates. -/
private theorem matmul1_apply {φ₁ φ₂ : FTy} (A : FVec Ideal S2048x256 φ₁) (B : FVec Ideal S256x128 φ₂) (r : Fin 2048) (c : Fin 128) :
    matmul dot_S2048x256_S256x128_S2048x128_1_0_0_1_n_n none A B (constant (F := Ideal) S2048x128 .f32 0x00000000#32) (ix2 r c)
      = ∑ k : Fin 256, A (ix2 r k) * B (ix2 k c) := by
  refine (Ideal.matmul_constant_zero_apply _ none A B (ix2 r c)).trans ?_
  rw [← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have hl : dot_S2048x256_S256x128_S2048x128_1_0_0_1_n_n.lhsIdx (ix2 r c)
      ((contrEquiv1 dot_S2048x256_S256x128_S2048x128_1_0_0_1_n_n 256 rfl rfl).symm k) = ix2 r k := by
    funext ax; apply Fin.ext
    match ax with
    | ⟨0, _⟩ => exact lhs1_0 _ _
    | ⟨1, _⟩ => exact (lhs1_1 _ _).trans hk
  have hr : dot_S2048x256_S256x128_S2048x128_1_0_0_1_n_n.rhsIdx (ix2 r c)
      ((contrEquiv1 dot_S2048x256_S256x128_S2048x128_1_0_0_1_n_n 256 rfl rfl).symm k) = ix2 k c := by
    funext ax; apply Fin.ext
    match ax with
    | ⟨0, _⟩ => exact (rhs1_0 _ _).trans hk
    | ⟨1, _⟩ => exact rhs1_1 _ _
  rw [hl, hr]

/-- [2048,128] · [1,128]ᵀ at (r, u): the sum over the 128 contracted coordinates. -/
private theorem matmul2_apply {φ₁ φ₂ : FTy} (A : FVec Ideal S2048x128 φ₁) (B : FVec Ideal S1x128 φ₂) (r : Fin 2048) (u : Fin 1) :
    matmul dot_S2048x128_S1x128_S2048x1_1_1_0_0_n_n none A B (constant (F := Ideal) S2048x1 .f32 0x00000000#32) (ix2 r u)
      = ∑ k : Fin 128, A (ix2 r k) * B (ix2 u k) := by
  refine (Ideal.matmul_constant_zero_apply _ none A B (ix2 r u)).trans ?_
  rw [← Equiv.sum_comp (contrEquiv1 dot_S2048x128_S1x128_S2048x1_1_1_0_0_n_n 128 rfl rfl).symm]
  refine Finset.sum_congr rfl fun k _ => ?_
  have hk := contrEquiv1_symm_val dot_S2048x128_S1x128_S2048x1_1_1_0_0_n_n 128 rfl rfl k
  have hl : dot_S2048x128_S1x128_S2048x1_1_1_0_0_n_n.lhsIdx (ix2 r u)
      ((contrEquiv1 dot_S2048x128_S1x128_S2048x1_1_1_0_0_n_n 128 rfl rfl).symm k) = ix2 r k := by
    funext ax; apply Fin.ext
    match ax with
    | ⟨0, _⟩ => exact lhs2_0 _ _
    | ⟨1, _⟩ => exact (lhs2_1 _ _).trans hk
  have hr : dot_S2048x128_S1x128_S2048x1_1_1_0_0_n_n.rhsIdx (ix2 r u)
      ((contrEquiv1 dot_S2048x128_S1x128_S2048x1_1_1_0_0_n_n 128 rfl rfl).symm k) = ix2 u k := by
    funext ax; apply Fin.ext
    match ax with
    | ⟨0, _⟩ => exact rhs2_0 _ _
    | ⟨1, _⟩ => exact (rhs2_1 _ _).trans hk
  rw [hl, hr]

/-- [1,128] · [2048,128]ᵀ at (u, r): the sum over the 128 contracted coordinates. -/
private theorem matmul3_apply {φ₁ φ₂ : FTy} (A : FVec Ideal S1x128 φ₁) (B : FVec Ideal S2048x128 φ₂) (u : Fin 1) (r : Fin 2048) :
    matmul dot_S1x128_S2048x128_S1x2048_1_1_0_0_n_n none A B (constant (F := Ideal) S1x2048 .f32 0x00000000#32) (ix2 u r)
      = ∑ k : Fin 128, A (ix2 u k) * B (ix2 r k) := by
  refine (Ideal.matmul_constant_zero_apply _ none A B (ix2 u r)).trans ?_
  rw [← Equiv.sum_comp (contrEquiv1 dot_S1x128_S2048x128_S1x2048_1_1_0_0_n_n 128 rfl rfl).symm]
  refine Finset.sum_congr rfl fun k _ => ?_
  have hk := contrEquiv1_symm_val dot_S1x128_S2048x128_S1x2048_1_1_0_0_n_n 128 rfl rfl k
  have hl : dot_S1x128_S2048x128_S1x2048_1_1_0_0_n_n.lhsIdx (ix2 u r)
      ((contrEquiv1 dot_S1x128_S2048x128_S1x2048_1_1_0_0_n_n 128 rfl rfl).symm k) = ix2 u k := by
    funext ax; apply Fin.ext
    match ax with
    | ⟨0, _⟩ => exact lhs3_0 _ _
    | ⟨1, _⟩ => exact (lhs3_1 _ _).trans hk
  have hr : dot_S1x128_S2048x128_S1x2048_1_1_0_0_n_n.rhsIdx (ix2 u r)
      ((contrEquiv1 dot_S1x128_S2048x128_S1x2048_1_1_0_0_n_n 128 rfl rfl).symm k) = ix2 r k := by
    funext ax; apply Fin.ext
    match ax with
    | ⟨0, _⟩ => exact rhs3_0 _ _
    | ⟨1, _⟩ => exact (rhs3_1 _ _).trans hk
  rw [hl, hr]

/-- [512,1024] · [1024,128] at (p, c): the sum over the 1024 contracted coordinates. -/
private theorem matmul4_apply {φ₁ φ₂ : FTy} (A : FVec Ideal S512x1024 φ₁) (B : FVec Ideal S1024x128 φ₂) (p : Fin 512) (c : Fin 128) :
    matmul dot_S512x1024_S1024x128_S512x128_1_0_0_1_n_n none A B (constant (F := Ideal) S512x128 .f32 0x00000000#32) (ix2 p c)
      = ∑ k : Fin 1024, A (ix2 p k) * B (ix2 k c) := by
  refine (Ideal.matmul_constant_zero_apply _ none A B (ix2 p c)).trans ?_
  rw [← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have hl : dot_S512x1024_S1024x128_S512x128_1_0_0_1_n_n.lhsIdx (ix2 p c)
      ((contrEquiv1 dot_S512x1024_S1024x128_S512x128_1_0_0_1_n_n 1024 rfl rfl).symm k) = ix2 p k := by
    funext ax; apply Fin.ext
    match ax with
    | ⟨0, _⟩ => exact lhs4_0 _ _
    | ⟨1, _⟩ => exact (lhs4_1 _ _).trans hk
  have hr : dot_S512x1024_S1024x128_S512x128_1_0_0_1_n_n.rhsIdx (ix2 p c)
      ((contrEquiv1 dot_S512x1024_S1024x128_S512x128_1_0_0_1_n_n 1024 rfl rfl).symm k) = ix2 k c := by
    funext ax; apply Fin.ext
    match ax with
    | ⟨0, _⟩ => exact (rhs4_0 _ _).trans hk
    | ⟨1, _⟩ => exact rhs4_1 _ _
  rw [hl, hr]

/-! ## One block of rows: the value before elu, then the three pieces around it -/

/-- One entry of a block before elu: the normalised weighted sum of Spec's `blockHp`. -/
private theorem pay6_apply (v3 : Vec Ideal S512x1024 .f32) (v7 : Vec Ideal S512x1 .f32) (v8 : Vec Ideal S1x1024 .f32) (v25 : Vec Ideal S1024x128 .f32)
    (p : Fin 512) (c : Fin 128) :
    k0_pay6 (F := Ideal) v3 v7 v8 v25 (ix2 p c) = blockHp v3 v7 v8 v25 p c := by
  unfold k0_pay6
  simp only [select_apply, cmpf_apply, mulf_apply, broadcast_apply, Ideal.cmpf_def, cmp_one_self, select_zero]
  rw [matmul4_apply, broadcastTo_a1_ab_apply]
  simp only [select_apply, cmpf_apply, divf_apply, broadcast_apply, shapeCast_a_a1_apply, truncf_apply, mulf_apply, exp_apply, minimumf_apply, addf_apply, broadcastTo_a1_ab_apply, broadcastTo_1b_ab_apply, Ideal.cmpf_def]
  rw [laneSum_apply]
  simp only [mulf_apply, exp_apply, minimumf_apply, addf_apply, broadcast_apply, broadcastTo_a1_ab_apply, broadcastTo_1b_ab_apply]
  rw [zero_f32, one_f32, alpha_f32, select_cmp_one_zero]
  rfl

/-- The comparison against 0 at an entry. -/
private theorem pay7_apply (v3 : Vec Ideal S512x1024 .f32) (v7 : Vec Ideal S512x1 .f32) (v8 : Vec Ideal S1x1024 .f32) (v25 : Vec Ideal S1024x128 .f32)
    (i : S512x128.Idx) :
    k0_pay7 (F := Ideal) v3 v7 v8 v25 i = Ideal.cmp .ogt (k0_pay6 (F := Ideal) v3 v7 v8 v25 i) 0 := by
  unfold k0_pay7
  simp only [cmpf_apply, broadcast_apply, Ideal.cmpf_def]
  rw [zero_f32]

/-- The minimum with 0 at an entry. -/
private theorem pay8_apply (v3 : Vec Ideal S512x1024 .f32) (v7 : Vec Ideal S512x1 .f32) (v8 : Vec Ideal S1x1024 .f32) (v25 : Vec Ideal S1024x128 .f32)
    (i : S512x128.Idx) :
    k0_pay8 (F := Ideal) v3 v7 v8 v25 i = min (k0_pay6 (F := Ideal) v3 v7 v8 v25 i) 0 := by
  unfold k0_pay8
  simp only [minimumf_apply, broadcast_apply]
  rw [zero_f32]

/-- The second batch's block is the same term as the first's. -/
private theorem pay10_eq (v3 : Vec Ideal S512x1024 .f32) (v48 : Vec Ideal S512x1 .f32) (v49 : Vec Ideal S1x1024 .f32) (v66 : Vec Ideal S1024x128 .f32) :
    k0_pay10 (F := Ideal) v3 v48 v49 v66 = k0_pay6 (F := Ideal) v3 v48 v49 v66 := rfl

/-- The second batch's comparison against 0 at an entry. -/
private theorem pay11_apply (v3 : Vec Ideal S512x1024 .f32) (v48 : Vec Ideal S512x1 .f32) (v49 : Vec Ideal S1x1024 .f32) (v66 : Vec Ideal S1024x128 .f32)
    (i : S512x128.Idx) :
    k0_pay11 (F := Ideal) v3 v48 v49 v66 i = Ideal.cmp .ogt (k0_pay6 (F := Ideal) v3 v48 v49 v66 i) 0 := by
  unfold k0_pay11
  simp only [cmpf_apply, broadcast_apply, Ideal.cmpf_def]
  rw [zero_f32, pay10_eq]

/-! ## The stored values -/

/-- Row b·1024 + j of the stored features is node j of batch b. -/
theorem pay_feat (x : Vec Ideal S2x1024x256 .f32) (w : Vec Ideal S256x128 .f32) (b : Fin 2) (j : Fin 1024) (c : Fin 128) :
    k0_pay2 (F := Ideal) x w (ix2 (⟨b.val * 1024 + j.val, by have := b.isLt; have := j.isLt; omega⟩ : Fin 2048) c) = feat x w b j c := by
  unfold k0_pay2
  simp only [select_apply, cmpf_apply, Ideal.cmpf_def, cmp_one_self, select_zero]
  rw [matmul1_apply]
  unfold feat
  refine Finset.sum_congr rfl fun k _ => ?_
  rw [shapeCast_x_apply x _ b j k ⟨b.val * 1024 + j.val, _⟩ rfl]

/-- The same through the cast that stores it. -/
theorem pay_feat3 (x : Vec Ideal S2x1024x256 .f32) (w : Vec Ideal S256x128 .f32) (b : Fin 2) (j : Fin 1024) (c : Fin 128) :
    k0_pay3 (F := Ideal) x w (ix2 (⟨b.val * 1024 + j.val, by have := b.isLt; have := j.isLt; omega⟩ : Fin 2048) c) = feat x w b j c := by
  unfold k0_pay3
  simp only [shapeCast_self]
  exact pay_feat x w b j c

/-- The stored negated row parts. -/
theorem pay_fneg (x : Vec Ideal S2x1024x256 .f32) (w : Vec Ideal S256x128 .f32) (a : Vec Ideal S1x256 .f32) (b : Fin 2) (i : Fin 1024) :
    k0_pay4 (F := Ideal) x w a (ix2 (⟨b.val * 1024 + i.val, by have := b.isLt; have := i.isLt; omega⟩ : Fin 2048) (0 : Fin 1)) = fneg x w a b i := by
  unfold k0_pay4
  simp only [shapeCast_self]
  rw [matmul2_apply]
  unfold fneg
  refine Finset.sum_congr rfl fun k _ => ?_
  rw [pay_feat x w b i k]
  simp only [subf_apply, broadcast_apply]
  rw [zero_f32, slice2_axis1_apply 0 a _ (0 : Fin 1) k ⟨k.val, by have := k.isLt; omega⟩ (Nat.zero_add _).symm]

/-- The stored negated column parts. -/
theorem pay_gneg (x : Vec Ideal S2x1024x256 .f32) (w : Vec Ideal S256x128 .f32) (a : Vec Ideal S1x256 .f32) (b : Fin 2) (j : Fin 1024) :
    k0_pay5 (F := Ideal) x w a (ix2 (0 : Fin 1) (⟨b.val * 1024 + j.val, by have := b.isLt; have := j.isLt; omega⟩ : Fin 2048)) = gneg x w a b j := by
  unfold k0_pay5
  simp only [shapeCast_self]
  rw [matmul3_apply]
  unfold gneg
  refine Finset.sum_congr rfl fun k _ => ?_
  rw [pay_feat x w b j k]
  simp only [subf_apply, broadcast_apply]
  rw [zero_f32, slice2_axis1_apply 128 a _ (0 : Fin 1) k ⟨128 + k.val, by have := k.isLt; omega⟩ rfl]

/-- Batch 0's stored block, one entry. -/
theorem pay_block0 (v3 : Vec Ideal S512x1024 .f32) (v7 : Vec Ideal S512x1 .f32) (v8 : Vec Ideal S1x1024 .f32) (v25 : Vec Ideal S1024x128 .f32)
    (p : Fin 512) (c : Fin 128) :
    k0_pay9 (F := Ideal) (k0_pay6 v3 v7 v8 v25) (k0_pay7 v3 v7 v8 v25) (k0_pay8 v3 v7 v8 v25) (ix3 (0 : Fin 1) p c)
      = blockOut v3 v7 v8 v25 p c := by
  unfold k0_pay9
  simp only [shapeCast_ab_1ab_apply, select_apply, subf_apply, exp_apply, broadcast_apply]
  rw [pay7_apply, pay8_apply, pay6_apply, one_f32, select_cmp_ogt_zero]
  rfl

/-- Batch 1's stored block, one entry. -/
theorem pay_block1 (v3 : Vec Ideal S512x1024 .f32) (v48 : Vec Ideal S512x1 .f32) (v49 : Vec Ideal S1x1024 .f32) (v66 : Vec Ideal S1024x128 .f32)
    (p : Fin 512) (c : Fin 128) :
    k0_pay1 (F := Ideal) (k0_pay10 v3 v48 v49 v66) (k0_pay11 v3 v48 v49 v66) (Scalar.ofBits .f32 0x00000000#32) (ix3 (0 : Fin 1) p c)
      = blockOut v3 v48 v49 v66 p c := by
  unfold k0_pay1
  simp only [shapeCast_ab_1ab_apply, select_apply, subf_apply, exp_apply, minimumf_apply, broadcast_apply]
  rw [pay11_apply, pay10_eq, pay6_apply, one_f32, zero_f32, select_cmp_ogt_zero]
  rfl

/-- A block whose data are the arrays' own rows is the whole-array result at those rows. -/
theorem blockOut_eq_KOut (X : SX.Idx → EReal) (A : SAdj.Idx → EReal) (W : SW.Idx → EReal) (a : SAtt.Idx → EReal)
    (b t : Fin 2) (adjB : SAdjB.Idx → EReal) (fB : SFB.Idx → EReal) (gB : SGB.Idx → EReal) (hB : SHB.Idx → EReal)
    (hadj : ∀ (p : Fin 512) (j : Fin 1024), adjB (ix2 p j) = A (ix2 (⟨t.val * 512 + p.val, by have := t.isLt; have := p.isLt; omega⟩ : Fin 1024) j))
    (hf : ∀ p : Fin 512, fB (ix2 p (0 : Fin 1)) = fneg X W a b ⟨t.val * 512 + p.val, by have := t.isLt; have := p.isLt; omega⟩)
    (hg : ∀ j : Fin 1024, gB (ix2 (0 : Fin 1) j) = gneg X W a b j)
    (hh : ∀ (j : Fin 1024) (c : Fin 128), hB (ix2 j c) = feat X W b j c)
    (p : Fin 512) (c : Fin 128) :
    blockOut adjB fB gB hB p c = KOut X A W a (ix3 b (⟨t.val * 512 + p.val, by have := t.isLt; have := p.isLt; omega⟩ : Fin 1024) c) := by
  have hhp : blockHp adjB fB gB hB p c
      = hpK X A W a b (⟨t.val * 512 + p.val, by have := t.isLt; have := p.isLt; omega⟩ : Fin 1024) c := by
    unfold blockHp hpK recipK rsK eK tK
    simp only [hadj, hf, hg, hh]
  unfold blockOut
  rw [hhp]
  rfl

end Cert.KernelIdeal.KPay

end
-- ==== Proof.KPieces.lean ====
/-
  What each control case of the blocked program leaves in its three scratch arrays and in a point's result block, as
  terms of the blocks it loads, for any float family; and a point's result block read at a row of either batch.
-/
import proofs.«106906_g31842887532864_cont_sun_m_711_10_alg».proof.Proof.Gen.KernelIdeal.Frame
import Idealize.ShloMosaic.Lib.Pipeline.Value
import Idealize.ShloMosaic.Lib.ValueIdx

noncomputable section

namespace Cert.KernelIdeal.KPieces

open Cert.KernelIdeal Cert.KernelIdeal.Gen Idealize.ShloMosaic Idealize.ShloMosaic.TcCoe Idealize.SL.Sem Idealize.ShloMosaic.ValueIdx

variable [Facts]

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point's prologue leaves the projected features in the first scratch array. -/
theorem soutA0_eq (c : Dev nD) (i : grid0.Coords) (arg1 : Memref sig .tc .vmem S2x1024x256 .f32) (harg1 : arg1.IsWhole) (arg2 : Memref sig .tc .vmem S512x1024 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S2x512x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S1x2048 .f32) (harg8 : arg8.IsWhole) (hc0 : cond0_0 i) (x0 : Vec F S2x1024x256 .f32) (x1 : Vec F S512x1024 .f32) (x2 : Vec F S256x128 .f32) (x3 : Vec F S1x256 .f32) :
    sout0_A_0 c i arg1 harg1 arg2 harg2 arg3 harg3 arg4 harg4 arg5 harg5 arg6 harg6 arg7 harg7 arg8 harg8 hc0 x0 x1 x2 x3 = k0_pay3 x0 x2 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_run_names
  rw [View.canon_unit_zero hz2]
  simp only [View.readAt_eq_ld, harg1.read_unread, harg3.read_unread, View.ld_unit_zero (S := S2x1024x256) hz3, View.ld_unit_zero (S := S256x128) hz2]

/-- It leaves the negated row parts of the score in the second. -/
theorem soutA1_eq (c : Dev nD) (i : grid0.Coords) (arg1 : Memref sig .tc .vmem S2x1024x256 .f32) (harg1 : arg1.IsWhole) (arg2 : Memref sig .tc .vmem S512x1024 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S2x512x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S1x2048 .f32) (harg8 : arg8.IsWhole) (hc0 : cond0_0 i) (x0 : Vec F S2x1024x256 .f32) (x1 : Vec F S512x1024 .f32) (x2 : Vec F S256x128 .f32) (x3 : Vec F S1x256 .f32) :
    sout0_A_1 c i arg1 harg1 arg2 harg2 arg3 harg3 arg4 harg4 arg5 harg5 arg6 harg6 arg7 harg7 arg8 harg8 hc0 x0 x1 x2 x3 = k0_pay4 x0 x2 x3 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3)]
  unfold kernelRun0_A
  dsimp only
  sl_unfold_run_names
  rw [View.canon_unit_zero hz2]
  simp only [View.readAt_eq_ld, harg1.read_unread, harg3.read_unread, harg4.read_unread, View.ld_unit_zero (S := S2x1024x256) hz3, View.ld_unit_zero (S := S256x128) hz2, View.ld_unit_zero (S := S1x256) hz2]

/-- It leaves the negated column parts of the score in the third. -/
theorem soutA2_eq (c : Dev nD) (i : grid0.Coords) (arg1 : Memref sig .tc .vmem S2x1024x256 .f32) (harg1 : arg1.IsWhole) (arg2 : Memref sig .tc .vmem S512x1024 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S2x512x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S1x2048 .f32) (harg8 : arg8.IsWhole) (hc0 : cond0_0 i) (x0 : Vec F S2x1024x256 .f32) (x1 : Vec F S512x1024 .f32) (x2 : Vec F S256x128 .f32) (x3 : Vec F S1x256 .f32) :
    sout0_A_2 c i arg1 harg1 arg2 harg2 arg3 harg3 arg4 harg4 arg5 harg5 arg6 harg6 arg7 harg7 arg8 harg8 hc0 x0 x1 x2 x3 = k0_pay5 x0 x2 x3 := by
  unfold sout0_A_2
  rw [View.read_writes_eq_canon _ _ _ (scover0_A_2 c i arg1 harg1 arg2 harg2 arg3 harg3 arg4 harg4 arg5 harg5 arg6 harg6 arg7 harg7 arg8 harg8 hc0 x0 x1 x2 x3)]
  unfold kernelRun0_A
  dsimp only
  sl_unfold_run_names
  rw [View.canon_unit_zero hz2]
  simp only [View.readAt_eq_ld, harg1.read_unread, harg3.read_unread, harg4.read_unread, View.ld_unit_zero (S := S2x1024x256) hz3, View.ld_unit_zero (S := S256x128) hz2, View.ld_unit_zero (S := S1x256) hz2]

/-- A point's result block from its adjacency rows and the three scratch arrays: the stored piece of batch 1, then that of
    batch 0, each from the rows of the second scratch at the point's row offset within the batch, the batch's columns of the
    third and the batch's rows of the first. -/
def outBlk (i : grid0.Coords) (x1 : Vec F S512x1024 .f32) (xs0 : Vec F S2048x128 .f32) (xs1 : Vec F S2048x1 .f32) (xs2 : Vec F S1x2048 .f32) : Vec F S2x512x128 .f32 :=
  View.canon (Val := Elt F)
    [⟨Rect.unit (s := S2x512x128) ![1, 0, 0] S1x512x128.size inb_S2x512x128_S1x512x128_1_0_0, k0_pay1 (k0_pay10 x1 (View.ld xs1 (Rect.unit (s := S2048x1) (k0_off1 i 1024#32) S512x1.size (k0_off1_inb i 1))) (View.ld xs2 (Rect.unit (s := S1x2048) ![0, 1024] S1x1024.size inb_S1x2048_S1x1024_0_1024)) (View.ld xs0 (Rect.unit (s := S2048x128) ![1024, 0] S1024x128.size inb_S2048x128_S1024x128_1024_0))) (k0_pay11 x1 (View.ld xs1 (Rect.unit (s := S2048x1) (k0_off1 i 1024#32) S512x1.size (k0_off1_inb i 1))) (View.ld xs2 (Rect.unit (s := S1x2048) ![0, 1024] S1x1024.size inb_S1x2048_S1x1024_0_1024)) (View.ld xs0 (Rect.unit (s := S2048x128) ![1024, 0] S1024x128.size inb_S2048x128_S1024x128_1024_0))) (Scalar.ofBits .f32 0x00000000#32)⟩,
     ⟨Rect.unit (s := S2x512x128) ![0, 0, 0] S1x512x128.size inb_S2x512x128_S1x512x128_0_0_0, k0_pay9 (k0_pay6 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0))) (k0_pay7 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0))) (k0_pay8 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0)))⟩]

/-- The first point's result block: the scratch loads read what its own prologue stored. -/
theorem outA4_eq (c : Dev nD) (i : grid0.Coords) (arg1 : Memref sig .tc .vmem S2x1024x256 .f32) (harg1 : arg1.IsWhole) (arg2 : Memref sig .tc .vmem S512x1024 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S2x512x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S1x2048 .f32) (harg8 : arg8.IsWhole) (hc0 : cond0_0 i) (x0 : Vec F S2x1024x256 .f32) (x1 : Vec F S512x1024 .f32) (x2 : Vec F S256x128 .f32) (x3 : Vec F S1x256 .f32) :
    out0_A_4 c i arg1 harg1 arg2 harg2 arg3 harg3 arg4 harg4 arg5 harg5 arg6 harg6 arg7 harg7 arg8 harg8 hc0 x0 x1 x2 x3 = outBlk i x1 (k0_pay3 x0 x2) (k0_pay4 x0 x2 x3) (k0_pay5 x0 x2 x3) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_run_names
  simp only [View.readCov_eq_canon', View.readAt_eq_ld, View.read_writes_junk_eq_canon, harg1.read_unread, harg2.read_unread, harg3.read_unread, harg4.read_unread, View.ld_unit_zero (S := S2x1024x256) hz3, View.ld_unit_zero (S := S512x1024) hz2, View.ld_unit_zero (S := S256x128) hz2, View.ld_unit_zero (S := S1x256) hz2, View.canon_unit_zero (S := S2048x128) hz2, View.canon_unit_zero (S := S2048x1) hz2, View.canon_unit_zero (S := S1x2048) hz2]
  rfl

/-- A later point's result block: the scratch loads read what the point before left. -/
theorem outB4_eq (c : Dev nD) (i : grid0.Coords) (arg1 : Memref sig .tc .vmem S2x1024x256 .f32) (harg1 : arg1.IsWhole) (arg2 : Memref sig .tc .vmem S512x1024 .f32) (harg2 : arg2.IsWhole) (arg3 : Memref sig .tc .vmem S256x128 .f32) (harg3 : arg3.IsWhole) (arg4 : Memref sig .tc .vmem S1x256 .f32) (harg4 : arg4.IsWhole) (arg5 : Memref sig .tc .vmem S2x512x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S1x2048 .f32) (harg8 : arg8.IsWhole) (hc0 : ¬cond0_0 i) (x0 : Vec F S2x1024x256 .f32) (x1 : Vec F S512x1024 .f32) (x2 : Vec F S256x128 .f32) (x3 : Vec F S1x256 .f32) (xs0 : Vec F S2048x128 .f32) (xs1 : Vec F S2048x1 .f32) (xs2 : Vec F S1x2048 .f32) :
    out0_B_4 c i arg1 harg1 arg2 harg2 arg3 harg3 arg4 harg4 arg5 harg5 arg6 harg6 arg7 harg7 arg8 harg8 hc0 x0 x1 x2 x3 xs0 xs1 xs2 = outBlk i x1 xs0 xs1 xs2 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1 xs2)]
  unfold kernelRun0_B
  dsimp only
  sl_unfold_run_names
  simp only [View.readAt_eq_ld, harg2.read_unread, harg6.read_unread, harg7.read_unread, harg8.read_unread, View.ld_unit_zero (S := S512x1024) hz2]
  rfl

/-- The block at a row of batch 0 is the first stored piece there. -/
theorem outBlk_b0 (i : grid0.Coords) (x1 : Vec F S512x1024 .f32) (xs0 : Vec F S2048x128 .f32) (xs1 : Vec F S2048x1 .f32) (xs2 : Vec F S1x2048 .f32)
    (p : Fin 512) (q : Fin 128) :
    outBlk i x1 xs0 xs1 xs2 (ix3 (0 : Fin 2) p q) = k0_pay9 (k0_pay6 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0))) (k0_pay7 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0))) (k0_pay8 x1 (View.ld xs1 (Rect.unit (s := S2048x1) (k0_off1 i 0#32) S512x1.size (k0_off1_inb i 0))) (View.ld xs2 (Rect.unit (s := S1x2048) ![0, 0] S1x1024.size inb_S1x2048_S1x1024_0_0)) (View.ld xs0 (Rect.unit (s := S2048x128) ![0, 0] S1024x128.size inb_S2048x128_S1024x128_0_0))) (ix3 (0 : Fin 1) p q) := by
  unfold outBlk
  rw [View.canon_cons_of_not_mem _ _ (by
    rw [Rect.mem_set_unit]
    intro h
    have h0 : (1 : Nat) ≤ 0 := (h 0).1
    omega)]
  have e : (ix3 (0 : Fin 2) p q : S2x512x128.Idx)
      = (Rect.unit (s := S2x512x128) ![0, 0, 0] S1x512x128.size inb_S2x512x128_S1x512x128_0_0_0).emb (ix3 (0 : Fin 1) p q) := by
    funext a
    apply Fin.ext
    rw [Rect.emb_apply]
    match a with
    | ⟨0, _⟩ => rfl
    | ⟨1, _⟩ => show p.val = 0 + 1 * p.val; omega
    | ⟨2, _⟩ => show q.val = 0 + 1 * q.val; omega
  rw [e]
  exact View.canon_cons_emb _ _ _ _

/-- The block at a row of batch 1 is the second stored piece there. -/
theorem outBlk_b1 (i : grid0.Coords) (x1 : Vec F S512x1024 .f32) (xs0 : Vec F S2048x128 .f32) (xs1 : Vec F S2048x1 .f32) (xs2 : Vec F S1x2048 .f32)
    (p : Fin 512) (q : Fin 128) :
    outBlk i x1 xs0 xs1 xs2 (ix3 (1 : Fin 2) p q) = k0_pay1 (k0_pay10 x1 (View.ld xs1 (Rect.unit (s := S2048x1) (k0_off1 i 1024#32) S512x1.size (k0_off1_inb i 1))) (View.ld xs2 (Rect.unit (s := S1x2048) ![0, 1024] S1x1024.size inb_S1x2048_S1x1024_0_1024)) (View.ld xs0 (Rect.unit (s := S2048x128) ![1024, 0] S1024x128.size inb_S2048x128_S1024x128_1024_0))) (k0_pay11 x1 (View.ld xs1 (Rect.unit (s := S2048x1) (k0_off1 i 1024#32) S512x1.size (k0_off1_inb i 1))) (View.ld xs2 (Rect.unit (s := S1x2048) ![0, 1024] S1x1024.size inb_S1x2048_S1x1024_0_1024)) (View.ld xs0 (Rect.unit (s := S2048x128) ![1024, 0] S1024x128.size inb_S2048x128_S1024x128_1024_0))) (Scalar.ofBits .f32 0x00000000#32) (ix3 (0 : Fin 1) p q) := by
  unfold outBlk
  have e : (ix3 (1 : Fin 2) p q : S2x512x128.Idx)
      = (Rect.unit (s := S2x512x128) ![1, 0, 0] S1x512x128.size inb_S2x512x128_S1x512x128_1_0_0).emb (ix3 (0 : Fin 1) p q) := by
    funext a
    apply Fin.ext
    rw [Rect.emb_apply]
    match a with
    | ⟨0, _⟩ => rfl
    | ⟨1, _⟩ => show p.val = 0 + 1 * p.val; omega
    | ⟨2, _⟩ => show q.val = 0 + 1 * q.val; omega
  rw [e]
  exact View.canon_cons_emb _ _ _ _

end Cert.KernelIdeal.KPieces

end
-- ==== Proof.KBlocks.lean ====
/-
  The blocked program's run over the extended reals: the result array ends at KOut of the arguments, block by block.
-/
import proofs.«106906_g31842887532864_cont_sun_m_711_10_alg».proof.Proof.Gen.KernelIdeal.Value
import proofs.«106906_g31842887532864_cont_sun_m_711_10_alg».proof.Proof.KPay
import proofs.«106906_g31842887532864_cont_sun_m_711_10_alg».proof.Proof.KPieces
import proofs.«106906_g31842887532864_cont_sun_m_711_10_alg».proof.Proof.Spec

noncomputable section

open scoped BigOperators

namespace Cert.KernelIdeal.KBlocks

open Cert.KernelIdeal Cert.KernelIdeal.Gen Cert.KernelIdeal.Value Cert.KernelIdeal.KPay Cert.Gat Idealize.ShloMosaic Idealize.ShloMosaic.TcCoe Idealize.SL.Sem Idealize.ShloMosaic.ValueIdx

variable [Facts]

/-! ## The arrays and the blocks over the extended reals -/

section Values

open Cert.KernelIdeal.KPieces

variable (m : (ℓ : Loc nD τ sig) → Buf (Elt Ideal) ℓ)

/-- The four argument arrays as the region finds them. -/
abbrev xArr (c : Dev nD) : Vec Ideal S2x1024x256 .f32 := V m c main_arg0
abbrev adjArr (c : Dev nD) : Vec Ideal S1024x1024 .f32 := V m c main_arg1
abbrev wArr (c : Dev nD) : Vec Ideal S256x128 .f32 := V m c main_arg2
abbrev aArr (c : Dev nD) : Vec Ideal S1x256 .f32 := V m c main_arg3

/-- A grid point as one of the two row blocks. -/
abbrev pt (t : Fin cfg0.N) : Fin 2 := ⟨t.val, lt_of_lt_of_eq t.isLt N_0⟩

omit [Facts] in
/-- The index maps and the scratch row offsets, decided over the two grid points: three inputs are whole arrays, the
    adjacency and the result move by the point along their rows, and the row offsets are 512 times the point within
    each batch. -/
theorem idx_facts_dec : ∀ t : Fin grid0.N,
    (@win0_0 facts₀).index t (0 : Fin 3) = 0 ∧ (@win0_0 facts₀).index t (1 : Fin 3) = 0 ∧ (@win0_0 facts₀).index t (2 : Fin 3) = 0
    ∧ (@win0_1 facts₀).index t (0 : Fin 2) = t.val ∧ (@win0_1 facts₀).index t (1 : Fin 2) = 0
    ∧ (@win0_2 facts₀).index t (0 : Fin 2) = 0 ∧ (@win0_2 facts₀).index t (1 : Fin 2) = 0
    ∧ (@win0_3 facts₀).index t (0 : Fin 2) = 0 ∧ (@win0_3 facts₀).index t (1 : Fin 2) = 0
    ∧ (@win0_4 facts₀).index t (0 : Fin 3) = 0 ∧ (@win0_4 facts₀).index t (1 : Fin 3) = t.val ∧ (@win0_4 facts₀).index t (2 : Fin 3) = 0
    ∧ k0_off1 (grid0.coords t) 0#32 (0 : Fin 2) = t.val * 512 ∧ k0_off1 (grid0.coords t) 0#32 (1 : Fin 2) = 0
    ∧ k0_off1 (grid0.coords t) 1024#32 (0 : Fin 2) = 1024 + t.val * 512 ∧ k0_off1 (grid0.coords t) 1024#32 (1 : Fin 2) = 0 := by
  decide +kernel

/-- The same facts under the side conditions at hand. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ k0_off1 (grid0.coords t) 0#32 (0 : Fin 2) = t.val * 512 ∧ k0_off1 (grid0.coords t) 0#32 (1 : Fin 2) = 0
    ∧ k0_off1 (grid0.coords t) 1024#32 (0 : Fin 2) = 1024 + t.val * 512 ∧ k0_off1 (grid0.coords t) 1024#32 (1 : Fin 2) = 0 :=
  idx_facts_dec

/-- The first input's block is the whole array. -/
theorem xBlk_eq (c : Dev nD) (t : Fin cfg0.N) : (iblk m c 0 t : Vec Ideal S2x1024x256 .f32) = V m c main_arg0 := by
  obtain ⟨e0, e1, e2, -⟩ := idx_facts t
  funext j
  unfold iblk
  rw [View.read_apply]
  show V m c main_arg0 _ = V m c main_arg0 j
  congr 1
  funext d
  apply Fin.ext
  match d with
  | ⟨0, _⟩ => show win0_0.index t (0 : Fin 3) * 2 + 1 * (j 0).val = (j 0).val; rw [e0]; omega
  | ⟨1, _⟩ => show win0_0.index t (1 : Fin 3) * 1024 + 1 * (j 1).val = (j 1).val; rw [e1]; omega
  | ⟨2, _⟩ => show win0_0.index t (2 : Fin 3) * 256 + 1 * (j 2).val = (j 2).val; rw [e2]; omega

/-- The projection's block is the whole array. -/
theorem wBlk_eq (c : Dev nD) (t : Fin cfg0.N) : (iblk m c 2 t : Vec Ideal S256x128 .f32) = V m c main_arg2 := by
  obtain ⟨-, -, -, -, -, e0, e1, -⟩ := idx_facts t
  funext j
  unfold iblk
  rw [View.read_apply]
  show V m c main_arg2 _ = V m c main_arg2 j
  congr 1
  funext d
  apply Fin.ext
  match d with
  | ⟨0, _⟩ => show win0_2.index t (0 : Fin 2) * 256 + 1 * (j 0).val = (j 0).val; rw [e0]; omega
  | ⟨1, _⟩ => show win0_2.index t (1 : Fin 2) * 128 + 1 * (j 1).val = (j 1).val; rw [e1]; omega

/-- The attention vector's block is the whole array. -/
theorem aBlk_eq (c : Dev nD) (t : Fin cfg0.N) : (iblk m c 3 t : Vec Ideal S1x256 .f32) = V m c main_arg3 := by
  obtain ⟨-, -, -, -, -, -, -, e0, e1, -⟩ := idx_facts t
  funext j
  unfold iblk
  rw [View.read_apply]
  show V m c main_arg3 _ = V m c main_arg3 j
  congr 1
  funext d
  apply Fin.ext
  match d with
  | ⟨0, _⟩ => show win0_3.index t (0 : Fin 2) * 1 + 1 * (j 0).val = (j 0).val; rw [e0]; omega
  | ⟨1, _⟩ => show win0_3.index t (1 : Fin 2) * 256 + 1 * (j 1).val = (j 1).val; rw [e1]; omega

/-- The adjacency block at a point is the array's rows from 512 times the point. -/
theorem adjBlk_apply (c : Dev nD) (t : Fin cfg0.N) (p : Fin 512) (j : Fin 1024) :
    (iblk m c 1 t : Vec Ideal S512x1024 .f32) (ix2 p j)
      = (V m c main_arg1 : Vec Ideal S1024x1024 .f32) (ix2 (⟨(pt t).val * 512 + p.val, by have := (pt t).isLt; have := p.isLt; omega⟩ : Fin 1024) j) := by
  obtain ⟨-, -, -, e0, e1, -⟩ := idx_facts t
  unfold iblk
  rw [View.read_apply]
  show V m c main_arg1 _ = V m c main_arg1 _
  congr 1
  funext d
  apply Fin.ext
  match d with
  | ⟨0, _⟩ => show win0_1.index t (0 : Fin 2) * 512 + 1 * p.val = t.val * 512 + p.val; rw [e0]; omega
  | ⟨1, _⟩ => show win0_1.index t (1 : Fin 2) * 1024 + 1 * j.val = j.val; rw [e1]; omega

/-! ## The scratch arrays' rows and columns -/

/-- Rows of the stored negated row parts, from a batch's start plus 512 times the point. -/
theorem ld_fneg (X : Vec Ideal S2x1024x256 .f32) (W : Vec Ideal S256x128 .f32) (av : Vec Ideal S1x256 .f32) (b t : Fin 2)
    (off : Fin 2 → Nat) (inb : ∀ d, off d + S512x1.size d ≤ S2048x1.size d)
    (h0 : off 0 = b.val * 1024 + t.val * 512) (h1 : off 1 = 0) (p : Fin 512) :
    View.ld (Val := Elt Ideal) (e' := .f32) (k0_pay4 (F := Ideal) X W av) (Rect.unit (s := S2048x1) off S512x1.size inb) (ix2 p (0 : Fin 1))
      = fneg X W av b ⟨t.val * 512 + p.val, by have := t.isLt; have := p.isLt; omega⟩ := by
  refine Eq.trans (congrArg (k0_pay4 (F := Ideal) X W av) ?_) (pay_fneg X W av b ⟨t.val * 512 + p.val, by have := t.isLt; have := p.isLt; omega⟩)
  funext d
  apply Fin.ext
  match d with
  | ⟨0, _⟩ => show off 0 + 1 * p.val = b.val * 1024 + (t.val * 512 + p.val); rw [h0]; omega
  | ⟨1, _⟩ => show off 1 + 1 * 0 = 0; rw [h1]

/-- A batch's columns of the stored negated column parts. -/
theorem ld_gneg (X : Vec Ideal S2x1024x256 .f32) (W : Vec Ideal S256x128 .f32) (av : Vec Ideal S1x256 .f32) (b : Fin 2)
    (off : Fin 2 → Nat) (inb : ∀ d, off d + S1x1024.size d ≤ S1x2048.size d)
    (h0 : off 0 = 0) (h1 : off 1 = b.val * 1024) (j : Fin 1024) :
    View.ld (Val := Elt Ideal) (e' := .f32) (k0_pay5 (F := Ideal) X W av) (Rect.unit (s := S1x2048) off S1x1024.size inb) (ix2 (0 : Fin 1) j)
      = gneg X W av b j := by
  refine Eq.trans (congrArg (k0_pay5 (F := Ideal) X W av) ?_) (pay_gneg X W av b j)
  funext d
  apply Fin.ext
  match d with
  | ⟨0, _⟩ => show off 0 + 1 * 0 = 0; rw [h0]
  | ⟨1, _⟩ => show off 1 + 1 * j.val = b.val * 1024 + j.val; rw [h1]; omega

/-- A batch's rows of the stored features. -/
theorem ld_feat (X : Vec Ideal S2x1024x256 .f32) (W : Vec Ideal S256x128 .f32) (b : Fin 2)
    (off : Fin 2 → Nat) (inb : ∀ d, off d + S1024x128.size d ≤ S2048x128.size d)
    (h0 : off 0 = b.val * 1024) (h1 : off 1 = 0) (j : Fin 1024) (q : Fin 128) :
    View.ld (Val := Elt Ideal) (e' := .f32) (k0_pay3 (F := Ideal) X W) (Rect.unit (s := S2048x128) off S1024x128.size inb) (ix2 j q)
      = feat X W b j q := by
  refine Eq.trans (congrArg (k0_pay3 (F := Ideal) X W) ?_) (pay_feat3 X W b j q)
  funext d
  apply Fin.ext
  match d with
  | ⟨0, _⟩ => show off 0 + 1 * j.val = b.val * 1024 + j.val; rw [h0]; omega
  | ⟨1, _⟩ => show off 1 + 1 * q.val = q.val; rw [h1]; omega

/-! ## A point's block is the result at its rows -/

/-- Batch 0 of a point's block, from the adjacency rows of the point and the scratch arrays of the whole inputs. -/
theorem outBlk_KOut_b0 (X : Vec Ideal S2x1024x256 .f32) (A : Vec Ideal S1024x1024 .f32) (W : Vec Ideal S256x128 .f32) (av : Vec Ideal S1x256 .f32) (t : Fin cfg0.N) (x1 : Vec Ideal S512x1024 .f32)
    (hadj : ∀ (p : Fin 512) (j : Fin 1024), x1 (ix2 p j) = A (ix2 (⟨(pt t).val * 512 + p.val, by have := (pt t).isLt; have := p.isLt; omega⟩ : Fin 1024) j))
    (p : Fin 512) (q : Fin 128) :
    outBlk (grid0.coords t) x1 (k0_pay3 X W) (k0_pay4 X W av) (k0_pay5 X W av) (ix3 (0 : Fin 2) p q)
      = KOut X A W av (ix3 (0 : Fin 2) (⟨(pt t).val * 512 + p.val, by have := (pt t).isLt; have := p.isLt; omega⟩ : Fin 1024) q) := by
  obtain ⟨-, -, -, -, -, -, -, -, -, -, -, -, f0, f1, -, -⟩ := idx_facts t
  rw [outBlk_b0]
  refine (pay_block0 x1 _ _ _ p q).trans ?_
  exact blockOut_eq_KOut X A W av (0 : Fin 2) (pt t) x1 _ _ _ hadj
    (fun p => ld_fneg X W av (0 : Fin 2) (pt t) _ _ (by rw [f0]; show t.val * 512 = 0 * 1024 + t.val * 512; omega) f1 p)
    (fun j => ld_gneg X W av (0 : Fin 2) _ _ rfl rfl j)
    (fun j q => ld_feat X W (0 : Fin 2) _ _ rfl rfl j q) p q

/-- Batch 1 of a point's block. -/
theorem outBlk_KOut_b1 (X : Vec Ideal S2x1024x256 .f32) (A : Vec Ideal S1024x1024 .f32) (W : Vec Ideal S256x128 .f32) (av : Vec Ideal S1x256 .f32) (t : Fin cfg0.N) (x1 : Vec Ideal S512x1024 .f32)
    (hadj : ∀ (p : Fin 512) (j : Fin 1024), x1 (ix2 p j) = A (ix2 (⟨(pt t).val * 512 + p.val, by have := (pt t).isLt; have := p.isLt; omega⟩ : Fin 1024) j))
    (p : Fin 512) (q : Fin 128) :
    outBlk (grid0.coords t) x1 (k0_pay3 X W) (k0_pay4 X W av) (k0_pay5 X W av) (ix3 (1 : Fin 2) p q)
      = KOut X A W av (ix3 (1 : Fin 2) (⟨(pt t).val * 512 + p.val, by have := (pt t).isLt; have := p.isLt; omega⟩ : Fin 1024) q) := by
  obtain ⟨-, -, -, -, -, -, -, -, -, -, -, -, -, -, f0, f1⟩ := idx_facts t
  rw [outBlk_b1]
  refine (pay_block1 x1 _ _ _ p q).trans ?_
  exact blockOut_eq_KOut X A W av (1 : Fin 2) (pt t) x1 _ _ _ hadj
    (fun p => ld_fneg X W av (1 : Fin 2) (pt t) _ _ (by rw [f0]; show 1024 + t.val * 512 = 1 * 1024 + t.val * 512; omega) f1 p)
    (fun j => ld_gneg X W av (1 : Fin 2) _ _ rfl rfl j)
    (fun j q => ld_feat X W (1 : Fin 2) _ _ rfl rfl j q) p q

/-- Either batch. -/
theorem outBlk_KOut (X : Vec Ideal S2x1024x256 .f32) (A : Vec Ideal S1024x1024 .f32) (W : Vec Ideal S256x128 .f32) (av : Vec Ideal S1x256 .f32) (t : Fin cfg0.N) (x1 : Vec Ideal S512x1024 .f32)
    (hadj : ∀ (p : Fin 512) (j : Fin 1024), x1 (ix2 p j) = A (ix2 (⟨(pt t).val * 512 + p.val, by have := (pt t).isLt; have := p.isLt; omega⟩ : Fin 1024) j))
    (b : Fin 2) (p : Fin 512) (q : Fin 128) :
    outBlk (grid0.coords t) x1 (k0_pay3 X W) (k0_pay4 X W av) (k0_pay5 X W av) (ix3 b p q)
      = KOut X A W av (ix3 b (⟨(pt t).val * 512 + p.val, by have := (pt t).isLt; have := p.isLt; omega⟩ : Fin 1024) q) :=
  match b with
  | ⟨0, _⟩ => outBlk_KOut_b0 X A W av t x1 hadj p q
  | ⟨1, _⟩ => outBlk_KOut_b1 X A W av t x1 hadj p q

end Values

/-! ## The run: what each point writes back, and the array -/

section Run

open Cert.KernelIdeal.KPieces

variable (m : (ℓ : Loc nD τ sig) → Buf (Elt Ideal) ℓ)

/-- After the first point the first scratch array holds the features of the whole inputs. -/
theorem scratch0_at (c : Dev nD) (n : ℕ) (hn : n < cfg0.N) (h0 : n = 0) :
    (outsAt0 m c n hn).2.1 = (k0_pay3 (F := Ideal) (V m c main_arg0) (V m c main_arg2)) := by
  subst h0
  rw [outsAt0_A m c (⟨0, hn⟩ : Fin cfg0.N) rfl]
  dsimp only
  rw [soutA0_eq (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) scM0_1 (Memref.isWhole_whole _) scM0_2 (Memref.isWhole_whole _) ((hcond0_0 (⟨0, hn⟩ : Fin cfg0.N)).mpr rfl) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)), xBlk_eq, wBlk_eq]

/-- The second holds their negated row parts. -/
theorem scratch1_at (c : Dev nD) (n : ℕ) (hn : n < cfg0.N) (h0 : n = 0) :
    (outsAt0 m c n hn).2.2.1 = (k0_pay4 (F := Ideal) (V m c main_arg0) (V m c main_arg2) (V m c main_arg3)) := by
  subst h0
  rw [outsAt0_A m c (⟨0, hn⟩ : Fin cfg0.N) rfl]
  dsimp only
  rw [soutA1_eq (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) scM0_1 (Memref.isWhole_whole _) scM0_2 (Memref.isWhole_whole _) ((hcond0_0 (⟨0, hn⟩ : Fin cfg0.N)).mpr rfl) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)), xBlk_eq, wBlk_eq, aBlk_eq]

/-- The third holds their negated column parts. -/
theorem scratch2_at (c : Dev nD) (n : ℕ) (hn : n < cfg0.N) (h0 : n = 0) :
    (outsAt0 m c n hn).2.2.2 = (k0_pay5 (F := Ideal) (V m c main_arg0) (V m c main_arg2) (V m c main_arg3)) := by
  subst h0
  rw [outsAt0_A m c (⟨0, hn⟩ : Fin cfg0.N) rfl]
  dsimp only
  rw [soutA2_eq (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) scM0_1 (Memref.isWhole_whole _) scM0_2 (Memref.isWhole_whole _) ((hcond0_0 (⟨0, hn⟩ : Fin cfg0.N)).mpr rfl) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)), xBlk_eq, wBlk_eq, aBlk_eq]

/-- What either point writes back is its block over the scratch arrays of the whole inputs: the first point reads what
    its own prologue stored, the second what the first left. -/
theorem flushed_blk (c : Dev nD) (t : Fin cfg0.N) :
    (dats m 0 c).flushed 4 t = (cfg0.win 4).cut (grid0.coords t) (outBlk (grid0.coords t) (iblk m c 1 t) (k0_pay3 (F := Ideal) (V m c main_arg0) (V m c main_arg2)) (k0_pay4 (F := Ideal) (V m c main_arg0) (V m c main_arg2) (V m c main_arg3)) (k0_pay5 (F := Ideal) (V m c main_arg0) (V m c main_arg2) (V m c main_arg3))) := by
  have hN : t.val < 2 := lt_of_lt_of_eq t.isLt N_0
  by_cases h0 : t.val % 2 = 0
  · rw [flushed4_A m c t h0, outA4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), xBlk_eq, wBlk_eq, aBlk_eq]
    rfl
  · rw [flushed4_B m c t h0, outB4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      scratch0_at m c (t.val - 1) _ (by omega), scratch1_at m c (t.val - 1) _ (by omega), scratch2_at m c (t.val - 1) _ (by omega)]
    rfl

/-- What point t writes back is block t of the result. -/
theorem flushed_eq (c : Dev nD) (t : Fin cfg0.N) :
    (dats m 0 c).flushed 4 t = ((cfg0.win 4).blk t).view.read (Elt Ideal) (KOut (V m c main_arg0) (V m c main_arg1) (V m c main_arg2) (V m c main_arg3)) := by
  obtain ⟨-, -, -, -, -, -, -, -, -, g0, g1, g2, -⟩ := idx_facts t
  rw [flushed_blk]
  refine funext fun (y : S2x512x128.Idx) => ?_
  have hb : (y 0).val < 2 := (y 0).isLt
  have hp : (y 1).val < 512 := (y 1).isLt
  have hq : (y 2).val < 128 := (y 2).isLt
  have hN : t.val < 2 := lt_of_lt_of_eq t.isLt N_0
  show outBlk (grid0.coords t) (iblk m c 1 t) (k0_pay3 (F := Ideal) (V m c main_arg0) (V m c main_arg2)) (k0_pay4 (F := Ideal) (V m c main_arg0) (V m c main_arg2) (V m c main_arg3)) (k0_pay5 (F := Ideal) (V m c main_arg0) (V m c main_arg2) (V m c main_arg3)) (win0_4.xinj (grid0.coords t) y)
      = KOut (V m c main_arg0) (V m c main_arg1) (V m c main_arg2) (V m c main_arg3) (((cfg0.win 4).blk t).view.emb y)
  have e1 : (win0_4.xinj (grid0.coords t) y : S2x512x128.Idx)
      = ix3 (⟨(y 0).val, hb⟩ : Fin 2) (⟨(y 1).val, hp⟩ : Fin 512) (⟨(y 2).val, hq⟩ : Fin 128) := by
    funext d
    match d with
    | ⟨0, _⟩ => rfl
    | ⟨1, _⟩ => rfl
    | ⟨2, _⟩ => rfl
  have e2 : (((cfg0.win 4).blk t).view.emb y : S2x1024x128.Idx)
      = ix3 (⟨(y 0).val, hb⟩ : Fin 2) (⟨(pt t).val * 512 + (y 1).val, by show t.val * 512 + (y 1).val < 1024; omega⟩ : Fin 1024) (⟨(y 2).val, hq⟩ : Fin 128) := by
    funext d
    apply Fin.ext
    match d with
    | ⟨0, _⟩ => show win0_4.index t (0 : Fin 3) * 2 + 1 * (y 0).val = (y 0).val; rw [g0]; omega
    | ⟨1, _⟩ => show win0_4.index t (1 : Fin 3) * 512 + 1 * (y 1).val = t.val * 512 + (y 1).val; rw [g1]; omega
    | ⟨2, _⟩ => show win0_4.index t (2 : Fin 3) * 128 + 1 * (y 2).val = (y 2).val; rw [g2]; omega
  refine Eq.trans (congrArg (outBlk (grid0.coords t) (iblk m c 1 t) (k0_pay3 (F := Ideal) (V m c main_arg0) (V m c main_arg2)) (k0_pay4 (F := Ideal) (V m c main_arg0) (V m c main_arg2) (V m c main_arg3)) (k0_pay5 (F := Ideal) (V m c main_arg0) (V m c main_arg2) (V m c main_arg3))) e1) ?_
  refine Eq.trans ?_ (congrArg (KOut (V m c main_arg0) (V m c main_arg1) (V m c main_arg2) (V m c main_arg3)) e2.symm)
  exact outBlk_KOut (V m c main_arg0) (V m c main_arg1) (V m c main_arg2) (V m c main_arg3) t (iblk m c 1 t) (fun p j => adjBlk_apply m c t p j) _ _ _

/-- An index of the result array lies in point t's block iff each coordinate lies in the block's range on its axis. -/
theorem mem_blk4 (t : Fin cfg0.N) (i : S2x1024x128.Idx) :
    i ∈ ((cfg0.win 4).blk t).view.set ↔ ∀ d : Fin 3, win0_4.index t d * S2x512x128.size d ≤ (i d).val ∧ (i d).val < win0_4.index t d * S2x512x128.size d + S2x512x128.size d := by
  show i ∈ ((View.whole main_v0).slice (win0_4.rect t)).set ↔ _
  rw [View.set_slice_whole, Rect.mem_set_unit]
  exact Iff.rfl

/-- Every index of the result array lies in the block of the point its row divided by 512 names. -/
theorem cover4 (i : S2x1024x128.Idx) : ∃ t : Fin cfg0.N, (cfg0.win 4).flush t = true ∧ i ∈ ((cfg0.win 4).blk t).view.set := by
  have h0 : (i 0).val < 2 := (i 0).isLt
  have h1 : (i 1).val < 1024 := (i 1).isLt
  have h2 : (i 2).val < 128 := (i 2).isLt
  have hN : cfg0.N = 2 := N_0
  obtain ⟨t, ht⟩ : ∃ t : Fin cfg0.N, t.val = (i 1).val / 512 := ⟨⟨(i 1).val / 512, by rw [hN]; omega⟩, rfl⟩
  obtain ⟨-, -, -, -, -, -, -, -, -, g0, g1, g2, -⟩ := idx_facts t
  refine ⟨t, flush0_4 t, ?_⟩
  rw [mem_blk4]
  intro d
  match d with
  | ⟨0, _⟩ => show win0_4.index t (0 : Fin 3) * 2 ≤ (i 0).val ∧ (i 0).val < win0_4.index t (0 : Fin 3) * 2 + 2; rw [g0]; omega
  | ⟨1, _⟩ => show win0_4.index t (1 : Fin 3) * 512 ≤ (i 1).val ∧ (i 1).val < win0_4.index t (1 : Fin 3) * 512 + 512; rw [g1, ht]; omega
  | ⟨2, _⟩ => show win0_4.index t (2 : Fin 3) * 128 ≤ (i 2).val ∧ (i 2).val < win0_4.index t (2 : Fin 3) * 128 + 128; rw [g2]; omega

/-- So the result array ends holding KOut of the argument arrays. -/
theorem final (c : Dev nD) : (dats m 0 c).arrAt 4 cfg0.N = KOut (V m c main_arg0) (V m c main_arg1) (V m c main_arg2) (V m c main_arg3) :=
  (dats m 0 c).arrAt_eq_of_cover 4 (KOut (V m c main_arg0) (V m c main_arg1) (V m c main_arg2) (V m c main_arg3)) (fun t _ => flushed_eq m c t) (fun i => cover4 i)

end Run

/-- The run of the blocked program: the result array is KOut of the launch contents of the four arguments, which are kept. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0)
          = KOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun r h c => ⟨(h c).1.trans (final m c), (h c).2⟩) (Value.run_blocks m ρ)

end Cert.KernelIdeal.KBlocks

end
-- ==== Proof.Algebra.lean ====
/-
  The two arrangements of the layer agree on finite inputs with a 0/1 adjacency matrix.
-/
import proofs.«106906_g31842887532864_cont_sun_m_711_10_alg».proof.Proof.Spec

noncomputable section

open scoped BigOperators

namespace Cert.Gat

open Idealize.ShloMosaic Idealize.ShloMosaic.ValueIdx

/-- The coercion of a finite sum of reals is the sum of the coercions. -/
private theorem coe_sum' {ι : Type} (s : Finset ι) (f : ι → ℝ) :
    ((∑ i ∈ s, f i : ℝ) : EReal) = ∑ i ∈ s, (f i : EReal) := by
  classical
  refine Finset.induction_on s (by simp) ?_
  intro x s hx ih
  rw [Finset.sum_insert hx, Finset.sum_insert hx, EReal.coe_add, ih]

/-- The leaky slope is a real strictly between 0 and 1. -/
private theorem alpha_real : ∃ al : ℝ, alpha = (al : EReal) ∧ 0 < al ∧ al < 1 := by
  refine ⟨13421773 / 67108864, ?_, by norm_num, by norm_num⟩
  unfold alpha
  simp [Ideal.ofBits, Ideal.ieee, -EReal.coe_mul]
  norm_num

section
variable (X : SX.Idx → EReal) (A : SAdj.Idx → EReal) (W : SW.Idx → EReal) (a : SAtt.Idx → EReal)

/-- A projected feature of real inputs is a real. -/
private theorem feat_real (hX : ∀ i, ∃ r : ℝ, X i = (r : EReal)) (hW : ∀ i, ∃ r : ℝ, W i = (r : EReal))
    (b : Fin 2) (j : Fin 1024) (c : Fin 128) : ∃ r : ℝ, feat X W b j c = (r : EReal) := by
  choose x hx using hX
  choose w hw using hW
  refine ⟨∑ k : Fin 256, x (ix3 b j k) * w (ix2 k c), ?_⟩
  rw [coe_sum']
  unfold feat
  refine Finset.sum_congr rfl fun k _ => ?_
  rw [hx, hw, EReal.coe_mul]

/-- The first 128 stacked features are node i's. -/
private theorem pairFeat_lo (b : Fin 2) (i j : Fin 1024) (k : Fin 128) :
    pairFeat X W b i j ⟨k.val, by omega⟩ = feat X W b i k := by
  have hk : k.val < 128 := k.isLt
  unfold pairFeat
  rw [if_pos (show (⟨k.val, by omega⟩ : Fin 256).val < 128 from hk)]
  congr 1
  exact Fin.ext (Nat.mod_eq_of_lt hk)

/-- The last 128 stacked features are node j's. -/
private theorem pairFeat_hi (b : Fin 2) (i j : Fin 1024) (k : Fin 128) :
    pairFeat X W b i j ⟨128 + k.val, by omega⟩ = feat X W b j k := by
  have hk : k.val < 128 := k.isLt
  unfold pairFeat
  rw [if_neg (show ¬ (⟨128 + k.val, by omega⟩ : Fin 256).val < 128 from by simp)]
  congr 1
  refine Fin.ext ?_
  show (128 + k.val) % 128 = k.val
  omega

/-- The score splits into node i's half and node j's half. -/
private theorem score_split (b : Fin 2) (i j : Fin 1024) :
    score X W a b i j =
      (∑ k : Fin 128, a (ix2 (0 : Fin 1) ⟨k.val, by omega⟩) * feat X W b i k)
      + ∑ k : Fin 128, a (ix2 (0 : Fin 1) ⟨128 + k.val, by omega⟩) * feat X W b j k := by
  unfold score
  show (∑ k : Fin (128 + 128), a (ix2 (0 : Fin 1) k) * pairFeat X W b i j k) = _
  rw [Fin.sum_univ_add]
  refine congrArg₂ (· + ·) (Finset.sum_congr rfl fun k _ => ?_) (Finset.sum_congr rfl fun k _ => ?_)
  · exact congrArg (a (ix2 (0 : Fin 1) ⟨k.val, by omega⟩) * ·) (pairFeat_lo X W b i j k)
  · exact congrArg (a (ix2 (0 : Fin 1) ⟨128 + k.val, by omega⟩) * ·) (pairFeat_hi X W b i j k)

end

section
variable (X : SX.Idx → EReal) (A : SAdj.Idx → EReal) (W : SW.Idx → EReal) (a : SAtt.Idx → EReal)

/-- On real inputs the score is a real s, and the sum of the two negated parts is -s. -/
private theorem score_tK_real (hX : ∀ i, ∃ r : ℝ, X i = (r : EReal)) (hW : ∀ i, ∃ r : ℝ, W i = (r : EReal))
    (ha : ∀ i, ∃ r : ℝ, a i = (r : EReal)) (b : Fin 2) (i j : Fin 1024) :
    ∃ s : ℝ, score X W a b i j = (s : EReal) ∧ tK X W a b i j = ((-s : ℝ) : EReal) := by
  choose h hh using feat_real X W hX hW
  choose ar har using ha
  refine ⟨(∑ k : Fin 128, ar (ix2 (0 : Fin 1) ⟨k.val, by omega⟩) * h b i k)
      + ∑ k : Fin 128, ar (ix2 (0 : Fin 1) ⟨128 + k.val, by omega⟩) * h b j k, ?_, ?_⟩
  · rw [score_split, EReal.coe_add, coe_sum', coe_sum']
    refine congrArg₂ (· + ·) (Finset.sum_congr rfl fun k _ => ?_) (Finset.sum_congr rfl fun k _ => ?_)
    · rw [har, hh, EReal.coe_mul]
    · rw [har, hh, EReal.coe_mul]
  · unfold tK fneg gneg
    rw [neg_add, EReal.coe_add, ← Finset.sum_neg_distrib, ← Finset.sum_neg_distrib, coe_sum', coe_sum']
    refine congrArg₂ (· + ·) (Finset.sum_congr rfl fun k _ => ?_) (Finset.sum_congr rfl fun k _ => ?_)
    · rw [har, hh, ← EReal.coe_zero, ← EReal.coe_sub, ← EReal.coe_mul]
      congr 1; ring
    · rw [har, hh, ← EReal.coe_zero, ← EReal.coe_sub, ← EReal.coe_mul]
      congr 1; ring

end

/-- With t = -s real: the smaller of t and alpha t is -(leakyrelu s). -/
private theorem min_neg_eq (s : ℝ) :
    min ((-s : ℝ) : EReal) (alpha * ((-s : ℝ) : EReal)) = -(lrelu (s : EReal)) := by
  obtain ⟨al, hal, h0, h1⟩ := alpha_real
  unfold lrelu
  rw [hal, ← EReal.coe_mul, ← EReal.coe_strictMono.monotone.map_min]
  by_cases hs : 0 ≤ s
  · rw [if_pos (EReal.coe_nonneg.mpr hs), ← EReal.coe_neg]
    congr 1
    apply min_eq_left
    nlinarith [mul_nonneg hs (sub_nonneg.mpr h1.le)]
  · rw [if_neg (fun hc => hs (EReal.coe_nonneg.mp hc)), ← EReal.coe_mul, ← EReal.coe_neg]
    congr 1
    have hs' : s < 0 := not_le.mp hs
    rw [min_eq_right (by nlinarith [mul_pos (neg_pos.mpr hs') (sub_pos.mpr h1)])]
    ring

/-- The product with the reciprocal is the quotient, with 1 in place of a zero divisor. -/
private theorem mul_recip_eq_div (x y : EReal) :
    x * (if y ≠ 0 then Ideal.div 1 y else 1) = Ideal.div x (if y ≠ 0 then y else 1) := by
  by_cases hy : y = 0
  · rw [if_neg (not_not.mpr hy), if_neg (not_not.mpr hy)]
    unfold Ideal.div
    rw [if_neg one_ne_zero, inv_one]
  · rw [if_pos hy, if_pos hy]
    unfold Ideal.div
    rw [if_neg hy, if_neg hy, one_mul]

/-- elu written with a minimum is elu. -/
private theorem elu_min (v : EReal) : (if 0 < v then v else Ideal.exp (min v 0) - 1) = elu v := by
  unfold elu
  by_cases hv : 0 < v
  · rw [if_pos hv, if_pos hv]
  · rw [if_neg hv, if_neg hv, min_eq_left (not_lt.mp hv)]

section
variable (X : SX.Idx → EReal) (A : SAdj.Idx → EReal) (W : SW.Idx → EReal) (a : SAtt.Idx → EReal)
  (hX : ∀ i, ∃ r : ℝ, X i = (r : EReal)) (hW : ∀ i, ∃ r : ℝ, W i = (r : EReal))
  (ha : ∀ i, ∃ r : ℝ, a i = (r : EReal)) (hA : ∀ i, A i = 0 ∨ A i = 1)
include hX hW ha hA

/-- The masked weight is the weight on a marked pair and 0 on an unmarked one. -/
private theorem eK_eq_edgeW (b : Fin 2) (i j : Fin 1024) : eK X A W a b i j = edgeW X A W a b i j := by
  obtain ⟨s, hs, ht⟩ := score_tK_real X W a hX hW ha b i j
  unfold eK edgeW weight
  rw [ht, min_neg_eq, hs]
  rcases hA (ix2 i j) with h | h
  · rw [h, zero_mul, if_neg (by simp)]
  · rw [h, one_mul, if_pos one_ne_zero]

/-- The two weight sums agree. -/
private theorem rsK_eq_rowsum (b : Fin 2) (i : Fin 1024) : rsK X A W a b i = rowsum X A W a b i := by
  unfold rsK rowsum
  exact Finset.sum_congr rfl fun j _ => eK_eq_edgeW X A W a hX hW ha hA b i j

/-- The normalised weighted sums agree. -/
private theorem hpK_eq_norm (b : Fin 2) (i : Fin 1024) (c : Fin 128) :
    hpK X A W a b i c = norm X A W a b i c := by
  have hagg : (∑ j : Fin 1024, eK X A W a b i j * feat X W b j c) = agg X A W a b i c := by
    unfold agg
    exact Finset.sum_congr rfl fun j _ => by rw [eK_eq_edgeW X A W a hX hW ha hA b i j]
  unfold hpK recipK norm
  rw [hagg, rsK_eq_rowsum X A W a hX hW ha hA b i]
  exact mul_recip_eq_div _ _

end

/-- On real inputs and a 0/1 adjacency matrix the blocked arrangement computes G. -/
theorem kout_eq_G (X : SX.Idx → EReal) (A : SAdj.Idx → EReal) (W : SW.Idx → EReal) (a : SAtt.Idx → EReal)
    (hX : ∀ i, ∃ r : ℝ, X i = (r : EReal)) (hW : ∀ i, ∃ r : ℝ, W i = (r : EReal)) (ha : ∀ i, ∃ r : ℝ, a i = (r : EReal))
    (hA : ∀ i, A i = 0 ∨ A i = 1) : KOut X A W a = G X A W a := by
  funext idx
  exact (elu_min _).trans (congrArg elu (hpK_eq_norm X A W a hX hW ha hA (idx 0) (idx 1) (idx 2)))

end Cert.Gat

end
-- ==== Proof.PreDecode.lean ====
/-
  What the precondition says of the four inputs: three are arrays of reals, and the adjacency matrix holds only 0 and 1.
-/
import proofs.«106906_g31842887532864_cont_sun_m_711_10_alg».proof.Pre_finite_inputs
import proofs.«106906_g31842887532864_cont_sun_m_711_10_alg».proof.Proof.Gen.Pre_finite_inputs
import Idealize.ShloMosaic.PureOps.Ideal
import Idealize.ShloMosaic.Lib.ValueIdx
import Idealize.ShloMosaic.Lib.ReduceAll

noncomputable section

namespace Cert.Gat.PreDecode

open Idealize.ShloMosaic Idealize.ShloMosaic.ValueIdx Cert.Pre_finite_inputs

variable [Cert.Pre_finite_inputs.Facts]

/-! ### The three f32 patterns the precondition compares against, as extended reals -/

/-- The f32 pattern of +∞ (exponent field all ones, fraction zero, sign clear) is the top extended real. -/
private theorem ofBits_f32_inf : Ideal.ofBits .f32 0x7F800000#32 = (⊤ : EReal) := by
  simp [Ideal.ofBits, Ideal.ieee]

/-- The all-zero f32 pattern is the extended real 0. -/
private theorem ofBits_f32_zero : Ideal.ofBits .f32 0x00000000#32 = (0 : EReal) := by
  simp [Ideal.ofBits, Ideal.ieee]

/-- The f32 pattern with exponent field 127 and fraction zero is 2²³ · 2⁻²³ = 1. -/
private theorem ofBits_f32_one : Ideal.ofBits .f32 0x3F800000#32 = (1 : EReal) := by
  have e : Ideal.ofBits .f32 0x3F800000#32 = ((1 : ℝ) : EReal) := by
    simp [Ideal.ofBits, Ideal.ieee, -EReal.coe_mul]; norm_num
  simpa using e

/-! ### One element of each conjunct -/

/-- At the extended reals |x| = max x (−x), and |x| < +∞ fails at both infinities (|±∞| = +∞): x is a real. -/
private theorem real_of_abs_lt (x : EReal)
    (h : Ideal.cmp .olt (max x (-x)) (Ideal.ofBits .f32 0x7F800000#32) = 1#1) : ∃ r : ℝ, x = (r : EReal) := by
  rw [ofBits_f32_inf] at h
  induction x using EReal.rec with
  | bot => simp [Ideal.cmp] at h
  | coe r => exact ⟨r, rfl⟩
  | top => simp [Ideal.cmp] at h

/-- The one-bit disjunction of the compares x = 0 and x = 1 is set exactly when one of the two equalities holds. -/
private theorem zero_or_one_of_cmp (x : EReal)
    (h : IntOp.ori (Ideal.cmp .oeq x (Ideal.ofBits .f32 0x00000000#32))
          (Ideal.cmp .oeq x (Ideal.ofBits .f32 0x3F800000#32)) = 1#1) :
    x = 0 ∨ x = 1 := by
  rw [ofBits_f32_zero, ofBits_f32_one] at h
  rcases IntOp.ori_eq_one.1 h with h | h
  · left; by_contra hne; simp [Ideal.cmp, hne] at h
  · right; by_contra hne; simp [Ideal.cmp, hne] at h

/-- An entry of an array whose |entries| compare below the +∞ splat: the compare at that entry is the scalar one. -/
private theorem entry_real {S : Shape} (hb : S_.BroadcastsInDim S (![] : Fin 0 → Fin S.rank)) (x : FVec Ideal S .f32)
    (i : S.Idx)
    (h : cmpf .olt (Host.absf x) (broadcastInDim S ![] hb (constant (F := Ideal) S_ .f32 0x7F800000#32)) i = 1#1) :
    ∃ r : ℝ, x i = (r : EReal) :=
  real_of_abs_lt (x i) h

/-- An entry of an array whose entries equal the 0 splat or the 1 splat: again the scalar fact at that entry. -/
private theorem entry_zero_or_one {S : Shape} (hb : S_.BroadcastsInDim S (![] : Fin 0 → Fin S.rank))
    (x : FVec Ideal S .f32) (i : S.Idx)
    (h : ori (cmpf .oeq x (broadcastInDim S ![] hb (constant (F := Ideal) S_ .f32 0x00000000#32)))
          (cmpf .oeq x (broadcastInDim S ![] hb (constant (F := Ideal) S_ .f32 0x3F800000#32))) i = 1#1) :
    x i = 0 ∨ x i = 1 :=
  zero_or_one_of_cmp (x i) h

/-- The precondition, all ones, gives: every entry of the batch, the projection and the attention vector is a real,
    and every adjacency entry is 0 or 1. -/
theorem pre_facts (X : FVec Ideal S2x1024x256 .f32) (A : FVec Ideal S1024x1024 .f32) (W : FVec Ideal S256x128 .f32) (a : FVec Ideal S1x256 .f32)
    (h : Cert.Pre_finite_inputs.fn (F := Ideal) X A W a = (fun _ => 1#1)) :
    (∀ i, ∃ r : ℝ, X i = (r : EReal)) ∧ (∀ i, ∃ r : ℝ, W i = (r : EReal)) ∧ (∀ i, ∃ r : ℝ, a i = (r : EReal))
      ∧ (∀ i, A i = 0 ∨ A i = 1) := by
  -- The predicate's one word is the conjunction ((((all X ∧ all A) ∧ all W) ∧ all a) ∧ all (A = 0 ∨ A = 1)).
  have h0 := congrFun h ValueIdx.ix0
  dsimp only [Cert.Pre_finite_inputs.fn, Cert.Pre_finite_inputs.fn_part1] at h0
  simp only [andi] at h0
  obtain ⟨h1234, hA01⟩ := IntOp.andi_eq_one.1 h0
  obtain ⟨h123, ha⟩ := IntOp.andi_eq_one.1 h1234
  obtain ⟨h12, hW⟩ := IntOp.andi_eq_one.1 h123
  obtain ⟨hX, _⟩ := IntOp.andi_eq_one.1 h12
  -- The rank-0 result has one index, so each conjunct, a reduction by "and" over all axes, holds at every entry.
  haveI : Subsingleton S_.Idx := ⟨fun p q => funext fun d => d.elim0⟩
  refine ⟨fun i => ?_, fun i => ?_, fun i => ?_, fun i => ?_⟩
  · exact entry_real _ X i (Host.reduce_andi_all _ _ _ _ _ hX i)
  · exact entry_real _ W i (Host.reduce_andi_all _ _ _ _ _ hW i)
  · exact entry_real _ a i (Host.reduce_andi_all _ _ _ _ _ ha i)
  · exact entry_zero_or_one _ A i (Host.reduce_andi_all _ _ _ _ _ hA01 i)

end Cert.Gat.PreDecode

end
-- ==== Proof.RefTerm.lean ====
/-
  The reference program's result as ONE pure function of its four arguments, cut into named stages.

  The program first lists the marked pairs of the adjacency matrix: the marks flattened row by row (2^20 of them),
  their running count, a histogram of the running count, and the running sum of that histogram give, for each edge
  slot e, the flat position of the (e+1)-th mark; quotient and remainder by 1024 split it into a row and a column;
  slots past the number of marks are filled with 0 and flagged invalid. Then, per batch, the layer: features h = x · W,
  the per-edge score a · (h_row, h_col), the weight exp (- leakyrelu score) (0 on invalid slots), the weights summed
  per row, the weighted features summed per row, the quotient, elu. Each stage below is one value of the program,
  written as the operations that make it; nothing is simplified.
-/
import proofs.«106906_g31842887532864_cont_sun_m_711_10_alg».proof.ReferenceIdeal

noncomputable section

namespace Cert.ReferenceIdeal.RefTerm

open Cert.ReferenceIdeal Idealize.ShloMosaic

variable {F : FTy → Type} [FloatOps F] [Facts]
open Facts₀ Facts

/-! ## Constants spread over the shapes in use -/

/-- An integer word at every edge slot. -/
def bI (w : BitVec 32) : IVec S1048576 32 := broadcastInDim S1048576 ![] bcast_S_S1048576 (constantI S_ 32 w)
/-- A float pattern at every edge slot. -/
def bE (w : BitVec 32) : FVec F S1048576 .f32 := broadcastInDim S1048576 ![] bcast_S_S1048576 (constant (F := F) S_ .f32 w)
/-- A float pattern at every (node, feature). -/
def bNF (w : BitVec 32) : FVec F S1024x128 .f32 := broadcastInDim S1024x128 ![] bcast_S_S1024x128 (constant (F := F) S_ .f32 w)
/-- A float pattern at every node, as a column. -/
def bN1 (w : BitVec 32) : FVec F S1024x1 .f32 := broadcastInDim S1024x1 ![] bcast_S_S1024x1 (constant (F := F) S_ .f32 w)
/-- A vector of words as a one-column index table. -/
def col (r : IVec S1048576 32) : IVec S1048576x1 32 := broadcastInDim S1048576x1 ![0] bcast_S1048576_S1048576x1_0 r

/-! ## The marked pairs, listed -/

/-- The marks: adjacency entry ≠ 0. -/
def mask1 (A : FVec F S1024x1024 .f32) : IVec S1024x1024 1 :=
  cmpf .une A (broadcastInDim S1024x1024 ![] bcast_S_S1024x1024 (constant (F := F) S_ .f32 0x00000000#32))

/-- The running sum of a vector of words (a window of the full length, padded low). -/
def cumsumW (x : IVec S1048576 32) : IVec S1048576 32 :=
  Host.reduceWindow IntOp.addi ![1048576] ![1] ![1048575] ![0] x (broadcastInDim S_ ![] bcast_S_S_ (constantI S_ 32 0#32))
    reduceWindows_S1048576_S1048576_w1048576s1p1048575_0 h_S_

/-- The running count of marks, in flat row-major order. -/
def cum (A : FVec F S1024x1024 .f32) : IVec S1048576 32 :=
  cumsumW (extui 32 (shapeCast S1048576 (mask1 A) shapeCasts_S1024x1024_S1048576) natLt_1_32)

/-- The running count clipped below at 0. -/
def cumClip (A : FVec F S1024x1024 .f32) : IVec S1048576 32 := maxsi (bI 0) (cum A)

/-- The histogram's bin of each flat position: a negative word wrapped by the length. -/
def binIdx (A : FVec F S1024x1024 .f32) : IVec S1048576 32 :=
  select (cmpi .slt (cumClip A) (bI 0)) (addi (cumClip A) (bI 1048576)) (cumClip A)

/-- The histogram of the running count: one added at each position's bin. -/
def hist (A : FVec F S1024x1024 .f32) : IVec S1048576 32 :=
  Host.scatter scatter_S1048576_S1048576x1_S1048576_n_0_0_1 IntOp.addi (bI 0) (col (binIdx A)) (bI 1)

/-- The running sum of the histogram: slot e holds the flat position of the (e+1)-th mark. -/
def flat (A : FVec F S1024x1024 .f32) : IVec S1048576 32 := cumsumW (hist A)

/-- Floor division of every word by one divisor. -/
def floorDiv (x : IVec S1048576 32) (d : IVec S_ 32) : IVec S1048576 32 :=
  let q := Host.divsi x (broadcastInDim S1048576 ![] bcast_S_S1048576 d)
  select (andi (cmpi .ne (signi x) (broadcastInDim S1048576 ![] bcast_S_S1048576 (signi d)))
               (cmpi .ne (Host.remsi x (broadcastInDim S1048576 ![] bcast_S_S1048576 d)) (bI 0)))
    (subi q (bI 1)) q

/-- The divisor a remainder uses: 1 in place of 0. -/
def remDiv (d : IVec S_ 32) : IVec S_ 32 := select (cmpi .eq d (constantI S_ 32 0#32)) (constantI S_ 32 1#32) d

/-- The remainder with the divisor's sign, of every word by one divisor. -/
def remainder (x : IVec S1048576 32) (d : IVec S_ 32) : IVec S1048576 32 :=
  let r := Host.remsi x (broadcastInDim S1048576 ![] bcast_S_S1048576 (remDiv d))
  select (andi (cmpi .ne (cmpi .slt r (bI 0))
                 (broadcastInDim S1048576 ![] bcast_S_S1048576 (cmpi .slt (remDiv d) (constantI S_ 32 0#32))))
               (cmpi .ne r (bI 0)))
    (addi r (broadcastInDim S1048576 ![] bcast_S_S1048576 (remDiv d))) r

/-- The row of each listed position, before the fill. -/
def rowsRaw (A : FVec F S1024x1024 .f32) : IVec S1048576 32 :=
  remainder (floorDiv (flat A) (constantI S_ 32 1024#32)) (constantI S_ 32 1024#32)
/-- The column of each listed position, before the fill. -/
def colsRaw (A : FVec F S1024x1024 .f32) : IVec S1048576 32 :=
  remainder (floorDiv (flat A) (constantI S_ 32 1#32)) (constantI S_ 32 1024#32)

/-- The number of marks. -/
def count (A : FVec F S1024x1024 .f32) : IVec S_ 32 :=
  Host.reduce IntOp.addi (extui 32 (mask1 A) natLt_1_32) (constantI S_ 32 0#32) reducesTo_S1024x1024_S_d0_1 h_S_

/-- Slots at or past the number of marks. -/
def past (A : FVec F S1024x1024 .f32) : IVec S1048576 1 :=
  cmpi .sge (iotaInDim S1048576 32 0) (broadcastInDim S1048576 ![] bcast_S_S1048576 (count A))

/-- THE ROW WORD of each edge slot: 0 past the number of marks. -/
def rows (A : FVec F S1024x1024 .f32) : IVec S1048576 32 := select (past A) (bI 0) (rowsRaw A)
/-- THE COLUMN WORD of each edge slot: 0 past the number of marks. -/
def cols (A : FVec F S1024x1024 .f32) : IVec S1048576 32 := select (past A) (bI 0) (colsRaw A)
/-- THE VALID FLAG of each edge slot: before the number of marks. -/
def valid (A : FVec F S1024x1024 .f32) : IVec S1048576 1 :=
  cmpi .slt (iotaInDim S1048576 32 0) (broadcastInDim S1048576 ![] bcast_S_S1048576 (count A))

/-! ## One batch's layer -/

/-- An index word made non-negative the way a negative index wraps. -/
def wrap (r : IVec S1048576 32) : IVec S1048576 32 := select (cmpi .slt r (bI 0)) (addi r (bI 1024)) r

/-- The projected features, a not-a-number replaced by 0. -/
def hfeat (x : FVec F S1024x256 .f32) (W : FVec F S256x128 .f32) : FVec F S1024x128 .f32 :=
  let h := Host.dotGeneral dot_S1024x256_S256x128_S1024x128_1_0_0_1_n_n none x W
  select (cmpf .une h h) (bNF 0x00000000#32) h

/-- Per edge slot, the features of the node its word names. -/
def takeRows (h : FVec F S1024x128 .f32) (r : IVec S1048576 32) : FVec F S1048576x128 .f32 :=
  Host.gather gather_S1024x128_S1048576x1_S1048576x128_1_0_n_n_0_1_1128 h (col (wrap r))

/-- The per-edge score: the attention vector against the stacked features of the edge's two nodes. -/
def escore (h : FVec F S1024x128 .f32) (rw cl : IVec S1048576 32) (a : FVec F S1x256 .f32) : FVec F S1048576 .f32 :=
  shapeCast S1048576
    (Host.dotGeneral dot_S1x256_S256x1048576_S1x1048576_1_0_0_1_n_n none a
      (transpose S256x1048576 [1, 0]
        (concatenate S1048576x256 1 [⟨S1048576x128, takeRows h rw⟩, ⟨S1048576x128, takeRows h cl⟩]
          concatenates_S1048576x128_S1048576x128_S1048576x256_d1)
        transposes_S1048576x256_S256x1048576_1_0))
    shapeCasts_S1x1048576_S1048576

/-- The per-edge weight: exp (- leakyrelu score), a not-a-number replaced by 0, 0 on an invalid slot. -/
def eweight (s : FVec F S1048576 .f32) (vl : IVec S1048576 1) : FVec F S1048576 .f32 :=
  let l := select (cmpf .oge s (bE 0x00000000#32)) s (mulf (bE 0x3E4CCCCD#32) s)
  let w := Host.exp (Host.negf l)
  select vl (select (cmpf .une w w) (bE 0x00000000#32) w) (bE 0x00000000#32)

/-- The weights summed per row node, as a column; 1 where the sum is 0. -/
def erowsum (w : FVec F S1048576 .f32) (rw : IVec S1048576 32) : FVec F S1024x1 .f32 :=
  let s := broadcastInDim S1024x1 ![0] bcast_S1024_S1024x1_0
    (Host.scatterAdd scatter_S1024_S1048576x1_S1048576_n_0_0_1
      (broadcastInDim S1024 ![] bcast_S_S1024 (constant (F := F) S_ .f32 0x00000000#32)) (col rw) w)
  select (cmpf .une s (bN1 0x00000000#32)) s (bN1 0x3F800000#32)

/-- The weighted features summed per row node. -/
def eagg (h : FVec F S1024x128 .f32) (w : FVec F S1048576 .f32) (rw cl : IVec S1048576 32) : FVec F S1024x128 .f32 :=
  Host.scatterAdd scatter_S1024x128_S1048576x1_S1048576x128_1_0_0_1 (bNF 0x00000000#32) (col rw)
    (mulf (broadcastInDim S1048576x128 ![0, 1] bcast_S1048576x1_S1048576x128_0_1
            (broadcastInDim S1048576x1 ![0] bcast_S1048576_S1048576x1_0 w))
          (takeRows h cl))

/-- ONE BATCH'S LAYER. -/
def layer (x : FVec F S1024x256 .f32) (rw cl : IVec S1048576 32) (vl : IVec S1048576 1)
    (W : FVec F S256x128 .f32) (a : FVec F S1x256 .f32) : FVec F S1024x128 .f32 :=
  let h := hfeat x W
  let w := eweight (escore h rw cl a) vl
  let g := eagg h w rw cl
  let g' := select (cmpf .une g g) (bNF 0x00000000#32) g
  let q := Host.divf g' (broadcastInDim S1024x128 ![0, 1] bcast_S1024x1_S1024x128_0_1 (erowsum w rw))
  let q' := select (cmpf .une q q) (bNF 0x00000000#32) q
  select (cmpf .ogt q' (bNF 0x00000000#32)) q' (Host.expm1 q')

/-- Batch 0's node features. -/
def x0 (X : FVec F S2x1024x256 .f32) : FVec F S1024x256 .f32 :=
  shapeCast S1024x256 (extractStridedSlice S1x1024x256 ![0, 0, 0] X slices_S2x1024x256_S1x1024x256_0_0_0) shapeCasts_S1x1024x256_S1024x256
/-- Batch 1's node features. -/
def x1 (X : FVec F S2x1024x256 .f32) : FVec F S1024x256 .f32 :=
  shapeCast S1024x256 (extractStridedSlice S1x1024x256 ![1, 0, 0] X slices_S2x1024x256_S1x1024x256_1_0_0) shapeCasts_S1x1024x256_S1024x256

/-- THE REFERENCE'S RESULT: the two batches' layers stacked. -/
def out (X : FVec F S2x1024x256 .f32) (A : FVec F S1024x1024 .f32) (W : FVec F S256x128 .f32) (a : FVec F S1x256 .f32) :
    FVec F S2x1024x128 .f32 :=
  concatenate S2x1024x128 0
    [⟨S1x1024x128, broadcastInDim S1x1024x128 ![1, 2] bcast_S1024x128_S1x1024x128_1_2 (layer (x0 X) (rows A) (cols A) (valid A) W a)⟩,
     ⟨S1x1024x128, broadcastInDim S1x1024x128 ![1, 2] bcast_S1024x128_S1x1024x128_1_2 (layer (x1 X) (rows A) (cols A) (valid A) W a)⟩]
    concatenates_S1x1024x128_S1x1024x128_S2x1024x128_d0

end Cert.ReferenceIdeal.RefTerm

end
-- ==== Proof.RefRun.lean ====
/-
  The reference program's run: every weakly fair execution ends with the result buffer at the program's pure term of
  the arguments, and the arguments unchanged.

  The program is a straight line: @main's statements with every module-local function's body written out at its call,
  318 operations. They are listed below in eleven consecutive stretches, each operation the plain builder at the
  buffers it touches; a function's operation, which the program spells over typed references, is the same operation
  (the transport along a buffer's type is the identity at a literal buffer). @main is that line, window by window,
  joined by the law that two lines run one after the other are their concatenation. The contents after each stretch
  are then read off: every buffer still read later holds a named stage of the pure term of the four arguments, and a
  buffer a stretch does not write keeps its contents through it.
-/
import proofs.«106906_g31842887532864_cont_sun_m_711_10_alg».proof.Proof.RefTerm
import proofs.«106906_g31842887532864_cont_sun_m_711_10_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] [Facts]

-- the folds over an array's elements stay folded: no equation below looks inside one
attribute [local irreducible] Host.reduce Host.reduceWindow Host.gather Host.scatter Host.scatterAdd

/-! ## The operations, in order -/

/-- Operations 1 … 28 of 318. -/
abbrev w0 : List (HloOp τ sig (Elt F)) :=
  [ StableHlo.nullary main_cst (constant S_ .f32 0x00000000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.binary main_arg1 main_v0 main_v1 (cmpf .une : (⟨S1024x1024, .f32⟩ : BufTy).Contents (Elt F) → (⟨S1024x1024, .f32⟩ : BufTy).Contents (Elt F) → (⟨S1024x1024, .i1⟩ : BufTy).Contents (Elt F)),
    StableHlo.reshape main_v1 main_call0_v0 rfl shapeCasts_S1024x1024_S1048576,
    StableHlo.unary main_call0_v0 main_call0_v1 ((extui 32 · natLt_1_32) : (⟨S1048576, .i1⟩ : BufTy).Contents (Elt F) → (⟨S1048576, .i32⟩ : BufTy).Contents (Elt F)),
    StableHlo.nullary main_call0_call0_c (constantI S_ 32 0#32),
    StableHlo.unary main_call0_call0_c main_call0_call0_v0 (broadcastInDim S_ ![] bcast_S_S_ : (⟨S_, .i32⟩ : BufTy).Contents (Elt F) → (⟨S_, .i32⟩ : BufTy).Contents (Elt F)),
    StableHlo.binary main_call0_v1 main_call0_call0_v0 main_v2 (fun x v => Host.reduceWindow IntOp.addi ![1048576] ![1] ![1048575] ![0] x v reduceWindows_S1048576_S1048576_w1048576s1p1048575_0 h_S_ : (⟨S1048576, .i32⟩ : BufTy).Contents (Elt F) → (⟨S_, .i32⟩ : BufTy).Contents (Elt F) → (⟨S1048576, .i32⟩ : BufTy).Contents (Elt F)),
    StableHlo.nullary main_c (constantI S_ 32 0#32),
    StableHlo.unary main_c main_v3 (broadcastInDim S1048576 ![] bcast_S_S1048576 : (⟨S_, .i32⟩ : BufTy).Contents (Elt F) → (⟨S1048576, .i32⟩ : BufTy).Contents (Elt F)),
    StableHlo.nullary main_c_0 (constantI S_ 32 0#32),
    StableHlo.unary main_c_0 main_call1_v0 (id : (⟨S_, .i32⟩ : BufTy).Contents (Elt F) → (⟨S_, .i32⟩ : BufTy).Contents (Elt F)),
    StableHlo.unary main_call1_v0 main_call1_v1 (broadcastInDim S1048576 ![] bcast_S_S1048576 : (⟨S_, .i32⟩ : BufTy).Contents (Elt F) → (⟨S1048576, .i32⟩ : BufTy).Contents (Elt F)),
    StableHlo.binary main_call1_v1 main_v2 main_v4 (maxsi : (⟨S1048576, .i32⟩ : BufTy).Contents (Elt F) → (⟨S1048576, .i32⟩ : BufTy).Contents (Elt F) → (⟨S1048576, .i32⟩ : BufTy).Contents (Elt F)),
    StableHlo.nullary main_c_1 (constantI S_ 32 0#32),
    StableHlo.unary main_c_1 main_v5 (broadcastInDim S1048576 ![] bcast_S_S1048576 : (⟨S_, .i32⟩ : BufTy).Contents (Elt F) → (⟨S1048576, .i32⟩ : BufTy).Contents (Elt F)),
    StableHlo.binary main_v4 main_v5 main_v6 (cmpi .slt : (⟨S1048576, .i32⟩ : BufTy).Contents (Elt F) → (⟨S1048576, .i32⟩ : BufTy).Contents (Elt F) → (⟨S1048576, .i1⟩ : BufTy).Contents (Elt F)),
    StableHlo.nullary main_c_2 (constantI S_ 32 1048576#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v4 main_v7 main_v8 (addi : (⟨S1048576, .i32⟩ : BufTy).Contents (Elt F) → (⟨S1048576, .i32⟩ : BufTy).Contents (Elt F) → (⟨S1048576, .i32⟩ : BufTy).Contents (Elt F)),
    StableHlo.ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v9 main_v10 (broadcastInDim S1048576x1 ![0] bcast_S1048576_S1048576x1_0 : (⟨S1048576, .i32⟩ : BufTy).Contents (Elt F) → (⟨S1048576x1, .i32⟩ : BufTy).Contents (Elt F)),
    StableHlo.nullary main_c_3 (constantI S_ 32 1#32),
    StableHlo.unary main_c_3 main_v11 (broadcastInDim S1048576 ![] bcast_S_S1048576 : (⟨S_, .i32⟩ : BufTy).Contents (Elt F) → (⟨S1048576, .i32⟩ : BufTy).Contents (Elt F)),
    StableHlo.ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    StableHlo.nullary main_call2_call0_c (constantI S_ 32 0#32),
    StableHlo.unary main_call2_call0_c main_call2_call0_v0 (broadcastInDim S_ ![] bcast_S_S_ : (⟨S_, .i32⟩ : BufTy).Contents (Elt F) → (⟨S_, .i32⟩ : BufTy).Contents (Elt F)),
    StableHlo.binary main_v12 main_call2_call0_v0 main_v13 (fun x v => Host.reduceWindow IntOp.addi ![1048576] ![1] ![1048575] ![0] x v reduceWindows_S1048576_S1048576_w1048576s1p1048575_0 h_S_ : (⟨S1048576, .i32⟩ : BufTy).Contents (Elt F) → (⟨S_, .i32⟩ : BufTy).Contents (Elt F) → (⟨S1048576, .i32⟩ : BufTy).Contents (Elt F)) ]

/-- Operations 29 … 67 of 318. -/
abbrev w1 : List (HloOp τ sig (Elt F)) :=
  [ StableHlo.nullary main_c_4 (constantI S_ 32 1024#32),
    StableHlo.unary main_c_4 main_call3_v0 (broadcastInDim S1048576 ![] bcast_S_S1048576 : (⟨S_, .i32⟩ : BufTy).Contents (Elt F) → (⟨S1048576, .i32⟩ : BufTy).Contents (Elt F)),
    StableHlo.binary main_v13 main_call3_v0 main_call3_v1 (Host.divsi : (⟨S1048576, .i32⟩ : BufTy).Contents (Elt F) → (⟨S1048576, .i32⟩ : BufTy).Contents (Elt F) → (⟨S1048576, .i32⟩ : BufTy).Contents (Elt F)),
    StableHlo.unary main_v13 main_call3_v2 (signi : (⟨S1048576, .i32⟩ : BufTy).Contents (Elt F) → (⟨S1048576, .i32⟩ : BufTy).Contents (Elt F)),
    StableHlo.unary main_c_4 main_call3_v3 (signi : (⟨S_, .i32⟩ : BufTy).Contents (Elt F) → (⟨S_, .i32⟩ : BufTy).Contents (Elt F)),
    StableHlo.unary main_call3_v3 main_call3_v4 (broadcastInDim S1048576 ![] bcast_S_S1048576 : (⟨S_, .i32⟩ : BufTy).Contents (Elt F) → (⟨S1048576, .i32⟩ : BufTy).Contents (Elt F)),
    StableHlo.binary main_call3_v2 main_call3_v4 main_call3_v5 (cmpi .ne : (⟨S1048576, .i32⟩ : BufTy).Contents (Elt F) → (⟨S1048576, .i32⟩ : BufTy).Contents (Elt F) → (⟨S1048576, .i1⟩ : BufTy).Contents (Elt F)),
    StableHlo.unary main_c_4 main_call3_v6 (broadcastInDim S1048576 ![] bcast_S_S1048576 : (⟨S_, .i32⟩ : BufTy).Contents (Elt F) → (⟨S1048576, .i32⟩ : BufTy).Contents (Elt F)),
    StableHlo.binary main_v13 main_call3_v6 main_call3_v7 (Host.remsi : (⟨S1048576, .i32⟩ : BufTy).Contents (Elt F) → (⟨S1048576, .i32⟩ : BufTy).Contents (Elt F) → (⟨S1048576, .i32⟩ : BufTy).Contents (Elt F)),
    StableHlo.nullary main_call3_c (constantI S_ 32 0#32),
    StableHlo.unary main_call3_c main_call3_v8 (broadcastInDim S1048576 ![] bcast_S_S1048576 : (⟨S_, .i32⟩ : BufTy).Contents (Elt F) → (⟨S1048576, .i32⟩ : BufTy).Contents (Elt F)),
    StableHlo.binary main_call3_v7 main_call3_v8 main_call3_v9 (cmpi .ne : (⟨S1048576, .i32⟩ : BufTy).Contents (Elt F) → (⟨S1048576, .i32⟩ : BufTy).Contents (Elt F) → (⟨S1048576, .i1⟩ : BufTy).Contents (Elt F)),
    StableHlo.binary main_call3_v5 main_call3_v9 main_call3_v10 (andi : (⟨S1048576, .i1⟩ : BufTy).Contents (Elt F) → (⟨S1048576, .i1⟩ : BufTy).Contents (Elt F) → (⟨S1048576, .i1⟩ : BufTy).Contents (Elt F)),
    StableHlo.nullary main_call3_c_0 (constantI S_ 32 1#32),
    StableHlo.unary main_call3_c_0 main_call3_v11 (broadcastInDim S1048576 ![] bcast_S_S1048576 : (⟨S_, .i32⟩ : BufTy).Contents (Elt F) → (⟨S1048576, .i32⟩ : BufTy).Contents (Elt F)),
    StableHlo.binary main_call3_v1 main_call3_v11 main_call3_v12 (subi : (⟨S1048576, .i32⟩ : BufTy).Contents (Elt F) → (⟨S1048576, .i32⟩ : BufTy).Contents (Elt F) → (⟨S1048576, .i32⟩ : BufTy).Contents (Elt F)),
    StableHlo.ternary main_call3_v10 main_call3_v12 main_call3_v1 main_v14 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_5 (constantI S_ 32 1024#32),
    StableHlo.unary main_c_5 main_call4_v0 (id : (⟨S_, .i32⟩ : BufTy).Contents (Elt F) → (⟨S_, .i32⟩ : BufTy).Contents (Elt F)),
    StableHlo.nullary main_call4_c (constantI S_ 32 0#32),
    StableHlo.binary main_call4_v0 main_call4_c main_call4_v1 (cmpi .eq : (⟨S_, .i32⟩ : BufTy).Contents (Elt F) → (⟨S_, .i32⟩ : BufTy).Contents (Elt F) → (⟨S_, .i1⟩ : BufTy).Contents (Elt F)),
    StableHlo.nullary main_call4_c_0 (constantI S_ 32 1#32),
    StableHlo.ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call4_v2 main_call4_v3 (broadcastInDim S1048576 ![] bcast_S_S1048576 : (⟨S_, .i32⟩ : BufTy).Contents (Elt F) → (⟨S1048576, .i32⟩ : BufTy).Contents (Elt F)),
    StableHlo.binary main_v14 main_call4_v3 main_call4_v4 (Host.remsi : (⟨S1048576, .i32⟩ : BufTy).Contents (Elt F) → (⟨S1048576, .i32⟩ : BufTy).Contents (Elt F) → (⟨S1048576, .i32⟩ : BufTy).Contents (Elt F)),
    StableHlo.nullary main_call4_c_1 (constantI S_ 32 0#32),
    StableHlo.unary main_call4_c_1 main_call4_v5 (broadcastInDim S1048576 ![] bcast_S_S1048576 : (⟨S_, .i32⟩ : BufTy).Contents (Elt F) → (⟨S1048576, .i32⟩ : BufTy).Contents (Elt F)),
    StableHlo.binary main_call4_v4 main_call4_v5 main_call4_v6 (cmpi .ne : (⟨S1048576, .i32⟩ : BufTy).Contents (Elt F) → (⟨S1048576, .i32⟩ : BufTy).Contents (Elt F) → (⟨S1048576, .i1⟩ : BufTy).Contents (Elt F)),
    StableHlo.nullary main_call4_c_2 (constantI S_ 32 0#32),
    StableHlo.unary main_call4_c_2 main_call4_v7 (broadcastInDim S1048576 ![] bcast_S_S1048576 : (⟨S_, .i32⟩ : BufTy).Contents (Elt F) → (⟨S1048576, .i32⟩ : BufTy).Contents (Elt F)),
    StableHlo.binary main_call4_v4 main_call4_v7 main_call4_v8 (cmpi .slt : (⟨S1048576, .i32⟩ : BufTy).Contents (Elt F) → (⟨S1048576, .i32⟩ : BufTy).Contents (Elt F) → (⟨S1048576, .i1⟩ : BufTy).Contents (Elt F)),
    StableHlo.nullary main_call4_c_3 (constantI S_ 32 0#32),
    StableHlo.binary main_call4_v2 main_call4_c_3 main_call4_v9 (cmpi .slt : (⟨S_, .i32⟩ : BufTy).Contents (Elt F) → (⟨S_, .i32⟩ : BufTy).Contents (Elt F) → (⟨S_, .i1⟩ : BufTy).Contents (Elt F)),
    StableHlo.unary main_call4_v9 main_call4_v10 (broadcastInDim S1048576 ![] bcast_S_S1048576 : (⟨S_, .i1⟩ : BufTy).Contents (Elt F) → (⟨S1048576, .i1⟩ : BufTy).Contents (Elt F)),
    StableHlo.binary main_call4_v8 main_call4_v10 main_call4_v11 (cmpi .ne : (⟨S1048576, .i1⟩ : BufTy).Contents (Elt F) → (⟨S1048576, .i1⟩ : BufTy).Contents (Elt F) → (⟨S1048576, .i1⟩ : BufTy).Contents (Elt F)),
    StableHlo.binary main_call4_v11 main_call4_v6 main_call4_v12 (andi : (⟨S1048576, .i1⟩ : BufTy).Contents (Elt F) → (⟨S1048576, .i1⟩ : BufTy).Contents (Elt F) → (⟨S1048576, .i1⟩ : BufTy).Contents (Elt F)),
    StableHlo.unary main_call4_v2 main_call4_v13 (broadcastInDim S1048576 ![] bcast_S_S1048576 : (⟨S_, .i32⟩ : BufTy).Contents (Elt F) → (⟨S1048576, .i32⟩ : BufTy).Contents (Elt F)),
    StableHlo.binary main_call4_v4 main_call4_v13 main_call4_v14 (addi : (⟨S1048576, .i32⟩ : BufTy).Contents (Elt F) → (⟨S1048576, .i32⟩ : BufTy).Contents (Elt F) → (⟨S1048576, .i32⟩ : BufTy).Contents (Elt F)),
    StableHlo.ternary main_call4_v12 main_call4_v14 main_call4_v4 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]

/-- Operations 68 … 106 of 318. -/
abbrev w2 : List (HloOp τ sig (Elt F)) :=
  [ StableHlo.nullary main_c_6 (constantI S_ 32 1#32),
    StableHlo.unary main_c_6 main_call5_v0 (broadcastInDim S1048576 ![] bcast_S_S1048576 : (⟨S_, .i32⟩ : BufTy).Contents (Elt F) → (⟨S1048576, .i32⟩ : BufTy).Contents (Elt F)),
    StableHlo.binary main_v13 main_call5_v0 main_call5_v1 (Host.divsi : (⟨S1048576, .i32⟩ : BufTy).Contents (Elt F) → (⟨S1048576, .i32⟩ : BufTy).Contents (Elt F) → (⟨S1048576, .i32⟩ : BufTy).Contents (Elt F)),
    StableHlo.unary main_v13 main_call5_v2 (signi : (⟨S1048576, .i32⟩ : BufTy).Contents (Elt F) → (⟨S1048576, .i32⟩ : BufTy).Contents (Elt F)),
    StableHlo.unary main_c_6 main_call5_v3 (signi : (⟨S_, .i32⟩ : BufTy).Contents (Elt F) → (⟨S_, .i32⟩ : BufTy).Contents (Elt F)),
    StableHlo.unary main_call5_v3 main_call5_v4 (broadcastInDim S1048576 ![] bcast_S_S1048576 : (⟨S_, .i32⟩ : BufTy).Contents (Elt F) → (⟨S1048576, .i32⟩ : BufTy).Contents (Elt F)),
    StableHlo.binary main_call5_v2 main_call5_v4 main_call5_v5 (cmpi .ne : (⟨S1048576, .i32⟩ : BufTy).Contents (Elt F) → (⟨S1048576, .i32⟩ : BufTy).Contents (Elt F) → (⟨S1048576, .i1⟩ : BufTy).Contents (Elt F)),
    StableHlo.unary main_c_6 main_call5_v6 (broadcastInDim S1048576 ![] bcast_S_S1048576 : (⟨S_, .i32⟩ : BufTy).Contents (Elt F) → (⟨S1048576, .i32⟩ : BufTy).Contents (Elt F)),
    StableHlo.binary main_v13 main_call5_v6 main_call5_v7 (Host.remsi : (⟨S1048576, .i32⟩ : BufTy).Contents (Elt F) → (⟨S1048576, .i32⟩ : BufTy).Contents (Elt F) → (⟨S1048576, .i32⟩ : BufTy).Contents (Elt F)),
    StableHlo.nullary main_call5_c (constantI S_ 32 0#32),
    StableHlo.unary main_call5_c main_call5_v8 (broadcastInDim S1048576 ![] bcast_S_S1048576 : (⟨S_, .i32⟩ : BufTy).Contents (Elt F) → (⟨S1048576, .i32⟩ : BufTy).Contents (Elt F)),
    StableHlo.binary main_call5_v7 main_call5_v8 main_call5_v9 (cmpi .ne : (⟨S1048576, .i32⟩ : BufTy).Contents (Elt F) → (⟨S1048576, .i32⟩ : BufTy).Contents (Elt F) → (⟨S1048576, .i1⟩ : BufTy).Contents (Elt F)),
    StableHlo.binary main_call5_v5 main_call5_v9 main_call5_v10 (andi : (⟨S1048576, .i1⟩ : BufTy).Contents (Elt F) → (⟨S1048576, .i1⟩ : BufTy).Contents (Elt F) → (⟨S1048576, .i1⟩ : BufTy).Contents (Elt F)),
    StableHlo.nullary main_call5_c_0 (constantI S_ 32 1#32),
    StableHlo.unary main_call5_c_0 main_call5_v11 (broadcastInDim S1048576 ![] bcast_S_S1048576 : (⟨S_, .i32⟩ : BufTy).Contents (Elt F) → (⟨S1048576, .i32⟩ : BufTy).Contents (Elt F)),
    StableHlo.binary main_call5_v1 main_call5_v11 main_call5_v12 (subi : (⟨S1048576, .i32⟩ : BufTy).Contents (Elt F) → (⟨S1048576, .i32⟩ : BufTy).Contents (Elt F) → (⟨S1048576, .i32⟩ : BufTy).Contents (Elt F)),
    StableHlo.ternary main_call5_v10 main_call5_v12 main_call5_v1 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_7 (constantI S_ 32 1024#32),
    StableHlo.unary main_c_7 main_call6_v0 (id : (⟨S_, .i32⟩ : BufTy).Contents (Elt F) → (⟨S_, .i32⟩ : BufTy).Contents (Elt F)),
    StableHlo.nullary main_call6_c (constantI S_ 32 0#32),
    StableHlo.binary main_call6_v0 main_call6_c main_call6_v1 (cmpi .eq : (⟨S_, .i32⟩ : BufTy).Contents (Elt F) → (⟨S_, .i32⟩ : BufTy).Contents (Elt F) → (⟨S_, .i1⟩ : BufTy).Contents (Elt F)),
    StableHlo.nullary main_call6_c_0 (constantI S_ 32 1#32),
    StableHlo.ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call6_v2 main_call6_v3 (broadcastInDim S1048576 ![] bcast_S_S1048576 : (⟨S_, .i32⟩ : BufTy).Contents (Elt F) → (⟨S1048576, .i32⟩ : BufTy).Contents (Elt F)),
    StableHlo.binary main_v16 main_call6_v3 main_call6_v4 (Host.remsi : (⟨S1048576, .i32⟩ : BufTy).Contents (Elt F) → (⟨S1048576, .i32⟩ : BufTy).Contents (Elt F) → (⟨S1048576, .i32⟩ : BufTy).Contents (Elt F)),
    StableHlo.nullary main_call6_c_1 (constantI S_ 32 0#32),
    StableHlo.unary main_call6_c_1 main_call6_v5 (broadcastInDim S1048576 ![] bcast_S_S1048576 : (⟨S_, .i32⟩ : BufTy).Contents (Elt F) → (⟨S1048576, .i32⟩ : BufTy).Contents (Elt F)),
    StableHlo.binary main_call6_v4 main_call6_v5 main_call6_v6 (cmpi .ne : (⟨S1048576, .i32⟩ : BufTy).Contents (Elt F) → (⟨S1048576, .i32⟩ : BufTy).Contents (Elt F) → (⟨S1048576, .i1⟩ : BufTy).Contents (Elt F)),
    StableHlo.nullary main_call6_c_2 (constantI S_ 32 0#32),
    StableHlo.unary main_call6_c_2 main_call6_v7 (broadcastInDim S1048576 ![] bcast_S_S1048576 : (⟨S_, .i32⟩ : BufTy).Contents (Elt F) → (⟨S1048576, .i32⟩ : BufTy).Contents (Elt F)),
    StableHlo.binary main_call6_v4 main_call6_v7 main_call6_v8 (cmpi .slt : (⟨S1048576, .i32⟩ : BufTy).Contents (Elt F) → (⟨S1048576, .i32⟩ : BufTy).Contents (Elt F) → (⟨S1048576, .i1⟩ : BufTy).Contents (Elt F)),
    StableHlo.nullary main_call6_c_3 (constantI S_ 32 0#32),
    StableHlo.binary main_call6_v2 main_call6_c_3 main_call6_v9 (cmpi .slt : (⟨S_, .i32⟩ : BufTy).Contents (Elt F) → (⟨S_, .i32⟩ : BufTy).Contents (Elt F) → (⟨S_, .i1⟩ : BufTy).Contents (Elt F)),
    StableHlo.unary main_call6_v9 main_call6_v10 (broadcastInDim S1048576 ![] bcast_S_S1048576 : (⟨S_, .i1⟩ : BufTy).Contents (Elt F) → (⟨S1048576, .i1⟩ : BufTy).Contents (Elt F)),
    StableHlo.binary main_call6_v8 main_call6_v10 main_call6_v11 (cmpi .ne : (⟨S1048576, .i1⟩ : BufTy).Contents (Elt F) → (⟨S1048576, .i1⟩ : BufTy).Contents (Elt F) → (⟨S1048576, .i1⟩ : BufTy).Contents (Elt F)),
    StableHlo.binary main_call6_v11 main_call6_v6 main_call6_v12 (andi : (⟨S1048576, .i1⟩ : BufTy).Contents (Elt F) → (⟨S1048576, .i1⟩ : BufTy).Contents (Elt F) → (⟨S1048576, .i1⟩ : BufTy).Contents (Elt F)),
    StableHlo.unary main_call6_v2 main_call6_v13 (broadcastInDim S1048576 ![] bcast_S_S1048576 : (⟨S_, .i32⟩ : BufTy).Contents (Elt F) → (⟨S1048576, .i32⟩ : BufTy).Contents (Elt F)),
    StableHlo.binary main_call6_v4 main_call6_v13 main_call6_v14 (addi : (⟨S1048576, .i32⟩ : BufTy).Contents (Elt F) → (⟨S1048576, .i32⟩ : BufTy).Contents (Elt F) → (⟨S1048576, .i32⟩ : BufTy).Contents (Elt F)),
    StableHlo.ternary main_call6_v12 main_call6_v14 main_call6_v4 main_v17 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]

/-- Operations 107 … 129 of 318. -/
abbrev w3 : List (HloOp τ sig (Elt F)) :=
  [ StableHlo.nullary main_v18 (iotaInDim S1048576 32 0),
    StableHlo.unary main_v1 main_v19 ((extui 32 · natLt_1_32) : (⟨S1024x1024, .i1⟩ : BufTy).Contents (Elt F) → (⟨S1024x1024, .i32⟩ : BufTy).Contents (Elt F)),
    StableHlo.nullary main_c_8 (constantI S_ 32 0#32),
    StableHlo.binary main_v19 main_c_8 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v20 main_v21 (broadcastInDim S1048576 ![] bcast_S_S1048576 : (⟨S_, .i32⟩ : BufTy).Contents (Elt F) → (⟨S1048576, .i32⟩ : BufTy).Contents (Elt F)),
    StableHlo.binary main_v18 main_v21 main_v22 (cmpi .sge : (⟨S1048576, .i32⟩ : BufTy).Contents (Elt F) → (⟨S1048576, .i32⟩ : BufTy).Contents (Elt F) → (⟨S1048576, .i1⟩ : BufTy).Contents (Elt F)),
    StableHlo.nullary main_c_9 (constantI S_ 32 0#32),
    StableHlo.unary main_c_9 main_call7_v0 (id : (⟨S_, .i32⟩ : BufTy).Contents (Elt F) → (⟨S_, .i32⟩ : BufTy).Contents (Elt F)),
    StableHlo.unary main_call7_v0 main_call7_v1 (broadcastInDim S1048576 ![] bcast_S_S1048576 : (⟨S_, .i32⟩ : BufTy).Contents (Elt F) → (⟨S1048576, .i32⟩ : BufTy).Contents (Elt F)),
    StableHlo.ternary main_v22 main_call7_v1 main_v15 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_10 (constantI S_ 32 0#32),
    StableHlo.unary main_c_10 main_call8_v0 (id : (⟨S_, .i32⟩ : BufTy).Contents (Elt F) → (⟨S_, .i32⟩ : BufTy).Contents (Elt F)),
    StableHlo.unary main_call8_v0 main_call8_v1 (broadcastInDim S1048576 ![] bcast_S_S1048576 : (⟨S_, .i32⟩ : BufTy).Contents (Elt F) → (⟨S1048576, .i32⟩ : BufTy).Contents (Elt F)),
    StableHlo.ternary main_v22 main_call8_v1 main_v17 main_v24 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_v25 (iotaInDim S1048576 32 0),
    StableHlo.nullary main_call9_cst (constant S_ .f32 0x00000000#32),
    StableHlo.unary main_call9_cst main_call9_v0 (broadcastInDim S1024x1024 ![] bcast_S_S1024x1024 : (⟨S_, .f32⟩ : BufTy).Contents (Elt F) → (⟨S1024x1024, .f32⟩ : BufTy).Contents (Elt F)),
    StableHlo.binary main_arg1 main_call9_v0 main_call9_v1 (cmpf .une : (⟨S1024x1024, .f32⟩ : BufTy).Contents (Elt F) → (⟨S1024x1024, .f32⟩ : BufTy).Contents (Elt F) → (⟨S1024x1024, .i1⟩ : BufTy).Contents (Elt F)),
    StableHlo.unary main_call9_v1 main_call9_v2 ((extui 32 · natLt_1_32) : (⟨S1024x1024, .i1⟩ : BufTy).Contents (Elt F) → (⟨S1024x1024, .i32⟩ : BufTy).Contents (Elt F)),
    StableHlo.nullary main_call9_c (constantI S_ 32 0#32),
    StableHlo.binary main_call9_v2 main_call9_c main_v26 (fun x v => Host.reduce IntOp.addi x v reducesTo_S1024x1024_S_d0_1 h_S_ : (⟨S1024x1024, .i32⟩ : BufTy).Contents (Elt F) → (⟨S_, .i32⟩ : BufTy).Contents (Elt F) → (⟨S_, .i32⟩ : BufTy).Contents (Elt F)),
    StableHlo.unary main_v26 main_v27 (broadcastInDim S1048576 ![] bcast_S_S1048576 : (⟨S_, .i32⟩ : BufTy).Contents (Elt F) → (⟨S1048576, .i32⟩ : BufTy).Contents (Elt F)),
    StableHlo.binary main_v25 main_v27 main_v28 (cmpi .slt : (⟨S1048576, .i32⟩ : BufTy).Contents (Elt F) → (⟨S1048576, .i32⟩ : BufTy).Contents (Elt F) → (⟨S1048576, .i1⟩ : BufTy).Contents (Elt F)) ]

/-- Operations 130 … 149 of 318. -/
abbrev w4 : List (HloOp τ sig (Elt F)) :=
  [ StableHlo.unary main_arg0 main_v29 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    StableHlo.reshape main_v29 main_v30 rfl shapeCasts_S1x1024x256_S1024x256,
    StableHlo.binary main_v30 main_arg2 main_v31 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.binary main_v31 main_v31 main_v32 (cmpf .une : (⟨S1024x128, .f32⟩ : BufTy).Contents (Elt F) → (⟨S1024x128, .f32⟩ : BufTy).Contents (Elt F) → (⟨S1024x128, .i1⟩ : BufTy).Contents (Elt F)),
    StableHlo.nullary main_cst_11 (constant S_ .f32 0x00000000#32),
    StableHlo.unary main_cst_11 main_call10_v0 (id : (⟨S_, .f32⟩ : BufTy).Contents (Elt F) → (⟨S_, .f32⟩ : BufTy).Contents (Elt F)),
    StableHlo.unary main_call10_v0 main_call10_v1 (broadcastInDim S1024x128 ![] bcast_S_S1024x128 : (⟨S_, .f32⟩ : BufTy).Contents (Elt F) → (⟨S1024x128, .f32⟩ : BufTy).Contents (Elt F)),
    StableHlo.ternary main_v32 main_call10_v1 main_v31 main_v33 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.nullary main_c_12 (constantI S_ 32 0#32),
    StableHlo.unary main_c_12 main_v34 (broadcastInDim S1048576 ![] bcast_S_S1048576 : (⟨S_, .i32⟩ : BufTy).Contents (Elt F) → (⟨S1048576, .i32⟩ : BufTy).Contents (Elt F)),
    StableHlo.binary main_v23 main_v34 main_v35 (cmpi .slt : (⟨S1048576, .i32⟩ : BufTy).Contents (Elt F) → (⟨S1048576, .i32⟩ : BufTy).Contents (Elt F) → (⟨S1048576, .i1⟩ : BufTy).Contents (Elt F)),
    StableHlo.nullary main_c_13 (constantI S_ 32 1024#32),
    StableHlo.unary main_c_13 main_v36 (broadcastInDim S1048576 ![] bcast_S_S1048576 : (⟨S_, .i32⟩ : BufTy).Contents (Elt F) → (⟨S1048576, .i32⟩ : BufTy).Contents (Elt F)),
    StableHlo.binary main_v23 main_v36 main_v37 (addi : (⟨S1048576, .i32⟩ : BufTy).Contents (Elt F) → (⟨S1048576, .i32⟩ : BufTy).Contents (Elt F) → (⟨S1048576, .i32⟩ : BufTy).Contents (Elt F)),
    StableHlo.ternary main_v35 main_v37 main_v23 main_v38 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v38 main_v39 (broadcastInDim S1048576x1 ![0] bcast_S1048576_S1048576x1_0 : (⟨S1048576, .i32⟩ : BufTy).Contents (Elt F) → (⟨S1048576x1, .i32⟩ : BufTy).Contents (Elt F)),
    StableHlo.binary main_v33 main_v39 main_v40 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.nullary main_c_14 (constantI S_ 32 0#32),
    StableHlo.unary main_c_14 main_v41 (broadcastInDim S1048576 ![] bcast_S_S1048576 : (⟨S_, .i32⟩ : BufTy).Contents (Elt F) → (⟨S1048576, .i32⟩ : BufTy).Contents (Elt F)),
    StableHlo.binary main_v24 main_v41 main_v42 (cmpi .slt : (⟨S1048576, .i32⟩ : BufTy).Contents (Elt F) → (⟨S1048576, .i32⟩ : BufTy).Contents (Elt F) → (⟨S1048576, .i1⟩ : BufTy).Contents (Elt F)) ]

/-- Operations 150 … 155 of 318. -/
abbrev w5 : List (HloOp τ sig (Elt F)) :=
  [ StableHlo.nullary main_c_15 (constantI S_ 32 1024#32),
    StableHlo.unary main_c_15 main_v43 (broadcastInDim S1048576 ![] bcast_S_S1048576 : (⟨S_, .i32⟩ : BufTy).Contents (Elt F) → (⟨S1048576, .i32⟩ : BufTy).Contents (Elt F)),
    StableHlo.binary main_v24 main_v43 main_v44 (addi : (⟨S1048576, .i32⟩ : BufTy).Contents (Elt F) → (⟨S1048576, .i32⟩ : BufTy).Contents (Elt F) → (⟨S1048576, .i32⟩ : BufTy).Contents (Elt F)),
    StableHlo.ternary main_v42 main_v44 main_v24 main_v45 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v45 main_v46 (broadcastInDim S1048576x1 ![0] bcast_S1048576_S1048576x1_0 : (⟨S1048576, .i32⟩ : BufTy).Contents (Elt F) → (⟨S1048576x1, .i32⟩ : BufTy).Contents (Elt F)),
    StableHlo.binary main_v33 main_v46 main_v47 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- Operations 156 … 159 of 318. -/
abbrev w6 : List (HloOp τ sig (Elt F)) :=
  [ StableHlo.binary main_v40 main_v47 main_v48 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v48 main_v49 ((transpose S256x1048576 [1, 0] · transposes_S1048576x256_S256x1048576_1_0) : (⟨S1048576x256, .f32⟩ : BufTy).Contents (Elt F) → (⟨S256x1048576, .f32⟩ : BufTy).Contents (Elt F)),
    StableHlo.binary main_arg3 main_v49 main_v50 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v50 main_v51 rfl shapeCasts_S1x1048576_S1048576 ]

/-- Operations 160 … 177 of 318. -/
abbrev w7 : List (HloOp τ sig (Elt F)) :=
  [ StableHlo.nullary main_cst_16 (constant S_ .f32 0x00000000#32),
    StableHlo.unary main_cst_16 main_v52 (broadcastInDim S1048576 ![] bcast_S_S1048576 : (⟨S_, .f32⟩ : BufTy).Contents (Elt F) → (⟨S1048576, .f32⟩ : BufTy).Contents (Elt F)),
    StableHlo.binary main_v51 main_v52 main_v53 (cmpf .oge : (⟨S1048576, .f32⟩ : BufTy).Contents (Elt F) → (⟨S1048576, .f32⟩ : BufTy).Contents (Elt F) → (⟨S1048576, .i1⟩ : BufTy).Contents (Elt F)),
    StableHlo.nullary main_cst_17 (constant S_ .f32 0x3E4CCCCD#32),
    StableHlo.unary main_cst_17 main_v54 (broadcastInDim S1048576 ![] bcast_S_S1048576 : (⟨S_, .f32⟩ : BufTy).Contents (Elt F) → (⟨S1048576, .f32⟩ : BufTy).Contents (Elt F)),
    StableHlo.binary main_v54 main_v51 main_v55 (mulf : (⟨S1048576, .f32⟩ : BufTy).Contents (Elt F) → (⟨S1048576, .f32⟩ : BufTy).Contents (Elt F) → (⟨S1048576, .f32⟩ : BufTy).Contents (Elt F)),
    StableHlo.ternary main_v53 main_v51 main_v55 main_v56 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    StableHlo.unary main_v56 main_v57 (Host.negf : (⟨S1048576, .f32⟩ : BufTy).Contents (Elt F) → (⟨S1048576, .f32⟩ : BufTy).Contents (Elt F)),
    StableHlo.unary main_v57 main_v58 (Host.exp : (⟨S1048576, .f32⟩ : BufTy).Contents (Elt F) → (⟨S1048576, .f32⟩ : BufTy).Contents (Elt F)),
    StableHlo.binary main_v58 main_v58 main_v59 (cmpf .une : (⟨S1048576, .f32⟩ : BufTy).Contents (Elt F) → (⟨S1048576, .f32⟩ : BufTy).Contents (Elt F) → (⟨S1048576, .i1⟩ : BufTy).Contents (Elt F)),
    StableHlo.nullary main_cst_18 (constant S_ .f32 0x00000000#32),
    StableHlo.unary main_cst_18 main_call12_v0 (id : (⟨S_, .f32⟩ : BufTy).Contents (Elt F) → (⟨S_, .f32⟩ : BufTy).Contents (Elt F)),
    StableHlo.unary main_call12_v0 main_call12_v1 (broadcastInDim S1048576 ![] bcast_S_S1048576 : (⟨S_, .f32⟩ : BufTy).Contents (Elt F) → (⟨S1048576, .f32⟩ : BufTy).Contents (Elt F)),
    StableHlo.ternary main_v59 main_call12_v1 main_v58 main_v60 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    StableHlo.nullary main_cst_19 (constant S_ .f32 0x00000000#32),
    StableHlo.unary main_cst_19 main_call13_v0 (id : (⟨S_, .f32⟩ : BufTy).Contents (Elt F) → (⟨S_, .f32⟩ : BufTy).Contents (Elt F)),
    StableHlo.unary main_call13_v0 main_call13_v1 (broadcastInDim S1048576 ![] bcast_S_S1048576 : (⟨S_, .f32⟩ : BufTy).Contents (Elt F) → (⟨S1048576, .f32⟩ : BufTy).Contents (Elt F)),
    StableHlo.ternary main_v28 main_v60 main_call13_v1 main_v61 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)) ]

/-- Operations 178 … 189 of 318. -/
abbrev w8 : List (HloOp τ sig (Elt F)) :=
  [ StableHlo.nullary main_cst_20 (constant S_ .f32 0x00000000#32),
    StableHlo.unary main_cst_20 main_v62 (broadcastInDim S1024 ![] bcast_S_S1024 : (⟨S_, .f32⟩ : BufTy).Contents (Elt F) → (⟨S1024, .f32⟩ : BufTy).Contents (Elt F)),
    StableHlo.unary main_v23 main_v63 (broadcastInDim S1048576x1 ![0] bcast_S1048576_S1048576x1_0 : (⟨S1048576, .i32⟩ : BufTy).Contents (Elt F) → (⟨S1048576x1, .i32⟩ : BufTy).Contents (Elt F)),
    StableHlo.ternary main_v62 main_v63 main_v61 main_v64 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.unary main_v64 main_v65 (broadcastInDim S1024x1 ![0] bcast_S1024_S1024x1_0 : (⟨S1024, .f32⟩ : BufTy).Contents (Elt F) → (⟨S1024x1, .f32⟩ : BufTy).Contents (Elt F)),
    StableHlo.nullary main_cst_21 (constant S_ .f32 0x00000000#32),
    StableHlo.unary main_cst_21 main_v66 (broadcastInDim S1024x1 ![] bcast_S_S1024x1 : (⟨S_, .f32⟩ : BufTy).Contents (Elt F) → (⟨S1024x1, .f32⟩ : BufTy).Contents (Elt F)),
    StableHlo.binary main_v65 main_v66 main_v67 (cmpf .une : (⟨S1024x1, .f32⟩ : BufTy).Contents (Elt F) → (⟨S1024x1, .f32⟩ : BufTy).Contents (Elt F) → (⟨S1024x1, .i1⟩ : BufTy).Contents (Elt F)),
    StableHlo.nullary main_cst_22 (constant S_ .f32 0x3F800000#32),
    StableHlo.unary main_cst_22 main_call14_v0 (id : (⟨S_, .f32⟩ : BufTy).Contents (Elt F) → (⟨S_, .f32⟩ : BufTy).Contents (Elt F)),
    StableHlo.unary main_call14_v0 main_call14_v1 (broadcastInDim S1024x1 ![] bcast_S_S1024x1 : (⟨S_, .f32⟩ : BufTy).Contents (Elt F) → (⟨S1024x1, .f32⟩ : BufTy).Contents (Elt F)),
    StableHlo.ternary main_v67 main_v65 main_call14_v1 main_v68 (select : (⟨S1024x1, .i1⟩ : BufTy).Contents (Elt F) → (⟨S1024x1, .f32⟩ : BufTy).Contents (Elt F) → (⟨S1024x1, .f32⟩ : BufTy).Contents (Elt F) → (⟨S1024x1, .f32⟩ : BufTy).Contents (Elt F)) ]

/-- Operations 190 … 219 of 318. -/
abbrev w9 : List (HloOp τ sig (Elt F)) :=
  [ StableHlo.unary main_v61 main_v69 (broadcastInDim S1048576x1 ![0] bcast_S1048576_S1048576x1_0 : (⟨S1048576, .f32⟩ : BufTy).Contents (Elt F) → (⟨S1048576x1, .f32⟩ : BufTy).Contents (Elt F)),
    StableHlo.nullary main_c_23 (constantI S_ 32 0#32),
    StableHlo.unary main_c_23 main_v70 (broadcastInDim S1048576 ![] bcast_S_S1048576 : (⟨S_, .i32⟩ : BufTy).Contents (Elt F) → (⟨S1048576, .i32⟩ : BufTy).Contents (Elt F)),
    StableHlo.binary main_v24 main_v70 main_v71 (cmpi .slt : (⟨S1048576, .i32⟩ : BufTy).Contents (Elt F) → (⟨S1048576, .i32⟩ : BufTy).Contents (Elt F) → (⟨S1048576, .i1⟩ : BufTy).Contents (Elt F)),
    StableHlo.nullary main_c_24 (constantI S_ 32 1024#32),
    StableHlo.unary main_c_24 main_v72 (broadcastInDim S1048576 ![] bcast_S_S1048576 : (⟨S_, .i32⟩ : BufTy).Contents (Elt F) → (⟨S1048576, .i32⟩ : BufTy).Contents (Elt F)),
    StableHlo.binary main_v24 main_v72 main_v73 (addi : (⟨S1048576, .i32⟩ : BufTy).Contents (Elt F) → (⟨S1048576, .i32⟩ : BufTy).Contents (Elt F) → (⟨S1048576, .i32⟩ : BufTy).Contents (Elt F)),
    StableHlo.ternary main_v71 main_v73 main_v24 main_v74 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v74 main_v75 (broadcastInDim S1048576x1 ![0] bcast_S1048576_S1048576x1_0 : (⟨S1048576, .i32⟩ : BufTy).Contents (Elt F) → (⟨S1048576x1, .i32⟩ : BufTy).Contents (Elt F)),
    StableHlo.binary main_v33 main_v75 main_v76 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v69 main_v77 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v77 main_v76 main_v78 (mulf : (⟨S1048576x128, .f32⟩ : BufTy).Contents (Elt F) → (⟨S1048576x128, .f32⟩ : BufTy).Contents (Elt F) → (⟨S1048576x128, .f32⟩ : BufTy).Contents (Elt F)),
    StableHlo.nullary main_cst_25 (constant S_ .f32 0x00000000#32),
    StableHlo.unary main_cst_25 main_v79 (broadcastInDim S1024x128 ![] bcast_S_S1024x128 : (⟨S_, .f32⟩ : BufTy).Contents (Elt F) → (⟨S1024x128, .f32⟩ : BufTy).Contents (Elt F)),
    StableHlo.unary main_v23 main_v80 (broadcastInDim S1048576x1 ![0] bcast_S1048576_S1048576x1_0 : (⟨S1048576, .i32⟩ : BufTy).Contents (Elt F) → (⟨S1048576x1, .i32⟩ : BufTy).Contents (Elt F)),
    StableHlo.ternary main_v79 main_v80 main_v78 main_v81 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.binary main_v81 main_v81 main_v82 (cmpf .une : (⟨S1024x128, .f32⟩ : BufTy).Contents (Elt F) → (⟨S1024x128, .f32⟩ : BufTy).Contents (Elt F) → (⟨S1024x128, .i1⟩ : BufTy).Contents (Elt F)),
    StableHlo.nullary main_cst_26 (constant S_ .f32 0x00000000#32),
    StableHlo.unary main_cst_26 main_call15_v0 (id : (⟨S_, .f32⟩ : BufTy).Contents (Elt F) → (⟨S_, .f32⟩ : BufTy).Contents (Elt F)),
    StableHlo.unary main_call15_v0 main_call15_v1 (broadcastInDim S1024x128 ![] bcast_S_S1024x128 : (⟨S_, .f32⟩ : BufTy).Contents (Elt F) → (⟨S1024x128, .f32⟩ : BufTy).Contents (Elt F)),
    StableHlo.ternary main_v82 main_call15_v1 main_v81 main_v83 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.unary main_v68 main_v84 (broadcastInDim S1024x128 ![0, 1] bcast_S1024x1_S1024x128_0_1 : (⟨S1024x1, .f32⟩ : BufTy).Contents (Elt F) → (⟨S1024x128, .f32⟩ : BufTy).Contents (Elt F)),
    StableHlo.binary main_v83 main_v84 main_v85 (Host.divf : (⟨S1024x128, .f32⟩ : BufTy).Contents (Elt F) → (⟨S1024x128, .f32⟩ : BufTy).Contents (Elt F) → (⟨S1024x128, .f32⟩ : BufTy).Contents (Elt F)),
    StableHlo.binary main_v85 main_v85 main_v86 (cmpf .une : (⟨S1024x128, .f32⟩ : BufTy).Contents (Elt F) → (⟨S1024x128, .f32⟩ : BufTy).Contents (Elt F) → (⟨S1024x128, .i1⟩ : BufTy).Contents (Elt F)),
    StableHlo.nullary main_cst_27 (constant S_ .f32 0x00000000#32),
    StableHlo.unary main_cst_27 main_call16_v0 (id : (⟨S_, .f32⟩ : BufTy).Contents (Elt F) → (⟨S_, .f32⟩ : BufTy).Contents (Elt F)),
    StableHlo.unary main_call16_v0 main_call16_v1 (broadcastInDim S1024x128 ![] bcast_S_S1024x128 : (⟨S_, .f32⟩ : BufTy).Contents (Elt F) → (⟨S1024x128, .f32⟩ : BufTy).Contents (Elt F)),
    StableHlo.ternary main_v86 main_call16_v1 main_v85 main_v87 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.nullary main_cst_28 (constant S_ .f32 0x00000000#32),
    StableHlo.unary main_cst_28 main_v88 (broadcastInDim S1024x128 ![] bcast_S_S1024x128 : (⟨S_, .f32⟩ : BufTy).Contents (Elt F) → (⟨S1024x128, .f32⟩ : BufTy).Contents (Elt F)) ]

/-- Operations 220 … 248 of 318. -/
abbrev w10 : List (HloOp τ sig (Elt F)) :=
  [ StableHlo.binary main_v87 main_v88 main_v89 (cmpf .ogt : (⟨S1024x128, .f32⟩ : BufTy).Contents (Elt F) → (⟨S1024x128, .f32⟩ : BufTy).Contents (Elt F) → (⟨S1024x128, .i1⟩ : BufTy).Contents (Elt F)),
    StableHlo.unary main_v87 main_v90 (Host.expm1 : (⟨S1024x128, .f32⟩ : BufTy).Contents (Elt F) → (⟨S1024x128, .f32⟩ : BufTy).Contents (Elt F)),
    StableHlo.ternary main_v89 main_v87 main_v90 main_v91 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.unary main_arg0 main_v92 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    StableHlo.reshape main_v92 main_v93 rfl shapeCasts_S1x1024x256_S1024x256,
    StableHlo.binary main_v93 main_arg2 main_v94 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.binary main_v94 main_v94 main_v95 (cmpf .une : (⟨S1024x128, .f32⟩ : BufTy).Contents (Elt F) → (⟨S1024x128, .f32⟩ : BufTy).Contents (Elt F) → (⟨S1024x128, .i1⟩ : BufTy).Contents (Elt F)),
    StableHlo.nullary main_cst_29 (constant S_ .f32 0x00000000#32),
    StableHlo.unary main_cst_29 main_call18_v0 (id : (⟨S_, .f32⟩ : BufTy).Contents (Elt F) → (⟨S_, .f32⟩ : BufTy).Contents (Elt F)),
    StableHlo.unary main_call18_v0 main_call18_v1 (broadcastInDim S1024x128 ![] bcast_S_S1024x128 : (⟨S_, .f32⟩ : BufTy).Contents (Elt F) → (⟨S1024x128, .f32⟩ : BufTy).Contents (Elt F)),
    StableHlo.ternary main_v95 main_call18_v1 main_v94 main_v96 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.nullary main_c_30 (constantI S_ 32 0#32),
    StableHlo.unary main_c_30 main_v97 (broadcastInDim S1048576 ![] bcast_S_S1048576 : (⟨S_, .i32⟩ : BufTy).Contents (Elt F) → (⟨S1048576, .i32⟩ : BufTy).Contents (Elt F)),
    StableHlo.binary main_v23 main_v97 main_v98 (cmpi .slt : (⟨S1048576, .i32⟩ : BufTy).Contents (Elt F) → (⟨S1048576, .i32⟩ : BufTy).Contents (Elt F) → (⟨S1048576, .i1⟩ : BufTy).Contents (Elt F)),
    StableHlo.nullary main_c_31 (constantI S_ 32 1024#32),
    StableHlo.unary main_c_31 main_v99 (broadcastInDim S1048576 ![] bcast_S_S1048576 : (⟨S_, .i32⟩ : BufTy).Contents (Elt F) → (⟨S1048576, .i32⟩ : BufTy).Contents (Elt F)),
    StableHlo.binary main_v23 main_v99 main_v100 (addi : (⟨S1048576, .i32⟩ : BufTy).Contents (Elt F) → (⟨S1048576, .i32⟩ : BufTy).Contents (Elt F) → (⟨S1048576, .i32⟩ : BufTy).Contents (Elt F)),
    StableHlo.ternary main_v98 main_v100 main_v23 main_v101 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v101 main_v102 (broadcastInDim S1048576x1 ![0] bcast_S1048576_S1048576x1_0 : (⟨S1048576, .i32⟩ : BufTy).Contents (Elt F) → (⟨S1048576x1, .i32⟩ : BufTy).Contents (Elt F)),
    StableHlo.binary main_v96 main_v102 main_v103 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.nullary main_c_32 (constantI S_ 32 0#32),
    StableHlo.unary main_c_32 main_v104 (broadcastInDim S1048576 ![] bcast_S_S1048576 : (⟨S_, .i32⟩ : BufTy).Contents (Elt F) → (⟨S1048576, .i32⟩ : BufTy).Contents (Elt F)),
    StableHlo.binary main_v24 main_v104 main_v105 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 1024#32),
    StableHlo.unary main_c_33 main_v106 (broadcastInDim S1048576 ![] bcast_S_S1048576 : (⟨S_, .i32⟩ : BufTy).Contents (Elt F) → (⟨S1048576, .i32⟩ : BufTy).Contents (Elt F)),
    StableHlo.binary main_v24 main_v106 main_v107 (addi : (⟨S1048576, .i32⟩ : BufTy).Contents (Elt F) → (⟨S1048576, .i32⟩ : BufTy).Contents (Elt F) → (⟨S1048576, .i32⟩ : BufTy).Contents (Elt F)),
    StableHlo.ternary main_v105 main_v107 main_v24 main_v108 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v108 main_v109 (broadcastInDim S1048576x1 ![0] bcast_S1048576_S1048576x1_0 : (⟨S1048576, .i32⟩ : BufTy).Contents (Elt F) → (⟨S1048576x1, .i32⟩ : BufTy).Contents (Elt F)),
    StableHlo.binary main_v96 main_v109 main_v110 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- Operations 249 … 252 of 318. -/
abbrev w11 : List (HloOp τ sig (Elt F)) :=
  [ StableHlo.binary main_v103 main_v110 main_v111 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v111 main_v112 ((transpose S256x1048576 [1, 0] · transposes_S1048576x256_S256x1048576_1_0) : (⟨S1048576x256, .f32⟩ : BufTy).Contents (Elt F) → (⟨S256x1048576, .f32⟩ : BufTy).Contents (Elt F)),
    StableHlo.binary main_arg3 main_v112 main_v113 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v113 main_v114 rfl shapeCasts_S1x1048576_S1048576 ]

/-- Operations 253 … 287 of 318. -/
abbrev w12 : List (HloOp τ sig (Elt F)) :=
  [ StableHlo.nullary main_cst_34 (constant S_ .f32 0x00000000#32),
    StableHlo.unary main_cst_34 main_v115 (broadcastInDim S1048576 ![] bcast_S_S1048576 : (⟨S_, .f32⟩ : BufTy).Contents (Elt F) → (⟨S1048576, .f32⟩ : BufTy).Contents (Elt F)),
    StableHlo.binary main_v114 main_v115 main_v116 (cmpf .oge : (⟨S1048576, .f32⟩ : BufTy).Contents (Elt F) → (⟨S1048576, .f32⟩ : BufTy).Contents (Elt F) → (⟨S1048576, .i1⟩ : BufTy).Contents (Elt F)),
    StableHlo.nullary main_cst_35 (constant S_ .f32 0x3E4CCCCD#32),
    StableHlo.unary main_cst_35 main_v117 (broadcastInDim S1048576 ![] bcast_S_S1048576 : (⟨S_, .f32⟩ : BufTy).Contents (Elt F) → (⟨S1048576, .f32⟩ : BufTy).Contents (Elt F)),
    StableHlo.binary main_v117 main_v114 main_v118 (mulf : (⟨S1048576, .f32⟩ : BufTy).Contents (Elt F) → (⟨S1048576, .f32⟩ : BufTy).Contents (Elt F) → (⟨S1048576, .f32⟩ : BufTy).Contents (Elt F)),
    StableHlo.ternary main_v116 main_v114 main_v118 main_v119 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    StableHlo.unary main_v119 main_v120 (Host.negf : (⟨S1048576, .f32⟩ : BufTy).Contents (Elt F) → (⟨S1048576, .f32⟩ : BufTy).Contents (Elt F)),
    StableHlo.unary main_v120 main_v121 (Host.exp : (⟨S1048576, .f32⟩ : BufTy).Contents (Elt F) → (⟨S1048576, .f32⟩ : BufTy).Contents (Elt F)),
    StableHlo.binary main_v121 main_v121 main_v122 (cmpf .une : (⟨S1048576, .f32⟩ : BufTy).Contents (Elt F) → (⟨S1048576, .f32⟩ : BufTy).Contents (Elt F) → (⟨S1048576, .i1⟩ : BufTy).Contents (Elt F)),
    StableHlo.nullary main_cst_36 (constant S_ .f32 0x00000000#32),
    StableHlo.unary main_cst_36 main_call20_v0 (id : (⟨S_, .f32⟩ : BufTy).Contents (Elt F) → (⟨S_, .f32⟩ : BufTy).Contents (Elt F)),
    StableHlo.unary main_call20_v0 main_call20_v1 (broadcastInDim S1048576 ![] bcast_S_S1048576 : (⟨S_, .f32⟩ : BufTy).Contents (Elt F) → (⟨S1048576, .f32⟩ : BufTy).Contents (Elt F)),
    StableHlo.ternary main_v122 main_call20_v1 main_v121 main_v123 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    StableHlo.nullary main_cst_37 (constant S_ .f32 0x00000000#32),
    StableHlo.unary main_cst_37 main_call21_v0 (id : (⟨S_, .f32⟩ : BufTy).Contents (Elt F) → (⟨S_, .f32⟩ : BufTy).Contents (Elt F)),
    StableHlo.unary main_call21_v0 main_call21_v1 (broadcastInDim S1048576 ![] bcast_S_S1048576 : (⟨S_, .f32⟩ : BufTy).Contents (Elt F) → (⟨S1048576, .f32⟩ : BufTy).Contents (Elt F)),
    StableHlo.ternary main_v28 main_v123 main_call21_v1 main_v124 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    StableHlo.nullary main_cst_38 (constant S_ .f32 0x00000000#32),
    StableHlo.unary main_cst_38 main_v125 (broadcastInDim S1024 ![] bcast_S_S1024 : (⟨S_, .f32⟩ : BufTy).Contents (Elt F) → (⟨S1024, .f32⟩ : BufTy).Contents (Elt F)),
    StableHlo.unary main_v23 main_v126 (broadcastInDim S1048576x1 ![0] bcast_S1048576_S1048576x1_0 : (⟨S1048576, .i32⟩ : BufTy).Contents (Elt F) → (⟨S1048576x1, .i32⟩ : BufTy).Contents (Elt F)),
    StableHlo.ternary main_v125 main_v126 main_v124 main_v127 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.unary main_v127 main_v128 (broadcastInDim S1024x1 ![0] bcast_S1024_S1024x1_0 : (⟨S1024, .f32⟩ : BufTy).Contents (Elt F) → (⟨S1024x1, .f32⟩ : BufTy).Contents (Elt F)),
    StableHlo.nullary main_cst_39 (constant S_ .f32 0x00000000#32),
    StableHlo.unary main_cst_39 main_v129 (broadcastInDim S1024x1 ![] bcast_S_S1024x1 : (⟨S_, .f32⟩ : BufTy).Contents (Elt F) → (⟨S1024x1, .f32⟩ : BufTy).Contents (Elt F)),
    StableHlo.binary main_v128 main_v129 main_v130 (cmpf .une : (⟨S1024x1, .f32⟩ : BufTy).Contents (Elt F) → (⟨S1024x1, .f32⟩ : BufTy).Contents (Elt F) → (⟨S1024x1, .i1⟩ : BufTy).Contents (Elt F)),
    StableHlo.nullary main_cst_40 (constant S_ .f32 0x3F800000#32),
    StableHlo.unary main_cst_40 main_call22_v0 (id : (⟨S_, .f32⟩ : BufTy).Contents (Elt F) → (⟨S_, .f32⟩ : BufTy).Contents (Elt F)),
    StableHlo.unary main_call22_v0 main_call22_v1 (broadcastInDim S1024x1 ![] bcast_S_S1024x1 : (⟨S_, .f32⟩ : BufTy).Contents (Elt F) → (⟨S1024x1, .f32⟩ : BufTy).Contents (Elt F)),
    StableHlo.ternary main_v130 main_v128 main_call22_v1 main_v131 (select : (⟨S1024x1, .i1⟩ : BufTy).Contents (Elt F) → (⟨S1024x1, .f32⟩ : BufTy).Contents (Elt F) → (⟨S1024x1, .f32⟩ : BufTy).Contents (Elt F) → (⟨S1024x1, .f32⟩ : BufTy).Contents (Elt F)),
    StableHlo.unary main_v124 main_v132 (broadcastInDim S1048576x1 ![0] bcast_S1048576_S1048576x1_0 : (⟨S1048576, .f32⟩ : BufTy).Contents (Elt F) → (⟨S1048576x1, .f32⟩ : BufTy).Contents (Elt F)),
    StableHlo.nullary main_c_41 (constantI S_ 32 0#32),
    StableHlo.unary main_c_41 main_v133 (broadcastInDim S1048576 ![] bcast_S_S1048576 : (⟨S_, .i32⟩ : BufTy).Contents (Elt F) → (⟨S1048576, .i32⟩ : BufTy).Contents (Elt F)),
    StableHlo.binary main_v24 main_v133 main_v134 (cmpi .slt : (⟨S1048576, .i32⟩ : BufTy).Contents (Elt F) → (⟨S1048576, .i32⟩ : BufTy).Contents (Elt F) → (⟨S1048576, .i1⟩ : BufTy).Contents (Elt F)),
    StableHlo.nullary main_c_42 (constantI S_ 32 1024#32) ]

/-- Operations 288 … 317 of 318. -/
abbrev w13 : List (HloOp τ sig (Elt F)) :=
  [ StableHlo.unary main_c_42 main_v135 (broadcastInDim S1048576 ![] bcast_S_S1048576 : (⟨S_, .i32⟩ : BufTy).Contents (Elt F) → (⟨S1048576, .i32⟩ : BufTy).Contents (Elt F)),
    StableHlo.binary main_v24 main_v135 main_v136 (addi : (⟨S1048576, .i32⟩ : BufTy).Contents (Elt F) → (⟨S1048576, .i32⟩ : BufTy).Contents (Elt F) → (⟨S1048576, .i32⟩ : BufTy).Contents (Elt F)),
    StableHlo.ternary main_v134 main_v136 main_v24 main_v137 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v137 main_v138 (broadcastInDim S1048576x1 ![0] bcast_S1048576_S1048576x1_0 : (⟨S1048576, .i32⟩ : BufTy).Contents (Elt F) → (⟨S1048576x1, .i32⟩ : BufTy).Contents (Elt F)),
    StableHlo.binary main_v96 main_v138 main_v139 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v132 main_v140 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v140 main_v139 main_v141 (mulf : (⟨S1048576x128, .f32⟩ : BufTy).Contents (Elt F) → (⟨S1048576x128, .f32⟩ : BufTy).Contents (Elt F) → (⟨S1048576x128, .f32⟩ : BufTy).Contents (Elt F)),
    StableHlo.nullary main_cst_43 (constant S_ .f32 0x00000000#32),
    StableHlo.unary main_cst_43 main_v142 (broadcastInDim S1024x128 ![] bcast_S_S1024x128 : (⟨S_, .f32⟩ : BufTy).Contents (Elt F) → (⟨S1024x128, .f32⟩ : BufTy).Contents (Elt F)),
    StableHlo.unary main_v23 main_v143 (broadcastInDim S1048576x1 ![0] bcast_S1048576_S1048576x1_0 : (⟨S1048576, .i32⟩ : BufTy).Contents (Elt F) → (⟨S1048576x1, .i32⟩ : BufTy).Contents (Elt F)),
    StableHlo.ternary main_v142 main_v143 main_v141 main_v144 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.binary main_v144 main_v144 main_v145 (cmpf .une : (⟨S1024x128, .f32⟩ : BufTy).Contents (Elt F) → (⟨S1024x128, .f32⟩ : BufTy).Contents (Elt F) → (⟨S1024x128, .i1⟩ : BufTy).Contents (Elt F)),
    StableHlo.nullary main_cst_44 (constant S_ .f32 0x00000000#32),
    StableHlo.unary main_cst_44 main_call23_v0 (id : (⟨S_, .f32⟩ : BufTy).Contents (Elt F) → (⟨S_, .f32⟩ : BufTy).Contents (Elt F)),
    StableHlo.unary main_call23_v0 main_call23_v1 (broadcastInDim S1024x128 ![] bcast_S_S1024x128 : (⟨S_, .f32⟩ : BufTy).Contents (Elt F) → (⟨S1024x128, .f32⟩ : BufTy).Contents (Elt F)),
    StableHlo.ternary main_v145 main_call23_v1 main_v144 main_v146 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.unary main_v131 main_v147 (broadcastInDim S1024x128 ![0, 1] bcast_S1024x1_S1024x128_0_1 : (⟨S1024x1, .f32⟩ : BufTy).Contents (Elt F) → (⟨S1024x128, .f32⟩ : BufTy).Contents (Elt F)),
    StableHlo.binary main_v146 main_v147 main_v148 (Host.divf : (⟨S1024x128, .f32⟩ : BufTy).Contents (Elt F) → (⟨S1024x128, .f32⟩ : BufTy).Contents (Elt F) → (⟨S1024x128, .f32⟩ : BufTy).Contents (Elt F)),
    StableHlo.binary main_v148 main_v148 main_v149 (cmpf .une : (⟨S1024x128, .f32⟩ : BufTy).Contents (Elt F) → (⟨S1024x128, .f32⟩ : BufTy).Contents (Elt F) → (⟨S1024x128, .i1⟩ : BufTy).Contents (Elt F)),
    StableHlo.nullary main_cst_45 (constant S_ .f32 0x00000000#32),
    StableHlo.unary main_cst_45 main_call24_v0 (id : (⟨S_, .f32⟩ : BufTy).Contents (Elt F) → (⟨S_, .f32⟩ : BufTy).Contents (Elt F)),
    StableHlo.unary main_call24_v0 main_call24_v1 (broadcastInDim S1024x128 ![] bcast_S_S1024x128 : (⟨S_, .f32⟩ : BufTy).Contents (Elt F) → (⟨S1024x128, .f32⟩ : BufTy).Contents (Elt F)),
    StableHlo.ternary main_v149 main_call24_v1 main_v148 main_v150 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.nullary main_cst_46 (constant S_ .f32 0x00000000#32),
    StableHlo.unary main_cst_46 main_v151 (broadcastInDim S1024x128 ![] bcast_S_S1024x128 : (⟨S_, .f32⟩ : BufTy).Contents (Elt F) → (⟨S1024x128, .f32⟩ : BufTy).Contents (Elt F)),
    StableHlo.binary main_v150 main_v151 main_v152 (cmpf .ogt : (⟨S1024x128, .f32⟩ : BufTy).Contents (Elt F) → (⟨S1024x128, .f32⟩ : BufTy).Contents (Elt F) → (⟨S1024x128, .i1⟩ : BufTy).Contents (Elt F)),
    StableHlo.unary main_v150 main_v153 (Host.expm1 : (⟨S1024x128, .f32⟩ : BufTy).Contents (Elt F) → (⟨S1024x128, .f32⟩ : BufTy).Contents (Elt F)),
    StableHlo.ternary main_v152 main_v150 main_v153 main_v154 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    StableHlo.unary main_v91 main_v155 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v154 main_v156 (broadcastInDim S1x1024x128 ![1, 2] bcast_S1024x128_S1x1024x128_1_2 : (⟨S1024x128, .f32⟩ : BufTy).Contents (Elt F) → (⟨S1x1024x128, .f32⟩ : BufTy).Contents (Elt F)) ]

/-- Operations 318 … 318 of 318. -/
abbrev w14 : List (HloOp τ sig (Elt F)) :=
  [ StableHlo.binary main_v155 main_v156 main_v157 ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) ]

/-- The operations of @main's window 0. -/
abbrev opsP0 : List (HloOp τ sig (Elt F)) :=
  w0 ++ (w1 ++ (w2 ++ (w3 ++ (w4))))

/-- The operations of @main's window 1. -/
abbrev opsP1 : List (HloOp τ sig (Elt F)) :=
  w5 ++ (w6 ++ (w7 ++ (w8 ++ (w9))))

/-- The operations of @main's window 2. -/
abbrev opsP2 : List (HloOp τ sig (Elt F)) :=
  w10 ++ (w11 ++ (w12))

/-- The operations of @main's window 3. -/
abbrev opsP3 : List (HloOp τ sig (Elt F)) :=
  w13 ++ (w14)

/-- @main's 318 operations, in order. -/
abbrev ops : List (HloOp τ sig (Elt F)) :=
  opsP0 ++ (opsP1 ++ (opsP2 ++ opsP3))

/-! ## The same operations as the functions' bodies spell them -/

/-- Stretch `w0`, each operation of a function's body over the call's typed references. -/
abbrev t0 : List (HloOp τ sig (Elt F)) :=
  [ StableHlo.nullary main_cst (constant S_ .f32 0x00000000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.binary main_arg1 main_v0 main_v1 (cmpf .une : (⟨S1024x1024, .f32⟩ : BufTy).Contents (Elt F) → (⟨S1024x1024, .f32⟩ : BufTy).Contents (Elt F) → (⟨S1024x1024, .i1⟩ : BufTy).Contents (Elt F)),
    StableHlo.TRef.reshape (.of main_v1 : StableHlo.TRef sig ⟨S1024x1024, .i1⟩) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_),
    StableHlo.nullary main_c (constantI S_ 32 0#32),
    StableHlo.unary main_c main_v3 (broadcastInDim S1048576 ![] bcast_S_S1048576 : (⟨S_, .i32⟩ : BufTy).Contents (Elt F) → (⟨S1048576, .i32⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S1048576 ![] bcast_S_S1048576),
    StableHlo.TRef.binary main_call1.v1 (.of main_v2 : StableHlo.TRef sig ⟨S1048576, .i32⟩) main_call1.v2 maxsi,
    StableHlo.nullary main_c_1 (constantI S_ 32 0#32),
    StableHlo.unary main_c_1 main_v5 (broadcastInDim S1048576 ![] bcast_S_S1048576 : (⟨S_, .i32⟩ : BufTy).Contents (Elt F) → (⟨S1048576, .i32⟩ : BufTy).Contents (Elt F)),
    StableHlo.binary main_v4 main_v5 main_v6 (cmpi .slt : (⟨S1048576, .i32⟩ : BufTy).Contents (Elt F) → (⟨S1048576, .i32⟩ : BufTy).Contents (Elt F) → (⟨S1048576, .i1⟩ : BufTy).Contents (Elt F)),
    StableHlo.nullary main_c_2 (constantI S_ 32 1048576#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v4 main_v7 main_v8 (addi : (⟨S1048576, .i32⟩ : BufTy).Contents (Elt F) → (⟨S1048576, .i32⟩ : BufTy).Contents (Elt F) → (⟨S1048576, .i32⟩ : BufTy).Contents (Elt F)),
    StableHlo.ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v9 main_v10 (broadcastInDim S1048576x1 ![0] bcast_S1048576_S1048576x1_0 : (⟨S1048576, .i32⟩ : BufTy).Contents (Elt F) → (⟨S1048576x1, .i32⟩ : BufTy).Contents (Elt F)),
    StableHlo.nullary main_c_3 (constantI S_ 32 1#32),
    StableHlo.unary main_c_3 main_v11 (broadcastInDim S1048576 ![] bcast_S_S1048576 : (⟨S_, .i32⟩ : BufTy).Contents (Elt F) → (⟨S1048576, .i32⟩ : BufTy).Contents (Elt F)),
    StableHlo.ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

/-- Stretch `w1`, each operation of a function's body over the call's typed references. -/
abbrev t1 : List (HloOp τ sig (Elt F)) :=
  [ StableHlo.nullary main_c_4 (constantI S_ 32 1024#32),
    StableHlo.TRef.unary (.of main_c_4 : StableHlo.TRef sig ⟨S_, .i32⟩) main_call3.v0 (broadcastInDim S1048576 ![] bcast_S_S1048576),
    StableHlo.TRef.binary (.of main_v13 : StableHlo.TRef sig ⟨S1048576, .i32⟩) main_call3.v0 main_call3.v1 Host.divsi,
    StableHlo.TRef.unary (.of main_v13 : StableHlo.TRef sig ⟨S1048576, .i32⟩) main_call3.v2 signi,
    StableHlo.TRef.unary (.of main_c_4 : StableHlo.TRef sig ⟨S_, .i32⟩) main_call3.v3 signi,
    StableHlo.TRef.unary main_call3.v3 main_call3.v4 (broadcastInDim S1048576 ![] bcast_S_S1048576),
    StableHlo.TRef.binary main_call3.v2 main_call3.v4 main_call3.v5 (cmpi .ne),
    StableHlo.TRef.unary (.of main_c_4 : StableHlo.TRef sig ⟨S_, .i32⟩) main_call3.v6 (broadcastInDim S1048576 ![] bcast_S_S1048576),
    StableHlo.TRef.binary (.of main_v13 : StableHlo.TRef sig ⟨S1048576, .i32⟩) main_call3.v6 main_call3.v7 Host.remsi,
    StableHlo.TRef.nullary main_call3.c (constantI S_ 32 0#32),
    StableHlo.TRef.unary main_call3.c main_call3.v8 (broadcastInDim S1048576 ![] bcast_S_S1048576),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1048576 ![] bcast_S_S1048576),
    StableHlo.TRef.binary main_call3.v1 main_call3.v11 main_call3.v12 subi,
    StableHlo.TRef.ternary main_call3.v10 main_call3.v12 main_call3.v1 main_call3.call0.v0 select,
    StableHlo.nullary main_c_5 (constantI S_ 32 1024#32),
    StableHlo.TRef.unary (.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1048576 ![] bcast_S_S1048576),
    StableHlo.TRef.binary (.of main_v14 : StableHlo.TRef sig ⟨S1048576, .i32⟩) main_call4.v3 main_call4.v4 Host.remsi,
    StableHlo.TRef.nullary main_call4.c_1 (constantI S_ 32 0#32),
    StableHlo.TRef.unary main_call4.c_1 main_call4.v5 (broadcastInDim S1048576 ![] bcast_S_S1048576),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1048576 ![] bcast_S_S1048576),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1048576 ![] bcast_S_S1048576),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1048576 ![] bcast_S_S1048576),
    StableHlo.TRef.binary main_call4.v4 main_call4.v13 main_call4.v14 addi,
    StableHlo.TRef.ternary main_call4.v12 main_call4.v14 main_call4.v4 main_call4.v15 select ]

/-- Stretch `w2`, each operation of a function's body over the call's typed references. -/
abbrev t2 : List (HloOp τ sig (Elt F)) :=
  [ StableHlo.nullary main_c_6 (constantI S_ 32 1#32),
    StableHlo.TRef.unary (.of main_c_6 : StableHlo.TRef sig ⟨S_, .i32⟩) main_call5.v0 (broadcastInDim S1048576 ![] bcast_S_S1048576),
    StableHlo.TRef.binary (.of main_v13 : StableHlo.TRef sig ⟨S1048576, .i32⟩) main_call5.v0 main_call5.v1 Host.divsi,
    StableHlo.TRef.unary (.of main_v13 : StableHlo.TRef sig ⟨S1048576, .i32⟩) main_call5.v2 signi,
    StableHlo.TRef.unary (.of main_c_6 : StableHlo.TRef sig ⟨S_, .i32⟩) main_call5.v3 signi,
    StableHlo.TRef.unary main_call5.v3 main_call5.v4 (broadcastInDim S1048576 ![] bcast_S_S1048576),
    StableHlo.TRef.binary main_call5.v2 main_call5.v4 main_call5.v5 (cmpi .ne),
    StableHlo.TRef.unary (.of main_c_6 : StableHlo.TRef sig ⟨S_, .i32⟩) main_call5.v6 (broadcastInDim S1048576 ![] bcast_S_S1048576),
    StableHlo.TRef.binary (.of main_v13 : StableHlo.TRef sig ⟨S1048576, .i32⟩) main_call5.v6 main_call5.v7 Host.remsi,
    StableHlo.TRef.nullary main_call5.c (constantI S_ 32 0#32),
    StableHlo.TRef.unary main_call5.c main_call5.v8 (broadcastInDim S1048576 ![] bcast_S_S1048576),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S1048576 ![] bcast_S_S1048576),
    StableHlo.TRef.binary main_call5.v1 main_call5.v11 main_call5.v12 subi,
    StableHlo.TRef.ternary main_call5.v10 main_call5.v12 main_call5.v1 main_call5.call0.v0 select,
    StableHlo.nullary main_c_7 (constantI S_ 32 1024#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1048576 ![] bcast_S_S1048576),
    StableHlo.TRef.binary (.of main_v16 : StableHlo.TRef sig ⟨S1048576, .i32⟩) main_call6.v3 main_call6.v4 Host.remsi,
    StableHlo.TRef.nullary main_call6.c_1 (constantI S_ 32 0#32),
    StableHlo.TRef.unary main_call6.c_1 main_call6.v5 (broadcastInDim S1048576 ![] bcast_S_S1048576),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1048576 ![] bcast_S_S1048576),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1048576 ![] bcast_S_S1048576),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1048576 ![] bcast_S_S1048576),
    StableHlo.TRef.binary main_call6.v4 main_call6.v13 main_call6.v14 addi,
    StableHlo.TRef.ternary main_call6.v12 main_call6.v14 main_call6.v4 main_call6.v15 select ]

/-- Stretch `w3`, each operation of a function's body over the call's typed references. -/
abbrev t3 : List (HloOp τ sig (Elt F)) :=
  [ StableHlo.nullary main_v18 (iotaInDim S1048576 32 0),
    StableHlo.unary main_v1 main_v19 ((extui 32 · natLt_1_32) : (⟨S1024x1024, .i1⟩ : BufTy).Contents (Elt F) → (⟨S1024x1024, .i32⟩ : BufTy).Contents (Elt F)),
    StableHlo.nullary main_c_8 (constantI S_ 32 0#32),
    StableHlo.binary main_v19 main_c_8 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v20 main_v21 (broadcastInDim S1048576 ![] bcast_S_S1048576 : (⟨S_, .i32⟩ : BufTy).Contents (Elt F) → (⟨S1048576, .i32⟩ : BufTy).Contents (Elt F)),
    StableHlo.binary main_v18 main_v21 main_v22 (cmpi .sge : (⟨S1048576, .i32⟩ : BufTy).Contents (Elt F) → (⟨S1048576, .i32⟩ : BufTy).Contents (Elt F) → (⟨S1048576, .i1⟩ : BufTy).Contents (Elt F)),
    StableHlo.nullary main_c_9 (constantI S_ 32 0#32),
    StableHlo.TRef.unary (.of main_c_9 : StableHlo.TRef sig ⟨S_, .i32⟩) main_call7.v0 id,
    StableHlo.TRef.unary main_call7.v0 main_call7.v1 (broadcastInDim S1048576 ![] bcast_S_S1048576),
    StableHlo.TRef.ternary (.of main_v22 : StableHlo.TRef sig ⟨S1048576, .i1⟩) main_call7.v1 (.of main_v15 : StableHlo.TRef sig ⟨S1048576, .i32⟩) main_call7.v2 select,
    StableHlo.nullary main_c_10 (constantI S_ 32 0#32),
    StableHlo.TRef.unary (.of main_c_10 : StableHlo.TRef sig ⟨S_, .i32⟩) main_call8.v0 id,
    StableHlo.TRef.unary main_call8.v0 main_call8.v1 (broadcastInDim S1048576 ![] bcast_S_S1048576),
    StableHlo.TRef.ternary (.of main_v22 : StableHlo.TRef sig ⟨S1048576, .i1⟩) main_call8.v1 (.of main_v17 : StableHlo.TRef sig ⟨S1048576, .i32⟩) main_call8.v2 select,
    StableHlo.nullary main_v25 (iotaInDim S1048576 32 0),
    StableHlo.TRef.nullary main_call9.cst (constant S_ .f32 0x00000000#32),
    StableHlo.TRef.unary main_call9.cst main_call9.v0 (broadcastInDim S1024x1024 ![] bcast_S_S1024x1024),
    StableHlo.TRef.binary (.of main_arg1 : StableHlo.TRef sig ⟨S1024x1024, .f32⟩) main_call9.v0 main_call9.v1 (cmpf .une),
    StableHlo.TRef.unary main_call9.v1 main_call9.v2 (extui 32 · natLt_1_32),
    StableHlo.TRef.nullary main_call9.c (constantI S_ 32 0#32),
    StableHlo.TRef.binary main_call9.v2 main_call9.c main_call9.v3 (fun x v => Host.reduce IntOp.addi x v reducesTo_S1024x1024_S_d0_1 h_S_),
    StableHlo.unary main_v26 main_v27 (broadcastInDim S1048576 ![] bcast_S_S1048576 : (⟨S_, .i32⟩ : BufTy).Contents (Elt F) → (⟨S1048576, .i32⟩ : BufTy).Contents (Elt F)),
    StableHlo.binary main_v25 main_v27 main_v28 (cmpi .slt : (⟨S1048576, .i32⟩ : BufTy).Contents (Elt F) → (⟨S1048576, .i32⟩ : BufTy).Contents (Elt F) → (⟨S1048576, .i1⟩ : BufTy).Contents (Elt F)) ]

/-- Stretch `w4`, each operation of a function's body over the call's typed references. -/
abbrev t4 : List (HloOp τ sig (Elt F)) :=
  [ StableHlo.unary main_arg0 main_v29 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    StableHlo.reshape main_v29 main_v30 rfl shapeCasts_S1x1024x256_S1024x256,
    StableHlo.binary main_v30 main_arg2 main_v31 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.binary main_v31 main_v31 main_v32 (cmpf .une : (⟨S1024x128, .f32⟩ : BufTy).Contents (Elt F) → (⟨S1024x128, .f32⟩ : BufTy).Contents (Elt F) → (⟨S1024x128, .i1⟩ : BufTy).Contents (Elt F)),
    StableHlo.nullary main_cst_11 (constant S_ .f32 0x00000000#32),
    StableHlo.TRef.unary (.of main_cst_11 : StableHlo.TRef sig ⟨S_, .f32⟩) main_call10.v0 id,
    StableHlo.TRef.unary main_call10.v0 main_call10.v1 (broadcastInDim S1024x128 ![] bcast_S_S1024x128),
    StableHlo.TRef.ternary (.of main_v32 : StableHlo.TRef sig ⟨S1024x128, .i1⟩) main_call10.v1 (.of main_v31 : StableHlo.TRef sig ⟨S1024x128, .f32⟩) main_call10.v2 select,
    StableHlo.nullary main_c_12 (constantI S_ 32 0#32),
    StableHlo.unary main_c_12 main_v34 (broadcastInDim S1048576 ![] bcast_S_S1048576 : (⟨S_, .i32⟩ : BufTy).Contents (Elt F) → (⟨S1048576, .i32⟩ : BufTy).Contents (Elt F)),
    StableHlo.binary main_v23 main_v34 main_v35 (cmpi .slt : (⟨S1048576, .i32⟩ : BufTy).Contents (Elt F) → (⟨S1048576, .i32⟩ : BufTy).Contents (Elt F) → (⟨S1048576, .i1⟩ : BufTy).Contents (Elt F)),
    StableHlo.nullary main_c_13 (constantI S_ 32 1024#32),
    StableHlo.unary main_c_13 main_v36 (broadcastInDim S1048576 ![] bcast_S_S1048576 : (⟨S_, .i32⟩ : BufTy).Contents (Elt F) → (⟨S1048576, .i32⟩ : BufTy).Contents (Elt F)),
    StableHlo.binary main_v23 main_v36 main_v37 (addi : (⟨S1048576, .i32⟩ : BufTy).Contents (Elt F) → (⟨S1048576, .i32⟩ : BufTy).Contents (Elt F) → (⟨S1048576, .i32⟩ : BufTy).Contents (Elt F)),
    StableHlo.ternary main_v35 main_v37 main_v23 main_v38 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v38 main_v39 (broadcastInDim S1048576x1 ![0] bcast_S1048576_S1048576x1_0 : (⟨S1048576, .i32⟩ : BufTy).Contents (Elt F) → (⟨S1048576x1, .i32⟩ : BufTy).Contents (Elt F)),
    StableHlo.binary main_v33 main_v39 main_v40 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.nullary main_c_14 (constantI S_ 32 0#32),
    StableHlo.unary main_c_14 main_v41 (broadcastInDim S1048576 ![] bcast_S_S1048576 : (⟨S_, .i32⟩ : BufTy).Contents (Elt F) → (⟨S1048576, .i32⟩ : BufTy).Contents (Elt F)),
    StableHlo.binary main_v24 main_v41 main_v42 (cmpi .slt : (⟨S1048576, .i32⟩ : BufTy).Contents (Elt F) → (⟨S1048576, .i32⟩ : BufTy).Contents (Elt F) → (⟨S1048576, .i1⟩ : BufTy).Contents (Elt F)) ]

/-- Stretch `w5`, each operation of a function's body over the call's typed references. -/
abbrev t5 : List (HloOp τ sig (Elt F)) :=
  [ StableHlo.nullary main_c_15 (constantI S_ 32 1024#32),
    StableHlo.unary main_c_15 main_v43 (broadcastInDim S1048576 ![] bcast_S_S1048576 : (⟨S_, .i32⟩ : BufTy).Contents (Elt F) → (⟨S1048576, .i32⟩ : BufTy).Contents (Elt F)),
    StableHlo.binary main_v24 main_v43 main_v44 (addi : (⟨S1048576, .i32⟩ : BufTy).Contents (Elt F) → (⟨S1048576, .i32⟩ : BufTy).Contents (Elt F) → (⟨S1048576, .i32⟩ : BufTy).Contents (Elt F)),
    StableHlo.ternary main_v42 main_v44 main_v24 main_v45 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v45 main_v46 (broadcastInDim S1048576x1 ![0] bcast_S1048576_S1048576x1_0 : (⟨S1048576, .i32⟩ : BufTy).Contents (Elt F) → (⟨S1048576x1, .i32⟩ : BufTy).Contents (Elt F)),
    StableHlo.binary main_v33 main_v46 main_v47 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- Stretch `w6`, each operation of a function's body over the call's typed references. -/
abbrev t6 : List (HloOp τ sig (Elt F)) :=
  [ StableHlo.binary main_v40 main_v47 main_v48 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v48 main_v49 ((transpose S256x1048576 [1, 0] · transposes_S1048576x256_S256x1048576_1_0) : (⟨S1048576x256, .f32⟩ : BufTy).Contents (Elt F) → (⟨S256x1048576, .f32⟩ : BufTy).Contents (Elt F)),
    StableHlo.binary main_arg3 main_v49 main_v50 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v50 main_v51 rfl shapeCasts_S1x1048576_S1048576 ]

/-- Stretch `w7`, each operation of a function's body over the call's typed references. -/
abbrev t7 : List (HloOp τ sig (Elt F)) :=
  [ StableHlo.nullary main_cst_16 (constant S_ .f32 0x00000000#32),
    StableHlo.unary main_cst_16 main_v52 (broadcastInDim S1048576 ![] bcast_S_S1048576 : (⟨S_, .f32⟩ : BufTy).Contents (Elt F) → (⟨S1048576, .f32⟩ : BufTy).Contents (Elt F)),
    StableHlo.binary main_v51 main_v52 main_v53 (cmpf .oge : (⟨S1048576, .f32⟩ : BufTy).Contents (Elt F) → (⟨S1048576, .f32⟩ : BufTy).Contents (Elt F) → (⟨S1048576, .i1⟩ : BufTy).Contents (Elt F)),
    StableHlo.nullary main_cst_17 (constant S_ .f32 0x3E4CCCCD#32),
    StableHlo.unary main_cst_17 main_v54 (broadcastInDim S1048576 ![] bcast_S_S1048576 : (⟨S_, .f32⟩ : BufTy).Contents (Elt F) → (⟨S1048576, .f32⟩ : BufTy).Contents (Elt F)),
    StableHlo.binary main_v54 main_v51 main_v55 (mulf : (⟨S1048576, .f32⟩ : BufTy).Contents (Elt F) → (⟨S1048576, .f32⟩ : BufTy).Contents (Elt F) → (⟨S1048576, .f32⟩ : BufTy).Contents (Elt F)),
    StableHlo.TRef.ternary (.of main_v53 : StableHlo.TRef sig ⟨S1048576, .i1⟩) (.of main_v51 : StableHlo.TRef sig ⟨S1048576, .f32⟩) (.of main_v55 : StableHlo.TRef sig ⟨S1048576, .f32⟩) main_call11.v0 select,
    StableHlo.unary main_v56 main_v57 (Host.negf : (⟨S1048576, .f32⟩ : BufTy).Contents (Elt F) → (⟨S1048576, .f32⟩ : BufTy).Contents (Elt F)),
    StableHlo.unary main_v57 main_v58 (Host.exp : (⟨S1048576, .f32⟩ : BufTy).Contents (Elt F) → (⟨S1048576, .f32⟩ : BufTy).Contents (Elt F)),
    StableHlo.binary main_v58 main_v58 main_v59 (cmpf .une : (⟨S1048576, .f32⟩ : BufTy).Contents (Elt F) → (⟨S1048576, .f32⟩ : BufTy).Contents (Elt F) → (⟨S1048576, .i1⟩ : BufTy).Contents (Elt F)),
    StableHlo.nullary main_cst_18 (constant S_ .f32 0x00000000#32),
    StableHlo.TRef.unary (.of main_cst_18 : StableHlo.TRef sig ⟨S_, .f32⟩) main_call12.v0 id,
    StableHlo.TRef.unary main_call12.v0 main_call12.v1 (broadcastInDim S1048576 ![] bcast_S_S1048576),
    StableHlo.TRef.ternary (.of main_v59 : StableHlo.TRef sig ⟨S1048576, .i1⟩) main_call12.v1 (.of main_v58 : StableHlo.TRef sig ⟨S1048576, .f32⟩) main_call12.v2 select,
    StableHlo.nullary main_cst_19 (constant S_ .f32 0x00000000#32),
    StableHlo.TRef.unary (.of main_cst_19 : StableHlo.TRef sig ⟨S_, .f32⟩) main_call13.v0 id,
    StableHlo.TRef.unary main_call13.v0 main_call13.v1 (broadcastInDim S1048576 ![] bcast_S_S1048576),
    StableHlo.TRef.ternary (.of main_v28 : StableHlo.TRef sig ⟨S1048576, .i1⟩) (.of main_v60 : StableHlo.TRef sig ⟨S1048576, .f32⟩) main_call13.v1 main_call13.v2 select ]

/-- Stretch `w8`, each operation of a function's body over the call's typed references. -/
abbrev t8 : List (HloOp τ sig (Elt F)) :=
  [ StableHlo.nullary main_cst_20 (constant S_ .f32 0x00000000#32),
    StableHlo.unary main_cst_20 main_v62 (broadcastInDim S1024 ![] bcast_S_S1024 : (⟨S_, .f32⟩ : BufTy).Contents (Elt F) → (⟨S1024, .f32⟩ : BufTy).Contents (Elt F)),
    StableHlo.unary main_v23 main_v63 (broadcastInDim S1048576x1 ![0] bcast_S1048576_S1048576x1_0 : (⟨S1048576, .i32⟩ : BufTy).Contents (Elt F) → (⟨S1048576x1, .i32⟩ : BufTy).Contents (Elt F)),
    StableHlo.ternary main_v62 main_v63 main_v61 main_v64 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.unary main_v64 main_v65 (broadcastInDim S1024x1 ![0] bcast_S1024_S1024x1_0 : (⟨S1024, .f32⟩ : BufTy).Contents (Elt F) → (⟨S1024x1, .f32⟩ : BufTy).Contents (Elt F)),
    StableHlo.nullary main_cst_21 (constant S_ .f32 0x00000000#32),
    StableHlo.unary main_cst_21 main_v66 (broadcastInDim S1024x1 ![] bcast_S_S1024x1 : (⟨S_, .f32⟩ : BufTy).Contents (Elt F) → (⟨S1024x1, .f32⟩ : BufTy).Contents (Elt F)),
    StableHlo.binary main_v65 main_v66 main_v67 (cmpf .une : (⟨S1024x1, .f32⟩ : BufTy).Contents (Elt F) → (⟨S1024x1, .f32⟩ : BufTy).Contents (Elt F) → (⟨S1024x1, .i1⟩ : BufTy).Contents (Elt F)),
    StableHlo.nullary main_cst_22 (constant S_ .f32 0x3F800000#32),
    StableHlo.TRef.unary (.of main_cst_22 : StableHlo.TRef sig ⟨S_, .f32⟩) main_call14.v0 id,
    StableHlo.TRef.unary main_call14.v0 main_call14.v1 (broadcastInDim S1024x1 ![] bcast_S_S1024x1),
    StableHlo.TRef.ternary (.of main_v67 : StableHlo.TRef sig ⟨S1024x1, .i1⟩) (.of main_v65 : StableHlo.TRef sig ⟨S1024x1, .f32⟩) main_call14.v1 main_call14.v2 select ]

/-- Stretch `w9`, each operation of a function's body over the call's typed references. -/
abbrev t9 : List (HloOp τ sig (Elt F)) :=
  [ StableHlo.unary main_v61 main_v69 (broadcastInDim S1048576x1 ![0] bcast_S1048576_S1048576x1_0 : (⟨S1048576, .f32⟩ : BufTy).Contents (Elt F) → (⟨S1048576x1, .f32⟩ : BufTy).Contents (Elt F)),
    StableHlo.nullary main_c_23 (constantI S_ 32 0#32),
    StableHlo.unary main_c_23 main_v70 (broadcastInDim S1048576 ![] bcast_S_S1048576 : (⟨S_, .i32⟩ : BufTy).Contents (Elt F) → (⟨S1048576, .i32⟩ : BufTy).Contents (Elt F)),
    StableHlo.binary main_v24 main_v70 main_v71 (cmpi .slt : (⟨S1048576, .i32⟩ : BufTy).Contents (Elt F) → (⟨S1048576, .i32⟩ : BufTy).Contents (Elt F) → (⟨S1048576, .i1⟩ : BufTy).Contents (Elt F)),
    StableHlo.nullary main_c_24 (constantI S_ 32 1024#32),
    StableHlo.unary main_c_24 main_v72 (broadcastInDim S1048576 ![] bcast_S_S1048576 : (⟨S_, .i32⟩ : BufTy).Contents (Elt F) → (⟨S1048576, .i32⟩ : BufTy).Contents (Elt F)),
    StableHlo.binary main_v24 main_v72 main_v73 (addi : (⟨S1048576, .i32⟩ : BufTy).Contents (Elt F) → (⟨S1048576, .i32⟩ : BufTy).Contents (Elt F) → (⟨S1048576, .i32⟩ : BufTy).Contents (Elt F)),
    StableHlo.ternary main_v71 main_v73 main_v24 main_v74 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v74 main_v75 (broadcastInDim S1048576x1 ![0] bcast_S1048576_S1048576x1_0 : (⟨S1048576, .i32⟩ : BufTy).Contents (Elt F) → (⟨S1048576x1, .i32⟩ : BufTy).Contents (Elt F)),
    StableHlo.binary main_v33 main_v75 main_v76 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v69 main_v77 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v77 main_v76 main_v78 (mulf : (⟨S1048576x128, .f32⟩ : BufTy).Contents (Elt F) → (⟨S1048576x128, .f32⟩ : BufTy).Contents (Elt F) → (⟨S1048576x128, .f32⟩ : BufTy).Contents (Elt F)),
    StableHlo.nullary main_cst_25 (constant S_ .f32 0x00000000#32),
    StableHlo.unary main_cst_25 main_v79 (broadcastInDim S1024x128 ![] bcast_S_S1024x128 : (⟨S_, .f32⟩ : BufTy).Contents (Elt F) → (⟨S1024x128, .f32⟩ : BufTy).Contents (Elt F)),
    StableHlo.unary main_v23 main_v80 (broadcastInDim S1048576x1 ![0] bcast_S1048576_S1048576x1_0 : (⟨S1048576, .i32⟩ : BufTy).Contents (Elt F) → (⟨S1048576x1, .i32⟩ : BufTy).Contents (Elt F)),
    StableHlo.ternary main_v79 main_v80 main_v78 main_v81 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.binary main_v81 main_v81 main_v82 (cmpf .une : (⟨S1024x128, .f32⟩ : BufTy).Contents (Elt F) → (⟨S1024x128, .f32⟩ : BufTy).Contents (Elt F) → (⟨S1024x128, .i1⟩ : BufTy).Contents (Elt F)),
    StableHlo.nullary main_cst_26 (constant S_ .f32 0x00000000#32),
    StableHlo.TRef.unary (.of main_cst_26 : StableHlo.TRef sig ⟨S_, .f32⟩) main_call15.v0 id,
    StableHlo.TRef.unary main_call15.v0 main_call15.v1 (broadcastInDim S1024x128 ![] bcast_S_S1024x128),
    StableHlo.TRef.ternary (.of main_v82 : StableHlo.TRef sig ⟨S1024x128, .i1⟩) main_call15.v1 (.of main_v81 : StableHlo.TRef sig ⟨S1024x128, .f32⟩) main_call15.v2 select,
    StableHlo.unary main_v68 main_v84 (broadcastInDim S1024x128 ![0, 1] bcast_S1024x1_S1024x128_0_1 : (⟨S1024x1, .f32⟩ : BufTy).Contents (Elt F) → (⟨S1024x128, .f32⟩ : BufTy).Contents (Elt F)),
    StableHlo.binary main_v83 main_v84 main_v85 (Host.divf : (⟨S1024x128, .f32⟩ : BufTy).Contents (Elt F) → (⟨S1024x128, .f32⟩ : BufTy).Contents (Elt F) → (⟨S1024x128, .f32⟩ : BufTy).Contents (Elt F)),
    StableHlo.binary main_v85 main_v85 main_v86 (cmpf .une : (⟨S1024x128, .f32⟩ : BufTy).Contents (Elt F) → (⟨S1024x128, .f32⟩ : BufTy).Contents (Elt F) → (⟨S1024x128, .i1⟩ : BufTy).Contents (Elt F)),
    StableHlo.nullary main_cst_27 (constant S_ .f32 0x00000000#32),
    StableHlo.TRef.unary (.of main_cst_27 : StableHlo.TRef sig ⟨S_, .f32⟩) main_call16.v0 id,
    StableHlo.TRef.unary main_call16.v0 main_call16.v1 (broadcastInDim S1024x128 ![] bcast_S_S1024x128),
    StableHlo.TRef.ternary (.of main_v86 : StableHlo.TRef sig ⟨S1024x128, .i1⟩) main_call16.v1 (.of main_v85 : StableHlo.TRef sig ⟨S1024x128, .f32⟩) main_call16.v2 select,
    StableHlo.nullary main_cst_28 (constant S_ .f32 0x00000000#32),
    StableHlo.unary main_cst_28 main_v88 (broadcastInDim S1024x128 ![] bcast_S_S1024x128 : (⟨S_, .f32⟩ : BufTy).Contents (Elt F) → (⟨S1024x128, .f32⟩ : BufTy).Contents (Elt F)) ]

/-- Stretch `w10`, each operation of a function's body over the call's typed references. -/
abbrev t10 : List (HloOp τ sig (Elt F)) :=
  [ StableHlo.binary main_v87 main_v88 main_v89 (cmpf .ogt : (⟨S1024x128, .f32⟩ : BufTy).Contents (Elt F) → (⟨S1024x128, .f32⟩ : BufTy).Contents (Elt F) → (⟨S1024x128, .i1⟩ : BufTy).Contents (Elt F)),
    StableHlo.unary main_v87 main_v90 (Host.expm1 : (⟨S1024x128, .f32⟩ : BufTy).Contents (Elt F) → (⟨S1024x128, .f32⟩ : BufTy).Contents (Elt F)),
    StableHlo.TRef.ternary (.of main_v89 : StableHlo.TRef sig ⟨S1024x128, .i1⟩) (.of main_v87 : StableHlo.TRef sig ⟨S1024x128, .f32⟩) (.of main_v90 : StableHlo.TRef sig ⟨S1024x128, .f32⟩) main_call17.v0 select,
    StableHlo.unary main_arg0 main_v92 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    StableHlo.reshape main_v92 main_v93 rfl shapeCasts_S1x1024x256_S1024x256,
    StableHlo.binary main_v93 main_arg2 main_v94 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.binary main_v94 main_v94 main_v95 (cmpf .une : (⟨S1024x128, .f32⟩ : BufTy).Contents (Elt F) → (⟨S1024x128, .f32⟩ : BufTy).Contents (Elt F) → (⟨S1024x128, .i1⟩ : BufTy).Contents (Elt F)),
    StableHlo.nullary main_cst_29 (constant S_ .f32 0x00000000#32),
    StableHlo.TRef.unary (.of main_cst_29 : StableHlo.TRef sig ⟨S_, .f32⟩) main_call18.v0 id,
    StableHlo.TRef.unary main_call18.v0 main_call18.v1 (broadcastInDim S1024x128 ![] bcast_S_S1024x128),
    StableHlo.TRef.ternary (.of main_v95 : StableHlo.TRef sig ⟨S1024x128, .i1⟩) main_call18.v1 (.of main_v94 : StableHlo.TRef sig ⟨S1024x128, .f32⟩) main_call18.v2 select,
    StableHlo.nullary main_c_30 (constantI S_ 32 0#32),
    StableHlo.unary main_c_30 main_v97 (broadcastInDim S1048576 ![] bcast_S_S1048576 : (⟨S_, .i32⟩ : BufTy).Contents (Elt F) → (⟨S1048576, .i32⟩ : BufTy).Contents (Elt F)),
    StableHlo.binary main_v23 main_v97 main_v98 (cmpi .slt : (⟨S1048576, .i32⟩ : BufTy).Contents (Elt F) → (⟨S1048576, .i32⟩ : BufTy).Contents (Elt F) → (⟨S1048576, .i1⟩ : BufTy).Contents (Elt F)),
    StableHlo.nullary main_c_31 (constantI S_ 32 1024#32),
    StableHlo.unary main_c_31 main_v99 (broadcastInDim S1048576 ![] bcast_S_S1048576 : (⟨S_, .i32⟩ : BufTy).Contents (Elt F) → (⟨S1048576, .i32⟩ : BufTy).Contents (Elt F)),
    StableHlo.binary main_v23 main_v99 main_v100 (addi : (⟨S1048576, .i32⟩ : BufTy).Contents (Elt F) → (⟨S1048576, .i32⟩ : BufTy).Contents (Elt F) → (⟨S1048576, .i32⟩ : BufTy).Contents (Elt F)),
    StableHlo.ternary main_v98 main_v100 main_v23 main_v101 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v101 main_v102 (broadcastInDim S1048576x1 ![0] bcast_S1048576_S1048576x1_0 : (⟨S1048576, .i32⟩ : BufTy).Contents (Elt F) → (⟨S1048576x1, .i32⟩ : BufTy).Contents (Elt F)),
    StableHlo.binary main_v96 main_v102 main_v103 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.nullary main_c_32 (constantI S_ 32 0#32),
    StableHlo.unary main_c_32 main_v104 (broadcastInDim S1048576 ![] bcast_S_S1048576 : (⟨S_, .i32⟩ : BufTy).Contents (Elt F) → (⟨S1048576, .i32⟩ : BufTy).Contents (Elt F)),
    StableHlo.binary main_v24 main_v104 main_v105 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 1024#32),
    StableHlo.unary main_c_33 main_v106 (broadcastInDim S1048576 ![] bcast_S_S1048576 : (⟨S_, .i32⟩ : BufTy).Contents (Elt F) → (⟨S1048576, .i32⟩ : BufTy).Contents (Elt F)),
    StableHlo.binary main_v24 main_v106 main_v107 (addi : (⟨S1048576, .i32⟩ : BufTy).Contents (Elt F) → (⟨S1048576, .i32⟩ : BufTy).Contents (Elt F) → (⟨S1048576, .i32⟩ : BufTy).Contents (Elt F)),
    StableHlo.ternary main_v105 main_v107 main_v24 main_v108 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v108 main_v109 (broadcastInDim S1048576x1 ![0] bcast_S1048576_S1048576x1_0 : (⟨S1048576, .i32⟩ : BufTy).Contents (Elt F) → (⟨S1048576x1, .i32⟩ : BufTy).Contents (Elt F)),
    StableHlo.binary main_v96 main_v109 main_v110 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- Stretch `w11`, each operation of a function's body over the call's typed references. -/
abbrev t11 : List (HloOp τ sig (Elt F)) :=
  [ StableHlo.binary main_v103 main_v110 main_v111 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v111 main_v112 ((transpose S256x1048576 [1, 0] · transposes_S1048576x256_S256x1048576_1_0) : (⟨S1048576x256, .f32⟩ : BufTy).Contents (Elt F) → (⟨S256x1048576, .f32⟩ : BufTy).Contents (Elt F)),
    StableHlo.binary main_arg3 main_v112 main_v113 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v113 main_v114 rfl shapeCasts_S1x1048576_S1048576 ]

/-- Stretch `w12`, each operation of a function's body over the call's typed references. -/
abbrev t12 : List (HloOp τ sig (Elt F)) :=
  [ StableHlo.nullary main_cst_34 (constant S_ .f32 0x00000000#32),
    StableHlo.unary main_cst_34 main_v115 (broadcastInDim S1048576 ![] bcast_S_S1048576 : (⟨S_, .f32⟩ : BufTy).Contents (Elt F) → (⟨S1048576, .f32⟩ : BufTy).Contents (Elt F)),
    StableHlo.binary main_v114 main_v115 main_v116 (cmpf .oge : (⟨S1048576, .f32⟩ : BufTy).Contents (Elt F) → (⟨S1048576, .f32⟩ : BufTy).Contents (Elt F) → (⟨S1048576, .i1⟩ : BufTy).Contents (Elt F)),
    StableHlo.nullary main_cst_35 (constant S_ .f32 0x3E4CCCCD#32),
    StableHlo.unary main_cst_35 main_v117 (broadcastInDim S1048576 ![] bcast_S_S1048576 : (⟨S_, .f32⟩ : BufTy).Contents (Elt F) → (⟨S1048576, .f32⟩ : BufTy).Contents (Elt F)),
    StableHlo.binary main_v117 main_v114 main_v118 (mulf : (⟨S1048576, .f32⟩ : BufTy).Contents (Elt F) → (⟨S1048576, .f32⟩ : BufTy).Contents (Elt F) → (⟨S1048576, .f32⟩ : BufTy).Contents (Elt F)),
    StableHlo.TRef.ternary (.of main_v116 : StableHlo.TRef sig ⟨S1048576, .i1⟩) (.of main_v114 : StableHlo.TRef sig ⟨S1048576, .f32⟩) (.of main_v118 : StableHlo.TRef sig ⟨S1048576, .f32⟩) main_call19.v0 select,
    StableHlo.unary main_v119 main_v120 (Host.negf : (⟨S1048576, .f32⟩ : BufTy).Contents (Elt F) → (⟨S1048576, .f32⟩ : BufTy).Contents (Elt F)),
    StableHlo.unary main_v120 main_v121 (Host.exp : (⟨S1048576, .f32⟩ : BufTy).Contents (Elt F) → (⟨S1048576, .f32⟩ : BufTy).Contents (Elt F)),
    StableHlo.binary main_v121 main_v121 main_v122 (cmpf .une : (⟨S1048576, .f32⟩ : BufTy).Contents (Elt F) → (⟨S1048576, .f32⟩ : BufTy).Contents (Elt F) → (⟨S1048576, .i1⟩ : BufTy).Contents (Elt F)),
    StableHlo.nullary main_cst_36 (constant S_ .f32 0x00000000#32),
    StableHlo.TRef.unary (.of main_cst_36 : StableHlo.TRef sig ⟨S_, .f32⟩) main_call20.v0 id,
    StableHlo.TRef.unary main_call20.v0 main_call20.v1 (broadcastInDim S1048576 ![] bcast_S_S1048576),
    StableHlo.TRef.ternary (.of main_v122 : StableHlo.TRef sig ⟨S1048576, .i1⟩) main_call20.v1 (.of main_v121 : StableHlo.TRef sig ⟨S1048576, .f32⟩) main_call20.v2 select,
    StableHlo.nullary main_cst_37 (constant S_ .f32 0x00000000#32),
    StableHlo.TRef.unary (.of main_cst_37 : StableHlo.TRef sig ⟨S_, .f32⟩) main_call21.v0 id,
    StableHlo.TRef.unary main_call21.v0 main_call21.v1 (broadcastInDim S1048576 ![] bcast_S_S1048576),
    StableHlo.TRef.ternary (.of main_v28 : StableHlo.TRef sig ⟨S1048576, .i1⟩) (.of main_v123 : StableHlo.TRef sig ⟨S1048576, .f32⟩) main_call21.v1 main_call21.v2 select,
    StableHlo.nullary main_cst_38 (constant S_ .f32 0x00000000#32),
    StableHlo.unary main_cst_38 main_v125 (broadcastInDim S1024 ![] bcast_S_S1024 : (⟨S_, .f32⟩ : BufTy).Contents (Elt F) → (⟨S1024, .f32⟩ : BufTy).Contents (Elt F)),
    StableHlo.unary main_v23 main_v126 (broadcastInDim S1048576x1 ![0] bcast_S1048576_S1048576x1_0 : (⟨S1048576, .i32⟩ : BufTy).Contents (Elt F) → (⟨S1048576x1, .i32⟩ : BufTy).Contents (Elt F)),
    StableHlo.ternary main_v125 main_v126 main_v124 main_v127 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.unary main_v127 main_v128 (broadcastInDim S1024x1 ![0] bcast_S1024_S1024x1_0 : (⟨S1024, .f32⟩ : BufTy).Contents (Elt F) → (⟨S1024x1, .f32⟩ : BufTy).Contents (Elt F)),
    StableHlo.nullary main_cst_39 (constant S_ .f32 0x00000000#32),
    StableHlo.unary main_cst_39 main_v129 (broadcastInDim S1024x1 ![] bcast_S_S1024x1 : (⟨S_, .f32⟩ : BufTy).Contents (Elt F) → (⟨S1024x1, .f32⟩ : BufTy).Contents (Elt F)),
    StableHlo.binary main_v128 main_v129 main_v130 (cmpf .une : (⟨S1024x1, .f32⟩ : BufTy).Contents (Elt F) → (⟨S1024x1, .f32⟩ : BufTy).Contents (Elt F) → (⟨S1024x1, .i1⟩ : BufTy).Contents (Elt F)),
    StableHlo.nullary main_cst_40 (constant S_ .f32 0x3F800000#32),
    StableHlo.TRef.unary (.of main_cst_40 : StableHlo.TRef sig ⟨S_, .f32⟩) main_call22.v0 id,
    StableHlo.TRef.unary main_call22.v0 main_call22.v1 (broadcastInDim S1024x1 ![] bcast_S_S1024x1),
    StableHlo.TRef.ternary (.of main_v130 : StableHlo.TRef sig ⟨S1024x1, .i1⟩) (.of main_v128 : StableHlo.TRef sig ⟨S1024x1, .f32⟩) main_call22.v1 main_call22.v2 select,
    StableHlo.unary main_v124 main_v132 (broadcastInDim S1048576x1 ![0] bcast_S1048576_S1048576x1_0 : (⟨S1048576, .f32⟩ : BufTy).Contents (Elt F) → (⟨S1048576x1, .f32⟩ : BufTy).Contents (Elt F)),
    StableHlo.nullary main_c_41 (constantI S_ 32 0#32),
    StableHlo.unary main_c_41 main_v133 (broadcastInDim S1048576 ![] bcast_S_S1048576 : (⟨S_, .i32⟩ : BufTy).Contents (Elt F) → (⟨S1048576, .i32⟩ : BufTy).Contents (Elt F)),
    StableHlo.binary main_v24 main_v133 main_v134 (cmpi .slt : (⟨S1048576, .i32⟩ : BufTy).Contents (Elt F) → (⟨S1048576, .i32⟩ : BufTy).Contents (Elt F) → (⟨S1048576, .i1⟩ : BufTy).Contents (Elt F)),
    StableHlo.nullary main_c_42 (constantI S_ 32 1024#32) ]

/-- Stretch `w13`, each operation of a function's body over the call's typed references. -/
abbrev t13 : List (HloOp τ sig (Elt F)) :=
  [ StableHlo.unary main_c_42 main_v135 (broadcastInDim S1048576 ![] bcast_S_S1048576 : (⟨S_, .i32⟩ : BufTy).Contents (Elt F) → (⟨S1048576, .i32⟩ : BufTy).Contents (Elt F)),
    StableHlo.binary main_v24 main_v135 main_v136 (addi : (⟨S1048576, .i32⟩ : BufTy).Contents (Elt F) → (⟨S1048576, .i32⟩ : BufTy).Contents (Elt F) → (⟨S1048576, .i32⟩ : BufTy).Contents (Elt F)),
    StableHlo.ternary main_v134 main_v136 main_v24 main_v137 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v137 main_v138 (broadcastInDim S1048576x1 ![0] bcast_S1048576_S1048576x1_0 : (⟨S1048576, .i32⟩ : BufTy).Contents (Elt F) → (⟨S1048576x1, .i32⟩ : BufTy).Contents (Elt F)),
    StableHlo.binary main_v96 main_v138 main_v139 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v132 main_v140 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v140 main_v139 main_v141 (mulf : (⟨S1048576x128, .f32⟩ : BufTy).Contents (Elt F) → (⟨S1048576x128, .f32⟩ : BufTy).Contents (Elt F) → (⟨S1048576x128, .f32⟩ : BufTy).Contents (Elt F)),
    StableHlo.nullary main_cst_43 (constant S_ .f32 0x00000000#32),
    StableHlo.unary main_cst_43 main_v142 (broadcastInDim S1024x128 ![] bcast_S_S1024x128 : (⟨S_, .f32⟩ : BufTy).Contents (Elt F) → (⟨S1024x128, .f32⟩ : BufTy).Contents (Elt F)),
    StableHlo.unary main_v23 main_v143 (broadcastInDim S1048576x1 ![0] bcast_S1048576_S1048576x1_0 : (⟨S1048576, .i32⟩ : BufTy).Contents (Elt F) → (⟨S1048576x1, .i32⟩ : BufTy).Contents (Elt F)),
    StableHlo.ternary main_v142 main_v143 main_v141 main_v144 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.binary main_v144 main_v144 main_v145 (cmpf .une : (⟨S1024x128, .f32⟩ : BufTy).Contents (Elt F) → (⟨S1024x128, .f32⟩ : BufTy).Contents (Elt F) → (⟨S1024x128, .i1⟩ : BufTy).Contents (Elt F)),
    StableHlo.nullary main_cst_44 (constant S_ .f32 0x00000000#32),
    StableHlo.TRef.unary (.of main_cst_44 : StableHlo.TRef sig ⟨S_, .f32⟩) main_call23.v0 id,
    StableHlo.TRef.unary main_call23.v0 main_call23.v1 (broadcastInDim S1024x128 ![] bcast_S_S1024x128),
    StableHlo.TRef.ternary (.of main_v145 : StableHlo.TRef sig ⟨S1024x128, .i1⟩) main_call23.v1 (.of main_v144 : StableHlo.TRef sig ⟨S1024x128, .f32⟩) main_call23.v2 select,
    StableHlo.unary main_v131 main_v147 (broadcastInDim S1024x128 ![0, 1] bcast_S1024x1_S1024x128_0_1 : (⟨S1024x1, .f32⟩ : BufTy).Contents (Elt F) → (⟨S1024x128, .f32⟩ : BufTy).Contents (Elt F)),
    StableHlo.binary main_v146 main_v147 main_v148 (Host.divf : (⟨S1024x128, .f32⟩ : BufTy).Contents (Elt F) → (⟨S1024x128, .f32⟩ : BufTy).Contents (Elt F) → (⟨S1024x128, .f32⟩ : BufTy).Contents (Elt F)),
    StableHlo.binary main_v148 main_v148 main_v149 (cmpf .une : (⟨S1024x128, .f32⟩ : BufTy).Contents (Elt F) → (⟨S1024x128, .f32⟩ : BufTy).Contents (Elt F) → (⟨S1024x128, .i1⟩ : BufTy).Contents (Elt F)),
    StableHlo.nullary main_cst_45 (constant S_ .f32 0x00000000#32),
    StableHlo.TRef.unary (.of main_cst_45 : StableHlo.TRef sig ⟨S_, .f32⟩) main_call24.v0 id,
    StableHlo.TRef.unary main_call24.v0 main_call24.v1 (broadcastInDim S1024x128 ![] bcast_S_S1024x128),
    StableHlo.TRef.ternary (.of main_v149 : StableHlo.TRef sig ⟨S1024x128, .i1⟩) main_call24.v1 (.of main_v148 : StableHlo.TRef sig ⟨S1024x128, .f32⟩) main_call24.v2 select,
    StableHlo.nullary main_cst_46 (constant S_ .f32 0x00000000#32),
    StableHlo.unary main_cst_46 main_v151 (broadcastInDim S1024x128 ![] bcast_S_S1024x128 : (⟨S_, .f32⟩ : BufTy).Contents (Elt F) → (⟨S1024x128, .f32⟩ : BufTy).Contents (Elt F)),
    StableHlo.binary main_v150 main_v151 main_v152 (cmpf .ogt : (⟨S1024x128, .f32⟩ : BufTy).Contents (Elt F) → (⟨S1024x128, .f32⟩ : BufTy).Contents (Elt F) → (⟨S1024x128, .i1⟩ : BufTy).Contents (Elt F)),
    StableHlo.unary main_v150 main_v153 (Host.expm1 : (⟨S1024x128, .f32⟩ : BufTy).Contents (Elt F) → (⟨S1024x128, .f32⟩ : BufTy).Contents (Elt F)),
    StableHlo.TRef.ternary (.of main_v152 : StableHlo.TRef sig ⟨S1024x128, .i1⟩) (.of main_v150 : StableHlo.TRef sig ⟨S1024x128, .f32⟩) (.of main_v153 : StableHlo.TRef sig ⟨S1024x128, .f32⟩) main_call25.v0 select,
    StableHlo.unary main_v91 main_v155 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v154 main_v156 (broadcastInDim S1x1024x128 ![1, 2] bcast_S1024x128_S1x1024x128_1_2 : (⟨S1024x128, .f32⟩ : BufTy).Contents (Elt F) → (⟨S1x1024x128, .f32⟩ : BufTy).Contents (Elt F)) ]

/-- Stretch `w14`, each operation of a function's body over the call's typed references. -/
abbrev t14 : List (HloOp τ sig (Elt F)) :=
  [ StableHlo.binary main_v155 main_v156 main_v157 ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) ]

/-! ## @main is that line -/

set_option maxRecDepth 16384 in
theorem t0_eq : (t0 : List (HloOp τ sig (Elt F))) = w0 := rfl

set_option maxRecDepth 16384 in
theorem t1_eq : (t1 : List (HloOp τ sig (Elt F))) = w1 := rfl

set_option maxRecDepth 16384 in
theorem t2_eq : (t2 : List (HloOp τ sig (Elt F))) = w2 := rfl

set_option maxRecDepth 16384 in
theorem t3_eq : (t3 : List (HloOp τ sig (Elt F))) = w3 := rfl

set_option maxRecDepth 16384 in
theorem t4_eq : (t4 : List (HloOp τ sig (Elt F))) = w4 := rfl

set_option maxRecDepth 16384 in
theorem t5_eq : (t5 : List (HloOp τ sig (Elt F))) = w5 := rfl

set_option maxRecDepth 16384 in
theorem t6_eq : (t6 : List (HloOp τ sig (Elt F))) = w6 := rfl

set_option maxRecDepth 16384 in
theorem t7_eq : (t7 : List (HloOp τ sig (Elt F))) = w7 := rfl

set_option maxRecDepth 16384 in
theorem t8_eq : (t8 : List (HloOp τ sig (Elt F))) = w8 := rfl

set_option maxRecDepth 16384 in
theorem t9_eq : (t9 : List (HloOp τ sig (Elt F))) = w9 := rfl

set_option maxRecDepth 16384 in
theorem t10_eq : (t10 : List (HloOp τ sig (Elt F))) = w10 := rfl

set_option maxRecDepth 16384 in
theorem t11_eq : (t11 : List (HloOp τ sig (Elt F))) = w11 := rfl

set_option maxRecDepth 16384 in
theorem t12_eq : (t12 : List (HloOp τ sig (Elt F))) = w12 := rfl

set_option maxRecDepth 16384 in
theorem t13_eq : (t13 : List (HloOp τ sig (Elt F))) = w13 := rfl

set_option maxRecDepth 16384 in
theorem t14_eq : (t14 : List (HloOp τ sig (Elt F))) = w14 := rfl

set_option maxRecDepth 16384 in
set_option maxHeartbeats 4000000 in
theorem part0_eq (c : Dev nD) : main_part0 (F := F) c = seq opsP0 :=
  (show main_part0 (F := F) c = seq (t0 ++ (t1 ++ (t2 ++ (t3 ++ (t4))))) from rfl).trans
    (by rw [t0_eq, t1_eq, t2_eq, t3_eq, t4_eq])

set_option maxRecDepth 16384 in
set_option maxHeartbeats 4000000 in
theorem part1_eq (c : Dev nD) : main_part1 (F := F) c = seq opsP1 :=
  (show main_part1 (F := F) c = seq (t5 ++ (t6 ++ (t7 ++ (t8 ++ (t9))))) from rfl).trans
    (by rw [t5_eq, t6_eq, t7_eq, t8_eq, t9_eq])

set_option maxRecDepth 16384 in
set_option maxHeartbeats 4000000 in
theorem part2_eq (c : Dev nD) : main_part2 (F := F) c = seq opsP2 :=
  (show main_part2 (F := F) c = seq (t10 ++ (t11 ++ (t12))) from rfl).trans
    (by rw [t10_eq, t11_eq, t12_eq])

set_option maxRecDepth 16384 in
set_option maxHeartbeats 4000000 in
theorem part3_eq (c : Dev nD) : main_part3 (F := F) c = seq opsP3 :=
  (show main_part3 (F := F) c = seq (t13 ++ (t14)) from rfl).trans
    (by rw [t13_eq, t14_eq])

set_option maxRecDepth 16384 in
theorem main_eq (c : Dev nD) : main (F := F) c = seq ops := by
  simp only [ops, seq_append, ← part0_eq c, ← part1_eq c, ← part2_eq c, ← part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem w0_sub : (w0 : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩
set_option maxRecDepth 16384 in
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w1_sub : (w1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 16384 in
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w2_sub : (w2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 16384 in
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w3_sub : (w3 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., nullary_bufs_sub .., unary_bufs_sub .., binary_bufs_sub .., unary_bufs_sub .., nullary_bufs_sub .., binary_bufs_sub .., unary_bufs_sub .., binary_bufs_sub ..⟩
set_option maxRecDepth 16384 in
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 16384 in
theorem w4_sub : (w4 : List (HloOp τ sig (Elt F))).Forall fun op => op.bufs ⊆ tcRefs τ sig :=
  ⟨unary_bufs_sub .., reshape_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
set_option maxRecDepth 16384 in
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 16384 in
theorem w5_sub : (w5 : List (HloOp τ sig (Elt F))).Forall fun op => op.bufs ⊆ tcRefs τ sig :=
  ⟨nullary_bufs_sub .., unary_bufs_sub .., binary_bufs_sub .., ternary_bufs_sub .., unary_bufs_sub .., binary_bufs_sub ..⟩
set_option maxRecDepth 16384 in
theorem w5_fresh : (w5 : List (HloOp τ sig (Elt F))).Forall fun op => op.fresh = ∅ :=
  ⟨rfl, rfl, rfl, rfl, rfl, rfl⟩

set_option maxRecDepth 16384 in
theorem w6_sub : (w6 : List (HloOp τ sig (Elt F))).Forall fun op => op.bufs ⊆ tcRefs τ sig :=
  ⟨binary_bufs_sub .., unary_bufs_sub .., binary_bufs_sub .., reshape_bufs_sub ..⟩
set_option maxRecDepth 16384 in
theorem w6_fresh : (w6 : List (HloOp τ sig (Elt F))).Forall fun op => op.fresh = ∅ :=
  ⟨rfl, rfl, rfl, rfl⟩

set_option maxRecDepth 16384 in
theorem w7_sub : (w7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
set_option maxRecDepth 16384 in
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 16384 in
theorem w8_sub : (w8 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub ..⟩
set_option maxRecDepth 16384 in
theorem w8_fresh : (w8 : List (HloOp τ sig (Elt F))).Forall fun op => op.fresh = ∅ :=
  ⟨rfl, rfl, rfl, rfl, rfl, rfl, rfl, rfl, rfl, rfl, rfl, rfl⟩

set_option maxRecDepth 16384 in
theorem w9_sub : (w9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., binary_bufs_sub .., binary_bufs_sub .., nullary_bufs_sub .., unary_bufs_sub .., unary_bufs_sub .., ternary_bufs_sub .., nullary_bufs_sub .., unary_bufs_sub ..⟩
set_option maxRecDepth 16384 in
theorem w9_fresh : (w9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w10_sub : (w10 : List (HloOp τ sig (Elt F))).Forall fun op => op.bufs ⊆ tcRefs τ sig :=
  ⟨binary_bufs_sub .., unary_bufs_sub .., ternary_bufs_sub .., unary_bufs_sub .., reshape_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 16384 in
theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w11_sub : (w11 : List (HloOp τ sig (Elt F))).Forall fun op => op.bufs ⊆ tcRefs τ sig :=
  ⟨binary_bufs_sub .., unary_bufs_sub .., binary_bufs_sub .., reshape_bufs_sub ..⟩
set_option maxRecDepth 16384 in
theorem w11_fresh : (w11 : List (HloOp τ sig (Elt F))).Forall fun op => op.fresh = ∅ :=
  ⟨rfl, rfl, rfl, rfl⟩

set_option maxRecDepth 16384 in
theorem w12_sub : (w12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub ..⟩
set_option maxRecDepth 16384 in
theorem w12_fresh : (w12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w13_sub : (w13 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., ternary_bufs_sub .., unary_bufs_sub .., unary_bufs_sub ..⟩
set_option maxRecDepth 16384 in
theorem w13_fresh : (w13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
theorem w14_sub : (w14 : List (HloOp τ sig (Elt F))).Forall fun op => op.bufs ⊆ tcRefs τ sig :=
  (binary_bufs_sub ..)
set_option maxRecDepth 16384 in
theorem w14_fresh : (w14 : List (HloOp τ sig (Elt F))).Forall fun op => op.fresh = ∅ :=
  (rfl)

/-- Every operation touches TensorCore references only. -/
theorem ops_sub : (ops : List (HloOp τ sig (Elt F))).Forall fun op => op.bufs ⊆ tcRefs τ sig :=
  List.forall_iff_forall_mem.mpr fun op h => by
    simp only [ops, opsP0, opsP1, opsP2, opsP3, List.mem_append] at h
    rcases h with (h | h | h | h | h) | (h | h | h | h | h) | (h | h | h) | (h | h)
    exacts [List.forall_iff_forall_mem.mp w0_sub op h,
      List.forall_iff_forall_mem.mp w1_sub op h,
      List.forall_iff_forall_mem.mp w2_sub op h,
      List.forall_iff_forall_mem.mp w3_sub op h,
      List.forall_iff_forall_mem.mp w4_sub op h,
      List.forall_iff_forall_mem.mp w5_sub op h,
      List.forall_iff_forall_mem.mp w6_sub op h,
      List.forall_iff_forall_mem.mp w7_sub op h,
      List.forall_iff_forall_mem.mp w8_sub op h,
      List.forall_iff_forall_mem.mp w9_sub op h,
      List.forall_iff_forall_mem.mp w10_sub op h,
      List.forall_iff_forall_mem.mp w11_sub op h,
      List.forall_iff_forall_mem.mp w12_sub op h,
      List.forall_iff_forall_mem.mp w13_sub op h,
      List.forall_iff_forall_mem.mp w14_sub op h]

/-- Every operation determines its results. -/
theorem ops_fresh : ∀ op ∈ (ops : List (HloOp τ sig (Elt F))), op.fresh = ∅ := fun op h => by
    simp only [ops, opsP0, opsP1, opsP2, opsP3, List.mem_append] at h
    rcases h with (h | h | h | h | h) | (h | h | h | h | h) | (h | h | h) | (h | h)
    exacts [List.forall_iff_forall_mem.mp w0_fresh op h,
      List.forall_iff_forall_mem.mp w1_fresh op h,
      List.forall_iff_forall_mem.mp w2_fresh op h,
      List.forall_iff_forall_mem.mp w3_fresh op h,
      List.forall_iff_forall_mem.mp w4_fresh op h,
      List.forall_iff_forall_mem.mp w5_fresh op h,
      List.forall_iff_forall_mem.mp w6_fresh op h,
      List.forall_iff_forall_mem.mp w7_fresh op h,
      List.forall_iff_forall_mem.mp w8_fresh op h,
      List.forall_iff_forall_mem.mp w9_fresh op h,
      List.forall_iff_forall_mem.mp w10_fresh op h,
      List.forall_iff_forall_mem.mp w11_fresh op h,
      List.forall_iff_forall_mem.mp w12_fresh op h,
      List.forall_iff_forall_mem.mp w13_fresh op h,
      List.forall_iff_forall_mem.mp w14_fresh op h]

/-! ## The contents after each stretch -/

/-- One batch's layer up to the quotient with its not-a-numbers replaced: the value the last step (elu) reads. -/
def layerQ (x : FVec F S1024x256 .f32) (rw cl : IVec S1048576 32) (vl : IVec S1048576 1)
    (W : FVec F S256x128 .f32) (a : FVec F S1x256 .f32) : FVec F S1024x128 .f32 :=
  let h := RefTerm.hfeat x W
  let w := RefTerm.eweight (RefTerm.escore h rw cl a) vl
  let g := RefTerm.eagg h w rw cl
  let g' := select (cmpf .une g g) (RefTerm.bNF 0x00000000#32) g
  let q := Host.divf g' (broadcastInDim S1024x128 ![0, 1] bcast_S1024x1_S1024x128_0_1 (RefTerm.erowsum w rw))
  select (cmpf .une q q) (RefTerm.bNF 0x00000000#32) q

/-- Two lines' fold is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation's one written buffer is in a list that names it. -/
local macro "writes_in_list" : tactic =>
  `(tactic| (simp only [nullary_writes, unary_writes, binary_writes, ternary_writes, quaternary_writes, reshape_writes, Finset.singleton_subset_iff, List.mem_toFinset]; exact List.mem_map_of_mem (by decide)))

/-- The device's buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after the first 1 stretch. -/
def val1 (V0 : Valuation τ sig (Elt F)) : Valuation τ sig (Elt F) := after w0 (val0 V0)
/-- The buffers that stretch `w0` writes. -/
abbrev w0_W : List (Ref sig .tc) := [main_cst, main_v0, main_v1, main_call0_v0, main_call0_v1, main_call0_call0_c, main_call0_call0_v0, main_v2, main_c, main_v3, main_c_0, main_call1_v0, main_call1_v1, main_v4, main_c_1, main_v5, main_v6, main_c_2, main_v7, main_v8, main_v9, main_v10, main_c_3, main_v11, main_v12, main_call2_call0_c, main_call2_call0_v0, main_v13]
set_option maxRecDepth 16384 in
theorem w0_writes : (w0 : List (HloOp τ sig (Elt F))).Forall fun op => op.writes ⊆ (w0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w0` does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
set_option maxRecDepth 16384 in
set_option maxHeartbeats 2800000 in
theorem val1_main_v1 (V0 : Valuation τ sig (Elt F)) : val1 V0 (no_index (Proc.devRef .tc main_v1)) = RefTerm.mask1 (V0 (Proc.devRef .tc main_arg1)) := by
  unfold val1
  simp only [w0]
  after_results_simp
  simp only [val0_main_arg1] <;> rfl
set_option maxRecDepth 16384 in
set_option maxHeartbeats 2800000 in
theorem val1_main_v13 (V0 : Valuation τ sig (Elt F)) : val1 V0 (no_index (Proc.devRef .tc main_v13)) = RefTerm.flat (V0 (Proc.devRef .tc main_arg1)) := by
  unfold val1
  simp only [w0]
  after_results_simp
  simp only [val0_main_arg1] <;> rfl

/-- The device's buffer contents after the first 2 stretches. -/
def val2 (V0 : Valuation τ sig (Elt F)) : Valuation τ sig (Elt F) := after w1 (val1 V0)
/-- The buffers that stretch `w1` writes. -/
abbrev w1_W : List (Ref sig .tc) := [main_c_4, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14, main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
set_option maxRecDepth 16384 in
theorem w1_writes : (w1 : List (HloOp τ sig (Elt F))).Forall fun op => op.writes ⊆ (w1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w1` does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v1 (V0 : Valuation τ sig (Elt F)) : val2 V0 (no_index (Proc.devRef .tc main_v1)) = RefTerm.mask1 (V0 (Proc.devRef .tc main_arg1)) :=
  (val2_keep V0 main_v1 (by decide)).trans (val1_main_v1 V0)
theorem val2_main_v13 (V0 : Valuation τ sig (Elt F)) : val2 V0 (no_index (Proc.devRef .tc main_v13)) = RefTerm.flat (V0 (Proc.devRef .tc main_arg1)) :=
  (val2_keep V0 main_v13 (by decide)).trans (val1_main_v13 V0)
set_option maxRecDepth 16384 in
set_option maxHeartbeats 3900000 in
theorem val2_main_v15 (V0 : Valuation τ sig (Elt F)) : val2 V0 (no_index (Proc.devRef .tc main_v15)) = RefTerm.rowsRaw (V0 (Proc.devRef .tc main_arg1)) := by
  unfold val2
  simp only [w1]
  after_results_simp
  simp only [val1_main_v13] <;> rfl

/-- The device's buffer contents after the first 3 stretches. -/
def val3 (V0 : Valuation τ sig (Elt F)) : Valuation τ sig (Elt F) := after w2 (val2 V0)
/-- The buffers that stretch `w2` writes. -/
abbrev w2_W : List (Ref sig .tc) := [main_c_6, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16, main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]
set_option maxRecDepth 16384 in
theorem w2_writes : (w2 : List (HloOp τ sig (Elt F))).Forall fun op => op.writes ⊆ (w2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w2` does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v1 (V0 : Valuation τ sig (Elt F)) : val3 V0 (no_index (Proc.devRef .tc main_v1)) = RefTerm.mask1 (V0 (Proc.devRef .tc main_arg1)) :=
  (val3_keep V0 main_v1 (by decide)).trans (val2_main_v1 V0)
theorem val3_main_v15 (V0 : Valuation τ sig (Elt F)) : val3 V0 (no_index (Proc.devRef .tc main_v15)) = RefTerm.rowsRaw (V0 (Proc.devRef .tc main_arg1)) :=
  (val3_keep V0 main_v15 (by decide)).trans (val2_main_v15 V0)
set_option maxRecDepth 16384 in
set_option maxHeartbeats 3900000 in
theorem val3_main_v17 (V0 : Valuation τ sig (Elt F)) : val3 V0 (no_index (Proc.devRef .tc main_v17)) = RefTerm.colsRaw (V0 (Proc.devRef .tc main_arg1)) := by
  unfold val3
  simp only [w2]
  after_results_simp
  simp only [val2_main_v13] <;> rfl

/-- The device's buffer contents after the first 4 stretches. -/
def val4 (V0 : Valuation τ sig (Elt F)) : Valuation τ sig (Elt F) := after w3 (val3 V0)
/-- The buffers that stretch `w3` writes. -/
abbrev w3_W : List (Ref sig .tc) := [main_v18, main_v19, main_c_8, main_v20, main_v21, main_v22, main_c_9, main_call7_v0, main_call7_v1, main_v23, main_c_10, main_call8_v0, main_call8_v1, main_v24, main_v25, main_call9_cst, main_call9_v0, main_call9_v1, main_call9_v2, main_call9_c, main_v26, main_v27, main_v28]
set_option maxRecDepth 16384 in
theorem w3_writes : (w3 : List (HloOp τ sig (Elt F))).Forall fun op => op.writes ⊆ (w3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_in_list
/-- A buffer that stretch `w3` does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
set_option maxRecDepth 16384 in
set_option maxHeartbeats 2300000 in
theorem val4_main_v23 (V0 : Valuation τ sig (Elt F)) : val4 V0 (no_index (Proc.devRef .tc main_v23)) = RefTerm.rows (V0 (Proc.devRef .tc main_arg1)) := by
  unfold val4
  simp only [w3]
  after_results_simp
  simp only [val3_main_v15, val3_main_v1] <;> rfl
set_option maxRecDepth 16384 in
set_option maxHeartbeats 2300000 in
theorem val4_main_v24 (V0 : Valuation τ sig (Elt F)) : val4 V0 (no_index (Proc.devRef .tc main_v24)) = RefTerm.cols (V0 (Proc.devRef .tc main_arg1)) := by
  unfold val4
  simp only [w3]
  after_results_simp
  simp only [val3_main_v17, val3_main_v1] <;> rfl
set_option maxRecDepth 16384 in
set_option maxHeartbeats 2300000 in
theorem val4_main_v28 (V0 : Valuation τ sig (Elt F)) : val4 V0 (no_index (Proc.devRef .tc main_v28)) = RefTerm.valid (V0 (Proc.devRef .tc main_arg1)) := by
  unfold val4
  simp only [w3]
  after_results_simp
  simp only [val3_main_arg1] <;> rfl

/-- The device's buffer contents after the first 5 stretches. -/
def val5 (V0 : Valuation τ sig (Elt F)) : Valuation τ sig (Elt F) := after w4 (val4 V0)
/-- The buffers that stretch `w4` writes. -/
abbrev w4_W : List (Ref sig .tc) := [main_v29, main_v30, main_v31, main_v32, main_cst_11, main_call10_v0, main_call10_v1, main_v33, main_c_12, main_v34, main_v35, main_c_13, main_v36, main_v37, main_v38, main_v39, main_v40, main_c_14, main_v41, main_v42]
set_option maxRecDepth 16384 in
theorem w4_writes : (w4 : List (HloOp τ sig (Elt F))).Forall fun op => op.writes ⊆ (w4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_in_list
/-- A buffer that stretch `w4` does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_v23 (V0 : Valuation τ sig (Elt F)) : val5 V0 (no_index (Proc.devRef .tc main_v23)) = RefTerm.rows (V0 (Proc.devRef .tc main_arg1)) :=
  (val5_keep V0 main_v23 (by decide)).trans (val4_main_v23 V0)
theorem val5_main_v24 (V0 : Valuation τ sig (Elt F)) : val5 V0 (no_index (Proc.devRef .tc main_v24)) = RefTerm.cols (V0 (Proc.devRef .tc main_arg1)) :=
  (val5_keep V0 main_v24 (by decide)).trans (val4_main_v24 V0)
theorem val5_main_v28 (V0 : Valuation τ sig (Elt F)) : val5 V0 (no_index (Proc.devRef .tc main_v28)) = RefTerm.valid (V0 (Proc.devRef .tc main_arg1)) :=
  (val5_keep V0 main_v28 (by decide)).trans (val4_main_v28 V0)
set_option maxRecDepth 16384 in
set_option maxHeartbeats 2000000 in
theorem val5_main_v33 (V0 : Valuation τ sig (Elt F)) : val5 V0 (no_index (Proc.devRef .tc main_v33)) = RefTerm.hfeat (RefTerm.x0 (V0 (Proc.devRef .tc main_arg0))) (V0 (Proc.devRef .tc main_arg2)) := by
  unfold val5
  simp only [w4]
  after_results_simp
  simp only [val4_main_arg2, val4_main_arg0] <;> rfl
set_option maxRecDepth 16384 in
set_option maxHeartbeats 2000000 in
theorem val5_main_v40 (V0 : Valuation τ sig (Elt F)) : val5 V0 (no_index (Proc.devRef .tc main_v40)) = RefTerm.takeRows (RefTerm.hfeat (RefTerm.x0 (V0 (Proc.devRef .tc main_arg0))) (V0 (Proc.devRef .tc main_arg2))) (RefTerm.rows (V0 (Proc.devRef .tc main_arg1))) := by
  unfold val5
  simp only [w4]
  after_results_simp
  simp only [val4_main_v23, val4_main_arg2, val4_main_arg0] <;> rfl
set_option maxRecDepth 16384 in
set_option maxHeartbeats 2000000 in
theorem val5_main_v42 (V0 : Valuation τ sig (Elt F)) : val5 V0 (no_index (Proc.devRef .tc main_v42)) = cmpi .slt (RefTerm.cols (V0 (Proc.devRef .tc main_arg1))) (RefTerm.bI 0) := by
  unfold val5
  simp only [w4]
  after_results_simp
  simp only [val4_main_v24] <;> rfl

/-- The device's buffer contents after the first 6 stretches. -/
def val6 (V0 : Valuation τ sig (Elt F)) : Valuation τ sig (Elt F) := after w5 (val5 V0)
/-- The buffers that stretch `w5` writes. -/
abbrev w5_W : List (Ref sig .tc) := [main_c_15, main_v43, main_v44, main_v45, main_v46, main_v47]
set_option maxRecDepth 16384 in
theorem w5_writes : (w5 : List (HloOp τ sig (Elt F))).Forall fun op => op.writes ⊆ (w5_W.map (Proc.devRef (τ := τ) .tc)).toFinset := by
  simp only [List.Forall]
  refine ⟨?_, ?_, ?_, ?_, ?_, ?_⟩ <;> writes_in_list
/-- A buffer that stretch `w5` does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_v23 (V0 : Valuation τ sig (Elt F)) : val6 V0 (no_index (Proc.devRef .tc main_v23)) = RefTerm.rows (V0 (Proc.devRef .tc main_arg1)) :=
  (val6_keep V0 main_v23 (by decide)).trans (val5_main_v23 V0)
theorem val6_main_v24 (V0 : Valuation τ sig (Elt F)) : val6 V0 (no_index (Proc.devRef .tc main_v24)) = RefTerm.cols (V0 (Proc.devRef .tc main_arg1)) :=
  (val6_keep V0 main_v24 (by decide)).trans (val5_main_v24 V0)
theorem val6_main_v28 (V0 : Valuation τ sig (Elt F)) : val6 V0 (no_index (Proc.devRef .tc main_v28)) = RefTerm.valid (V0 (Proc.devRef .tc main_arg1)) :=
  (val6_keep V0 main_v28 (by decide)).trans (val5_main_v28 V0)
theorem val6_main_v33 (V0 : Valuation τ sig (Elt F)) : val6 V0 (no_index (Proc.devRef .tc main_v33)) = RefTerm.hfeat (RefTerm.x0 (V0 (Proc.devRef .tc main_arg0))) (V0 (Proc.devRef .tc main_arg2)) :=
  (val6_keep V0 main_v33 (by decide)).trans (val5_main_v33 V0)
theorem val6_main_v40 (V0 : Valuation τ sig (Elt F)) : val6 V0 (no_index (Proc.devRef .tc main_v40)) = RefTerm.takeRows (RefTerm.hfeat (RefTerm.x0 (V0 (Proc.devRef .tc main_arg0))) (V0 (Proc.devRef .tc main_arg2))) (RefTerm.rows (V0 (Proc.devRef .tc main_arg1))) :=
  (val6_keep V0 main_v40 (by decide)).trans (val5_main_v40 V0)
set_option maxRecDepth 16384 in
set_option maxHeartbeats 600000 in
theorem val6_main_v47 (V0 : Valuation τ sig (Elt F)) : val6 V0 (no_index (Proc.devRef .tc main_v47)) = RefTerm.takeRows (RefTerm.hfeat (RefTerm.x0 (V0 (Proc.devRef .tc main_arg0))) (V0 (Proc.devRef .tc main_arg2))) (RefTerm.cols (V0 (Proc.devRef .tc main_arg1))) := by
  unfold val6
  simp only [w5]
  after_results_simp
  simp only [val5_main_v24, val5_main_v42, val5_main_v33] <;> rfl

/-- The device's buffer contents after the first 7 stretches. -/
def val7 (V0 : Valuation τ sig (Elt F)) : Valuation τ sig (Elt F) := after w6 (val6 V0)
/-- The buffers that stretch `w6` writes. -/
abbrev w6_W : List (Ref sig .tc) := [main_v48, main_v49, main_v50, main_v51]
set_option maxRecDepth 16384 in
theorem w6_writes : (w6 : List (HloOp τ sig (Elt F))).Forall fun op => op.writes ⊆ (w6_W.map (Proc.devRef (τ := τ) .tc)).toFinset := by
  simp only [List.Forall]
  refine ⟨?_, ?_, ?_, ?_⟩ <;> writes_in_list
/-- A buffer that stretch `w6` does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_v23 (V0 : Valuation τ sig (Elt F)) : val7 V0 (no_index (Proc.devRef .tc main_v23)) = RefTerm.rows (V0 (Proc.devRef .tc main_arg1)) :=
  (val7_keep V0 main_v23 (by decide)).trans (val6_main_v23 V0)
theorem val7_main_v24 (V0 : Valuation τ sig (Elt F)) : val7 V0 (no_index (Proc.devRef .tc main_v24)) = RefTerm.cols (V0 (Proc.devRef .tc main_arg1)) :=
  (val7_keep V0 main_v24 (by decide)).trans (val6_main_v24 V0)
theorem val7_main_v28 (V0 : Valuation τ sig (Elt F)) : val7 V0 (no_index (Proc.devRef .tc main_v28)) = RefTerm.valid (V0 (Proc.devRef .tc main_arg1)) :=
  (val7_keep V0 main_v28 (by decide)).trans (val6_main_v28 V0)
theorem val7_main_v33 (V0 : Valuation τ sig (Elt F)) : val7 V0 (no_index (Proc.devRef .tc main_v33)) = RefTerm.hfeat (RefTerm.x0 (V0 (Proc.devRef .tc main_arg0))) (V0 (Proc.devRef .tc main_arg2)) :=
  (val7_keep V0 main_v33 (by decide)).trans (val6_main_v33 V0)
set_option maxRecDepth 16384 in
set_option maxHeartbeats 400000 in
theorem val7_main_v51 (V0 : Valuation τ sig (Elt F)) : val7 V0 (no_index (Proc.devRef .tc main_v51)) = RefTerm.escore (RefTerm.hfeat (RefTerm.x0 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3)) := by
  unfold val7
  simp only [w6]
  after_results
  rw [val6_main_v47, val6_main_v40, val6_main_arg3]
  rfl

/-- The device's buffer contents after the first 8 stretches. -/
def val8 (V0 : Valuation τ sig (Elt F)) : Valuation τ sig (Elt F) := after w7 (val7 V0)
/-- The buffers that stretch `w7` writes. -/
abbrev w7_W : List (Ref sig .tc) := [main_cst_16, main_v52, main_v53, main_cst_17, main_v54, main_v55, main_v56, main_v57, main_v58, main_v59, main_cst_18, main_call12_v0, main_call12_v1, main_v60, main_cst_19, main_call13_v0, main_call13_v1, main_v61]
set_option maxRecDepth 16384 in
theorem w7_writes : (w7 : List (HloOp τ sig (Elt F))).Forall fun op => op.writes ⊆ (w7_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_in_list
/-- A buffer that stretch `w7` does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_v23 (V0 : Valuation τ sig (Elt F)) : val8 V0 (no_index (Proc.devRef .tc main_v23)) = RefTerm.rows (V0 (Proc.devRef .tc main_arg1)) :=
  (val8_keep V0 main_v23 (by decide)).trans (val7_main_v23 V0)
theorem val8_main_v24 (V0 : Valuation τ sig (Elt F)) : val8 V0 (no_index (Proc.devRef .tc main_v24)) = RefTerm.cols (V0 (Proc.devRef .tc main_arg1)) :=
  (val8_keep V0 main_v24 (by decide)).trans (val7_main_v24 V0)
theorem val8_main_v28 (V0 : Valuation τ sig (Elt F)) : val8 V0 (no_index (Proc.devRef .tc main_v28)) = RefTerm.valid (V0 (Proc.devRef .tc main_arg1)) :=
  (val8_keep V0 main_v28 (by decide)).trans (val7_main_v28 V0)
theorem val8_main_v33 (V0 : Valuation τ sig (Elt F)) : val8 V0 (no_index (Proc.devRef .tc main_v33)) = RefTerm.hfeat (RefTerm.x0 (V0 (Proc.devRef .tc main_arg0))) (V0 (Proc.devRef .tc main_arg2)) :=
  (val8_keep V0 main_v33 (by decide)).trans (val7_main_v33 V0)
set_option maxRecDepth 16384 in
set_option maxHeartbeats 1800000 in
theorem val8_main_v61 (V0 : Valuation τ sig (Elt F)) : val8 V0 (no_index (Proc.devRef .tc main_v61)) = RefTerm.eweight (RefTerm.escore (RefTerm.hfeat (RefTerm.x0 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3))) (RefTerm.valid (V0 (Proc.devRef .tc main_arg1))) := by
  unfold val8
  simp only [w7]
  after_results_simp
  simp only [val7_main_v51, val7_main_v28] <;> rfl

/-- The device's buffer contents after the first 9 stretches. -/
def val9 (V0 : Valuation τ sig (Elt F)) : Valuation τ sig (Elt F) := after w8 (val8 V0)
/-- The buffers that stretch `w8` writes. -/
abbrev w8_W : List (Ref sig .tc) := [main_cst_20, main_v62, main_v63, main_v64, main_v65, main_cst_21, main_v66, main_v67, main_cst_22, main_call14_v0, main_call14_v1, main_v68]
set_option maxRecDepth 16384 in
theorem w8_writes : (w8 : List (HloOp τ sig (Elt F))).Forall fun op => op.writes ⊆ (w8_W.map (Proc.devRef (τ := τ) .tc)).toFinset := by
  simp only [List.Forall]
  refine ⟨?_, ?_, ?_, ?_, ?_, ?_, ?_, ?_, ?_, ?_, ?_, ?_⟩ <;> writes_in_list
/-- A buffer that stretch `w8` does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_v23 (V0 : Valuation τ sig (Elt F)) : val9 V0 (no_index (Proc.devRef .tc main_v23)) = RefTerm.rows (V0 (Proc.devRef .tc main_arg1)) :=
  (val9_keep V0 main_v23 (by decide)).trans (val8_main_v23 V0)
theorem val9_main_v24 (V0 : Valuation τ sig (Elt F)) : val9 V0 (no_index (Proc.devRef .tc main_v24)) = RefTerm.cols (V0 (Proc.devRef .tc main_arg1)) :=
  (val9_keep V0 main_v24 (by decide)).trans (val8_main_v24 V0)
theorem val9_main_v28 (V0 : Valuation τ sig (Elt F)) : val9 V0 (no_index (Proc.devRef .tc main_v28)) = RefTerm.valid (V0 (Proc.devRef .tc main_arg1)) :=
  (val9_keep V0 main_v28 (by decide)).trans (val8_main_v28 V0)
theorem val9_main_v33 (V0 : Valuation τ sig (Elt F)) : val9 V0 (no_index (Proc.devRef .tc main_v33)) = RefTerm.hfeat (RefTerm.x0 (V0 (Proc.devRef .tc main_arg0))) (V0 (Proc.devRef .tc main_arg2)) :=
  (val9_keep V0 main_v33 (by decide)).trans (val8_main_v33 V0)
theorem val9_main_v61 (V0 : Valuation τ sig (Elt F)) : val9 V0 (no_index (Proc.devRef .tc main_v61)) = RefTerm.eweight (RefTerm.escore (RefTerm.hfeat (RefTerm.x0 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3))) (RefTerm.valid (V0 (Proc.devRef .tc main_arg1))) :=
  (val9_keep V0 main_v61 (by decide)).trans (val8_main_v61 V0)
set_option maxRecDepth 16384 in
set_option maxHeartbeats 1200000 in
theorem val9_main_v68 (V0 : Valuation τ sig (Elt F)) : val9 V0 (no_index (Proc.devRef .tc main_v68)) = RefTerm.erowsum (RefTerm.eweight (RefTerm.escore (RefTerm.hfeat (RefTerm.x0 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3))) (RefTerm.valid (V0 (Proc.devRef .tc main_arg1)))) (RefTerm.rows (V0 (Proc.devRef .tc main_arg1))) := by
  unfold val9
  simp only [w8]
  after_results_simp
  simp only [val8_main_v61, val8_main_v23] <;> rfl

/-- The device's buffer contents after the first 10 stretches. -/
def val10 (V0 : Valuation τ sig (Elt F)) : Valuation τ sig (Elt F) := after w9 (val9 V0)
/-- The buffers that stretch `w9` writes. -/
abbrev w9_W : List (Ref sig .tc) := [main_v69, main_c_23, main_v70, main_v71, main_c_24, main_v72, main_v73, main_v74, main_v75, main_v76, main_v77, main_v78, main_cst_25, main_v79, main_v80, main_v81, main_v82, main_cst_26, main_call15_v0, main_call15_v1, main_v83, main_v84, main_v85, main_v86, main_cst_27, main_call16_v0, main_call16_v1, main_v87, main_cst_28, main_v88]
set_option maxRecDepth 16384 in
theorem w9_writes : (w9 : List (HloOp τ sig (Elt F))).Forall fun op => op.writes ⊆ (w9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w9` does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_v23 (V0 : Valuation τ sig (Elt F)) : val10 V0 (no_index (Proc.devRef .tc main_v23)) = RefTerm.rows (V0 (Proc.devRef .tc main_arg1)) :=
  (val10_keep V0 main_v23 (by decide)).trans (val9_main_v23 V0)
theorem val10_main_v24 (V0 : Valuation τ sig (Elt F)) : val10 V0 (no_index (Proc.devRef .tc main_v24)) = RefTerm.cols (V0 (Proc.devRef .tc main_arg1)) :=
  (val10_keep V0 main_v24 (by decide)).trans (val9_main_v24 V0)
theorem val10_main_v28 (V0 : Valuation τ sig (Elt F)) : val10 V0 (no_index (Proc.devRef .tc main_v28)) = RefTerm.valid (V0 (Proc.devRef .tc main_arg1)) :=
  (val10_keep V0 main_v28 (by decide)).trans (val9_main_v28 V0)
set_option maxRecDepth 16384 in
set_option maxHeartbeats 3000000 in
theorem val10_main_v87 (V0 : Valuation τ sig (Elt F)) : val10 V0 (no_index (Proc.devRef .tc main_v87)) = layerQ (RefTerm.x0 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3)) := by
  unfold val10
  simp only [w9]
  after_results_simp
  simp only [val9_main_v68, val9_main_v24, val9_main_v33, val9_main_v61, val9_main_v23] <;> rfl
set_option maxRecDepth 16384 in
set_option maxHeartbeats 3000000 in
theorem val10_main_v88 (V0 : Valuation τ sig (Elt F)) : val10 V0 (no_index (Proc.devRef .tc main_v88)) = RefTerm.bNF (F := F) 0x00000000#32 := by
  unfold val10
  simp only [w9]
  after_results_simp
  all_goals rfl

/-- The device's buffer contents after the first 11 stretches. -/
def val11 (V0 : Valuation τ sig (Elt F)) : Valuation τ sig (Elt F) := after w10 (val10 V0)
/-- The buffers that stretch `w10` writes. -/
abbrev w10_W : List (Ref sig .tc) := [main_v89, main_v90, main_v91, main_v92, main_v93, main_v94, main_v95, main_cst_29, main_call18_v0, main_call18_v1, main_v96, main_c_30, main_v97, main_v98, main_c_31, main_v99, main_v100, main_v101, main_v102, main_v103, main_c_32, main_v104, main_v105, main_c_33, main_v106, main_v107, main_v108, main_v109, main_v110]
set_option maxRecDepth 16384 in
theorem w10_writes : (w10 : List (HloOp τ sig (Elt F))).Forall fun op => op.writes ⊆ (w10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w10` does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_v23 (V0 : Valuation τ sig (Elt F)) : val11 V0 (no_index (Proc.devRef .tc main_v23)) = RefTerm.rows (V0 (Proc.devRef .tc main_arg1)) :=
  (val11_keep V0 main_v23 (by decide)).trans (val10_main_v23 V0)
theorem val11_main_v24 (V0 : Valuation τ sig (Elt F)) : val11 V0 (no_index (Proc.devRef .tc main_v24)) = RefTerm.cols (V0 (Proc.devRef .tc main_arg1)) :=
  (val11_keep V0 main_v24 (by decide)).trans (val10_main_v24 V0)
theorem val11_main_v28 (V0 : Valuation τ sig (Elt F)) : val11 V0 (no_index (Proc.devRef .tc main_v28)) = RefTerm.valid (V0 (Proc.devRef .tc main_arg1)) :=
  (val11_keep V0 main_v28 (by decide)).trans (val10_main_v28 V0)
set_option maxRecDepth 16384 in
set_option maxHeartbeats 2900000 in
theorem val11_main_v91 (V0 : Valuation τ sig (Elt F)) : val11 V0 (no_index (Proc.devRef .tc main_v91)) = RefTerm.layer (RefTerm.x0 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3)) := by
  unfold val11
  simp only [w10]
  after_results_simp
  simp only [val10_main_v87, val10_main_v88] <;> rfl
set_option maxRecDepth 16384 in
set_option maxHeartbeats 2900000 in
theorem val11_main_v96 (V0 : Valuation τ sig (Elt F)) : val11 V0 (no_index (Proc.devRef .tc main_v96)) = RefTerm.hfeat (RefTerm.x1 (V0 (Proc.devRef .tc main_arg0))) (V0 (Proc.devRef .tc main_arg2)) := by
  unfold val11
  simp only [w10]
  after_results_simp
  simp only [val10_main_arg2, val10_main_arg0] <;> rfl
set_option maxRecDepth 16384 in
set_option maxHeartbeats 2900000 in
theorem val11_main_v103 (V0 : Valuation τ sig (Elt F)) : val11 V0 (no_index (Proc.devRef .tc main_v103)) = RefTerm.takeRows (RefTerm.hfeat (RefTerm.x1 (V0 (Proc.devRef .tc main_arg0))) (V0 (Proc.devRef .tc main_arg2))) (RefTerm.rows (V0 (Proc.devRef .tc main_arg1))) := by
  unfold val11
  simp only [w10]
  after_results_simp
  simp only [val10_main_v23, val10_main_arg2, val10_main_arg0] <;> rfl
set_option maxRecDepth 16384 in
set_option maxHeartbeats 2900000 in
theorem val11_main_v110 (V0 : Valuation τ sig (Elt F)) : val11 V0 (no_index (Proc.devRef .tc main_v110)) = RefTerm.takeRows (RefTerm.hfeat (RefTerm.x1 (V0 (Proc.devRef .tc main_arg0))) (V0 (Proc.devRef .tc main_arg2))) (RefTerm.cols (V0 (Proc.devRef .tc main_arg1))) := by
  unfold val11
  simp only [w10]
  after_results_simp
  simp only [val10_main_v24, val10_main_arg2, val10_main_arg0] <;> rfl

/-- The device's buffer contents after the first 12 stretches. -/
def val12 (V0 : Valuation τ sig (Elt F)) : Valuation τ sig (Elt F) := after w11 (val11 V0)
/-- The buffers that stretch `w11` writes. -/
abbrev w11_W : List (Ref sig .tc) := [main_v111, main_v112, main_v113, main_v114]
set_option maxRecDepth 16384 in
theorem w11_writes : (w11 : List (HloOp τ sig (Elt F))).Forall fun op => op.writes ⊆ (w11_W.map (Proc.devRef (τ := τ) .tc)).toFinset := by
  simp only [List.Forall]
  refine ⟨?_, ?_, ?_, ?_⟩ <;> writes_in_list
/-- A buffer that stretch `w11` does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_v23 (V0 : Valuation τ sig (Elt F)) : val12 V0 (no_index (Proc.devRef .tc main_v23)) = RefTerm.rows (V0 (Proc.devRef .tc main_arg1)) :=
  (val12_keep V0 main_v23 (by decide)).trans (val11_main_v23 V0)
theorem val12_main_v24 (V0 : Valuation τ sig (Elt F)) : val12 V0 (no_index (Proc.devRef .tc main_v24)) = RefTerm.cols (V0 (Proc.devRef .tc main_arg1)) :=
  (val12_keep V0 main_v24 (by decide)).trans (val11_main_v24 V0)
theorem val12_main_v28 (V0 : Valuation τ sig (Elt F)) : val12 V0 (no_index (Proc.devRef .tc main_v28)) = RefTerm.valid (V0 (Proc.devRef .tc main_arg1)) :=
  (val12_keep V0 main_v28 (by decide)).trans (val11_main_v28 V0)
theorem val12_main_v91 (V0 : Valuation τ sig (Elt F)) : val12 V0 (no_index (Proc.devRef .tc main_v91)) = RefTerm.layer (RefTerm.x0 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3)) :=
  (val12_keep V0 main_v91 (by decide)).trans (val11_main_v91 V0)
theorem val12_main_v96 (V0 : Valuation τ sig (Elt F)) : val12 V0 (no_index (Proc.devRef .tc main_v96)) = RefTerm.hfeat (RefTerm.x1 (V0 (Proc.devRef .tc main_arg0))) (V0 (Proc.devRef .tc main_arg2)) :=
  (val12_keep V0 main_v96 (by decide)).trans (val11_main_v96 V0)
set_option maxRecDepth 16384 in
set_option maxHeartbeats 400000 in
theorem val12_main_v114 (V0 : Valuation τ sig (Elt F)) : val12 V0 (no_index (Proc.devRef .tc main_v114)) = RefTerm.escore (RefTerm.hfeat (RefTerm.x1 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3)) := by
  unfold val12
  simp only [w11]
  after_results
  rw [val11_main_v110, val11_main_v103, val11_main_arg3]
  rfl

/-- The device's buffer contents after the first 13 stretches. -/
def val13 (V0 : Valuation τ sig (Elt F)) : Valuation τ sig (Elt F) := after w12 (val12 V0)
/-- The buffers that stretch `w12` writes. -/
abbrev w12_W : List (Ref sig .tc) := [main_cst_34, main_v115, main_v116, main_cst_35, main_v117, main_v118, main_v119, main_v120, main_v121, main_v122, main_cst_36, main_call20_v0, main_call20_v1, main_v123, main_cst_37, main_call21_v0, main_call21_v1, main_v124, main_cst_38, main_v125, main_v126, main_v127, main_v128, main_cst_39, main_v129, main_v130, main_cst_40, main_call22_v0, main_call22_v1, main_v131, main_v132, main_c_41, main_v133, main_v134, main_c_42]
set_option maxRecDepth 16384 in
theorem w12_writes : (w12 : List (HloOp τ sig (Elt F))).Forall fun op => op.writes ⊆ (w12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w12` does not write keeps its contents through it. -/
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_v23 (V0 : Valuation τ sig (Elt F)) : val13 V0 (no_index (Proc.devRef .tc main_v23)) = RefTerm.rows (V0 (Proc.devRef .tc main_arg1)) :=
  (val13_keep V0 main_v23 (by decide)).trans (val12_main_v23 V0)
theorem val13_main_v24 (V0 : Valuation τ sig (Elt F)) : val13 V0 (no_index (Proc.devRef .tc main_v24)) = RefTerm.cols (V0 (Proc.devRef .tc main_arg1)) :=
  (val13_keep V0 main_v24 (by decide)).trans (val12_main_v24 V0)
theorem val13_main_v91 (V0 : Valuation τ sig (Elt F)) : val13 V0 (no_index (Proc.devRef .tc main_v91)) = RefTerm.layer (RefTerm.x0 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3)) :=
  (val13_keep V0 main_v91 (by decide)).trans (val12_main_v91 V0)
theorem val13_main_v96 (V0 : Valuation τ sig (Elt F)) : val13 V0 (no_index (Proc.devRef .tc main_v96)) = RefTerm.hfeat (RefTerm.x1 (V0 (Proc.devRef .tc main_arg0))) (V0 (Proc.devRef .tc main_arg2)) :=
  (val13_keep V0 main_v96 (by decide)).trans (val12_main_v96 V0)
set_option maxRecDepth 16384 in
set_option maxHeartbeats 3500000 in
theorem val13_main_v131 (V0 : Valuation τ sig (Elt F)) : val13 V0 (no_index (Proc.devRef .tc main_v131)) = RefTerm.erowsum (RefTerm.eweight (RefTerm.escore (RefTerm.hfeat (RefTerm.x1 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3))) (RefTerm.valid (V0 (Proc.devRef .tc main_arg1)))) (RefTerm.rows (V0 (Proc.devRef .tc main_arg1))) := by
  unfold val13
  simp only [w12]
  after_results_simp
  simp only [val12_main_v114, val12_main_v28, val12_main_v23] <;> rfl
set_option maxRecDepth 16384 in
set_option maxHeartbeats 3500000 in
theorem val13_main_v132 (V0 : Valuation τ sig (Elt F)) : val13 V0 (no_index (Proc.devRef .tc main_v132)) = broadcastInDim S1048576x1 ![0] bcast_S1048576_S1048576x1_0 (RefTerm.eweight (RefTerm.escore (RefTerm.hfeat (RefTerm.x1 (V0 (Proc.devRef .tc main_arg0))) (V0 (Proc.devRef .tc main_arg2))) (RefTerm.rows (V0 (Proc.devRef .tc main_arg1))) (RefTerm.cols (V0 (Proc.devRef .tc main_arg1))) (V0 (Proc.devRef .tc main_arg3))) (RefTerm.valid (V0 (Proc.devRef .tc main_arg1)))) := by
  unfold val13
  simp only [w12]
  after_results_simp
  simp only [val12_main_v114, val12_main_v28] <;> rfl
set_option maxRecDepth 16384 in
set_option maxHeartbeats 3500000 in
theorem val13_main_v134 (V0 : Valuation τ sig (Elt F)) : val13 V0 (no_index (Proc.devRef .tc main_v134)) = cmpi .slt (RefTerm.cols (V0 (Proc.devRef .tc main_arg1))) (RefTerm.bI 0) := by
  unfold val13
  simp only [w12]
  after_results_simp
  simp only [val12_main_v24] <;> rfl
set_option maxRecDepth 16384 in
set_option maxHeartbeats 3500000 in
theorem val13_main_c_42 (V0 : Valuation τ sig (Elt F)) : val13 V0 (no_index (Proc.devRef .tc main_c_42)) = constantI S_ 32 1024#32 := by
  unfold val13
  simp only [w12]
  after_results_simp
  all_goals rfl

/-- The device's buffer contents after the first 14 stretches. -/
def val14 (V0 : Valuation τ sig (Elt F)) : Valuation τ sig (Elt F) := after w13 (val13 V0)
/-- The buffers that stretch `w13` writes. -/
abbrev w13_W : List (Ref sig .tc) := [main_v135, main_v136, main_v137, main_v138, main_v139, main_v140, main_v141, main_cst_43, main_v142, main_v143, main_v144, main_v145, main_cst_44, main_call23_v0, main_call23_v1, main_v146, main_v147, main_v148, main_v149, main_cst_45, main_call24_v0, main_call24_v1, main_v150, main_cst_46, main_v151, main_v152, main_v153, main_v154, main_v155, main_v156]
set_option maxRecDepth 16384 in
theorem w13_writes : (w13 : List (HloOp τ sig (Elt F))).Forall fun op => op.writes ⊆ (w13_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in_list
/-- A buffer that stretch `w13` does not write keeps its contents through it. -/
theorem val14_keep (V0 : Valuation τ sig (Elt F)) (r : Ref sig .tc) (h : r ∉ w13_W) :
    val14 V0 (Proc.devRef .tc r) = val13 V0 (Proc.devRef .tc r) :=
  after_of_writes_sub w13 _ w13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
set_option maxRecDepth 16384 in
set_option maxHeartbeats 3000000 in
theorem val14_main_v155 (V0 : Valuation τ sig (Elt F)) : val14 V0 (no_index (Proc.devRef .tc main_v155)) = broadcastInDim S1x1024x128 ![1, 2] bcast_S1024x128_S1x1024x128_1_2 (RefTerm.layer (RefTerm.x0 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3))) := by
  unfold val14
  simp only [w13]
  after_results_simp
  simp only [val13_main_v91] <;> rfl
set_option maxRecDepth 16384 in
set_option maxHeartbeats 3000000 in
theorem val14_main_v156 (V0 : Valuation τ sig (Elt F)) : val14 V0 (no_index (Proc.devRef .tc main_v156)) = broadcastInDim S1x1024x128 ![1, 2] bcast_S1024x128_S1x1024x128_1_2 (RefTerm.layer (RefTerm.x1 (V0 (Proc.devRef .tc main_arg0))) (RefTerm.rows (V0 (Proc.devRef .tc main_arg1))) (RefTerm.cols (V0 (Proc.devRef .tc main_arg1))) (RefTerm.valid (V0 (Proc.devRef .tc main_arg1))) (V0 (Proc.devRef .tc main_arg2)) (V0 (Proc.devRef .tc main_arg3))) := by
  unfold val14
  simp only [w13]
  after_results_simp
  simp only [val13_main_v131, val13_main_v24, val13_main_c_42, val13_main_v134, val13_main_v96, val13_main_v132, val13_main_v23] <;> rfl

/-- The device's buffer contents after the first 15 stretches. -/
def val15 (V0 : Valuation τ sig (Elt F)) : Valuation τ sig (Elt F) := after w14 (val14 V0)
/-- The buffers that stretch `w14` writes. -/
abbrev w14_W : List (Ref sig .tc) := [main_v157]
set_option maxRecDepth 16384 in
theorem w14_writes : (w14 : List (HloOp τ sig (Elt F))).Forall fun op => op.writes ⊆ (w14_W.map (Proc.devRef (τ := τ) .tc)).toFinset := by
  simp only [List.Forall]
  writes_in_list
/-- A buffer that stretch `w14` does not write keeps its contents through it. -/
theorem val15_keep (V0 : Valuation τ sig (Elt F)) (r : Ref sig .tc) (h : r ∉ w14_W) :
    val15 V0 (Proc.devRef .tc r) = val14 V0 (Proc.devRef .tc r) :=
  after_of_writes_sub w14 _ w14_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
set_option maxRecDepth 16384 in
set_option maxHeartbeats 400000 in
theorem val15_main_v157 (V0 : Valuation τ sig (Elt F)) : val15 V0 (no_index (Proc.devRef .tc main_v157)) = RefTerm.out (V0 (Proc.devRef .tc main_arg0)) (V0 (Proc.devRef .tc main_arg1)) (V0 (Proc.devRef .tc main_arg2)) (V0 (Proc.devRef .tc main_arg3)) := by
  unfold val15
  simp only [w14]
  after_results
  rw [val14_main_v156, val14_main_v155]
  rfl

set_option maxRecDepth 16384 in
theorem after_ops (V0 : Valuation τ sig (Elt F)) : after ops V0 = val15 V0 := by
  simp only [ops, opsP0, opsP1, opsP2, opsP3, after_app]
  rfl

/-! ## The run -/

/-- The run of the reference: the result is `RefTerm.out` of the launch contents of the four arguments, which are kept. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157)
          = RefTerm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v157).trans (by simp only [after_ops]; exact val15_main_v157 (launchContents m c)),
      (h c main_arg0).trans (by simp only [after_ops]; exact val15_main_arg0 (launchContents m c)),
      (h c main_arg1).trans (by simp only [after_ops]; exact val15_main_arg1 (launchContents m c)),
      (h c main_arg2).trans (by simp only [after_ops]; exact val15_main_arg2 (launchContents m c)),
      (h c main_arg3).trans (by simp only [after_ops]; exact val15_main_arg3 (launchContents m c))⟩)
    (run_seq scopedRefs_eq scopedSems_eq defs main (fun _ => ops) main_eq (fun _ => ops_sub) m ρ (fun _ => ops_fresh))

end Cert.ReferenceIdeal.RefRun

end
-- ==== Proof.NzSpec.lean ====
/-
  Listing the marks of a 0/1 vector of length 2^20 = 1024 · 1024, over the naturals.

  For a vector of marks, the running count c(p) = number of marks at positions ≤ p is non-decreasing and steps by at
  most one. The histogram of c has, in bin v, the number of positions with running count v; its running sum at e is
  the number of positions with c ≤ e, which for e below the number of marks is exactly the position of the (e+1)-th
  mark. So e ↦ that position lists the marked positions once each, in order, and a sum over the listed pairs
  (row = position / 1024, column = position mod 1024) restricted to one row is a sum over that row's marked columns.
-/
import Idealize.ShloMosaic.Lib.ValueIdx

noncomputable section

open scoped BigOperators

namespace Cert.Gat.Nz

/-- The number of positions: 1024 rows of 1024 columns. -/
abbrev M : Nat := 1048576

section
variable (mk : Fin M → Bool)

/-- The running count: marks at positions ≤ p. -/
def cumN (p : Fin M) : Nat := (Finset.univ.filter fun q : Fin M => q.val ≤ p.val ∧ mk q = true).card

/-- The number of marks. -/
def countN : Nat := (Finset.univ.filter fun q : Fin M => mk q = true).card

/-- The histogram of the running count: positions whose running count is v. -/
def histN (v : Fin M) : Nat := (Finset.univ.filter fun p : Fin M => cumN mk p = v.val).card

/-- The running sum of the histogram. -/
def flatN (e : Fin M) : Nat := ∑ v ∈ Finset.univ.filter (fun v : Fin M => v.val ≤ e.val), histN mk v

/-- The row of edge slot e: of the (e+1)-th mark's position, 0 past the number of marks. -/
def rowN (e : Fin M) : Nat := if e.val < countN mk then flatN mk e / 1024 % 1024 else 0

/-- The column of edge slot e: of the (e+1)-th mark's position, 0 past the number of marks. -/
def colN (e : Fin M) : Nat := if e.val < countN mk then flatN mk e % 1024 else 0

/-! ### Auxiliary facts about the running count -/

/-- A set of positions has at most M elements. -/
private theorem card_filter_le_M (P : Fin M → Prop) [DecidablePred P] :
    (Finset.univ.filter P).card ≤ M :=
  (Finset.card_le_univ _).trans_eq (Fintype.card_fin M)

/-- The mark depends only on the position's value. -/
private theorem mk_congr {a b : Fin M} (h : a.val = b.val) : mk a = mk b := by
  rw [Fin.ext h]

/-- The running count depends only on the position's value. -/
private theorem cumN_congr {a b : Fin M} (h : a.val = b.val) : cumN mk a = cumN mk b := by
  rw [Fin.ext h]

/-- The running count is non-decreasing. -/
private theorem cumN_mono {p q : Fin M} (h : p.val ≤ q.val) : cumN mk p ≤ cumN mk q := by
  unfold cumN
  apply Finset.card_le_card
  intro r hr
  simp only [Finset.mem_filter, Finset.mem_univ, true_and] at hr ⊢
  exact ⟨by omega, hr.2⟩

/-- At a marked position the running count exceeds its value at every earlier position. -/
private theorem cumN_lt {p q : Fin M} (hp : mk p = true) (h : q.val < p.val) :
    cumN mk q < cumN mk p := by
  unfold cumN
  apply Finset.card_lt_card
  rw [Finset.ssubset_iff_of_subset]
  · refine ⟨p, ?_, ?_⟩
    · simp only [Finset.mem_filter, Finset.mem_univ, true_and]
      exact ⟨le_refl _, hp⟩
    · simp only [Finset.mem_filter, Finset.mem_univ, true_and, not_and]
      intro h'
      omega
  · intro r hr
    simp only [Finset.mem_filter, Finset.mem_univ, true_and] at hr ⊢
    exact ⟨by omega, hr.2⟩

/-- The running count never exceeds the number of marks. -/
private theorem cumN_le_countN (p : Fin M) : cumN mk p ≤ countN mk := by
  unfold cumN countN
  apply Finset.card_le_card
  intro r hr
  simp only [Finset.mem_filter, Finset.mem_univ, true_and] at hr ⊢
  exact hr.2

/-- At a marked position the running count is positive. -/
private theorem cumN_pos {p : Fin M} (hp : mk p = true) : 0 < cumN mk p := by
  unfold cumN
  apply Finset.card_pos.mpr
  refine ⟨p, ?_⟩
  simp only [Finset.mem_filter, Finset.mem_univ, true_and]
  exact ⟨le_refl _, hp⟩

/-- There are exactly p positions before position p. -/
private theorem card_below (p : Fin M) :
    (Finset.univ.filter fun q : Fin M => q.val < p.val).card = p.val := by
  have h := Fin.card_filter_val_lt (n := M) (m := p.val)
  rw [Nat.min_eq_right (le_of_lt p.isLt)] at h
  exact h

/-- The running sum of the histogram at e counts the positions whose running count is at most e:
    the histogram's bins are the disjoint fibres of the running count. -/
private theorem flatN_eq_card (e : Fin M) :
    flatN mk e = (Finset.univ.filter fun p : Fin M => cumN mk p ≤ e.val).card := by
  have hM : M = 1048576 := rfl
  unfold flatN histN
  rw [← Finset.card_biUnion]
  · refine congrArg Finset.card ?_
    ext p
    simp only [Finset.mem_biUnion, Finset.mem_filter, Finset.mem_univ, true_and]
    constructor
    · rintro ⟨v, hv, hp⟩
      omega
    · intro h
      have hlt : cumN mk p < M := by have := e.isLt; omega
      generalize cumN mk p = c at h hlt ⊢
      exact ⟨⟨c, hlt⟩, h, rfl⟩
  · intro v _ w _ hvw
    show Disjoint _ _
    rw [Finset.disjoint_left]
    intro p hp hq
    simp only [Finset.mem_filter, Finset.mem_univ, true_and] at hp hq
    exact hvw (Fin.ext (hp.symm.trans hq))

/-- If p is marked and its running count is e + 1, the running sum of the histogram at e is p:
    the positions with running count at most e are exactly those before p. -/
private theorem flatN_of_marked (p e : Fin M) (hp : mk p = true) (he : e.val + 1 = cumN mk p) :
    flatN mk e = p.val := by
  rw [flatN_eq_card, ← card_below p]
  refine congrArg Finset.card ?_
  apply Finset.filter_congr
  intro q _
  constructor
  · intro h
    by_contra hlt
    have := cumN_mono mk (show p.val ≤ q.val by omega)
    omega
  · intro h
    have := cumN_lt mk hp h
    omega

/-- Every slot below the number of marks is the running count, less one, of a marked position:
    marked position ↦ running count − 1 is injective from a set of countN elements into [0, countN). -/
private theorem exists_marked (e : Fin M) (he : e.val < countN mk) :
    ∃ p : Fin M, mk p = true ∧ cumN mk p = e.val + 1 := by
  have hsurj := Finset.surj_on_of_inj_on_of_card_le
    (s := Finset.univ.filter fun q : Fin M => mk q = true) (t := Finset.range (countN mk))
    (fun p _ => cumN mk p - 1)
    (by
      intro a ha
      simp only [Finset.mem_filter, Finset.mem_univ, true_and] at ha
      have h1 := cumN_pos mk ha
      have h2 := cumN_le_countN mk a
      exact Finset.mem_range.mpr (by omega))
    (by
      intro a b ha hb hab
      simp only [Finset.mem_filter, Finset.mem_univ, true_and] at ha hb
      have h1 := cumN_pos mk ha
      have h2 := cumN_pos mk hb
      apply Fin.ext
      rcases Nat.lt_trichotomy a.val b.val with h | h | h
      · have := cumN_lt mk hb h
        omega
      · exact h
      · have := cumN_lt mk ha h
        omega)
    (by
      rw [Finset.card_range]
      unfold countN
      exact le_refl _)
    e.val (Finset.mem_range.mpr he)
  obtain ⟨p, hp, hpe⟩ := hsurj
  simp only [Finset.mem_filter, Finset.mem_univ, true_and] at hp
  have h1 := cumN_pos mk hp
  exact ⟨p, hp, by omega⟩

/-- A slot below the number of marks: its running histogram sum is a marked position whose running count is e + 1. -/
private theorem slot_spec (e : Fin M) (he : e.val < countN mk) :
    ∃ p : Fin M, mk p = true ∧ cumN mk p = e.val + 1 ∧ flatN mk e = p.val := by
  obtain ⟨p, hp, hc⟩ := exists_marked mk e he
  exact ⟨p, hp, hc, flatN_of_marked mk p e hp hc.symm⟩

/-- The slot of a marked position: its running count less one. -/
private def slotOf (p : Fin M) : Fin M :=
  ⟨cumN mk p - 1, by
    have h := card_filter_le_M (fun q : Fin M => q.val ≤ p.val ∧ mk q = true)
    have hM : M = 1048576 := rfl
    unfold cumN
    omega⟩

private theorem slotOf_val (p : Fin M) : (slotOf mk p).val = cumN mk p - 1 := rfl

/-- The slot of a marked position is below the number of marks and its running histogram sum is the position. -/
private theorem slotOf_spec {p : Fin M} (hp : mk p = true) :
    (slotOf mk p).val < countN mk ∧ flatN mk (slotOf mk p) = p.val := by
  have h1 := cumN_pos mk hp
  have h2 := cumN_le_countN mk p
  have h3 := slotOf_val mk p
  exact ⟨by omega, flatN_of_marked mk p (slotOf mk p) hp (by omega)⟩

private theorem rowN_of_lt (e : Fin M) (he : e.val < countN mk) :
    rowN mk e = flatN mk e / 1024 % 1024 := by
  unfold rowN
  exact if_pos he

private theorem colN_of_lt (e : Fin M) (he : e.val < countN mk) :
    colN mk e = flatN mk e % 1024 := by
  unfold colN
  exact if_pos he

theorem cumN_le (p : Fin M) : cumN mk p ≤ M := by
  unfold cumN
  exact card_filter_le_M _

theorem countN_le : countN mk ≤ M := by
  unfold countN
  exact card_filter_le_M _

theorem histN_le (v : Fin M) : histN mk v ≤ M := by
  unfold histN
  exact card_filter_le_M _

theorem flatN_le (e : Fin M) : flatN mk e ≤ M := by
  rw [flatN_eq_card]
  exact card_filter_le_M _

theorem rowN_lt (e : Fin M) : rowN mk e < 1024 := by
  unfold rowN; split
  · exact Nat.mod_lt _ (by norm_num)
  · norm_num

theorem colN_lt (e : Fin M) : colN mk e < 1024 := by
  unfold colN; split
  · exact Nat.mod_lt _ (by norm_num)
  · norm_num

/-- THE LISTING IS EXACT. A sum over the edge slots whose row is i, each valid slot contributing a term of its
    (row, column) pair and each invalid slot nothing, is the sum of that term over the marked columns of row i. -/
theorem edge_sum {β : Type} [AddCommMonoid β] (ψ : Fin 1024 → Fin 1024 → β) (i : Fin 1024) :
    (∑ e ∈ Finset.univ.filter (fun e : Fin M => rowN mk e = i.val),
        if e.val < countN mk then ψ ⟨rowN mk e, rowN_lt mk e⟩ ⟨colN mk e, colN_lt mk e⟩ else 0)
      = ∑ j : Fin 1024, if mk ⟨i.val * 1024 + j.val, by have := i.isLt; have := j.isLt; show i.val * 1024 + j.val < 1048576; omega⟩ = true then ψ i j else 0 := by
  have hM : M = 1048576 := rfl
  have hi := i.isLt
  rw [← Finset.sum_filter, ← Finset.sum_filter]
  refine Finset.sum_bij'
    (fun e _ => (⟨colN mk e, colN_lt mk e⟩ : Fin 1024))
    (fun j _ => slotOf mk ⟨i.val * 1024 + j.val, by have := i.isLt; have := j.isLt; show i.val * 1024 + j.val < 1048576; omega⟩)
    ?_ ?_ ?_ ?_ ?_
  · -- a valid slot of row i lands on a marked column of row i
    intro e he
    have he' := he
    simp only [Finset.mem_filter, Finset.mem_univ, true_and] at he'
    have hrow := he'.1
    have hlt := he'.2
    refine Exists.elim (slot_spec mk e hlt) (fun p hps => ?_)
    have hp := hps.1
    have hf := hps.2.2
    have hr := rowN_of_lt mk e hlt
    have hcl := colN_of_lt mk e hlt
    have hpl := p.isLt
    refine Finset.mem_filter.mpr ⟨Finset.mem_univ _, (mk_congr mk ?_).trans hp⟩
    simp only [Fin.val_mk]
    omega
  · -- a marked column of row i comes from a valid slot of row i
    intro j hj
    have hj' := hj
    simp only [Finset.mem_filter, Finset.mem_univ, true_and] at hj'
    have hs := slotOf_spec mk hj'
    have hlt := hs.1
    have hf := hs.2
    have hr := rowN_of_lt mk _ hlt
    have hjl := j.isLt
    refine Finset.mem_filter.mpr ⟨Finset.mem_filter.mpr ⟨Finset.mem_univ _, ?_⟩, hlt⟩
    rw [hr, hf]
    simp only [Fin.val_mk]
    omega
  · -- slot ↦ column ↦ slot
    intro e he
    have he' := he
    simp only [Finset.mem_filter, Finset.mem_univ, true_and] at he'
    have hrow := he'.1
    have hlt := he'.2
    refine Exists.elim (slot_spec mk e hlt) (fun p hps => ?_)
    have hc := hps.2.1
    have hf := hps.2.2
    have hr := rowN_of_lt mk e hlt
    have hcl := colN_of_lt mk e hlt
    have hpl := p.isLt
    have key : ∀ a : Fin M, a.val = p.val → slotOf mk a = e := by
      intro a ha
      apply Fin.ext
      rw [slotOf_val, cumN_congr mk ha, hc]
      omega
    apply key
    simp only [Fin.val_mk]
    omega
  · -- column ↦ slot ↦ column
    intro j hj
    have hj' := hj
    simp only [Finset.mem_filter, Finset.mem_univ, true_and] at hj'
    have hs := slotOf_spec mk hj'
    have hlt := hs.1
    have hf := hs.2
    have hcl := colN_of_lt mk _ hlt
    have hjl := j.isLt
    apply Fin.ext
    simp only [Fin.val_mk]
    rw [hcl, hf]
    simp only [Fin.val_mk]
    omega
  · -- the summands agree
    intro e he
    have he' := he
    simp only [Finset.mem_filter, Finset.mem_univ, true_and] at he'
    have hrow : (⟨rowN mk e, rowN_lt mk e⟩ : Fin 1024) = i :=
      Fin.ext (by simp only [Fin.val_mk]; exact he'.1)
    rw [hrow]

end

end Cert.Gat.Nz

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.NzWordsA.lean ====
/-
  Three integer operations of the listing, read at one index: a running sum over a full-length window, a histogram
  made by adding one at each position's bin, and the count of a widened mask.
-/
import proofs.«106906_g31842887532864_cont_sun_m_711_10_alg».proof.Proof.RefTerm
import proofs.«106906_g31842887532864_cont_sun_m_711_10_alg».proof.Proof.NzSpec
import Idealize.ShloMosaic.PureOps.Ideal
import Idealize.ShloMosaic.Lib.ValueIdx
import Idealize.ShloMosaic.Lib.StableHlo.Predicate
import proofs.«106906_g31842887532864_cont_sun_m_711_10_alg».proof.Proof.LibGatherScatter
import Idealize.ShloMosaic.Lib.IdealHost
import Idealize.ShloMosaic.Lib.Pipeline.Value
import Mathlib.Data.BitVec

noncomputable section

open scoped BigOperators

namespace Cert.ReferenceIdeal.NzWords

open Cert.ReferenceIdeal Cert.ReferenceIdeal.RefTerm Cert.Gat.Nz Idealize.ShloMosaic Idealize.ShloMosaic.ValueIdx

variable [Facts]
open Facts₀ Facts

/-- The marks of an adjacency matrix over the extended reals, in flat row-major order. -/
def mkOf (A : FVec Ideal S1024x1024 .f32) : Fin M → Bool := fun p =>
  decide (A (ix2 (⟨p.val / 1024, by have h : p.val < 1048576 := p.isLt; show p.val / 1024 < 1024; omega⟩ : Fin 1024)
                 (⟨p.val % 1024, Nat.mod_lt _ (by norm_num)⟩ : Fin 1024)) ≠ 0)

/-! ## Sums of words -/

/-- A left fold of word addition from zero over all positions is the sum of the words. -/
private theorem foldl_addi_eq_sum {n : Nat} (g : Fin n → BitVec 32) :
    (List.finRange n).foldl (fun r k => IntOp.addi r (g k)) 0#32 = ∑ k : Fin n, g k := by
  rw [Fin.sum_univ_def, List.sum_eq_foldl, List.foldl_map]
  rfl

/-- The word of a sum of naturals is the sum of the words. -/
private theorem ofNat_sum {ι : Type} (S : Finset ι) (n : ι → Nat) :
    BitVec.ofNat 32 (∑ i ∈ S, n i) = ∑ i ∈ S, BitVec.ofNat 32 (n i) := by
  induction S using Finset.cons_induction with
  | empty => rfl
  | cons a S ha ih => rw [Finset.sum_cons, Finset.sum_cons, BitVec.ofNat_add, ih]

/-- The word of the sum of the values of words is the sum of the words. -/
private theorem ofNat_sum_toNat {ι : Type} (S : Finset ι) (f : ι → BitVec 32) :
    BitVec.ofNat 32 (∑ i ∈ S, (f i).toNat) = ∑ i ∈ S, f i := by
  rw [ofNat_sum]
  exact Finset.sum_congr rfl fun i _ => by rw [BitVec.ofNat_toNat, BitVec.setWidth_eq]

/-- The indices of a vector of length N are its coordinates. -/
private def idx1Equiv (N : Nat) : Fin N ≃ (⟨1, ![N]⟩ : Shape).Idx where
  toFun := ix1
  invFun := fun j => j 0
  left_inv := fun _ => rfl
  right_inv := fun j => (eq_ix1 j).symm

/-! ## The running sum: a window of the full length N, padded N − 1 low

  Window position k of the window at p reads the vector at p + k − (N − 1) when that is not negative, and the padding
  (zero) otherwise; as k runs over the N positions, p + k − (N − 1) runs over the positions 0 … p, once each. -/

private theorem reduceWindow_cumsum (N lo : Nat) (hlo : lo + 1 = N) (x : IVec ⟨1, ![N]⟩ 32) {u : Shape} (init : u.Idx → BitVec 32)
    (h : (⟨1, ![N]⟩ : Shape).ReduceWindows (![N] : Fin 1 → Nat) ![1] ![lo] ![0] ⟨1, ![N]⟩) (hu : 0 < u.numel)
    (h0 : init (Shape.Idx.first hu) = 0#32) (p : Fin N) :
    Host.reduceWindow IntOp.addi ![N] ![1] ![lo] ![0] x init h hu (ix1 p)
      = ∑ q ∈ Finset.univ.filter (fun q : Fin N => q.val ≤ p.val), x (ix1 q) := by
  unfold Host.reduceWindow
  simp only [h0]
  refine (foldl_addi_eq_sum _).trans ?_
  have hp : p.val < N := p.isLt
  -- the sum over window positions, moved onto the coordinates
  refine (Fintype.sum_equiv ((Shape.rowMajor (⟨1, ![N]⟩ : Shape)).symm.trans (idx1Equiv N).symm) _
    (fun q' : Fin N => if hc : lo ≤ p.val + q'.val then
        x (ix1 ⟨p.val + q'.val - lo, by have := q'.isLt; omega⟩) else 0#32)
    (fun k => ?_)).trans ?_
  · have hq : ((Shape.rowMajor (⟨1, ![N]⟩ : Shape)).symm.trans (idx1Equiv N).symm) k
        = (Shape.rowMajor (⟨1, ![N]⟩ : Shape)).symm k 0 := rfl
    rw [hq]
    set j := (Shape.rowMajor (⟨1, ![N]⟩ : Shape)).symm k with hj
    have hj0 : (j 0).val < N := (j 0).isLt
    by_cases hc : lo ≤ p.val + (j 0).val
    · rw [dif_pos hc]
      split
      · refine congrArg x (funext fun a => Fin.ext ?_)
        obtain rfl : a = 0 := Subsingleton.elim _ _
        show p.val * 1 + (j 0).val - lo = p.val + (j 0).val - lo
        omega
      · rename_i hn
        refine absurd (fun a => ?_) hn
        obtain rfl : a = 0 := Subsingleton.elim _ _
        show lo ≤ p.val * 1 + (j 0).val ∧ p.val * 1 + (j 0).val - lo < N
        omega
    · rw [dif_neg hc]
      split
      · rename_i hin
        have h1 : lo ≤ p.val * 1 + (j 0).val := (hin 0).1
        omega
      · rfl
  · -- drop the padding positions and reindex the rest onto the positions up to p
    rw [← Finset.sum_filter_of_ne (p := fun q' : Fin N => lo ≤ p.val + q'.val)]
    · refine Finset.sum_bij' (fun q' _ => (⟨p.val + q'.val - lo, by have := q'.isLt; omega⟩ : Fin N))
        (fun q hq => (⟨q.val + lo - p.val, by have := (Finset.mem_filter.1 hq).2; omega⟩ : Fin N)) ?_ ?_ ?_ ?_ ?_
      · intro q' hq'
        have := (Finset.mem_filter.1 hq').2
        exact Finset.mem_filter.2 ⟨Finset.mem_univ _, by show p.val + q'.val - lo ≤ p.val; have := q'.isLt; omega⟩
      · intro q hq
        have := (Finset.mem_filter.1 hq).2
        exact Finset.mem_filter.2 ⟨Finset.mem_univ _, by show lo ≤ p.val + (q.val + lo - p.val); omega⟩
      · intro q' hq'
        have := (Finset.mem_filter.1 hq').2
        exact Fin.ext (by show p.val + q'.val - lo + lo - p.val = q'.val; omega)
      · intro q hq
        have := (Finset.mem_filter.1 hq).2
        exact Fin.ext (by show p.val + (q.val + lo - p.val) - lo = q.val; omega)
      · intro q' hq'
        exact dif_pos (Finset.mem_filter.1 hq').2
    · intro q' _ hne
      by_contra hc
      exact hne (dif_neg hc)

/-- The running sum at p is the sum of the words at positions ≤ p (as words: modulo 2^32). -/
theorem cumsumW_apply (x : IVec S1048576 32) (p : Fin M) :
    cumsumW x (ix1 p) = BitVec.ofNat 32 (∑ q ∈ Finset.univ.filter (fun q : Fin M => q.val ≤ p.val), (x (ix1 q)).toNat) := by
  rw [ofNat_sum_toNat]
  unfold cumsumW
  exact reduceWindow_cumsum 1048576 1048575 rfl x _ _ _ rfl p

/-! ## The histogram: a scatter that adds one at each position's bin -/

/-- A fold of word addition from zero over a set is the sum of the words. -/
private theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- A left fold whose every step adds, at each entry, a term of the step: the entry of the result is the entry of the
    start plus the terms' sum. -/
private theorem foldl_pointwise_add {ι κ : Type} (step : (κ → BitVec 32) → ι → (κ → BitVec 32)) (g : ι → κ → BitVec 32)
    (hstep : ∀ r n t, step r n t = r t + g n t) (l : List ι) (x : κ → BitVec 32) (t : κ) :
    (l.foldl step x) t = x t + (l.map fun n => g n t).sum := by
  induction l generalizing x with
  | nil => simp
  | cons a l ih => rw [List.foldl_cons, ih, hstep, List.map_cons, List.sum_cons, add_assoc]

/-- A scatter that adds, read at one entry: the operand's entry plus the updates that land on it. -/
private theorem scatter_addi_apply {s si u : Shape} {w : Nat} (d : ScatterDims s si u) (x : s.Idx → BitVec 32) (idx : IVec si w)
    (upd : u.Idx → BitVec 32) (t : s.Idx) :
    Host.scatter d IntOp.addi x idx upd t
      = x t + ∑ j : u.Idx, if d.resultIdx? j idx = some t then upd j else 0 := by
  unfold Host.scatter
  refine (foldl_pointwise_add _
    (fun n t => if d.resultIdx? (u.rowMajor.symm n) idx = some t then upd (u.rowMajor.symm n) else 0) ?_ _ x t).trans ?_
  · intro r n t
    cases hres : d.resultIdx? (u.rowMajor.symm n) idx with
    | none => rw [if_neg (by simp), add_zero]
    | some i =>
      show (if t = i then IntOp.addi (r i) (upd (u.rowMajor.symm n)) else r t) = _
      by_cases hti : t = i
      · subst hti
        rw [if_pos rfl, if_pos rfl]; rfl
      · rw [if_neg hti, if_neg (fun e => hti (Option.some.inj e).symm), add_zero]
  · congr 1
    rw [← Fin.sum_univ_def]
    exact Equiv.sum_comp u.rowMajor.symm (fun j => if d.resultIdx? j idx = some t then upd j else 0)

/-- The vector scatter that adds, read at entry v: the operand's entry plus the update entries whose start word, read
    signed, is v. -/
private theorem scatter_vec_addi {N n : Nat} (d : ScatterDims ⟨1, ![N]⟩ (Cert.LibGS.Sh n 1) ⟨1, ![n]⟩)
    (hiw : d.insertedWindowDims = [0]) (hsd : d.scatterDimsToOperandDims = [0]) (hivd : d.indexVectorDim = 1)
    (x : (⟨1, ![N]⟩ : Shape).Idx → BitVec 32) (idx : IVec (Cert.LibGS.Sh n 1) 32) (upd : (⟨1, ![n]⟩ : Shape).Idx → BitVec 32)
    (v : Fin N) :
    Host.scatter d IntOp.addi x idx upd (ix1 v)
      = x (ix1 v) + ∑ e : Fin n, if (idx (ix2 e 0)).toInt = (v.val : ℤ) then upd (ix1 e) else 0 := by
  rw [scatter_addi_apply]
  congr 1
  refine (Fintype.sum_equiv (idx1Equiv n) _ _ fun e => ?_).symm
  have key := Cert.LibGS.svec_resultIdx_iff d hiw hsd hivd idx (ix1 e) (ix1 v)
  show (if (idx (ix2 e 0)).toInt = (v.val : ℤ) then upd (ix1 e) else 0)
     = if d.resultIdx? (ix1 e) idx = some (ix1 v) then upd (ix1 e) else 0
  by_cases hc : (idx (ix2 e 0)).toInt = (v.val : ℤ)
  · rw [if_pos hc, if_pos (key.2 hc)]
  · rw [if_neg hc, if_neg (fun h => hc (key.1 h))]

/-- A reduction by word addition over every axis, from zero, is the sum of all the words. -/
private theorem reduce_all_addi {s : Shape} {axes : List (Fin s.rank)} {u : Shape} (x : s.Idx → BitVec 32) (init : u.Idx → BitVec 32)
    (h : s.ReducesTo axes ⟨0, ![]⟩) (hu : 0 < u.numel) (h0 : init (Shape.Idx.first hu) = 0#32) (j : (⟨0, ![]⟩ : Shape).Idx) :
    Host.reduce IntOp.addi x init h hu j = ∑ i : s.Idx, x i := by
  rw [Host.reduce_eq_fold, h0, fold_addi_eq_sum]
  refine Finset.sum_congr (Finset.filter_true_of_mem fun i _ => funext fun a => a.elim0) fun _ _ => rfl

/-- A vector of words as a one-column table, read at a row. -/
private theorem col_apply (r : IVec S1048576 32) (e : Fin 1048576) : col r (ix2 e (0 : Fin 1)) = r (ix1 e) := by
  unfold col
  refine broadcastInDim_apply _ _ r (ix2 e (0 : Fin 1)) (ix1 e) fun a => ?_
  match a with
  | ⟨0, _⟩ =>
    show e.val = if (1048576 : Nat) = 1 then 0 else e.val
    rw [if_neg (by norm_num)]

/-- The histogram: bin v holds the number of positions whose bin word, read signed, is v. -/
theorem hist_scatter_apply (idx : IVec S1048576 32) (v : Fin M) :
    Host.scatter scatter_S1048576_S1048576x1_S1048576_n_0_0_1 IntOp.addi (bI 0) (col idx) (bI 1) (ix1 v)
      = BitVec.ofNat 32 (Finset.univ.filter (fun p : Fin M => (idx (ix1 p)).toInt = (v.val : ℤ))).card := by
  refine (scatter_vec_addi scatter_S1048576_S1048576x1_S1048576_n_0_0_1 rfl rfl rfl (bI 0) (col idx) (bI 1) v).trans ?_
  rw [Finset.card_filter, ofNat_sum]
  show (0 : BitVec 32) + _ = _
  rw [zero_add]
  refine Finset.sum_congr rfl fun e _ => ?_
  rw [col_apply]
  show (if (idx (ix1 e)).toInt = (v.val : ℤ) then (1#32 : BitVec 32) else 0) = _
  split <;> rfl

/-! ## The marks, flattened row by row -/

/-- The flat position p of a 1024 × 1024 array is row p / 1024, column p % 1024. -/
private abbrev rc (p : Fin M) : S1024x1024.Idx :=
  ix2 (⟨p.val / 1024, by have h : p.val < 1048576 := p.isLt; show p.val / 1024 < 1024; omega⟩ : Fin 1024)
      (⟨p.val % 1024, Nat.mod_lt _ (by norm_num)⟩ : Fin 1024)

/-- Flat positions and (row, column) pairs correspond one to one. -/
private def rcEquiv : Fin M ≃ S1024x1024.Idx where
  toFun := rc
  invFun := fun i => ⟨(i 0).val * 1024 + (i 1).val, by
    have h0 : (i 0).val < 1024 := idx2_lt0 i
    have h1 : (i 1).val < 1024 := idx2_lt1 i
    show (i 0).val * 1024 + (i 1).val < 1048576
    omega⟩
  left_inv := fun p => Fin.ext (by show p.val / 1024 * 1024 + p.val % 1024 = p.val; omega)
  right_inv := fun i => by
    have h0 : (i 0).val < 1024 := idx2_lt0 i
    have h1 : (i 1).val < 1024 := idx2_lt1 i
    funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)

/-- The row-major reshape of a 1024 × 1024 array, read at a flat position. -/
private theorem shapeCast_flat {α : Type} (m : S1024x1024.Idx → α) (p : Fin M) :
    shapeCast S1048576 m shapeCasts_S1024x1024_S1048576 (ix1 p) = m (rc p) := by
  have hp : p.val < 1048576 := p.isLt
  refine shapeCast_apply m shapeCasts_S1024x1024_S1048576 (ix1 p) (rc p) ?_
  rw [Shape.rowMajor_val_two, Shape.rowMajor_val_one]
  show p.val / 1024 * 1024 + p.val % 1024 = p.val
  omega

/-- A mark is the bit of "the entry is not zero". -/
private theorem mask1_apply (A : FVec Ideal S1024x1024 .f32) (i : S1024x1024.Idx) :
    mask1 (F := Ideal) A i = BitVec.ofBool (decide (A i ≠ 0)) := by
  unfold mask1
  rw [cmpf_apply, broadcastInDim_scalar_apply, constant_apply, Ideal.cmpf_def, Ideal.ofBits_zero_f32]
  rfl

/-- The mark at flat position p, widened to a word. -/
private theorem mask_at (A : FVec Ideal S1024x1024 .f32) (p : Fin M) :
    (mask1 (F := Ideal) A (rc p)).setWidth 32 = BitVec.ofNat 32 (if mkOf A p = true then 1 else 0) := by
  rw [mask1_apply]
  show (BitVec.ofBool (decide (A (rc p) ≠ 0))).setWidth 32 = BitVec.ofNat 32 (if decide (A (rc p) ≠ 0) = true then 1 else 0)
  generalize decide (A (rc p) ≠ 0) = b
  cases b <;> rfl

/-- The marks at one flat position, widened to a word: 1 on a mark, 0 elsewhere. -/
theorem mask_word (A : FVec Ideal S1024x1024 .f32) (p : Fin M) :
    extui 32 (shapeCast S1048576 (mask1 (F := Ideal) A) shapeCasts_S1024x1024_S1048576) natLt_1_32 (ix1 p)
      = BitVec.ofNat 32 (if mkOf A p = true then 1 else 0) := by
  rw [extui_apply, shapeCast_flat]
  exact mask_at A p

/-- The number of marks, as a word. -/
theorem count_word (A : FVec Ideal S1024x1024 .f32) :
    count (F := Ideal) A ix0 = BitVec.ofNat 32 (countN (mkOf A)) := by
  unfold RefTerm.count countN
  refine (reduce_all_addi _ _ _ _ rfl _).trans ?_
  rw [Finset.card_filter, ofNat_sum]
  refine (Fintype.sum_equiv rcEquiv _ _ fun q => ?_).symm
  exact (mask_at A q).symm

end Cert.ReferenceIdeal.NzWords

end
-- ==== Proof.NzWords.lean ====
/-
  The three word vectors the listing ends in, read at one edge slot: the row word, the column word and the valid flag
  are the words of the natural-number listing of the marks.
-/
import proofs.«106906_g31842887532864_cont_sun_m_711_10_alg».proof.Proof.NzWordsA

noncomputable section

open scoped BigOperators

namespace Cert.ReferenceIdeal.NzWords

open Cert.ReferenceIdeal Cert.ReferenceIdeal.RefTerm Cert.Gat.Nz Idealize.ShloMosaic Idealize.ShloMosaic.ValueIdx

variable [Facts]
open Facts₀ Facts

/-! ## Small non-negative 32-bit words: they read, compare, divide and leave remainders as their values -/

section Words
open Idealize.ShloMosaic.StableHlo.Predicate

/-- A natural below 2^32 is the value of its word. -/
private theorem toNat_ofNat_lt (n : ℕ) (hn : n < 2 ^ 32) : (BitVec.ofNat 32 n).toNat = n := by
  rw [BitVec.toNat_ofNat]; exact Nat.mod_eq_of_lt hn

/-- The word of a natural below 2^31 has its top bit clear. -/
private theorem msb_ofNat_small (n : ℕ) (hn : n < 2 ^ 31) : (BitVec.ofNat 32 n).msb = false :=
  BitVec.msb_eq_false_iff_two_mul_lt.mpr (by rw [toNat_ofNat_lt n (by omega)]; omega)

/-- The word of a positive natural below 2^32 is not the zero word. -/
private theorem ofNat_ne_zero (n : ℕ) (h0 : 0 < n) (hn : n < 2 ^ 32) : BitVec.ofNat 32 n ≠ 0 := by
  intro h
  have := congrArg BitVec.toNat h
  rw [toNat_ofNat_lt n hn] at this
  simp at this
  omega

/-- The word of a natural below 2^31 is not the all-ones word. -/
private theorem ofNat_ne_neg_one (n : ℕ) (hn : n < 2 ^ 31) : BitVec.ofNat 32 n ≠ -1 := by
  intro h
  have := congrArg BitVec.toNat h
  rw [toNat_ofNat_lt n (by omega)] at this
  have h1 : (-1 : BitVec 32).toNat = 4294967295 := by decide
  omega

/-- The signed maximum of 0 and a non-negative word is the word. -/
private theorem maxsi_zero_ofNat (n : ℕ) (hn : n < 2 ^ 31) :
    IntOp.maxsi 0#32 (BitVec.ofNat 32 n) = BitVec.ofNat 32 n := by
  have h0 : (0#32 : BitVec 32).toInt = 0 := by decide
  unfold IntOp.maxsi
  rw [if_neg]
  simp only [BitVec.slt, toInt_ofNat_small n hn, h0, decide_eq_true_eq]
  omega

/-- A non-negative word is not below 0, signed. -/
private theorem slt_zero_ofNat (n : ℕ) (hn : n < 2 ^ 31) : IntOp.cmpi .slt (BitVec.ofNat 32 n) 0#32 = 0#1 := by
  have h0 : (0#32 : BitVec 32).toInt = 0 := by decide
  apply eq_zero_of_ne_one
  unfold IntOp.cmpi
  simp only [BitVec.slt, toInt_ofNat_small n hn, h0, ofBool_eq_one_iff, decide_eq_true_eq]
  omega

/-- Signed division of a non-negative word by a positive word is the division of the values, on any unit. -/
private theorem divsi_ofNat (u : ArithUnit) (n D : ℕ) (hn : n < 2 ^ 31) (hD0 : 0 < D) (hD : D < 2 ^ 31) :
    IntOp.divsi u (BitVec.ofNat 32 n) (BitVec.ofNat 32 D) = BitVec.ofNat 32 (n / D) := by
  have hcorner : ¬ IntOp.SDivCorner (BitVec.ofNat 32 n) (BitVec.ofNat 32 D) := by
    rintro (hc | ⟨_, hc⟩)
    · exact ofNat_ne_zero D hD0 (by omega) hc
    · exact ofNat_ne_neg_one D hD hc
  have hq : n / D < 2 ^ 32 := lt_of_le_of_lt (Nat.div_le_self n D) (by omega)
  apply BitVec.eq_of_toNat_eq
  simp only [IntOp.divsi, if_neg hcorner, BitVec.sdiv_eq, msb_ofNat_small n hn, msb_ofNat_small D hD, BitVec.udiv_eq,
    BitVec.toNat_udiv]
  rw [toNat_ofNat_lt n (by omega), toNat_ofNat_lt D (by omega), toNat_ofNat_lt _ hq]

/-- The signed remainder of a non-negative word by a positive word is the remainder of the values, on any unit. -/
private theorem remsi_ofNat (u : ArithUnit) (n D : ℕ) (hn : n < 2 ^ 31) (hD0 : 0 < D) (hD : D < 2 ^ 31) :
    IntOp.remsi u (BitVec.ofNat 32 n) (BitVec.ofNat 32 D) = BitVec.ofNat 32 (n % D) := by
  have hcorner : ¬ IntOp.SDivCorner (BitVec.ofNat 32 n) (BitVec.ofNat 32 D) := by
    rintro (hc | ⟨_, hc⟩)
    · exact ofNat_ne_zero D hD0 (by omega) hc
    · exact ofNat_ne_neg_one D hD hc
  have hr : n % D < 2 ^ 32 := lt_of_lt_of_le (Nat.mod_lt n hD0) (by omega)
  apply BitVec.eq_of_toNat_eq
  simp only [IntOp.remsi, if_neg hcorner, BitVec.srem_eq, msb_ofNat_small n hn, msb_ofNat_small D hD, BitVec.umod_eq,
    BitVec.toNat_umod]
  rw [toNat_ofNat_lt n (by omega), toNat_ofNat_lt D (by omega), toNat_ofNat_lt _ hr]

/-- The sign word of a word: 0, −1 or 1. -/
private def sgn (x : BitVec 32) : BitVec 32 := if x = 0 then 0 else if x.msb then -1 else 1

/-- The sign word of a positive word below 2^31 is 1. -/
private theorem sgn_ofNat_pos (n : ℕ) (h0 : 0 < n) (hn : n < 2 ^ 31) : sgn (BitVec.ofNat 32 n) = 1 := by
  unfold sgn
  rw [if_neg (ofNat_ne_zero n h0 (by omega)), msb_ofNat_small n hn]
  rfl

/-- FLOOR DIVISION of a non-negative word by a positive word: the quotient toward zero is already the floor, and the
    correction (signs differ and the remainder is not 0) does not fire: a zero dividend leaves remainder 0, a positive
    one has the divisor's sign. -/
private theorem floorDiv_word (w : BitVec 32) (n D : ℕ) (hw : w = BitVec.ofNat 32 n) (hn : n < 2 ^ 31) (hD0 : 0 < D)
    (hD : D < 2 ^ 31) :
    Scalar.select
      (IntOp.andi (IntOp.cmpi .ne (sgn w) (sgn (BitVec.ofNat 32 D)))
        (IntOp.cmpi .ne (IntOp.remsi .host w (BitVec.ofNat 32 D)) 0#32))
      (IntOp.subi (IntOp.divsi .host w (BitVec.ofNat 32 D)) 1#32) (IntOp.divsi .host w (BitVec.ofNat 32 D))
      = BitVec.ofNat 32 (n / D) := by
  subst hw
  rw [divsi_ofNat .host n D hn hD0 hD, remsi_ofNat .host n D hn hD0 hD]
  have hc : IntOp.andi (IntOp.cmpi .ne (sgn (BitVec.ofNat 32 n)) (sgn (BitVec.ofNat 32 D)))
      (IntOp.cmpi .ne (BitVec.ofNat 32 (n % D)) 0#32) = 0#1 := by
    rcases Nat.eq_zero_or_pos n with h0 | h0
    · subst h0
      rw [Nat.zero_mod]
      have : IntOp.cmpi .ne (BitVec.ofNat 32 0) 0#32 = 0#1 := by decide
      rw [this]
      unfold IntOp.andi
      exact BitVec.and_zero
    · rw [sgn_ofNat_pos n h0 hn, sgn_ofNat_pos D hD0 hD]
      have : IntOp.cmpi .ne (1 : BitVec 32) 1 = 0#1 := by decide
      rw [this]
      unfold IntOp.andi
      exact BitVec.zero_and
  rw [hc, select_zero]

/-- THE REMAINDER WITH THE DIVISOR'S SIGN of a non-negative word by a positive word: the signed remainder is the
    remainder of the values, neither it nor the divisor is negative, and the correction does not fire. -/
private theorem remainder_word (w : BitVec 32) (k D : ℕ) (hw : w = BitVec.ofNat 32 k) (hk : k < 2 ^ 31) (hD0 : 0 < D)
    (hD : D < 2 ^ 31) :
    Scalar.select
      (IntOp.andi
        (IntOp.cmpi .ne (IntOp.cmpi .slt (IntOp.remsi .host w (BitVec.ofNat 32 D)) 0#32)
          (IntOp.cmpi .slt (BitVec.ofNat 32 D) 0#32))
        (IntOp.cmpi .ne (IntOp.remsi .host w (BitVec.ofNat 32 D)) 0#32))
      (IntOp.addi (IntOp.remsi .host w (BitVec.ofNat 32 D)) (BitVec.ofNat 32 D)) (IntOp.remsi .host w (BitVec.ofNat 32 D))
      = BitVec.ofNat 32 (k % D) := by
  subst hw
  rw [remsi_ofNat .host k D hk hD0 hD]
  have hr : k % D < 2 ^ 31 := lt_trans (Nat.mod_lt k hD0) hD
  rw [slt_zero_ofNat (k % D) hr, slt_zero_ofNat D hD]
  have : IntOp.cmpi .ne (0#1) 0#1 = 0#1 := by decide
  rw [this]
  have hc : ∀ b : BitVec 1, IntOp.andi 0#1 b = 0#1 := fun b => by unfold IntOp.andi; exact BitVec.zero_and
  rw [hc, select_zero]

end Words

/-! ## The listing's stages, each read at one index -/

section Stages
open Idealize.ShloMosaic.StableHlo.Predicate

/-- (a) The running count of marks at flat position p is the word of the natural running count: a running sum of
    0/1 words over the positions ≤ p counts the marked ones among them. -/
private theorem cum_word (A : FVec Ideal S1024x1024 .f32) (p : Fin M) :
    cum (F := Ideal) A (ix1 p) = BitVec.ofNat 32 (cumN (mkOf A) p) := by
  have h : ∀ q : Fin M,
      (extui 32 (shapeCast S1048576 (mask1 (F := Ideal) A) shapeCasts_S1024x1024_S1048576) natLt_1_32 (ix1 q)).toNat
        = if mkOf A q = true then 1 else 0 := by
    intro q
    rw [mask_word]
    split
    · rfl
    · rfl
  unfold cum
  rw [cumsumW_apply]
  refine congrArg (BitVec.ofNat 32) ?_
  simp only [h]
  unfold cumN
  rw [(Finset.filter_filter (fun q : Fin M => q.val ≤ p.val) (fun q : Fin M => mkOf A q = true) Finset.univ).symm,
    Finset.card_filter]

/-- (b) Clipping a non-negative word below at 0 and wrapping a negative word both leave it. -/
private theorem clip_apply (c : IVec S1048576 32) (p : Fin M) (n : ℕ) (hc : c (ix1 p) = BitVec.ofNat 32 n)
    (hn : n < 2 ^ 31) :
    select (cmpi .slt (maxsi (bI 0) c) (bI 0)) (addi (maxsi (bI 0) c) (bI 1048576)) (maxsi (bI 0) c) (ix1 p)
      = BitVec.ofNat 32 n := by
  have hm : IntOp.maxsi 0#32 (c (ix1 p)) = BitVec.ofNat 32 n := by rw [hc]; exact maxsi_zero_ofNat n hn
  show Scalar.select (IntOp.cmpi .slt (IntOp.maxsi 0#32 (c (ix1 p))) 0#32)
    (IntOp.addi (IntOp.maxsi 0#32 (c (ix1 p))) 1048576#32) (IntOp.maxsi 0#32 (c (ix1 p))) = _
  rw [hm, slt_zero_ofNat n hn, select_zero]

/-- The histogram's bin of flat position p is the word of its running count. -/
private theorem binIdx_word (A : FVec Ideal S1024x1024 .f32) (p : Fin M) :
    binIdx (F := Ideal) A (ix1 p) = BitVec.ofNat 32 (cumN (mkOf A) p) := by
  have hb : cumN (mkOf A) p ≤ 1048576 := cumN_le (mkOf A) p
  unfold binIdx cumClip
  exact clip_apply (cum (F := Ideal) A) p _ (cum_word A p) (by omega)

/-- (c) Bin v of the histogram is the word of the number of positions whose running count is v. -/
private theorem hist_word (A : FVec Ideal S1024x1024 .f32) (v : Fin M) :
    hist (F := Ideal) A (ix1 v) = BitVec.ofNat 32 (histN (mkOf A) v) := by
  unfold hist
  rw [hist_scatter_apply]
  refine congrArg (BitVec.ofNat 32) ?_
  unfold histN
  refine congrArg Finset.card (Finset.filter_congr (fun p _ => ?_))
  have hb : cumN (mkOf A) p ≤ 1048576 := cumN_le (mkOf A) p
  rw [binIdx_word, toInt_ofNat_small _ (by omega)]
  exact Nat.cast_inj

/-- (d) The running sum of the histogram at slot e is the word of the natural one. -/
private theorem flat_word (A : FVec Ideal S1024x1024 .f32) (e : Fin M) :
    flat (F := Ideal) A (ix1 e) = BitVec.ofNat 32 (flatN (mkOf A) e) := by
  unfold flat
  rw [cumsumW_apply]
  refine congrArg (BitVec.ofNat 32) ?_
  unfold flatN
  refine Finset.sum_congr rfl (fun v _ => ?_)
  have hb : histN (mkOf A) v ≤ 1048576 := histN_le (mkOf A) v
  rw [hist_word, toNat_ofNat_lt _ (by omega)]

/-- (e) Floor division by a positive literal, at a slot whose word is a small natural. -/
private theorem floorDiv_apply (x : IVec S1048576 32) (e : Fin M) (n D : ℕ) (hx : x (ix1 e) = BitVec.ofNat 32 n)
    (hn : n < 2 ^ 31) (hD0 : 0 < D) (hD : D < 2 ^ 31) :
    floorDiv x (constantI S_ 32 (BitVec.ofNat 32 D)) (ix1 e) = BitVec.ofNat 32 (n / D) :=
  floorDiv_word (x (ix1 e)) n D hx hn hD0 hD

/-- The remainder by 1024, at a slot whose word is a small natural. -/
private theorem remainder_apply (y : IVec S1048576 32) (e : Fin M) (k : ℕ) (hy : y (ix1 e) = BitVec.ofNat 32 k)
    (hk : k < 2 ^ 31) :
    remainder y (constantI S_ 32 1024#32) (ix1 e) = BitVec.ofNat 32 (k % 1024) :=
  remainder_word (y (ix1 e)) k 1024 hy hk (by norm_num) (by norm_num)

/-- The row of slot e before the fill. -/
private theorem rowsRaw_word (A : FVec Ideal S1024x1024 .f32) (e : Fin M) :
    rowsRaw (F := Ideal) A (ix1 e) = BitVec.ofNat 32 (flatN (mkOf A) e / 1024 % 1024) := by
  have hb : flatN (mkOf A) e ≤ 1048576 := flatN_le (mkOf A) e
  have hq : flatN (mkOf A) e / 1024 < 2 ^ 31 := by omega
  unfold rowsRaw
  exact remainder_apply _ e _
    (floorDiv_apply (flat (F := Ideal) A) e _ 1024 (flat_word A e) (by omega) (by norm_num) (by norm_num)) hq

/-- The column of slot e before the fill. -/
private theorem colsRaw_word (A : FVec Ideal S1024x1024 .f32) (e : Fin M) :
    colsRaw (F := Ideal) A (ix1 e) = BitVec.ofNat 32 (flatN (mkOf A) e % 1024) := by
  have hb : flatN (mkOf A) e ≤ 1048576 := flatN_le (mkOf A) e
  have hq : flatN (mkOf A) e / 1 < 2 ^ 31 := by omega
  have h := remainder_apply _ e _
    (floorDiv_apply (flat (F := Ideal) A) e _ 1 (flat_word A e) (by omega) (by norm_num) (by norm_num)) hq
  rw [Nat.div_one] at h
  unfold colsRaw
  exact h

/-- (f) A rank-0 word spread over the slots reads that word at every slot. -/
private theorem spread_apply (c : IVec S_ 32) (e : Fin M) :
    broadcastInDim S1048576 ![] bcast_S_S1048576 c (ix1 e) = c ix0 :=
  congrArg c (eq_ix0 _)

/-- Slot e is at or past a small count exactly when the count is ≤ e. -/
private theorem past_apply (c : IVec S_ 32) (e : Fin M) (n : ℕ) (hc : c ix0 = BitVec.ofNat 32 n) (hn : n < 2 ^ 31) :
    cmpi .sge (iotaInDim S1048576 32 0) (broadcastInDim S1048576 ![] bcast_S_S1048576 c) (ix1 e)
      = BitVec.ofBool (decide (n ≤ e.val)) := by
  have he : e.val < 2 ^ 31 := by have h : e.val < 1048576 := e.isLt; omega
  show IntOp.cmpi .sge (BitVec.ofNat 32 e.val) (broadcastInDim S1048576 ![] bcast_S_S1048576 c (ix1 e)) = _
  rw [spread_apply, hc]
  show BitVec.ofBool ((BitVec.ofNat 32 n).sle (BitVec.ofNat 32 e.val)) = _
  rw [BitVec.sle, toInt_ofNat_small n hn, toInt_ofNat_small e.val he]
  exact congrArg BitVec.ofBool (decide_eq_decide.mpr Nat.cast_le)

/-- Slot e is before a small count exactly when e is below the count. -/
private theorem valid_apply (c : IVec S_ 32) (e : Fin M) (n : ℕ) (hc : c ix0 = BitVec.ofNat 32 n) (hn : n < 2 ^ 31) :
    cmpi .slt (iotaInDim S1048576 32 0) (broadcastInDim S1048576 ![] bcast_S_S1048576 c) (ix1 e)
      = BitVec.ofBool (decide (e.val < n)) := by
  have he : e.val < 2 ^ 31 := by have h : e.val < 1048576 := e.isLt; omega
  show IntOp.cmpi .slt (BitVec.ofNat 32 e.val) (broadcastInDim S1048576 ![] bcast_S_S1048576 c (ix1 e)) = _
  rw [spread_apply, hc]
  show BitVec.ofBool ((BitVec.ofNat 32 e.val).slt (BitVec.ofNat 32 n)) = _
  rw [BitVec.slt, toInt_ofNat_small n hn, toInt_ofNat_small e.val he]
  exact congrArg BitVec.ofBool (decide_eq_decide.mpr Nat.cast_lt)

/-- The flag of the slots at or past the number of marks. -/
private theorem past_word (A : FVec Ideal S1024x1024 .f32) (e : Fin M) :
    past (F := Ideal) A (ix1 e) = BitVec.ofBool (decide (countN (mkOf A) ≤ e.val)) := by
  have hb : countN (mkOf A) ≤ 1048576 := countN_le (mkOf A)
  unfold past
  exact past_apply (count (F := Ideal) A) e _ (count_word A) (by omega)

end Stages

/-- The row word of edge slot e. -/
theorem rows_word (A : FVec Ideal S1024x1024 .f32) (e : Fin M) :
    rows (F := Ideal) A (ix1 e) = BitVec.ofNat 32 (rowN (mkOf A) e) := by
  unfold rows
  rw [select_apply, past_word, rowsRaw_word]
  unfold rowN
  by_cases h : e.val < countN (mkOf A)
  · rw [if_pos h, decide_eq_false (by omega)]
    exact select_zero _ _
  · rw [if_neg h, decide_eq_true (by omega)]
    exact select_one _ _

/-- The column word of edge slot e. -/
theorem cols_word (A : FVec Ideal S1024x1024 .f32) (e : Fin M) :
    cols (F := Ideal) A (ix1 e) = BitVec.ofNat 32 (colN (mkOf A) e) := by
  unfold cols
  rw [select_apply, past_word, colsRaw_word]
  unfold colN
  by_cases h : e.val < countN (mkOf A)
  · rw [if_pos h, decide_eq_false (by omega)]
    exact select_zero _ _
  · rw [if_neg h, decide_eq_true (by omega)]
    exact select_one _ _

/-- The valid flag of edge slot e. -/
theorem valid_word (A : FVec Ideal S1024x1024 .f32) (e : Fin M) :
    valid (F := Ideal) A (ix1 e) = BitVec.ofBool (decide (e.val < countN (mkOf A))) := by
  have hb : countN (mkOf A) ≤ 1048576 := countN_le (mkOf A)
  unfold valid
  exact valid_apply (count (F := Ideal) A) e _ (count_word A) (by omega)

end Cert.ReferenceIdeal.NzWords

end
-- ==== Proof.RefStages.lean ====
/-
  The stages of one batch's layer read at one index over the extended reals: the projected features, the gathered
  features of an edge slot's node, the per-edge score, the per-edge weight, the two batches' slices of the input, and
  the stacked result.
-/
import proofs.«106906_g31842887532864_cont_sun_m_711_10_alg».proof.Proof.RefTerm
import proofs.«106906_g31842887532864_cont_sun_m_711_10_alg».proof.Proof.Spec
import proofs.«106906_g31842887532864_cont_sun_m_711_10_alg».proof.Proof.NzSpec
import proofs.«106906_g31842887532864_cont_sun_m_711_10_alg».proof.Proof.LibGatherScatter
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefStages

open Cert.ReferenceIdeal Cert.ReferenceIdeal.RefTerm Cert.Gat Cert.Gat.Nz Idealize.ShloMosaic Idealize.ShloMosaic.ValueIdx

variable [Facts]
open Facts₀ Facts

/-! ## Small facts the stages share -/

/-- No extended real differs from itself, so a select on "h differs from h" keeps h. -/
private theorem select_une_self {s : Shape} (h z : FVec Ideal s .f32) (i : s.Idx) :
    select (cmpf .une h h) z h i = h i := by
  rw [select_apply, cmpf_apply, Ideal.cmpf_def]
  have e : Ideal.cmp .une (h i) (h i) = 0#1 := by
    unfold Ideal.cmp
    simp
  rw [e, select_zero]

/-- A float pattern spread over the edge slots reads, everywhere, the extended real it encodes. -/
private theorem bE_apply (w : BitVec 32) (i : S1048576.Idx) : bE (F := Ideal) w i = Ideal.ofBits .f32 w := by
  unfold bE
  exact broadcastInDim_apply _ _ _ i (fun a => a.elim0) (fun a => a.elim0)

/-- An integer word spread over the edge slots reads, everywhere, that word. -/
private theorem bI_apply (w : BitVec 32) (i : S1048576.Idx) : bI w i = w := by
  unfold bI
  exact broadcastInDim_apply _ _ _ i (fun a => a.elim0) (fun a => a.elim0)

/-- A word below 1024 read signed is itself. -/
private theorem toInt_ofNat_of_lt (n : Nat) (hn : n < 1024) : (BitVec.ofNat 32 n).toInt = (n : Int) := by
  rw [BitVec.toInt_eq_toNat_cond, BitVec.toNat_ofNat, Nat.mod_eq_of_lt (by omega)]
  rw [if_pos (by omega)]

/-- A word below 1024 is not negative, so the wrap leaves it alone. -/
private theorem wrap_apply_of_lt (r : IVec S1048576 32) (i : S1048576.Idx) (n : Nat) (hn : n < 1024)
    (hr : r i = BitVec.ofNat 32 n) : wrap r i = BitVec.ofNat 32 n := by
  unfold wrap
  rw [select_apply]
  have e : cmpi .slt r (bI 0) i = 0#1 := by
    show IntOp.cmpi .slt (r i) (bI 0 i) = 0#1
    rw [bI_apply, hr]
    show BitVec.ofBool ((BitVec.ofNat 32 n).slt 0#32) = 0#1
    have hs : (BitVec.ofNat 32 n).slt 0#32 = false := by
      rw [BitVec.slt, toInt_ofNat_of_lt n hn]
      simp
    rw [hs]
    rfl
  rw [e, select_zero, hr]

/-- A vector of words as a one-column table reads, in row e, the vector's entry e. -/
private theorem col_apply (r : IVec S1048576 32) (e : Fin M) (z : Fin 1) : col r (ix2 e z) = r (ix1 e) := by
  unfold col
  refine broadcastInDim_apply _ _ r _ (ix1 e) fun a => ?_
  match a with
  | ⟨0, _⟩ =>
    show e.val = if (1048576 : Nat) = 1 then 0 else e.val
    rw [if_neg (by norm_num)]

/-- The host's exponential of a negation, at an index. -/
private theorem hostExpNeg_apply {s : Shape} (l : FVec Ideal s .f32) (i : s.Idx) :
    Host.exp (Host.negf l) i = Ideal.exp (-(l i)) := rfl

/-! ## The two products: the operand indices, axis by axis -/

private theorem lhs_h_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch from List.not_mem_nil),
    dif_pos (show (0 : Fin S1024x256.rank) ∈ dot_S1024x256_S256x128_S1024x128_1_0_0_1_n_n.lhsNonContracting from List.mem_singleton.mpr rfl)]
  rfl
private theorem lhs_h_1 (i : S1024x128.Idx) (q : dot_S1024x256_S256x128_S1024x128_1_0_0_1_n_n.contr.Idx) :
    (dot_S1024x256_S256x128_S1024x128_1_0_0_1_n_n.lhsIdx i q 1).val = (q ⟨0, Nat.one_pos⟩).val :=
  dot_S1024x256_S256x128_S1024x128_1_0_0_1_n_n.lhsIdx_val_of_single rfl i q
private theorem rhs_h_0 (i : S1024x128.Idx) (q : dot_S1024x256_S256x128_S1024x128_1_0_0_1_n_n.contr.Idx) :
    (dot_S1024x256_S256x128_S1024x128_1_0_0_1_n_n.rhsIdx i q 0).val = (q ⟨0, Nat.one_pos⟩).val :=
  dot_S1024x256_S256x128_S1024x128_1_0_0_1_n_n.rhsIdx_val_of_single rfl i q
private theorem rhs_h_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch from List.not_mem_nil),
    dif_pos (show (1 : Fin S256x128.rank) ∈ dot_S1024x256_S256x128_S1024x128_1_0_0_1_n_n.rhsNonContracting from List.mem_singleton.mpr rfl)]
  rfl

private theorem lhs_e_0 (i : S1x1048576.Idx) (q : dot_S1x256_S256x1048576_S1x1048576_1_0_0_1_n_n.contr.Idx) :
    (dot_S1x256_S256x1048576_S1x1048576_1_0_0_1_n_n.lhsIdx i q 0).val = (i 0).val := by
  unfold DotDims.lhsIdx
  rw [dif_neg (show ¬(0 : Fin S1x256.rank) ∈ dot_S1x256_S256x1048576_S1x1048576_1_0_0_1_n_n.lhsBatch from List.not_mem_nil),
    dif_pos (show (0 : Fin S1x256.rank) ∈ dot_S1x256_S256x1048576_S1x1048576_1_0_0_1_n_n.lhsNonContracting from List.mem_singleton.mpr rfl)]
  rfl
private theorem lhs_e_1 (i : S1x1048576.Idx) (q : dot_S1x256_S256x1048576_S1x1048576_1_0_0_1_n_n.contr.Idx) :
    (dot_S1x256_S256x1048576_S1x1048576_1_0_0_1_n_n.lhsIdx i q 1).val = (q ⟨0, Nat.one_pos⟩).val :=
  dot_S1x256_S256x1048576_S1x1048576_1_0_0_1_n_n.lhsIdx_val_of_single rfl i q
private theorem rhs_e_0 (i : S1x1048576.Idx) (q : dot_S1x256_S256x1048576_S1x1048576_1_0_0_1_n_n.contr.Idx) :
    (dot_S1x256_S256x1048576_S1x1048576_1_0_0_1_n_n.rhsIdx i q 0).val = (q ⟨0, Nat.one_pos⟩).val :=
  dot_S1x256_S256x1048576_S1x1048576_1_0_0_1_n_n.rhsIdx_val_of_single rfl i q
private theorem rhs_e_1 (i : S1x1048576.Idx) (q : dot_S1x256_S256x1048576_S1x1048576_1_0_0_1_n_n.contr.Idx) :
    (dot_S1x256_S256x1048576_S1x1048576_1_0_0_1_n_n.rhsIdx i q 1).val = (i 1).val := by
  unfold DotDims.rhsIdx
  rw [dif_neg (show ¬(1 : Fin S256x1048576.rank) ∈ dot_S1x256_S256x1048576_S1x1048576_1_0_0_1_n_n.rhsBatch from List.not_mem_nil),
    dif_pos (show (1 : Fin S256x1048576.rank) ∈ dot_S1x256_S256x1048576_S1x1048576_1_0_0_1_n_n.rhsNonContracting from List.mem_singleton.mpr rfl)]
  rfl

/-- A layer's result given a leading unit axis reads, at (0, i, c), the layer at (i, c). -/
private theorem lead_apply (L : FVec Ideal S1024x128 .f32) (u : Fin 1) (i : Fin 1024) (c : Fin 128) :
    broadcastInDim S1x1024x128 ![1, 2] bcast_S1024x128_S1x1024x128_1_2 L (ix3 u i c) = L (ix2 i c) := by
  refine broadcastInDim_apply _ _ L _ (ix2 i c) fun a => ?_
  match a with
  | ⟨0, _⟩ =>
    show i.val = if (1024 : Nat) = 1 then 0 else i.val
    rw [if_neg (by norm_num)]
  | ⟨1, _⟩ =>
    show c.val = if (128 : Nat) = 1 then 0 else c.val
    rw [if_neg (by norm_num)]

/-- The projected features: row j of x against column c of W (no extended real differs from itself, so the
    replacement of a not-a-number never fires). -/
theorem hfeat_apply (x : FVec Ideal S1024x256 .f32) (W : FVec Ideal S256x128 .f32) (j : Fin 1024) (c : Fin 128) :
    hfeat (F := Ideal) x W (ix2 j c) = ∑ k : Fin 256, x (ix2 j k) * W (ix2 k c) := by
  unfold hfeat
  rw [select_une_self]
  simp only [Host.dotGeneral]
  rw [Ideal.dotGeneral_apply,
    ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 j c)
      ((contrEquiv1 dot_S1024x256_S256x128_S1024x128_1_0_0_1_n_n 256 rfl rfl).symm k) = ix2 j k :=
    funext fun b => Fin.ext (by
      match b with
      | ⟨0, _⟩ => exact lhs_h_0 _ _
      | ⟨1, _⟩ => exact (lhs_h_1 _ _).trans hk)
  have er : dot_S1024x256_S256x128_S1024x128_1_0_0_1_n_n.rhsIdx (ix2 j c)
      ((contrEquiv1 dot_S1024x256_S256x128_S1024x128_1_0_0_1_n_n 256 rfl rfl).symm k) = ix2 k c :=
    funext fun b => Fin.ext (by
      match b with
      | ⟨0, _⟩ => exact (rhs_h_0 _ _).trans hk
      | ⟨1, _⟩ => exact rhs_h_1 _ _)
  rw [el, er]

/-- The gathered features of edge slot e, whose word is the natural number n < 1024: node n's. -/
theorem takeRows_apply (h : FVec Ideal S1024x128 .f32) (r : IVec S1048576 32) (e : Fin M) (c : Fin 128)
    (n : Nat) (hn : n < 1024) (hr : r (ix1 e) = BitVec.ofNat 32 n) :
    takeRows (F := Ideal) h r (ix2 e c) = h (ix2 (⟨n, hn⟩ : Fin 1024) c) := by
  unfold takeRows
  refine (Cert.LibGS.gather_rows_gen gather_S1024x128_S1048576x1_S1048576x128_1_0_n_n_0_1_1128
    (by norm_num : 0 < 1024) rfl rfl rfl rfl rfl rfl h (col (wrap r)) e c).trans ?_
  rw [col_apply, wrap_apply_of_lt r (ix1 e) n hn hr]
  refine congrArg (fun q => h (ix2 q c)) (Fin.ext ?_)
  show min (BitVec.ofNat 32 n).toInt.toNat (1024 - 1) = n
  rw [toInt_ofNat_of_lt n hn, Int.toNat_natCast]
  omega

/-- The score of edge slot e, whose row and column words are n1, n2 < 1024: the attention vector against node n1's
    features followed by node n2's. -/
theorem escore_apply (h : FVec Ideal S1024x128 .f32) (rw cl : IVec S1048576 32) (a : FVec Ideal S1x256 .f32) (e : Fin M)
    (n1 n2 : Nat) (h1 : n1 < 1024) (h2 : n2 < 1024) (hr : rw (ix1 e) = BitVec.ofNat 32 n1) (hc : cl (ix1 e) = BitVec.ofNat 32 n2) :
    escore (F := Ideal) h rw cl a (ix1 e)
      = ∑ k : Fin 256, a (ix2 (0 : Fin 1) k) *
          (if k.val < 128 then h (ix2 (⟨n1, h1⟩ : Fin 1024) (⟨k.val % 128, Nat.mod_lt _ (by norm_num)⟩ : Fin 128))
           else h (ix2 (⟨n2, h2⟩ : Fin 1024) (⟨k.val % 128, Nat.mod_lt _ (by norm_num)⟩ : Fin 128))) := by
  unfold escore
  refine (shapeCast_1a_a_apply _ _ e).trans ?_
  simp only [Host.dotGeneral]
  rw [Ideal.dotGeneral_apply,
    ← Equiv.sum_comp (contrEquiv1 dot_S1x256_S256x1048576_S1x1048576_1_0_0_1_n_n 256 rfl rfl).symm]
  refine Finset.sum_congr rfl fun k _ => ?_
  have hk := contrEquiv1_symm_val dot_S1x256_S256x1048576_S1x1048576_1_0_0_1_n_n 256 rfl rfl k
  have el : dot_S1x256_S256x1048576_S1x1048576_1_0_0_1_n_n.lhsIdx (ix2 (0 : Fin 1) e)
      ((contrEquiv1 dot_S1x256_S256x1048576_S1x1048576_1_0_0_1_n_n 256 rfl rfl).symm k) = ix2 (0 : Fin 1) k :=
    funext fun b => Fin.ext (by
      match b with
      | ⟨0, _⟩ => exact lhs_e_0 _ _
      | ⟨1, _⟩ => exact (lhs_e_1 _ _).trans hk)
  have er : dot_S1x256_S256x1048576_S1x1048576_1_0_0_1_n_n.rhsIdx (ix2 (0 : Fin 1) e)
      ((contrEquiv1 dot_S1x256_S256x1048576_S1x1048576_1_0_0_1_n_n 256 rfl rfl).symm k) = ix2 k e :=
    funext fun b => Fin.ext (by
      match b with
      | ⟨0, _⟩ => exact (rhs_e_0 _ _).trans hk
      | ⟨1, _⟩ => exact rhs_e_1 _ _)
  rw [el, er]
  refine congrArg (a (ix2 (0 : Fin 1) k) * ·) ?_
  refine (transpose_ix2_apply _ _ k e).trans ?_
  have hk256 : k.val < 256 := k.isLt
  by_cases hk128 : k.val < 128
  · rw [if_pos hk128]
    refine (concatenate_pair_apply_left (t := S1048576x256) (s₁ := S1048576x128) (s₂ := S1048576x128)
      (1 : Fin S1048576x256.rank) _ _ _ (ix2 e k) rfl
      (ix2 e (⟨k.val % 128, Nat.mod_lt _ (by norm_num)⟩ : Fin 128)) (fun b => ?_)).trans
      (takeRows_apply h rw e _ n1 h1 hr)
    match b with
    | ⟨0, _⟩ => rfl
    | ⟨1, _⟩ => exact Nat.mod_eq_of_lt hk128
  · rw [if_neg hk128]
    refine (concatenate_pair_apply_right (t := S1048576x256) (s₁ := S1048576x128) (s₂ := S1048576x128)
      (1 : Fin S1048576x256.rank) _ _ _ (ix2 e k) rfl rfl
      (ix2 e (⟨k.val % 128, Nat.mod_lt _ (by norm_num)⟩ : Fin 128)) (fun b hb => ?_) ?_).trans
      (takeRows_apply h cl e _ n2 h2 hc)
    · match b, hb with
      | ⟨0, _⟩, _ => rfl
      | ⟨1, _⟩, hb => exact absurd rfl hb
    · show k.val % 128 + 128 = k.val
      omega

/-- The weight of edge slot e: exp (- leakyrelu score) on a valid slot, 0 on an invalid one. -/
theorem eweight_apply (s : FVec Ideal S1048576 .f32) (vl : IVec S1048576 1) (e : Fin M) :
    eweight (F := Ideal) s vl (ix1 e) = if vl (ix1 e) = 1#1 then Ideal.exp (-(lrelu (s (ix1 e)))) else 0 := by
  have hl : (select (cmpf .oge s (bE (F := Ideal) 0x00000000#32)) s (mulf (bE (F := Ideal) 0x3E4CCCCD#32) s)) (ix1 e)
      = lrelu (s (ix1 e)) := by
    rw [select_apply, cmpf_apply, Ideal.cmpf_def, mulf_apply, bE_apply, bE_apply, Ideal.ofBits_zero_f32]
    unfold lrelu alpha
    by_cases h0 : 0 ≤ s (ix1 e)
    · have hb : Ideal.cmp .oge (s (ix1 e)) 0 = 1#1 := by
        unfold Ideal.cmp
        simp [h0]
      rw [if_pos h0, hb, select_one]
    · have hb : Ideal.cmp .oge (s (ix1 e)) 0 = 0#1 := by
        unfold Ideal.cmp
        simp [h0]
      rw [if_neg h0, hb, select_zero]
  unfold eweight
  rw [select_apply, select_une_self, bE_apply, Ideal.ofBits_zero_f32, hostExpNeg_apply, hl]
  rfl

/-- Batch 0's slice of the input. -/
theorem x0_apply (X : FVec Ideal S2x1024x256 .f32) (j : Fin 1024) (k : Fin 256) :
    x0 (F := Ideal) X (ix2 j k) = X (ix3 (0 : Fin 2) j k) := by
  unfold x0
  refine (shapeCast_1ab_ab_apply _ _ j k).trans ?_
  refine extractStridedSlice_apply _ X _ _ (ix3 (0 : Fin 2) j k) fun a => ?_
  match a with
  | ⟨0, _⟩ => rfl
  | ⟨1, _⟩ => show j.val = 0 + j.val; omega
  | ⟨2, _⟩ => show k.val = 0 + k.val; omega

/-- Batch 1's slice of the input. -/
theorem x1_apply (X : FVec Ideal S2x1024x256 .f32) (j : Fin 1024) (k : Fin 256) :
    x1 (F := Ideal) X (ix2 j k) = X (ix3 (1 : Fin 2) j k) := by
  unfold x1
  refine (shapeCast_1ab_ab_apply _ _ j k).trans ?_
  refine extractStridedSlice_apply _ X _ _ (ix3 (1 : Fin 2) j k) fun a => ?_
  match a with
  | ⟨0, _⟩ => rfl
  | ⟨1, _⟩ => show j.val = 0 + j.val; omega
  | ⟨2, _⟩ => show k.val = 0 + k.val; omega

/-- The stacked result at (b, i, c) is batch b's layer at (i, c). -/
theorem out_apply (X : FVec Ideal S2x1024x256 .f32) (A : FVec Ideal S1024x1024 .f32) (W : FVec Ideal S256x128 .f32) (a : FVec Ideal S1x256 .f32)
    (b : Fin 2) (i : Fin 1024) (c : Fin 128) :
    RefTerm.out (F := Ideal) X A W a (ix3 b i c)
      = layer (F := Ideal) (if b = 0 then x0 X else x1 X) (rows A) (cols A) (valid A) W a (ix2 i c) := by
  unfold RefTerm.out
  match b with
  | ⟨0, hb⟩ =>
    rw [if_pos (show (⟨0, hb⟩ : Fin 2) = 0 from rfl)]
    refine (concatenate_pair_apply_left (t := S2x1024x128) (s₁ := S1x1024x128) (s₂ := S1x1024x128)
      (0 : Fin S2x1024x128.rank) _ _ _ (ix3 (⟨0, hb⟩ : Fin 2) i c) rfl
      (ix3 (0 : Fin 1) i c) (fun d => ?_)).trans (lead_apply _ _ i c)
    match d with
    | ⟨0, _⟩ => rfl
    | ⟨1, _⟩ => rfl
    | ⟨2, _⟩ => rfl
  | ⟨1, hb⟩ =>
    rw [if_neg (fun h : (⟨1, hb⟩ : Fin 2) = 0 => absurd (congrArg Fin.val h) Nat.one_ne_zero)]
    refine (concatenate_pair_apply_right (t := S2x1024x128) (s₁ := S1x1024x128) (s₂ := S1x1024x128)
      (0 : Fin S2x1024x128.rank) _ _ _ (ix3 (⟨1, hb⟩ : Fin 2) i c) rfl rfl
      (ix3 (0 : Fin 1) i c) (fun d hd => ?_) ?_).trans (lead_apply _ _ i c)
    · match d, hd with
      | ⟨0, _⟩, hd => exact absurd rfl hd
      | ⟨1, _⟩, _ => rfl
      | ⟨2, _⟩, _ => rfl
    · rfl

end Cert.ReferenceIdeal.RefStages

end
-- ==== Proof.RefValue.lean ====
/-
  The reference's result over the extended reals is G.
-/
import proofs.«106906_g31842887532864_cont_sun_m_711_10_alg».proof.Proof.RefTerm
import proofs.«106906_g31842887532864_cont_sun_m_711_10_alg».proof.Proof.Spec
import proofs.«106906_g31842887532864_cont_sun_m_711_10_alg».proof.Proof.NzSpec
import proofs.«106906_g31842887532864_cont_sun_m_711_10_alg».proof.Proof.NzWords
import proofs.«106906_g31842887532864_cont_sun_m_711_10_alg».proof.Proof.LibGatherScatter
import proofs.«106906_g31842887532864_cont_sun_m_711_10_alg».proof.Proof.RefStages
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.RefTerm Cert.ReferenceIdeal.NzWords Cert.ReferenceIdeal.RefStages Cert.Gat Cert.Gat.Nz Idealize.ShloMosaic Idealize.ShloMosaic.ValueIdx

variable [Facts]
open Facts₀ Facts

/-! ## Words, bits and constants -/

/-- The float pattern of one denotes 1. -/
private theorem ofBits_one : Ideal.ofBits .f32 0x3F800000#32 = 1 := by
  have h : Ideal.ofBits .f32 0x3F800000#32 = ((1 : ℝ) : EReal) := by
    simp [Ideal.ofBits, Ideal.ieee, -EReal.coe_mul]
    norm_num
  rw [h]
  exact EReal.coe_one

/-- A number below 1024, as a 32-bit word read signed, is itself. -/
private theorem toInt_ofNat_small (n : Nat) (hn : n < 1024) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

/-- The one-bit word of a decided proposition is 1 exactly when the proposition holds. -/
private theorem ofBool_decide_eq_one (p : Prop) [Decidable p] : BitVec.ofBool (decide p) = 1#1 ↔ p := by
  by_cases h : p <;> simp [h]

/-- The replacement of a not-a-number never fires: no extended real differs from itself. -/
private theorem select_une_self (g z : EReal) :
    Scalar.select (FloatOps.cmpf (F := Ideal) (φ := .f32) .une g g) z g = g := by
  rw [Ideal.cmpf_def]
  simp [Ideal.cmp, Scalar.select]

/-- The choice "greater than zero" between two values. -/
private theorem select_ogt_zero (q u v : EReal) :
    Scalar.select (FloatOps.cmpf (F := Ideal) (φ := .f32) .ogt q 0) u v = if 0 < q then u else v := by
  rw [Ideal.cmpf_def]
  by_cases h : 0 < q <;> simp [Ideal.cmp, Scalar.select, h]

/-- The choice "differs from zero" between two values. -/
private theorem select_une_zero (s u v : EReal) :
    Scalar.select (FloatOps.cmpf (F := Ideal) (φ := .f32) .une s 0) u v = if s ≠ 0 then u else v := by
  rw [Ideal.cmpf_def]
  by_cases h : s = 0 <;> simp [Ideal.cmp, Scalar.select, h]

/-! ## Broadcasts read at an index -/

/-- A vector as a one-column table, read at a row. -/
private theorem col_apply (r : IVec S1048576 32) (e : Fin M) (z : Fin 1) : col r (ix2 e z) = r (ix1 e) := by
  unfold col
  exact broadcastInDim_apply _ _ _ _ (ix1 e) (fun a => match a with | ⟨0, _⟩ => rfl)

/-- A vector of floats as a one-column table, read at a row. -/
private theorem colF_apply (w : FVec Ideal S1048576 .f32) (e : Fin M) (z : Fin 1) :
    broadcastInDim S1048576x1 ![0] bcast_S1048576_S1048576x1_0 w (ix2 e z) = w (ix1 e) :=
  broadcastInDim_apply _ _ _ _ (ix1 e) (fun a => match a with | ⟨0, _⟩ => rfl)

/-- A one-column table spread over 128 columns, read at an entry. -/
private theorem spreadE_apply (w : FVec Ideal S1048576x1 .f32) (e : Fin M) (c : Fin 128) :
    broadcastInDim S1048576x128 ![0, 1] bcast_S1048576x1_S1048576x128_0_1 w (ix2 e c) = w (ix2 e (0 : Fin 1)) :=
  broadcastInDim_apply _ _ _ _ (ix2 e (0 : Fin 1)) (fun a => match a with | ⟨0, _⟩ => rfl | ⟨1, _⟩ => rfl)

/-- A per-node column spread over 128 columns, read at an entry. -/
private theorem spreadN_apply (w : FVec Ideal S1024x1 .f32) (i : Fin 1024) (c : Fin 128) :
    broadcastInDim S1024x128 ![0, 1] bcast_S1024x1_S1024x128_0_1 w (ix2 i c) = w (ix2 i (0 : Fin 1)) :=
  broadcastInDim_apply _ _ _ _ (ix2 i (0 : Fin 1)) (fun a => match a with | ⟨0, _⟩ => rfl | ⟨1, _⟩ => rfl)

/-- A per-node vector as a column, read at a row. -/
private theorem colN_apply (w : FVec Ideal S1024 .f32) (i : Fin 1024) (z : Fin 1) :
    broadcastInDim S1024x1 ![0] bcast_S1024_S1024x1_0 w (ix2 i z) = w (ix1 i) :=
  broadcastInDim_apply _ _ _ _ (ix1 i) (fun a => match a with | ⟨0, _⟩ => rfl)

/-! ## Constants read at an index -/

private theorem bNF_apply (p : BitVec 32) (j : S1024x128.Idx) : bNF (F := Ideal) p j = Ideal.ofBits .f32 p := rfl

private theorem bN1_apply (p : BitVec 32) (j : S1024x1.Idx) : bN1 (F := Ideal) p j = Ideal.ofBits .f32 p := rfl

private theorem bN_apply (p : BitVec 32) (j : S1024.Idx) :
    broadcastInDim S1024 ![] bcast_S_S1024 (constant (F := Ideal) S_ .f32 p) j = Ideal.ofBits .f32 p := rfl

/-! ## The two scatter-adds read at an index -/

/-- The weights summed per row node: entry i is the sum of the weights of the edge slots whose row is i. -/
private theorem rowscatter_apply (w : FVec Ideal S1048576 .f32) (rw : IVec S1048576 32) (r : Fin M → Nat)
    (hr : ∀ e, r e < 1024) (hrw : ∀ e : Fin M, rw (ix1 e) = BitVec.ofNat 32 (r e)) (i : Fin 1024) :
    Host.scatterAdd (F := Ideal) scatter_S1024_S1048576x1_S1048576_n_0_0_1
        (broadcastInDim S1024 ![] bcast_S_S1024 (constant (F := Ideal) S_ .f32 0x00000000#32)) (col rw) w (ix1 i)
      = ∑ e ∈ Finset.univ.filter (fun e : Fin M => r e = i.val), w (ix1 e) := by
  rw [Host.scatterAdd, Ideal.hostScatterAdd_def]
  rw [Cert.LibGS.scatterAdd_vec_gen (N := 1024) (n := 1048576) scatter_S1024_S1048576x1_S1048576_n_0_0_1 rfl rfl rfl]
  rw [bN_apply, Ideal.ofBits_zero_f32, zero_add]
  refine Finset.sum_congr (Finset.filter_congr fun e _ => ?_) fun _ _ => rfl
  rw [col_apply, hrw, toInt_ofNat_small _ (hr e)]
  exact Int.natCast_inj

/-- The weighted features summed per row node: entry (i, c) is the sum, over the edge slots whose row is i, of the
    slot's weight times feature c of the slot's column node. -/
private theorem eagg_apply (h : FVec Ideal S1024x128 .f32) (w : FVec Ideal S1048576 .f32) (rw cl : IVec S1048576 32)
    (r cN : Fin M → Nat) (hr : ∀ e, r e < 1024) (hc : ∀ e, cN e < 1024)
    (hrw : ∀ e : Fin M, rw (ix1 e) = BitVec.ofNat 32 (r e)) (hcl : ∀ e : Fin M, cl (ix1 e) = BitVec.ofNat 32 (cN e))
    (i : Fin 1024) (c : Fin 128) :
    eagg (F := Ideal) h w rw cl (ix2 i c)
      = ∑ e ∈ Finset.univ.filter (fun e : Fin M => r e = i.val), w (ix1 e) * h (ix2 (⟨cN e, hc e⟩ : Fin 1024) c) := by
  rw [eagg, Host.scatterAdd, Ideal.hostScatterAdd_def]
  rw [Cert.LibGS.scatterAdd_rows_gen (N := 1024) (n := 1048576) (C := 128)
    scatter_S1024x128_S1048576x1_S1048576x128_1_0_0_1 rfl rfl rfl rfl]
  rw [bNF_apply, Ideal.ofBits_zero_f32, zero_add]
  refine Finset.sum_congr (Finset.filter_congr fun e _ => ?_) fun e _ => ?_
  · rw [col_apply, hrw, toInt_ofNat_small _ (hr e)]
    exact Int.natCast_inj
  · rw [mulf_apply, spreadE_apply, colF_apply, takeRows_apply h cl e c (cN e) (hc e) (hcl e)]

/-- A per-node vector as a column with 1 in place of 0, read at a row. -/
private theorem nzOrOne_apply (sc : FVec Ideal S1024 .f32) (i : Fin 1024) (z : Fin 1) :
    (let s := broadcastInDim S1024x1 ![0] bcast_S1024_S1024x1_0 sc
     select (cmpf .une s (bN1 (F := Ideal) 0x00000000#32)) s (bN1 (F := Ideal) 0x3F800000#32)) (ix2 i z)
      = if sc (ix1 i) ≠ 0 then sc (ix1 i) else 1 := by
  simp only [select_apply, cmpf_apply]
  rw [colN_apply, bN1_apply, bN1_apply, Ideal.ofBits_zero_f32, ofBits_one, select_une_zero]

/-- The per-node weight sum as a column, 1 in place of 0. -/
private theorem erowsum_apply (w : FVec Ideal S1048576 .f32) (rw : IVec S1048576 32) (r : Fin M → Nat)
    (hr : ∀ e, r e < 1024) (hrw : ∀ e : Fin M, rw (ix1 e) = BitVec.ofNat 32 (r e)) (i : Fin 1024) (z : Fin 1) :
    erowsum (F := Ideal) w rw (ix2 i z)
      = if (∑ e ∈ Finset.univ.filter (fun e : Fin M => r e = i.val), w (ix1 e)) ≠ 0
        then (∑ e ∈ Finset.univ.filter (fun e : Fin M => r e = i.val), w (ix1 e)) else 1 := by
  refine (nzOrOne_apply (Host.scatterAdd (F := Ideal) scatter_S1024_S1048576x1_S1048576_n_0_0_1
      (broadcastInDim S1024 ![] bcast_S_S1024 (constant (F := Ideal) S_ .f32 0x00000000#32)) (col rw) w) i z).trans ?_
  rw [rowscatter_apply w rw r hr hrw i]

/-! ## The tail of a layer: quotient, then elu -/

private theorem hostDivf_apply (u v : FVec Ideal S1024x128 .f32) (j : S1024x128.Idx) :
    Host.divf u v j = Ideal.div (u j) (v j) := rfl

private theorem hostExpm1_apply (u : FVec Ideal S1024x128 .f32) (j : S1024x128.Idx) :
    Host.expm1 u j = Ideal.exp (u j) - 1 := rfl

/-- From the weighted sums g and the column rs of weight sums: elu of the quotient (the two replacements of a
    not-a-number never fire). -/
private theorem tail_apply (g : FVec Ideal S1024x128 .f32) (rs : FVec Ideal S1024x1 .f32) (i : Fin 1024) (c : Fin 128) :
    (let g' := select (cmpf .une g g) (bNF (F := Ideal) 0x00000000#32) g
     let q := Host.divf g' (broadcastInDim S1024x128 ![0, 1] bcast_S1024x1_S1024x128_0_1 rs)
     let q' := select (cmpf .une q q) (bNF (F := Ideal) 0x00000000#32) q
     select (cmpf .ogt q' (bNF (F := Ideal) 0x00000000#32)) q' (Host.expm1 q')) (ix2 i c)
      = elu (Ideal.div (g (ix2 i c)) (rs (ix2 i (0 : Fin 1)))) := by
  simp only [select_apply, cmpf_apply, hostDivf_apply, hostExpm1_apply, select_une_self]
  rw [spreadN_apply, bNF_apply, Ideal.ofBits_zero_f32, select_ogt_zero, elu]

/-! ## One batch's layer is the spec's -/

section Batch
variable (X : FVec Ideal S2x1024x256 .f32) (A : FVec Ideal S1024x1024 .f32) (W : FVec Ideal S256x128 .f32)
  (a : FVec Ideal S1x256 .f32) (b : Fin 2) (x : FVec Ideal S1024x256 .f32)

/-- The projected features of a batch's slice are the spec's. -/
private theorem hfeat_feat (hx : ∀ j k, x (ix2 j k) = X (ix3 b j k)) (j : Fin 1024) (c : Fin 128) :
    hfeat (F := Ideal) x W (ix2 j c) = feat X W b j c := by
  rw [hfeat_apply, feat]
  exact Finset.sum_congr rfl fun k _ => by rw [hx]

/-- The mark of a flat position that is the pair (i, j)'s says the adjacency entry is not zero. -/
private theorem mkOf_pair (i j : Fin 1024) (p : Fin M) (hp : p.val = i.val * 1024 + j.val) :
    mkOf A p = true ↔ A (ix2 i j) ≠ 0 := by
  have key : ∀ (n m : Nat) (p1 : n < 1024) (p2 : m < 1024), n = i.val → m = j.val →
      A (ix2 (⟨n, p1⟩ : Fin 1024) (⟨m, p2⟩ : Fin 1024)) = A (ix2 i j) := by
    intro n m p1 p2 hn hm
    subst hn hm
    rfl
  have hi : p.val / 1024 = i.val := by have := j.isLt; omega
  have hj : p.val % 1024 = j.val := by have := j.isLt; omega
  unfold mkOf
  rw [decide_eq_true_iff, key _ _ _ _ hi hj]

/-- The weight of an edge slot: the spec's weight of its (row, column) pair on a valid slot, 0 on an invalid one. -/
private theorem weight_at_slot (hx : ∀ j k, x (ix2 j k) = X (ix3 b j k)) (e : Fin M) :
    eweight (F := Ideal) (escore (F := Ideal) (hfeat (F := Ideal) x W) (rows (F := Ideal) A) (cols (F := Ideal) A) a)
        (valid (F := Ideal) A) (ix1 e)
      = if e.val < countN (mkOf A) then
          weight X W a b ⟨rowN (mkOf A) e, rowN_lt (mkOf A) e⟩ ⟨colN (mkOf A) e, colN_lt (mkOf A) e⟩ else 0 := by
  rw [eweight_apply, valid_word,
    escore_apply _ _ _ a e _ _ (rowN_lt (mkOf A) e) (colN_lt (mkOf A) e) (rows_word A e) (cols_word A e)]
  refine if_congr (ofBool_decide_eq_one _) ?_ rfl
  rw [weight, score]
  refine congrArg (fun t => Ideal.exp (-(lrelu t))) (Finset.sum_congr rfl fun k _ => ?_)
  rw [pairFeat, hfeat_feat X W b x hx, hfeat_feat X W b x hx]

/-- The weights of the slots of row i add up to the spec's weight sum of row i. -/
private theorem rowsum_slots (hx : ∀ j k, x (ix2 j k) = X (ix3 b j k)) (i : Fin 1024) :
    (∑ e ∈ Finset.univ.filter (fun e : Fin M => rowN (mkOf A) e = i.val),
        eweight (F := Ideal) (escore (F := Ideal) (hfeat (F := Ideal) x W) (rows (F := Ideal) A) (cols (F := Ideal) A) a)
          (valid (F := Ideal) A) (ix1 e))
      = rowsum X A W a b i := by
  refine ((Finset.sum_congr rfl fun e _ => weight_at_slot X A W a b x hx e).trans
    (edge_sum (mkOf A) (weight X W a b) i)).trans ?_
  rw [rowsum]
  refine Finset.sum_congr rfl fun j _ => ?_
  rw [edgeW]
  exact if_congr (mkOf_pair A i j _ rfl) rfl rfl

/-- The weighted features of the slots of row i add up to the spec's weighted sum of row i. -/
private theorem agg_slots (hx : ∀ j k, x (ix2 j k) = X (ix3 b j k)) (i : Fin 1024) (c : Fin 128) :
    (∑ e ∈ Finset.univ.filter (fun e : Fin M => rowN (mkOf A) e = i.val),
        eweight (F := Ideal) (escore (F := Ideal) (hfeat (F := Ideal) x W) (rows (F := Ideal) A) (cols (F := Ideal) A) a)
          (valid (F := Ideal) A) (ix1 e)
        * hfeat (F := Ideal) x W (ix2 (⟨colN (mkOf A) e, colN_lt (mkOf A) e⟩ : Fin 1024) c))
      = agg X A W a b i c := by
  have h1 : ∀ e : Fin M,
      eweight (F := Ideal) (escore (F := Ideal) (hfeat (F := Ideal) x W) (rows (F := Ideal) A) (cols (F := Ideal) A) a)
          (valid (F := Ideal) A) (ix1 e)
        * hfeat (F := Ideal) x W (ix2 (⟨colN (mkOf A) e, colN_lt (mkOf A) e⟩ : Fin 1024) c)
      = if e.val < countN (mkOf A) then
          weight X W a b ⟨rowN (mkOf A) e, rowN_lt (mkOf A) e⟩ ⟨colN (mkOf A) e, colN_lt (mkOf A) e⟩
            * feat X W b ⟨colN (mkOf A) e, colN_lt (mkOf A) e⟩ c
        else 0 := by
    intro e
    rw [weight_at_slot X A W a b x hx e, hfeat_feat X W b x hx, ite_mul, zero_mul]
  refine ((Finset.sum_congr rfl fun e _ => h1 e).trans
    (edge_sum (mkOf A) (fun i j => weight X W a b i j * feat X W b j c) i)).trans ?_
  rw [agg]
  refine Finset.sum_congr rfl fun j _ => ?_
  rw [edgeW, ite_mul, zero_mul]
  exact if_congr (mkOf_pair A i j _ rfl) rfl rfl

/-- ONE BATCH'S LAYER at (i, c) is elu of the spec's weighted mean. -/
private theorem layer_apply (hx : ∀ j k, x (ix2 j k) = X (ix3 b j k)) (i : Fin 1024) (c : Fin 128) :
    layer (F := Ideal) x (rows (F := Ideal) A) (cols (F := Ideal) A) (valid (F := Ideal) A) W a (ix2 i c)
      = elu (Cert.Gat.norm X A W a b i c) := by
  have hag := (eagg_apply (hfeat (F := Ideal) x W)
    (eweight (F := Ideal) (escore (F := Ideal) (hfeat (F := Ideal) x W) (rows (F := Ideal) A) (cols (F := Ideal) A) a)
      (valid (F := Ideal) A))
    (rows (F := Ideal) A) (cols (F := Ideal) A) (rowN (mkOf A)) (colN (mkOf A)) (rowN_lt (mkOf A)) (colN_lt (mkOf A))
    (rows_word A) (cols_word A) i c).trans (agg_slots X A W a b x hx i c)
  have hrs := erowsum_apply
    (eweight (F := Ideal) (escore (F := Ideal) (hfeat (F := Ideal) x W) (rows (F := Ideal) A) (cols (F := Ideal) A) a)
      (valid (F := Ideal) A))
    (rows (F := Ideal) A) (rowN (mkOf A)) (rowN_lt (mkOf A)) (rows_word A) i (0 : Fin 1)
  rw [rowsum_slots X A W a b x hx i] at hrs
  refine (tail_apply
    (eagg (F := Ideal) (hfeat (F := Ideal) x W)
      (eweight (F := Ideal) (escore (F := Ideal) (hfeat (F := Ideal) x W) (rows (F := Ideal) A) (cols (F := Ideal) A) a)
        (valid (F := Ideal) A))
      (rows (F := Ideal) A) (cols (F := Ideal) A))
    (erowsum (F := Ideal)
      (eweight (F := Ideal) (escore (F := Ideal) (hfeat (F := Ideal) x W) (rows (F := Ideal) A) (cols (F := Ideal) A) a)
        (valid (F := Ideal) A))
      (rows (F := Ideal) A)) i c).trans ?_
  rw [hag, hrs, Cert.Gat.norm]

end Batch

/-- The reference's result, read over the extended reals, is G of its arguments. -/
theorem out_eq_G (X : FVec Ideal S2x1024x256 .f32) (A : FVec Ideal S1024x1024 .f32) (W : FVec Ideal S256x128 .f32) (a : FVec Ideal S1x256 .f32) :
    RefTerm.out (F := Ideal) X A W a = G X A W a := by
  funext idx
  obtain ⟨b, i, c, rfl⟩ : ∃ (b : Fin 2) (i : Fin 1024) (c : Fin 128), idx = ix3 b i c :=
    ⟨idx 0, idx 1, idx 2, eq_ix3 idx⟩
  rw [out_apply]
  show _ = elu (Cert.Gat.norm X A W a b i c)
  by_cases hb : b = 0
  · subst hb
    rw [if_pos rfl]
    exact layer_apply X A W a 0 (x0 (F := Ideal) X) (fun j k => x0_apply X j k) i c
  · have hb1 : b = 1 := by
      apply Fin.ext
      have h2 := b.isLt
      have h3 : b.val ≠ 0 := fun h => hb (Fin.ext h)
      show b.val = 1
      omega
    subst hb1
    rw [if_neg hb]
    exact layer_apply X A W a 1 (x1 (F := Ideal) X) (fun j k => x1_apply X j k) i c

end Cert.ReferenceIdeal.RefValue

end
-- ==== Proof.lean ====
/-
  The five claims of this certificate.

  The blocked program and the reference both compute one graph-attention layer for two batches over a 1024-node graph
  (Proof/Spec.lean states it, `G`): features h = x · W, pair scores a · (h_i, h_j), weights exp (- leakyrelu score)
  on the pairs the adjacency matrix marks, the weighted mean of the neighbours' features per row, elu.
  The reference lists the marked pairs (a running count, a histogram of it and the histogram's running sum give the
  position of the e-th mark), gathers per listed pair, and adds per row by scatter; the blocked program keeps the
  adjacency matrix dense, takes its entry as a factor, and splits the score into a row part and a column part.
  The two agree when the entry of the adjacency matrix is its own mark, that is 0 or 1 — the precondition says so —
  and the features are finite, so that the negated split score is the score negated.

  frame_Kernel, frame_KernelIdeal: the generated frame certificates. frame_ReferenceIdeal: the reference's run with the
  result dropped. preserves: the idealization rewrote nothing. algebraic: the blocked program's run ends at KOut of the
  arguments (Proof/KBlocks.lean), KOut is G under the precondition (Proof/PreDecode.lean, Proof/Algebra.lean); the
  reference's run ends at its own pure term (Proof/RefRun.lean), which is G for every argument (Proof/RefValue.lean).
-/
import proofs.«106906_g31842887532864_cont_sun_m_711_10_alg».proof.Defs
import proofs.«106906_g31842887532864_cont_sun_m_711_10_alg».proof.Proof.Gen.Kernel
import proofs.«106906_g31842887532864_cont_sun_m_711_10_alg».proof.Proof.Gen.Kernel.Skeleton
import proofs.«106906_g31842887532864_cont_sun_m_711_10_alg».proof.Proof.Gen.Kernel.Launch
import proofs.«106906_g31842887532864_cont_sun_m_711_10_alg».proof.Proof.Gen.Kernel.Points
import proofs.«106906_g31842887532864_cont_sun_m_711_10_alg».proof.Proof.Gen.Kernel.Frame
import proofs.«106906_g31842887532864_cont_sun_m_711_10_alg».proof.Proof.Gen.KernelIdeal
import proofs.«106906_g31842887532864_cont_sun_m_711_10_alg».proof.Proof.Gen.KernelIdeal.Skeleton
import proofs.«106906_g31842887532864_cont_sun_m_711_10_alg».proof.Proof.Gen.KernelIdeal.Launch
import proofs.«106906_g31842887532864_cont_sun_m_711_10_alg».proof.Proof.Gen.KernelIdeal.Points
import proofs.«106906_g31842887532864_cont_sun_m_711_10_alg».proof.Proof.Gen.KernelIdeal.Frame
import proofs.«106906_g31842887532864_cont_sun_m_711_10_alg».proof.Proof.Gen.KernelIdeal.Value
import proofs.«106906_g31842887532864_cont_sun_m_711_10_alg».proof.Proof.Gen.ReferenceIdeal
import proofs.«106906_g31842887532864_cont_sun_m_711_10_alg».proof.Proof.Gen.Pre_finite_inputs
import proofs.«106906_g31842887532864_cont_sun_m_711_10_alg».proof.Proof.KBlocks
import proofs.«106906_g31842887532864_cont_sun_m_711_10_alg».proof.Proof.Algebra
import proofs.«106906_g31842887532864_cont_sun_m_711_10_alg».proof.Proof.PreDecode
import proofs.«106906_g31842887532864_cont_sun_m_711_10_alg».proof.Proof.RefRun
import proofs.«106906_g31842887532864_cont_sun_m_711_10_alg».proof.Proof.RefValue
import Idealize.ShloMosaic.Adequacy
import Idealize.ShloMosaic.Init

noncomputable section

namespace Cert.Proof

open Idealize.ShloMosaic Idealize.SL.Sem

/-- The blocked program at the word level runs and keeps its arguments. -/
theorem frame_k : Cert.frame_Kernel := fun m ρ _ => Cert.Kernel.Gen.frame m ρ

/-- The blocked program over the extended reals runs and keeps its arguments. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.ref_run (F := Ideal) m ρ)

/-- From memories agreeing on the four arguments, both programs end at G of the arguments. -/
theorem algebraic : Cert.algebraic_KernelIdeal_ReferenceIdeal := by
  intro m ρ m' ρ' hpre hagree
  refine ⟨fun c => Cert.Gat.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.KBlocks.kernel_run m ρ)
    obtain ⟨hX, hW, ha, hA⟩ := Cert.Gat.PreDecode.pre_facts _ _ _ _ (hpre c)
    exact Cert.Gat.kout_eq_G _ _ _ _ hX hW ha hA
  · refine (θ_run Cert.ReferenceIdeal.defs _ _).mono (fun r h c => ⟨(h c).1.trans ?_, (h c).2⟩)
      (Cert.ReferenceIdeal.RefRun.ref_run (F := Ideal) m' ρ')
    rw [(hagree c).1, (hagree c).2.1, (hagree c).2.2.1, (hagree c).2.2.2]
    exact Cert.ReferenceIdeal.RefValue.out_eq_G _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
